-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S256x256 : Shape := ⟨2, ![256, 256]⟩
abbrev S1x256 : Shape := ⟨2, ![1, 256]⟩
abbrev S2 : Shape := ⟨1, ![2]⟩
abbrev S_ : Shape := ⟨0, ![]⟩
abbrev S1 : Shape := ⟨1, ![1]⟩
abbrev S254x256 : Shape := ⟨2, ![254, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v6 : BitVec 32 := Scalar.extui v3
  let c0_i32_0 : BitVec 32 := 0#32
  let v7 : BitVec 1 := Scalar.cmpi .ne v6 c0_i32_0
  v7

def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  let v77 : BitVec 32 := Scalar.subi v2 c1_i32_43
  let c1_i32_45 : BitVec 32 := 1#32
  let v78 : BitVec 32 := Scalar.muli v77 c1_i32_45
  let v79 : BitVec 32 := Scalar.addi c0_i32_46 v78
  v79.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v11 : BitVec 32 := Scalar.extui v4
  let c0_i32_2 : BitVec 32 := 0#32
  let v12 : BitVec 1 := Scalar.cmpi .ne v11 c0_i32_2
  v12

def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  let v77 : BitVec 32 := Scalar.addi v2 c1_i32_43
  let c1_i32_45 : BitVec 32 := 1#32
  let v78 : BitVec 32 := Scalar.muli v77 c1_i32_45
  let v79 : BitVec 32 := Scalar.addi c0_i32_46 v78
  v79.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v16 : BitVec 32 := Scalar.extui v4
  let c0_i32_6 : BitVec 32 := 0#32
  let v17 : BitVec 1 := Scalar.cmpi .ne v16 c0_i32_6
  v17

def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  let v77 : BitVec 32 := Scalar.addi v2 c1_i32_43
  let c1_i32_46 : BitVec 32 := 1#32
  let v78 : BitVec 32 := Scalar.muli v77 c1_i32_46
  let v79 : BitVec 32 := Scalar.addi c0_i32_47 v78
  v79.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v18 : BitVec 32 := Scalar.extui v3
  let c0_i32_7 : BitVec 32 := 0#32
  let v19 : BitVec 1 := Scalar.cmpi .ne v18 c0_i32_7
  v19

def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  let v77 : BitVec 32 := Scalar.subi v2 c1_i32_43
  let c1_i32_46 : BitVec 32 := 1#32
  let v78 : BitVec 32 := Scalar.muli v77 c1_i32_46
  let v79 : BitVec 32 := Scalar.addi c0_i32_47 v78
  v79.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S256x256_S1x256_255_0 : ∀ a, (![255, 0] : Fin 2 → Nat) a + S1x256.size a ≤ S256x256.size a
  inb_S2_S1_1 : ∀ a, (![1] : Fin 1 → Nat) a + S1.size a ≤ S2.size a
  inb_S256x256_S1x256_0_0 : ∀ a, (![0, 0] : Fin 2 → Nat) a + S1x256.size a ≤ S256x256.size a
  h_S1x256 : 0 < S1x256.numel
  shapeCasts_S1x256_S1x256 : S1x256.ShapeCasts S1x256
  inb_S256x256_S1x256_1_0 : ∀ a, (![1, 0] : Fin 2 → Nat) a + S1x256.size a ≤ S256x256.size a
  inb_S1x256_S1x256_0_0 : ∀ a, (![0, 0] : Fin 2 → Nat) a + S1x256.size a ≤ S1x256.size a
  inb_S256x256_S1x256_254_0 : ∀ a, (![254, 0] : Fin 2 → Nat) a + S1x256.size a ≤ S256x256.size a
  inb_S256x256_S254x256_0_0 : ∀ a, (![0, 0] : Fin 2 → Nat) a + S254x256.size a ≤ S256x256.size a
  h_S254x256 : 0 < S254x256.numel
  shapeCasts_S254x256_S254x256 : S254x256.ShapeCasts S254x256
  inb_S256x256_S254x256_1_0 : ∀ a, (![1, 0] : Fin 2 → Nat) a + S254x256.size a ≤ S256x256.size a
  inb_S256x256_S254x256_2_0 : ∀ a, (![2, 0] : Fin 2 → Nat) a + S254x256.size a ≤ S256x256.size a
  hcc0_scratch2 : 2 + S2.numel ≤ 6
  hcc0_scratch3 : 4 + S2.numel ≤ 6
  k0_dev1_lt : ∀ d0 : Dev nD, ∀ (k0_h1 : k0_cond1 d0 = 1#1), (k0_dev1 d0) < nD
  k0_dev2_lt : ∀ d0 : Dev nD, ∀ (k0_h3 : k0_cond3 d0 = 1#1), (k0_dev2 d0) < nD
  k0_dev3_lt : ∀ d0 : Dev nD, ∀ (k0_h5 : k0_cond5 d0 = 1#1), (k0_dev3 d0) < nD
  k0_dev4_lt : ∀ d0 : Dev nD, ∀ (k0_h6 : k0_cond6 d0 = 1#1), (k0_dev4 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x256 : Shape := ⟨2, ![1, 256]⟩
abbrev S256 : Shape := ⟨1, ![256]⟩
abbrev S_ : Shape := ⟨0, ![]⟩
abbrev S1 : Shape := ⟨1, ![1]⟩
abbrev S4094x256 : Shape := ⟨2, ![4094, 256]⟩

abbrev nBuf : Space → Nat
  | .hbm => 29
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S1x256, .f32⟩
  | .hbm, ⟨3, _⟩ => ⟨S256, .f32⟩
  | .hbm, ⟨4, _⟩ => ⟨S_, .i32⟩
  | .hbm, ⟨5, _⟩ => ⟨S1, .i32⟩
  | .hbm, ⟨6, _⟩ => ⟨S4096x256, .f32⟩
  | .hbm, ⟨7, _⟩ => ⟨S1x256, .f32⟩
  | .hbm, ⟨8, _⟩ => ⟨S256, .f32⟩
  | .hbm, ⟨9, _⟩ => ⟨S_, .i32⟩
  | .hbm, ⟨10, _⟩ => ⟨S1, .i32⟩
  | .hbm, ⟨11, _⟩ => ⟨S4096x256, .f32⟩
  | .hbm, ⟨12, _⟩ => ⟨S4094x256, .f32⟩
  | .hbm, ⟨13, _⟩ => ⟨S_, .f32⟩
  | .hbm, ⟨14, _⟩ => ⟨S4094x256, .f32⟩
  | .hbm, ⟨15, _⟩ => ⟨S4094x256, .f32⟩
  | .hbm, ⟨16, _⟩ => ⟨S4094x256, .f32⟩
  | .hbm, ⟨17, _⟩ => ⟨S_, .f32⟩
  | .hbm, ⟨18, _⟩ => ⟨S4094x256, .f32⟩
  | .hbm, ⟨19, _⟩ => ⟨S4094x256, .f32⟩
  | .hbm, ⟨20, _⟩ => ⟨S4094x256, .f32⟩
  | .hbm, ⟨21, _⟩ => ⟨S4094x256, .f32⟩
  | .hbm, ⟨22, _⟩ => ⟨S_, .f32⟩
  | .hbm, ⟨23, _⟩ => ⟨S4094x256, .f32⟩
  | .hbm, ⟨24, _⟩ => ⟨S4094x256, .f32⟩
  | .hbm, ⟨25, _⟩ => ⟨S4094x256, .f32⟩
  | .hbm, ⟨26, _⟩ => ⟨S_, .i32⟩
  | .hbm, ⟨27, _⟩ => ⟨S1, .i32⟩
  | .hbm, ⟨28, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S4096x256_S1x256_0_0 : S4096x256.Slices ![0, 0] S1x256
  shapeCasts_S1x256_S256 : S1x256.ShapeCasts S256
  bcast_S_S1 : S_.BroadcastsInDim S1 (![] : Fin 0 → Fin S1.rank)
  slices_S4096x256_S1x256_4095_0 : S4096x256.Slices ![4095, 0] S1x256
  slices_S4096x256_S4094x256_0_0 : S4096x256.Slices ![0, 0] S4094x256
  bcast_S_S4094x256 : S_.BroadcastsInDim S4094x256 (![] : Fin 0 → Fin S4094x256.rank)
  slices_S4096x256_S4094x256_1_0 : S4096x256.Slices ![1, 0] S4094x256
  slices_S4096x256_S4094x256_2_0 : S4096x256.Slices ![2, 0] S4094x256
  scatter_S4096x256_S1_S256_0_0_0_0_wf : ScatterDims.WF S4096x256 S1 S256 [0] [0] [0] 0
  scatter_S4096x256_S1_S4094x256_01_n_0_0_wf : ScatterDims.WF S4096x256 S1 S4094x256 [0, 1] [] [0] 0

variable [Facts₀]

def scatter_S4096x256_S1_S256_0_0_0_0 : ScatterDims S4096x256 S1 S256 where
  updateWindowDims := [0]
  insertedWindowDims := [0]
  scatterDimsToOperandDims := [0]
  indexVectorDim := 0
  wf := scatter_S4096x256_S1_S256_0_0_0_0_wf
def scatter_S4096x256_S1_S4094x256_01_n_0_0 : ScatterDims S4096x256 S1 S4094x256 where
  updateWindowDims := [0, 1]
  insertedWindowDims := []
  scatterDimsToOperandDims := [0]
  indexVectorDim := 0
  wf := scatter_S4096x256_S1_S4094x256_01_n_0_0_wf

class Facts : Prop extends Facts₀ where

variable [Facts]
-- ==== Proof.KDefs.lean ====
/-
  The kernel side's vocabulary, for any float instance.

  Sixteen devices stand in a line; device c holds rows 256c … 256c+255 of the array.  Device c has a
  neighbour before it when c > 0 and one after it when c < 15.  Each device sends its last row to the
  neighbour after it (which keeps it in its upper halo row) and its first row to the neighbour before it
  (which keeps it in its lower halo row); a device at an end of the line fills the halo row it is not sent
  by extrapolating its own two outermost rows.  The result block is then written in three pieces: rows
  1 … 254 from the block alone, row 0 with the upper halo row, row 255 with the lower halo row.
-/
import proofs.«900813_g7700000000000814_dist_halo_stencil_i_m256_n256_v7x_i16_f32_1_alg».proof.Proof.Gen.KernelIdeal
import proofs.«900813_g7700000000000814_dist_halo_stencil_i_m256_n256_v7x_i16_f32_1_alg».proof.Proof.Gen.KernelIdeal.Skeleton

noncomputable section

namespace Cert.KernelIdeal.Halo

open Cert.KernelIdeal Cert.KernelIdeal.Gen
open Idealize.ShloMosaic Idealize.ShloMosaic.TcCoe
open Idealize.SL Idealize.SL.Sem

variable {F : FTy → Type} [FloatOps F]

/-! ## The line of devices -/

/-- Device `c` has a neighbour before it; after it. -/
abbrev HasL (c : Dev nD) : Prop := 0 < c.val
abbrev HasR (c : Dev nD) : Prop := c.val < 15

/-- The neighbour before `c` (for `c = 0`: `0` itself, never used) and the one after it (for `c = 15`: `15`). -/
def lft (c : Dev nD) : Dev nD := ⟨c.val - 1, Nat.lt_of_le_of_lt (Nat.sub_le _ _) c.isLt⟩
def rgt (c : Dev nD) : Dev nD := ⟨min (c.val + 1) 15, Nat.lt_of_le_of_lt (Nat.min_le_right _ _) (by decide)⟩

theorem rgt_lft (c : Dev nD) (h : HasL c) : rgt (lft c) = c := by revert c; decide
theorem lft_rgt (c : Dev nD) (h : HasR c) : lft (rgt c) = c := by revert c; decide
theorem hasR_lft (c : Dev nD) (h : HasL c) : HasR (lft c) := by revert c; decide
theorem hasL_rgt (c : Dev nD) (h : HasR c) : HasL (rgt c) := by revert c; decide
theorem lft_ne (c : Dev nD) (h : HasL c) : lft c ≠ c := by revert c; decide
theorem rgt_ne (c : Dev nD) (h : HasR c) : rgt c ≠ c := by revert c; decide
theorem lft_ne_rgt (c : Dev nD) (hl : HasL c) (hr : HasR c) : lft c ≠ rgt c := by revert c; decide
theorem hasL_or_hasR (c : Dev nD) : HasL c ∨ HasR c := by revert c; decide
theorem lft_val (c : Dev nD) : (lft c).val = c.val - 1 := rfl
theorem rgt_val (c : Dev nD) (h : HasR c) : (rgt c).val = c.val + 1 := by revert c; decide
theorem lft_inj (a b : Dev nD) (ha : HasL a) (hb : HasL b) (h : lft a = lft b) : a = b := by revert a b; decide
theorem rgt_inj (a b : Dev nD) (ha : HasR a) (hb : HasR b) (h : rgt a = rgt b) : a = b := by revert a b; decide

/-! ## The printed conditions and device chains on the line -/

theorem cond1_iff (c : Dev nD) : k0_cond1 c = 1#1 ↔ HasL c := by revert c; decide +kernel
theorem cond3_iff (c : Dev nD) : k0_cond3 c = 1#1 ↔ HasR c := by revert c; decide +kernel
theorem cond5_iff (c : Dev nD) : k0_cond5 c = 1#1 ↔ HasR c := by revert c; decide +kernel
theorem cond6_iff (c : Dev nD) : k0_cond6 c = 1#1 ↔ HasL c := by revert c; decide +kernel

/-- The two signals and the two transfers address the neighbours. -/
theorem dev1_eq (c : Dev nD) (h : k0_cond1 c = 1#1) : (⟨k0_dev1 c, k0_dev1_lt c h⟩ : Dev nD) = lft c := by revert c; decide +kernel
theorem dev2_eq (c : Dev nD) (h : k0_cond3 c = 1#1) : (⟨k0_dev2 c, k0_dev2_lt c h⟩ : Dev nD) = rgt c := by revert c; decide +kernel
theorem dev3_eq (c : Dev nD) (h : k0_cond5 c = 1#1) : (⟨k0_dev3 c, k0_dev3_lt c h⟩ : Dev nD) = rgt c := by revert c; decide +kernel
theorem dev4_eq (c : Dev nD) (h : k0_cond6 c = 1#1) : (⟨k0_dev4 c, k0_dev4_lt c h⟩ : Dev nD) = lft c := by revert c; decide +kernel

/-- The two one-bit words the body branches on: "a neighbour before me", "a neighbour after me". -/
def wL (c : Dev nD) : BitVec 1 := Scalar.cmpi .sgt (Scalar.remsi (Scalar.divsi (Dev.word c) 1#32) 16#32) 0#32
def wR (c : Dev nD) : BitVec 1 := Scalar.cmpi .slt (Scalar.remsi (Scalar.divsi (Dev.word c) 1#32) 16#32) 15#32
theorem wL_eq (c : Dev nD) : wL c = if HasL c then 1#1 else 0#1 := by revert c; decide +kernel
theorem wR_eq (c : Dev nD) : wR c = if HasR c then 1#1 else 0#1 := by revert c; decide +kernel

/-! ## Memrefs and rectangles -/

abbrev xM : Memref sig .tc .vmem S256x256 .f32 := Memref.whole cc0_stg0_0
abbrev oM : Memref sig .tc .vmem S256x256 .f32 := Memref.whole cc0_stg1_0
abbrev upM : Memref sig .tc .vmem S1x256 .f32 := Memref.whole cc0_scratch0
abbrev dnM : Memref sig .tc .vmem S1x256 .f32 := Memref.whole cc0_scratch1

/-- One row of the block, at rows 0, 1, 254, 255; 254 rows from row 0, 1, 2; the halo buffers' one row. -/
abbrev r0 : Rect S256x256 := Rect.unit (s := S256x256) ![0, 0] S1x256.size inb_S256x256_S1x256_0_0
abbrev r1 : Rect S256x256 := Rect.unit (s := S256x256) ![1, 0] S1x256.size inb_S256x256_S1x256_1_0
abbrev r254 : Rect S256x256 := Rect.unit (s := S256x256) ![254, 0] S1x256.size inb_S256x256_S1x256_254_0
abbrev r255 : Rect S256x256 := Rect.unit (s := S256x256) ![255, 0] S1x256.size inb_S256x256_S1x256_255_0
abbrev q0 : Rect S256x256 := Rect.unit (s := S256x256) ![0, 0] S254x256.size inb_S256x256_S254x256_0_0
abbrev q1 : Rect S256x256 := Rect.unit (s := S256x256) ![1, 0] S254x256.size inb_S256x256_S254x256_1_0
abbrev q2 : Rect S256x256 := Rect.unit (s := S256x256) ![2, 0] S254x256.size inb_S256x256_S254x256_2_0
abbrev h0 : Rect S1x256 := Rect.unit (s := S1x256) ![0, 0] S1x256.size inb_S1x256_S1x256_0_0

/-- The block's last and first row as memrefs: the sources of the two transfers. -/
abbrev xBot : Memref sig .tc .vmem S1x256 .f32 := (xM : Memref sig .tc .vmem S256x256 .f32).slice r255 (fun _ => rfl)
abbrev xTop : Memref sig .tc .vmem S1x256 .f32 := (xM : Memref sig .tc .vmem S256x256 .f32).slice r0 (fun _ => rfl)

/-! ## Contents -/

variable (m : (ℓ : Loc nD τ sig) → Buf (Elt F) ℓ)

/-- Device `c`'s block as the kernel finds it staged: its argument array. -/
def xs (c : Dev nD) : (cc0_stg0_0 : Ref sig .tc).ty.Contents (Elt F) :=
  (win0_0.blk (0 : Fin 1)).view.read (Elt F) (m ((c : Thread nD τ).loc main_arg0))

/-- Rows of a staged block, as a load reads them. -/
def row (r : Rect S256x256) (x : (cc0_stg0_0 : Ref sig .tc).ty.Contents (Elt F)) :=
  (xM : Memref sig .tc .vmem S256x256 .f32).view.readAt (Elt F) r.toLoadRect x

/-- What a transfer carries: the source row read through the source memref's view. -/
def botRow (c : Dev nD) := (xBot : Memref sig .tc .vmem S1x256 .f32).view.read (Elt F) (xs m c)
def topRow (c : Dev nD) := (xTop : Memref sig .tc .vmem S1x256 .f32).view.read (Elt F) (xs m c)

/-- The upper halo buffer of device `c` once filled: the last row of the device before it, as the transfer lands it
    over whatever the buffer held (every element is overwritten), or at the line's start the extrapolation the
    device stores itself. -/
def upVal (c : Dev nD) (f : Buf (Elt F) ((upM : Memref sig .tc .vmem S1x256 .f32).view.loc (c : Thread nD τ))) :
    Buf (Elt F) ((upM : Memref sig .tc .vmem S1x256 .f32).view.loc (c : Thread nD τ)) :=
  if HasL c then (upM : Memref sig .tc .vmem S1x256 .f32).view.write (Elt F) f (botRow m (lft c)) Finset.univ
  else ((upM : Memref sig .tc .vmem S1x256 .f32).access h0 : View sig .tc _ _ _).write (Elt F) f
    (k0_pay2 (row r0 (xs m c)) (row r1 (xs m c))) Finset.univ

/-- The lower halo buffer of device `c` once filled: the first row of the device after it, or at the line's end
    the extrapolation. -/
def dnVal (c : Dev nD) (f : Buf (Elt F) ((dnM : Memref sig .tc .vmem S1x256 .f32).view.loc (c : Thread nD τ))) :
    Buf (Elt F) ((dnM : Memref sig .tc .vmem S1x256 .f32).view.loc (c : Thread nD τ)) :=
  if HasR c then (dnM : Memref sig .tc .vmem S1x256 .f32).view.write (Elt F) f (topRow m (rgt c)) Finset.univ
  else ((dnM : Memref sig .tc .vmem S1x256 .f32).access h0 : View sig .tc _ _ _).write (Elt F) f
    (k0_pay3 (row r255 (xs m c)) (row r254 (xs m c))) Finset.univ

/-- A halo buffer's one row as a load reads it. -/
def upLoad (u : (cc0_scratch0 : Ref sig .tc).ty.Contents (Elt F)) := (upM : Memref sig .tc .vmem S1x256 .f32).view.readAt (Elt F) h0.toLoadRect u
def dnLoad (u : (cc0_scratch1 : Ref sig .tc).ty.Contents (Elt F)) := (dnM : Memref sig .tc .vmem S1x256 .f32).view.readAt (Elt F) h0.toLoadRect u

/-- The three pieces the body stores: the 254 inner rows; row 0; row 255. -/
def midPiece (x : (cc0_stg0_0 : Ref sig .tc).ty.Contents (Elt F)) : FVec F S254x256 .f32 :=
  k0_pay6 (k0_pay4 ((xM : Memref sig .tc .vmem S256x256 .f32).view.readAt (Elt F) q0.toLoadRect x)) k0_pay5
    ((xM : Memref sig .tc .vmem S256x256 .f32).view.readAt (Elt F) q1.toLoadRect x)
    ((xM : Memref sig .tc .vmem S256x256 .f32).view.readAt (Elt F) q2.toLoadRect x)
def topPiece (x : (cc0_stg0_0 : Ref sig .tc).ty.Contents (Elt F)) (u : (cc0_scratch0 : Ref sig .tc).ty.Contents (Elt F)) : FVec F S1x256 .f32 :=
  k0_pay7 (upLoad u) (row r0 x) (row r1 x)
def botPiece (x : (cc0_stg0_0 : Ref sig .tc).ty.Contents (Elt F)) (d : (cc0_scratch1 : Ref sig .tc).ty.Contents (Elt F)) : FVec F S1x256 .f32 :=
  k0_pay1 (k0_pay8 (row r254 x)) (Scalar.ofBits .f32 0x3E800000#32) (row r255 x) (dnLoad d)

/-- The result buffer after the three stores, over what it held before. -/
def out3 (x : (cc0_stg0_0 : Ref sig .tc).ty.Contents (Elt F)) (u : (cc0_scratch0 : Ref sig .tc).ty.Contents (Elt F))
    (d : (cc0_scratch1 : Ref sig .tc).ty.Contents (Elt F)) (o : (cc0_stg1_0 : Ref sig .tc).ty.Contents (Elt F)) :
    (cc0_stg1_0 : Ref sig .tc).ty.Contents (Elt F) :=
  ((oM : Memref sig .tc .vmem S256x256 .f32).access r255 : View sig .tc _ _ _).write (Elt F)
    (((oM : Memref sig .tc .vmem S256x256 .f32).access r0 : View sig .tc _ _ _).write (Elt F)
      (((oM : Memref sig .tc .vmem S256x256 .f32).access q1 : View sig .tc _ _ _).write (Elt F) o (midPiece x) Finset.univ)
      (topPiece x u) Finset.univ)
    (botPiece x d) Finset.univ

/-- The result block of device `c`: the three pieces over its staged block and its two filled halo rows.  (The
    pieces overwrite every row of the result, and a filled halo row overwrites every element of its buffer, so what
    the three buffers held before does not matter: the block and its first row stand in for those contents.) -/
def outAt (c : Dev nD) : (cc0_stg1_0 : Ref sig .tc).ty.Contents (Elt F) :=
  out3 (xs m c) (upVal m c (topRow m c)) (dnVal m c (topRow m c)) (xs m c)

end Cert.KernelIdeal.Halo

end
-- ==== Proof.KProto.lean ====
/-
  The protocol of the halo exchange, for any float instance: which semaphore cells there are, who pays into
  each and what a payment hands the cell's owner, what each device owes when the kernel starts, in which
  order cells may be waited on, and what one device's body starts from and ends with.

  Every device owns five cells.  Its barrier cell is paid two units, one "from the side before it" and one
  "from the side after it": by the neighbour on that side where there is one, else by the device itself.  A
  neighbour's unit hands over that neighbour's halo buffer facing this device: that is what allows this
  device to send a row into it, and says the neighbour has entered the kernel.  The forward-send cell and the
  backward-send cell are paid when this device's own transfer has read its source row; what comes back is the
  share of the row that was lent.  The upper-halo cell is paid when the transfer from the device before has
  landed, and hands back the upper halo buffer holding that device's last row; the lower-halo cell likewise
  with the first row of the device after.  A device at an end of the line has no transfer on that side: those
  two cells have no duty at all.
-/
import proofs.«900813_g7700000000000814_dist_halo_stencil_i_m256_n256_v7x_i16_f32_1_alg».proof.Proof.KDefs
import proofs.«900813_g7700000000000814_dist_halo_stencil_i_m256_n256_v7x_i16_f32_1_alg».proof.Proof.Gen.KernelIdeal.Launch
import proofs.«900813_g7700000000000814_dist_halo_stencil_i_m256_n256_v7x_i16_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

/-- The runtime's barrier semaphore; the forward (last row, to the device after) and backward (first row, to
    the device before) transfers' send semaphores; the upper and lower halo buffers' receive semaphores. -/
abbrev barS : Sem sig := (SemArray.scalar (sig.barrier 0 rfl) : Sems sig S_).sem
abbrev fwdS : DmaSem sig := ((cc0_scratch2.slice (Rect.unit (s := S2) ![0] S1.size inb_S2_S1_0)).squeeze S_ squeezes_S1_S_).sem
abbrev bwdS : DmaSem sig := ((cc0_scratch2.slice (Rect.unit (s := S2) ![1] S1.size inb_S2_S1_1)).squeeze S_ squeezes_S1_S_).sem
abbrev upS : DmaSem sig := ((cc0_scratch3.slice (Rect.unit (s := S2) ![0] S1.size inb_S2_S1_0)).squeeze S_ squeezes_S1_S_).sem
abbrev dnS : DmaSem sig := ((cc0_scratch3.slice (Rect.unit (s := S2) ![1] S1.size inb_S2_S1_1)).squeeze S_ squeezes_S1_S_).sem

theorem fwdS_eq : fwdS = (2 : DmaSem sig) := by decide
theorem bwdS_eq : bwdS = (3 : DmaSem sig) := by decide
theorem upS_eq : upS = (4 : DmaSem sig) := by decide
theorem dnS_eq : dnS = (5 : DmaSem sig) := by decide

abbrev barCell (c : Dev nD) : GSem nD τ sig := ((c : Thread nD τ), .reg barS)
abbrev fwdCell (c : Dev nD) : GSem nD τ sig := ((c : Thread nD τ), .dma fwdS)
abbrev bwdCell (c : Dev nD) : GSem nD τ sig := ((c : Thread nD τ), .dma bwdS)
abbrev upCell (c : Dev nD) : GSem nD τ sig := ((c : Thread nD τ), .dma upS)
abbrev dnCell (c : Dev nD) : GSem nD τ sig := ((c : Thread nD τ), .dma dnS)

/-- The kernel's own (scoped) semaphores, as the launch indexes them; all five of a device's cells. -/
abbrev osem : Fin 4 → SemLoc sig := fun | 0 => .dma fwdS | 1 => .dma bwdS | 2 => .dma upS | 3 => .dma dnS
abbrev csem : Fin 5 → SemLoc sig := fun | 0 => .reg barS | 1 => .dma fwdS | 2 => .dma bwdS | 3 => .dma upS | 4 => .dma dnS
abbrev kcell (ck : Dev nD × Fin 5) : GSem nD τ sig := ((ck.1 : Thread nD τ), csem ck.2)

/-- The credit of one row's transfer. -/
abbrev N : ℕ := (upM : Memref sig .tc .vmem S1x256 .f32).view.dmaCredit
theorem N_pos : 0 < N := View.dmaCredit_pos _ (by decide)

/-! ## Points-to facts -/

/-- Device `c`'s upper / lower halo buffer, whole, at contents `f`. -/
def upPts (c : Dev nD) (f : Buf (Elt F) ((upM : Memref sig .tc .vmem S1x256 .f32).view.loc (c : Thread nD τ))) : sProp 𝕄 :=
  (upM : Memref sig .tc .vmem S1x256 .f32).view.loc (c : Thread nD τ) ↦[(upM : Memref sig .tc .vmem S1x256 .f32).view.set]{fullShare} f
def dnPts (c : Dev nD) (f : Buf (Elt F) ((dnM : Memref sig .tc .vmem S1x256 .f32).view.loc (c : Thread nD τ))) : sProp 𝕄 :=
  (dnM : Memref sig .tc .vmem S1x256 .f32).view.loc (c : Thread nD τ) ↦[(dnM : Memref sig .tc .vmem S1x256 .f32).view.set]{fullShare} f

/-- The share of a source row a transfer is lent while the body goes on reading the block with the other half. -/
abbrev lent : PosShare TreeShare := fullShare.left
abbrev kept : PosShare TreeShare := fullShare.right

/-- The lent half of device `c`'s last / first row of its staged block. -/
def botPts (c : Dev nD) : sProp 𝕄 :=
  (xBot : Memref sig .tc .vmem S1x256 .f32).view.loc (c : Thread nD τ) ↦[(xBot : Memref sig .tc .vmem S1x256 .f32).view.set]{lent} xs m c
def topPts (c : Dev nD) : sProp 𝕄 :=
  (xTop : Memref sig .tc .vmem S1x256 .f32).view.loc (c : Thread nD τ) ↦[(xTop : Memref sig .tc .vmem S1x256 .f32).view.set]{lent} xs m c

omit [FloatOps F] in
instance upPts_storable (c : Dev nD) (f) : BI.Storable (upEmb : UEmb _ 𝕄) (upPts (F := F) c f) := by unfold upPts; infer_instance
omit [FloatOps F] in
instance dnPts_storable (c : Dev nD) (f) : BI.Storable (upEmb : UEmb _ 𝕄) (dnPts (F := F) c f) := by unfold dnPts; infer_instance
omit [FloatOps F] in
instance botPts_storable (c : Dev nD) : BI.Storable (upEmb : UEmb _ 𝕄) (botPts (F := F) m c) := by unfold botPts; infer_instance
omit [FloatOps F] in
instance topPts_storable (c : Dev nD) : BI.Storable (upEmb : UEmb _ 𝕄) (topPts (F := F) m c) := by unfold topPts; infer_instance

/-! ## The schedule -/

/-- What the unit from the side before `c` hands `c`: the lower halo buffer of the device before it, and that
    that device stands at round 0 of its lower-halo cell; from the side after: the upper halo buffer of the device
    after it and its upper-halo cell at round 0.  A unit a device at an end pays itself hands over nothing. -/
def barPayL (c : Dev nD) : sProp 𝕄 := if HasL c then iprop((∃ f, dnPts (lft c) f) ∗ reached ER (dnCell (lft c)) 0) else iprop(emp)
def barPayR (c : Dev nD) : sProp 𝕄 := if HasR c then iprop((∃ f, upPts (rgt c) f) ∗ reached ER (upCell (rgt c)) 0) else iprop(emp)
/-- A landing hands the halo buffer back, every element overwritten by the row sent. -/
def upPay (c : Dev nD) : sProp 𝕄 := iprop(∃ f, upPts c (upVal m c f))
def dnPay (c : Dev nD) : sProp 𝕄 := iprop(∃ f, dnPts c (dnVal m c f))

abbrev IsBar (g : GSem nD τ sig) : Prop := g.1.2 = .tc ∧ g.2 = .reg barS
/-- A transfer cell with a duty: a send cell on a device with a neighbour on that side, a receive cell on a device
    with a neighbour on the other. -/
abbrev IsXfer (g : GSem nD τ sig) : Prop :=
  g.1.2 = .tc ∧ ((g.2 = .dma fwdS ∧ HasR g.1.1) ∨ (g.2 = .dma bwdS ∧ HasL g.1.1) ∨ (g.2 = .dma upS ∧ HasL g.1.1) ∨ (g.2 = .dma dnS ∧ HasR g.1.1))

/-- One round, round 0: a barrier cell has the duties `false` (the unit from the side before) and `true` (from the
    side after) of one unit each; a transfer cell with a neighbour to serve it the one duty `false` of a row's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayR g.1.1 else barPayL g.1.1)
    else if g.2 = .dma upS then upPay m g.1.1
    else if g.2 = .dma dnS then dnPay m g.1.1
    else if g.2 = .dma fwdS then botPts m g.1.1
    else if g.2 = .dma bwdS then topPts m g.1.1
    else iprop(emp)
  amount_pos g _ _ _ := by
    by_cases h : g.2 = .reg barS
    · rw [if_pos h]; exact Nat.one_pos
    · rw [if_neg h]; exact N_pos

/-! ## What each device owes at launch; the levels -/

/-- The barrier cell device `c`'s first / second signal pays: the neighbour's on that side, else its own. -/
def leftBar (c : Dev nD) : GSem nD τ sig := if HasL c then barCell (lft c) else barCell c
def rightBar (c : Dev nD) : GSem nD τ sig := if HasR c then barCell (rgt c) else barCell c

/-- The receive credits device `c` owes: the lower-halo cell of the device before it (its backward transfer), the
    upper-halo cell of the device after it (its forward transfer, issued first). -/
def owedXfer (c : Dev nD) : CellTallies nD τ sig Unit :=
  (if HasL c then tallyAt (dnCell (lft c)) () N else 0) + (if HasR c then tallyAt (upCell (rgt c)) () N else 0)
def O₁ (c : Dev nD) : CellTallies nD τ sig Unit := owedXfer c + tallyAt (rightBar c) () 1
def O₀ (c : Dev nD) : CellTallies nD τ sig Unit := O₁ c + tallyAt (leftBar c) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma upS ∨ g.2 = .dma dnS then 2 else 0

/-! ## The pipeline's proof data -/

/-- The invariants device `c`'s body opens, under the names `K` the launch allocated them at: its own five, and where
    it has a neighbour that neighbour's barrier cell and the halo cell it sends into. -/
def invs (K : Dev nD × Fin 5 → ℕ) (c : Dev nD) : sProp 𝕄 :=
  iprop(cellInv ER (sched m) (K (c, 0)) (barCell c) ∗ cellInv ER (sched m) (K (c, 1)) (fwdCell c) ∗ cellInv ER (sched m) (K (c, 2)) (bwdCell c)
    ∗ cellInv ER (sched m) (K (c, 3)) (upCell c) ∗ cellInv ER (sched m) (K (c, 4)) (dnCell c)
    ∗ cellInv ER (sched m) (K (lft c, 0)) (barCell (lft c)) ∗ cellInv ER (sched m) (K (rgt c, 0)) (barCell (rgt c))
    ∗ cellInv ER (sched m) (K (lft c, 4)) (dnCell (lft c)) ∗ cellInv ER (sched m) (K (rgt c, 3)) (upCell (rgt c)))

instance invs_persistent (K : Dev nD × Fin 5 → ℕ) (c : Dev nD) : BI.Persistent (invs m K c) := by unfold invs; infer_instance

/-- The duty tokens device `c` pays with: the two barrier units, and per neighbour its own send duty and that
    neighbour's halo cell's duty. -/
def payToks (c : Dev nD) : sProp 𝕄 :=
  iprop((if HasL c then dutyTok ER (barCell (lft c)) 0 true else dutyTok ER (barCell c) 0 false)
    ∗ (if HasR c then dutyTok ER (barCell (rgt c)) 0 false else dutyTok ER (barCell c) 0 true)
    ∗ (if HasR c then iprop(dutyTok ER (fwdCell c) 0 false ∗ dutyTok ER (upCell (rgt c)) 0 false) else iprop(emp))
    ∗ (if HasL c then iprop(dutyTok ER (bwdCell c) 0 false ∗ dutyTok ER (dnCell (lft c)) 0 false) else iprop(emp)))

/-- That round 0 of every cell device `c` touches is reached (persistent). -/
def reach (c : Dev nD) : sProp 𝕄 :=
  iprop(reached ER (barCell c) 0 ∗ reached ER (fwdCell c) 0 ∗ reached ER (bwdCell c) 0 ∗ reached ER (upCell c) 0 ∗ reached ER (dnCell c) 0
    ∗ reached ER (barCell (lft c)) 0 ∗ reached ER (barCell (rgt c)) 0 ∗ reached ER (dnCell (lft c)) 0 ∗ reached ER (upCell (rgt c)) 0)

instance reach_persistent (c : Dev nD) : BI.Persistent (reach (F := F) c) := by unfold reach; infer_instance

/-- The exchange's ghost state device `c` starts from: the invariants; its positions at round 0 of its five cells;
    the reached-marks; the duty tokens it pays with. -/
def ghost (K : Dev nD × Fin 5 → ℕ) (c : Dev nD) : sProp 𝕄 :=
  iprop(invs m K c
    ∗ (atPos ER (barCell c) 0 ∅ 0 ∗ atPos ER (fwdCell c) 0 ∅ 0 ∗ atPos ER (bwdCell c) 0 ∅ 0 ∗ atPos ER (upCell c) 0 ∅ 0 ∗ atPos ER (dnCell c) 0 ∅ 0)
    ∗ reach c ∗ payToks c)

/-- The credit tokens of the cells device `c` waits on: its barrier's two units, and a row's credit on each halo cell
    a neighbour fills. -/
def creds (c : Dev nD) : sProp 𝕄 :=
  iprop(cred (tallyAt (barCell c) () 2) ∗ (if HasL c then cred (tallyAt (upCell c) () N) else iprop(emp))
    ∗ (if HasR c then cred (tallyAt (dnCell c) () N) else iprop(emp)))

/-- What device `c`'s body starts from, beside its buffers. -/
def start (c : Dev nD) : sProp 𝕄 := iprop((∃ K, ghost m K c) ∗ creds c ∗ levAts L lv)

def Φ₀ (c : Dev nD) : sProp 𝕄 := iprop(start m c ∗ (∃ f, upPts c f) ∗ (∃ f, dnPts c f))
/-- After the body: the two halo buffers back at some contents, the four own cells at zero, closed. -/
def Φ₁ (c : Dev nD) : sProp 𝕄 :=
  iprop((∃ f, upPts c f) ∗ (∃ f, dnPts c f) ∗ semVal (fwdCell c) 0 ∗ semVal (bwdCell c) 0 ∗ semVal (upCell c) 0 ∗ semVal (dnCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m K c ∗ creds c ∗ levAts L lv ∗ (∃ f, upPts c f) ∗ (∃ f, dnPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m c) ∗ stg c cc0_stg1_0 (outAt m c))

/-- The body on the buffers the pipeline calls it with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-- The statement of one device's body lemma (proved per position on the line in the modules that import this one). -/
def SoundBody (c : Dev nD) : Prop :=
  ∀ (K : Dev nD × Fin 5 → ℕ) (Kt : PUnit → sProp 𝕄),
    iprop(bodyPre m ρ K c ∗ (bodyPost m ρ c -∗ Kt ⟨⟩)) ⊢ wp frame (wpE (defs₀ (F := F)) 𝒱₀ c none) Set.univ (theBody (F := F)) Kt

end Cert.KernelIdeal.Halo

end
-- ==== Proof.KLevels.lean ====
/-
  In which order cells may be waited on.  Staging and send cells stand at level 0, barrier cells at 1, halo
  (receive) cells at 2; a device waits on a cell only while everything it still owes stands strictly higher.
  At launch a device owes barrier units (level 1) and halo credits (level 2): it may wait on its staging
  cells (level 0).  At its barrier wait (level 1) it owes only halo credits (level 2).  At every later wait
  it owes nothing.
-/
import proofs.«900813_g7700000000000814_dist_halo_stencil_i_m256_n256_v7x_i16_f32_1_alg».proof.Proof.KProto

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_of_ne (g : GSem nD τ sig) (h : g.1.2 ≠ .tc) : L g = ∅ := if_neg h
theorem L_tc (c : Dev nD) (sm : SemLoc sig) : L ((c : Thread nD τ), sm) = {()} := if_pos rfl
theorem mem_L {g : GSem nD τ sig} (h : g.1.2 = .tc) (u : Unit) : u ∈ L g := by unfold L; rw [if_pos h]; exact Finset.mem_singleton_self _

/-- A single cell's tally is positive at that cell only. -/
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem zero_not_pos {g : GSem nD τ sig} {u : Unit} (h : 0 < (0 : CellTallies nD τ sig Unit) g u) : False := by
  rw [Pi.zero_apply, Finsupp.zero_apply] at h; exact Nat.lt_irrefl 0 h

/-- The transfer credits a device owes sit on TensorCores' halo cells. -/
theorem owedXfer_pos {c : Dev nD} {g : GSem nD τ sig} {u : Unit} (h : 0 < owedXfer c g u) :
    g.1.2 = .tc ∧ (g.2 = .dma upS ∨ g.2 = .dma dnS) := by
  unfold owedXfer at h
  rcases Pipeline.add_pos_cases h with h | h
  · by_cases hl : HasL c
    · rw [if_pos hl] at h; rw [tallyAt_pos h]; exact ⟨rfl, .inr rfl⟩
    · rw [if_neg hl] at h; exact (zero_not_pos h).elim
  · by_cases hr : HasR c
    · rw [if_pos hr] at h; rw [tallyAt_pos h]; exact ⟨rfl, .inl rfl⟩
    · rw [if_neg hr] at h; exact (zero_not_pos h).elim

/-- Everything a device owes at launch sits on TensorCores' barrier and halo cells. -/
theorem O₀_pos {c : Dev nD} {g : GSem nD τ sig} {u : Unit} (h : 0 < O₀ c g u) :
    g.1.2 = .tc ∧ (g.2 = .reg barS ∨ g.2 = .dma upS ∨ g.2 = .dma dnS) := by
  unfold O₀ O₁ at h
  rcases Pipeline.add_pos_cases h with h | h
  · rcases Pipeline.add_pos_cases h with h | h
    · obtain ⟨h1, h2⟩ := owedXfer_pos h; exact ⟨h1, .inr h2⟩
    · rw [tallyAt_pos h]; unfold rightBar; split <;> exact ⟨rfl, .inl rfl⟩
  · rw [tallyAt_pos h]; unfold leftBar; split <;> exact ⟨rfl, .inl rfl⟩

theorem lv_bar (g : GSem nD τ sig) (u : Unit) (h : g.2 = .reg barS) : lv g u = 1 := by unfold lv; rw [if_pos h]
theorem lv_halo (g : GSem nD τ sig) (u : Unit) (h : g.2 = .dma upS ∨ g.2 = .dma dnS) : lv g u = 2 := by
  unfold lv
  rw [if_neg (by rcases h with h | h <;> rw [h] <;> exact fun h' => by cases h'), if_pos h]
theorem lv_other (g : GSem nD τ sig) (u : Unit) (h1 : g.2 ≠ .reg barS) (h2 : g.2 ≠ .dma upS) (h3 : g.2 ≠ .dma dnS) : lv g u = 0 := by
  unfold lv; rw [if_neg h1, if_neg (by rintro (h | h); exact h2 h; exact h3 h)]

omit [FloatOps F] in
/-- A wait on a staging or a send cell (level 0), owing what is owed at launch or nothing. -/
theorem mayWait_low (c : Dev nD) (q : DmaSem sig) (hu : SemLoc.dma q ≠ .dma upS) (hd : SemLoc.dma q ≠ .dma dnS)
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨h1, h2⟩ := O₀_pos hg
    refine ⟨mem_L h1 i, ?_⟩
    rw [lv_other _ _ (fun h => by cases h) hu hd]
    rcases h2 with h | h | h
    · rw [lv_bar _ _ h]; decide
    · rw [lv_halo _ _ (.inl h)]; decide
    · rw [lv_halo _ _ (.inr h)]; decide
  · rw [MayWait_zero]; iintro -; iempintro

omit [FloatOps F] in
/-- At its barrier wait a device owes the transfer credits only: halo cells, above its barrier cell. -/
theorem mayWait_bar (c : Dev nD) :
    (levAts L lv : sProp 𝕄) ⊢ MayWait (c : Thread nD τ) (.reg barS) () (owedXfer c) := by
  refine Pipeline.mayWait_of_levAts (by rw [L_tc]; exact Finset.mem_singleton_self _) fun g i hg => ?_
  obtain ⟨h1, h2⟩ := owedXfer_pos hg
  refine ⟨mem_L h1 i, ?_⟩
  rw [lv_bar _ _ rfl, lv_halo _ _ h2]; decide

omit [FloatOps F] in
/-- Owing nothing, any cell may be waited on. -/
theorem mayWait_zero (c : Dev nD) (sm : SemLoc sig) : (levAts L lv : sProp 𝕄) ⊢ MayWait (c : Thread nD τ) sm () 0 := by
  rw [MayWait_zero]; iintro -; iempintro

end Cert.KernelIdeal.Halo

end
-- ==== Proof.Spec.lean ====
/-
  The mathematics of the three-point stencil, free of any program.

  A 4096 × 256 array of extended reals is smoothed along its rows' axis: every row but the first and the
  last becomes  ¼·(row above) + ½·(itself) + ¼·(row below);  the first and the last row are kept.
  The array is cut into 16 blocks of 256 rows.  One block's result needs, beside the block, the row just
  above it and the row just below it (its two halo rows).  At the two ends of the array there is no such
  row; there the halo row is the linear extrapolation  2·a − b  of the edge row a and its neighbour b, and
  ¼·(2a − b) + ½·a + ¼·b = a  for real a, b: the edge row is kept, as the whole-array rule says.
-/
import Idealize.ShloMosaic.PureOps.Ideal

noncomputable section

namespace Cert.Stencil

open Idealize.ShloMosaic

/-- The weights ¼ and ½ and the factor 2, as the extended reals their f32 words denote. -/
def q25 : EReal := Ideal.ofBits .f32 0x3E800000#32
def q50 : EReal := Ideal.ofBits .f32 0x3F000000#32
def two : EReal := Ideal.ofBits .f32 0x40000000#32

/-- The weighted mean of a row entry `b` with the entries `a` above and `c` below it. -/
def w3 (a b c : EReal) : EReal := q25 * a + q50 * b + q25 * c

/-- The whole array smoothed: rows 0 and 4095 kept, every other row the weighted mean with its neighbours. -/
def sten (X : Fin 4096 → Fin 256 → EReal) (i : Fin 4096) (j : Fin 256) : EReal :=
  if h0 : i.val = 0 then X i j
  else if h1 : i.val = 4095 then X i j
  else w3 (X ⟨i.val - 1, by omega⟩ j) (X i j) (X ⟨i.val + 1, by omega⟩ j)

/-- One row beyond an edge row `a` whose inner neighbour is `b`, by linear extrapolation. -/
def extrap (a b : EReal) : EReal := two * a - b

/-- Block `c` of the 16 blocks of 256 rows. -/
def blk (X : Fin 4096 → Fin 256 → EReal) (c : Fin 16) (r : Fin 256) (j : Fin 256) : EReal :=
  X ⟨256 * c.val + r.val, by omega⟩ j

/-- One block smoothed, from the block `x`, the row `up` above it and the row `dn` below it. -/
def dev (x : Fin 256 → Fin 256 → EReal) (up dn : Fin 256 → EReal) (r : Fin 256) (j : Fin 256) : EReal :=
  if h0 : r.val = 0 then w3 (up j) (x ⟨0, by decide⟩ j) (x ⟨1, by decide⟩ j)
  else if h1 : r.val = 255 then w3 (x ⟨254, by decide⟩ j) (x ⟨255, by decide⟩ j) (dn j)
  else w3 (x ⟨r.val - 1, by omega⟩ j) (x r j) (x ⟨r.val + 1, by omega⟩ j)

/-- The row above block `c`: the last row of the block before it, or at the array's top the extrapolation. -/
def upOf (X : Fin 4096 → Fin 256 → EReal) (c : Fin 16) (j : Fin 256) : EReal :=
  if h : 0 < c.val then blk X ⟨c.val - 1, by omega⟩ ⟨255, by decide⟩ j
  else extrap (blk X c ⟨0, by decide⟩ j) (blk X c ⟨1, by decide⟩ j)

/-- The row below block `c`: the first row of the block after it, or at the array's bottom the extrapolation. -/
def dnOf (X : Fin 4096 → Fin 256 → EReal) (c : Fin 16) (j : Fin 256) : EReal :=
  if h : c.val < 15 then blk X ⟨c.val + 1, by omega⟩ ⟨0, by decide⟩ j
  else extrap (blk X c ⟨255, by decide⟩ j) (blk X c ⟨254, by decide⟩ j)

end Cert.Stencil

end
-- ==== Proof.KIndep.lean ====
/-
  What the halo buffers and the result buffer hold does not depend on what they held before.

  A halo buffer has one row of 256 entries, and filling it writes all 256: the neighbour's row lands through the
  whole buffer, and the extrapolated row is stored through the rectangle that starts at (0, 0) and has the buffer's
  own sizes.  The result buffer has rows 0 … 255; the first store writes rows 1 … 254, the second row 0, the third
  row 255, so every entry lies under exactly one of the three rectangles and is overwritten by that store.  Hence
  the earlier contents never show, and an entry of the result is read off the one piece whose rectangle holds it:
  row 255 off the last piece, row 0 off the second, row r with 1 ≤ r ≤ 254 off row r − 1 of the first.
-/
import proofs.«900813_g7700000000000814_dist_halo_stencil_i_m256_n256_v7x_i16_f32_1_alg».proof.Proof.KDefs
import proofs.«900813_g7700000000000814_dist_halo_stencil_i_m256_n256_v7x_i16_f32_1_alg».proof.Proof.Spec
import Idealize.ShloMosaic.Lib.ValueIdx
import Idealize.ShloMosaic.Lib.Pipeline.Value
import Idealize.ShloMosaic.Lib.ValueLayout

noncomputable section

namespace Cert.KernelIdeal.Halo

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The offsets (0, 0), as the constant-zero function. -/
theorem off00 : (![0, 0] : Fin 2 → Nat) = fun _ => 0 := funext fun a => by fin_cases a <;> rfl

/-! ## A store through a unit-stride rectangle of the result buffer, read at one entry -/

section Writes
variable {Val : EltTy → Type}

/-- An entry under the rectangle, at offset + y on each axis, takes the payload's entry y. -/
theorem write_unit_hit (off size : Fin 2 → Nat) (inb : ∀ a, off a + size a ≤ S256x256.size a)
    (f : (cc0_stg1_0 : Ref sig .tc).ty.Contents Val) (w : (Rect.unit (s := S256x256) off size inb).shape.Idx → Val .f32)
    (i : S256x256.Idx) (y : (Rect.unit (s := S256x256) off size inb).shape.Idx)
    (h : ∀ a, (i a : Nat) = off a + (y a : Nat)) :
    ((oM : Memref sig .tc .vmem S256x256 .f32).access (Rect.unit (s := S256x256) off size inb) : View sig .tc _ _ _).write Val f w Finset.univ i = w y := by
  have hi : i = ((oM : Memref sig .tc .vmem S256x256 .f32).access (Rect.unit (s := S256x256) off size inb) : View sig .tc _ _ _).emb y :=
    funext fun a => Fin.ext (by
      show (i a : Nat) = off a + 1 * (y a : Nat)
      rw [h a, Nat.one_mul])
  rw [hi, View.write_emb_of_mem _ _ (Finset.mem_univ y)]
  rfl

/-- An entry that on some axis lies before the rectangle's offset or at or after its end keeps the old contents. -/
theorem write_unit_miss (off size : Fin 2 → Nat) (inb : ∀ a, off a + size a ≤ S256x256.size a)
    (f : (cc0_stg1_0 : Ref sig .tc).ty.Contents Val) (w : (Rect.unit (s := S256x256) off size inb).shape.Idx → Val .f32)
    (M : Finset (Rect.unit (s := S256x256) off size inb).shape.Idx)
    (i : S256x256.Idx) (a : Fin 2) (h : (i a : Nat) < off a ∨ off a + size a ≤ (i a : Nat)) :
    ((oM : Memref sig .tc .vmem S256x256 .f32).access (Rect.unit (s := S256x256) off size inb) : View sig .tc _ _ _).write Val f w M i = f i := by
  refine View.write_of_not_mem _ _ _ (fun hm => ?_)
  have hs := View.setOn_subset_set _ M hm
  rw [View.set_slice_whole, Rect.mem_set_unit] at hs
  have := hs a
  omega

end Writes

/-! ## The result buffer after the three stores, row by row -/

section Rows
variable (x : (cc0_stg0_0 : Ref sig .tc).ty.Contents (Elt F)) (u : (cc0_scratch0 : Ref sig .tc).ty.Contents (Elt F))
  (d : (cc0_scratch1 : Ref sig .tc).ty.Contents (Elt F)) (o : (cc0_stg1_0 : Ref sig .tc).ty.Contents (Elt F))

/-- Row 255 is the last piece's one row: the third store writes it. -/
theorem out3_row255 (j : Fin 256) : out3 x u d o (ix2 (255 : Fin 256) j) = botPiece x d (ix2 (0 : Fin 1) j) := by
  unfold out3
  exact write_unit_hit ![255, 0] S1x256.size inb_S256x256_S1x256_255_0 _ _ (ix2 (255 : Fin 256) j) (ix2 (0 : Fin 1) j)
    (fun a => by match a with | ⟨0, _⟩ => rfl | ⟨1, _⟩ => exact (Nat.zero_add _).symm)

/-- Row 0 is the second piece's one row: the third store misses it (row 0 < 255), the second writes it. -/
theorem out3_row0 (j : Fin 256) : out3 x u d o (ix2 (0 : Fin 256) j) = topPiece x u (ix2 (0 : Fin 1) j) := by
  unfold out3
  rw [write_unit_miss ![255, 0] S1x256.size inb_S256x256_S1x256_255_0 _ _ _ (ix2 (0 : Fin 256) j) 0
    (.inl (by show (0 : Nat) < 255; omega))]
  exact write_unit_hit ![0, 0] S1x256.size inb_S256x256_S1x256_0_0 _ _ (ix2 (0 : Fin 256) j) (ix2 (0 : Fin 1) j)
    (fun a => by match a with | ⟨0, _⟩ => rfl | ⟨1, _⟩ => exact (Nat.zero_add _).symm)

/-- Row r with 1 ≤ r ≤ 254 is row r − 1 of the first piece: the third store (row 255) and the second (row 0) miss it. -/
theorem out3_rowMid (r : Fin 256) (j : Fin 256) (h1 : 1 ≤ r.val) (h2 : r.val ≤ 254) :
    out3 x u d o (ix2 r j) = midPiece x (ix2 (⟨r.val - 1, by omega⟩ : Fin 254) j) := by
  unfold out3
  rw [write_unit_miss ![255, 0] S1x256.size inb_S256x256_S1x256_255_0 _ _ _ (ix2 r j) 0
      (.inl (by show r.val < 255; omega)),
    write_unit_miss ![0, 0] S1x256.size inb_S256x256_S1x256_0_0 _ _ _ (ix2 r j) 0
      (.inr (by show 0 + 1 ≤ r.val; omega))]
  exact write_unit_hit ![1, 0] S254x256.size inb_S256x256_S254x256_1_0 _ _ (ix2 r j) (ix2 (⟨r.val - 1, by omega⟩ : Fin 254) j)
    (fun a => by
      match a with
      | ⟨0, _⟩ => show r.val = 1 + (r.val - 1); omega
      | ⟨1, _⟩ => exact (Nat.zero_add _).symm)

/-- Every row is 0, 255, or between: the three stores overwrite the whole buffer. -/
theorem out3_indep (o' : (cc0_stg1_0 : Ref sig .tc).ty.Contents (Elt F)) : out3 (F := F) x u d o = out3 x u d o' := by
  funext i
  obtain ⟨r, j, rfl⟩ : ∃ (r : Fin 256) (j : Fin 256), i = ix2 r j := ⟨i 0, i 1, eq_ix2 i⟩
  by_cases h0 : r.val = 0
  · obtain rfl : r = 0 := Fin.ext h0
    rw [out3_row0, out3_row0]
  · by_cases h255 : r.val = 255
    · obtain rfl : r = 255 := Fin.ext h255
      rw [out3_row255, out3_row255]
    · have hr := r.isLt
      rw [out3_rowMid x u d o r j (by omega) (by omega), out3_rowMid x u d o' r j (by omega) (by omega)]

end Rows

/-! ## The halo buffers and the result block -/

variable (m : (ℓ : Loc nD τ sig) → Buf (Elt F) ℓ)

/-- The upper halo row once filled: all 256 entries are written, whichever way it is filled. -/
theorem upVal_indep (c : Dev nD) (f f') : upVal m c f = upVal m c f' := by
  unfold upVal
  split
  · exact (View.write_whole_univ cc0_scratch0 f _).trans (View.write_whole_univ cc0_scratch0 f' _).symm
  · exact (Memref.write_access_unit_zero_univ (Elt F) cc0_scratch0 off00 inb_S1x256_S1x256_0_0 f _).trans
      (Memref.write_access_unit_zero_univ (Elt F) cc0_scratch0 off00 inb_S1x256_S1x256_0_0 f' _).symm

/-- The lower halo row once filled: the same. -/
theorem dnVal_indep (c : Dev nD) (f f') : dnVal m c f = dnVal m c f' := by
  unfold dnVal
  split
  · exact (View.write_whole_univ cc0_scratch1 f _).trans (View.write_whole_univ cc0_scratch1 f' _).symm
  · exact (Memref.write_access_unit_zero_univ (Elt F) cc0_scratch1 off00 inb_S1x256_S1x256_0_0 f _).trans
      (Memref.write_access_unit_zero_univ (Elt F) cc0_scratch1 off00 inb_S1x256_S1x256_0_0 f' _).symm

/-- The result block of device c from any earlier contents of the three buffers. -/
theorem outAt_eq (c : Dev nD) (f f' o) : out3 (xs m c) (upVal m c f) (dnVal m c f') o = outAt m c := by
  unfold outAt
  rw [upVal_indep m c f (topRow m c), dnVal_indep m c f' (topRow m c)]
  exact out3_indep _ _ _ _ _

/-- The staged block is the argument array: the window's one block is the whole array, read from offset (0, 0). -/
theorem xs_eq (c : Dev nD) : xs m c = m ((c : Thread nD τ).loc main_arg0) := by
  have hz' : (fun a => win0_0.index (0 : Fin 1) a * main_arg0.ty.shape.size a) = fun _ => 0 :=
    funext fun a => Nat.zero_mul _
  exact Memref.read_access_unit_zero (Elt F) main_arg0 hz' (fun a => by rw [congrFun hz' a]; simp) _

/-- info: 'Cert.KernelIdeal.Halo.outAt_eq' depends on axioms: [propext, Classical.choice, Quot.sound] -/
#guard_msgs in #print axioms outAt_eq

/-- info: 'Cert.KernelIdeal.Halo.xs_eq' depends on axioms: [propext, Classical.choice, Quot.sound] -/
#guard_msgs in #print axioms xs_eq

end Cert.KernelIdeal.Halo

end
-- ==== Proof.KShares.lean ====
/-
  One device's staged block, split by share and by rows, and joined again.

  The block is a 256 × 256 buffer held at the full share.  The full share is the sum of its two halves.  The
  half that is kept stays on the whole buffer.  The half that is lent is cut along rows: row 255, row 0, and
  the 254 rows between them.  Rows 0 and 255 are distinct rows of the buffer, so the three pieces are pairwise
  disjoint and together make up every index; cutting and gluing are inverse to each other.
-/
import proofs.«900813_g7700000000000814_dist_halo_stencil_i_m256_n256_v7x_i16_f32_1_alg».proof.Proof.KProto
import Idealize.ShloMosaic.Rules.PointsTo

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kept half of the whole buffer. -/
def xKept (c : Dev nD) : sProp 𝕄 :=
  (xM : Memref sig .tc .vmem S256x256 .f32).view.loc (c : Thread nD τ) ↦[(xM : Memref sig .tc .vmem S256x256 .f32).view.set]{kept} xs m c

/-- The lent half of every row but rows 0 and 255. -/
def xRest (c : Dev nD) : sProp 𝕄 :=
  (xM : Memref sig .tc .vmem S256x256 .f32).view.loc (c : Thread nD τ)
    ↦[(Finset.univ \ (xBot : Memref sig .tc .vmem S1x256 .f32).view.set) \ (xTop : Memref sig .tc .vmem S1x256 .f32).view.set]{lent} xs m c

omit [FloatOps F] in
instance xKept_storable (c : Dev nD) : BI.Storable (upEmb : UEmb _ 𝕄) (xKept (F := F) m c) := by unfold xKept; infer_instance
omit [FloatOps F] in
instance xRest_storable (c : Dev nD) : BI.Storable (upEmb : UEmb _ 𝕄) (xRest (F := F) m c) := by unfold xRest; infer_instance

/-- Rows 0 and 255 of the buffer share no index: on the row axis the first ends before the second begins. -/
theorem top_disj_bot :
    Disjoint (xTop : Memref sig .tc .vmem S1x256 .f32).view.set (xBot : Memref sig .tc .vmem S1x256 .f32).view.set := by
  rw [show (xTop : Memref sig .tc .vmem S1x256 .f32).view.set = r0.set from View.set_slice_whole _ _,
    show (xBot : Memref sig .tc .vmem S1x256 .f32).view.set = r255.set from View.set_slice_whole _ _]
  exact Rect.unit_disjoint 0 (Or.inl (by decide))

/-- Hence row 0 lies in what is left of the buffer once row 255 is taken out. -/
theorem top_sub :
    (xTop : Memref sig .tc .vmem S1x256 .f32).view.set ⊆ Finset.univ \ (xBot : Memref sig .tc .vmem S1x256 .f32).view.set :=
  fun i hi => Finset.mem_sdiff.mpr ⟨Finset.mem_univ i, fun hb => Finset.disjoint_left.mp top_disj_bot hi hb⟩

/-- The whole buffer's view covers every index. -/
theorem xM_set : (xM : Memref sig .tc .vmem S256x256 .f32).view.set = Finset.univ := View.set_whole _

theorem x_split (c : Dev nD) :
    ((((c : Thread nD τ).loc cc0_stg0_0) ↦{fullShare} xs m c : sProp 𝕄)) ⊢ iprop(xKept m c ∗ botPts m c ∗ topPts m c ∗ xRest m c) := by
  unfold xKept botPts topPts xRest
  rw [xM_set]
  iintro H
  ihave H := (pointsTo_share (PosShare.mem_left_op_right fullShare)).1 $$ H
  icases H with ⟨Hl, Hr⟩
  isplitl [Hr]
  · iexact Hr
  ihave Hl := (pointsTo_split_subset (I := (xBot : Memref sig .tc .vmem S1x256 .f32).view.set) (Finset.subset_univ _)).1 $$ Hl
  icases Hl with ⟨Hb, Hl⟩
  isplitl [Hb]
  · iexact Hb
  ihave Hl := (pointsTo_split_subset top_sub).1 $$ Hl
  icases Hl with ⟨Ht, Hl⟩
  isplitl [Ht]
  · iexact Ht
  iexact Hl

theorem x_join (c : Dev nD) :
    iprop(xKept m c ∗ botPts m c ∗ topPts m c ∗ xRest m c) ⊢ ((((c : Thread nD τ).loc cc0_stg0_0) ↦{fullShare} xs m c : sProp 𝕄)) := by
  unfold xKept botPts topPts xRest
  rw [xM_set]
  iintro ⟨Hr, Hb, Ht, Hl⟩
  iapply (pointsTo_share (PosShare.mem_left_op_right fullShare)).2
  isplitr [Hr]
  · iapply (pointsTo_split_subset (I := (xBot : Memref sig .tc .vmem S1x256 .f32).view.set) (Finset.subset_univ _)).2
    isplitl [Hb]
    · iexact Hb
    iapply (pointsTo_split_subset top_sub).2
    isplitl [Ht]
    · iexact Ht
    iexact Hl
  · iexact Hr

/-- info: 'Cert.KernelIdeal.Halo.x_split' depends on axioms: [propext, Classical.choice, Quot.sound] -/
#guard_msgs in #print axioms x_split

/-- info: 'Cert.KernelIdeal.Halo.x_join' depends on axioms: [propext, Classical.choice, Quot.sound] -/
#guard_msgs in #print axioms x_join

end Cert.KernelIdeal.Halo

end
-- ==== Proof.KBodyFirst.lean ====
/-
  The body of the first device of the line (device 0: no neighbour before it, device 1 after it), for any
  float instance.

  It pays the barrier unit "from the side before" into its own barrier cell, handing over nothing, and the
  unit "from the side after" into device 1's barrier cell, handing over its own lower halo buffer.  Its wait
  for both units of its barrier cell brings device 1's upper halo buffer, into which it then sends its last
  row, lending the transfer half a share of that row while it goes on reading the whole block with the other
  half.  Having nobody to receive an upper halo row from, it stores the extrapolation  2·(row 0) − (row 1)
  into its upper halo buffer itself.  Rows 1 … 254 of the result need the block alone; row 0 needs the upper
  halo row; row 255 needs the lower halo row, which the wait on the lower-halo cell brings, holding device
  1's first row.  The wait on the forward-send cell returns the lent half of the last row.  The forward-send
  and lower-halo cells have then consumed their one duty; the backward-send and upper-halo cells never had
  one on this device; all four close at zero.  The halves and rows of the block are joined again, and the
  result buffer holds the three stored pieces over the block and the two filled halo rows.
-/
import proofs.«900813_g7700000000000814_dist_halo_stencil_i_m256_n256_v7x_i16_f32_1_alg».proof.Proof.KLevels
import proofs.«900813_g7700000000000814_dist_halo_stencil_i_m256_n256_v7x_i16_f32_1_alg».proof.Proof.KIndep
import proofs.«900813_g7700000000000814_dist_halo_stencil_i_m256_n256_v7x_i16_f32_1_alg».proof.Proof.KShares
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace First

/-- The input window is fetched at the one grid point. -/
theorem fetch0_0' (t : Fin cfg0.N) : (cfg0.win (0 : Fin 2)).fetch t = true := by rw [fin_N t]; rfl

/-- The device read at the head of a sequence. -/
theorem head_dev {p : Proc τ} {α β : Type} (k1 : Dev nD → Prog (TpuEff nD τ sig (Elt F) Λ₀ p) α) (k2 : α → Prog (TpuEff nD τ sig (Elt F) Λ₀ p) β) :
    ((Prog.lift TpuEff.deviceId >>= k1) >>= k2) = Prog.op TpuEff.deviceId (fun d => k1 d >>= k2) := rfl

/-- On device 0 the word "a neighbour before me" is 0 and the word "a neighbour after me" is 1; the conditions the
    body branches on, as functions of those words. -/
theorem e3 : Scalar.cmpi .sgt (Scalar.remsi (Scalar.divsi (Dev.word (0 : Dev nD)) 1#32) 16#32) 0#32 = 0#1 := by decide +kernel
theorem e4 : Scalar.cmpi .slt (Scalar.remsi (Scalar.divsi (Dev.word (0 : Dev nD)) 1#32) 16#32) 15#32 = 1#1 := by decide +kernel
theorem n1 : Scalar.cmpi .ne (Scalar.extui (Scalar.xori 0#1 1#1)) 0#32 = 1#1 := by decide
theorem n2 : ¬ Scalar.cmpi .ne (Scalar.extui (Scalar.xori 1#1 1#1)) 0#32 = 1#1 := by decide
theorem n3 : ¬ Scalar.cmpi .ne (Scalar.extui 0#1) 0#32 = 1#1 := by decide
theorem n4 : Scalar.cmpi .ne (Scalar.extui 1#1) 0#32 = 1#1 := by decide

/-! ## The schedule's tables -/

theorem dma_ne_bar (q : DmaSem sig) : (SemLoc.dma q : SemLoc sig) ≠ .reg barS := fun h => by cases h
theorem not_isBar_dma (c : Dev nD) (q : DmaSem sig) : ¬IsBar ((c : Thread nD τ), SemLoc.dma q) := fun h => dma_ne_bar q h.2

theorem tb_duties_bar (c : Dev nD) : (sched (F := F) m).duties (barCell c) 0 = Finset.univ := by
  dsimp only [sched]; exact if_pos ⟨rfl, rfl, rfl⟩

theorem tb_duties_xfer (c : Dev nD) (q : DmaSem sig) (hx : IsXfer ((c : Thread nD τ), SemLoc.dma q)) :
    (sched (F := F) m).duties ((c : Thread nD τ), SemLoc.dma q) 0 = {false} := by
  show (if (0 = 0 ∧ IsBar ((c : Thread nD τ), SemLoc.dma q)) then (Finset.univ : Finset Bool) else if (0 = 0 ∧ IsXfer ((c : Thread nD τ), SemLoc.dma q)) then {false} else ∅) = _
  rw [if_neg (show ¬(0 = 0 ∧ IsBar ((c : Thread nD τ), SemLoc.dma q)) from fun h => not_isBar_dma c q h.2),
    if_pos (show 0 = 0 ∧ IsXfer ((c : Thread nD τ), SemLoc.dma q) from ⟨rfl, hx⟩)]

theorem tb_duties_later (g : GSem nD τ sig) (r : ℕ) (h : 1 ≤ r) : (sched (F := F) m).duties g r = ∅ := by
  show (if (r = 0 ∧ IsBar g) then (Finset.univ : Finset Bool) else if (r = 0 ∧ IsXfer g) then {false} else ∅) = _
  rw [if_neg (show ¬(r = 0 ∧ IsBar g) from fun h' => absurd h'.1 (by omega)), if_neg (show ¬(r = 0 ∧ IsXfer g) from fun h' => absurd h'.1 (by omega))]

theorem tb_duties_none (c : Dev nD) (q : DmaSem sig) (hx : ¬IsXfer ((c : Thread nD τ), SemLoc.dma q)) (r : ℕ) :
    (sched (F := F) m).duties ((c : Thread nD τ), SemLoc.dma q) r = ∅ := by
  show (if (r = 0 ∧ IsBar ((c : Thread nD τ), SemLoc.dma q)) then (Finset.univ : Finset Bool) else if (r = 0 ∧ IsXfer ((c : Thread nD τ), SemLoc.dma q)) then {false} else ∅) = _
  rw [if_neg (show ¬(r = 0 ∧ IsBar ((c : Thread nD τ), SemLoc.dma q)) from fun h => not_isBar_dma c q h.2),
    if_neg (show ¬(r = 0 ∧ IsXfer ((c : Thread nD τ), SemLoc.dma q)) from fun h => hx h.2)]

theorem tb_amount_bar (c : Dev nD) (r : ℕ) (d : Bool) : (sched (F := F) m).amount (barCell c) r d = 1 := by dsimp only [sched]; exact if_pos rfl
theorem tb_amount_dma (c : Dev nD) (q : DmaSem sig) (r : ℕ) (d : Bool) : (sched (F := F) m).amount ((c : Thread nD τ), SemLoc.dma q) r d = N := by
  dsimp only [sched]; exact if_neg (dma_ne_bar q)

theorem tb_payload_bar (c : Dev nD) (r : ℕ) (d : Bool) : (sched (F := F) m).payload (barCell c) r d = if d then barPayR c else barPayL c := by
  dsimp only [sched]; exact if_pos rfl
theorem tb_payload_up (c : Dev nD) (r : ℕ) (d : Bool) : (sched (F := F) m).payload (upCell c) r d = upPay m c := by
  dsimp only [sched]; rw [if_neg (dma_ne_bar _), if_pos rfl]
theorem tb_payload_dn (c : Dev nD) (r : ℕ) (d : Bool) : (sched (F := F) m).payload (dnCell c) r d = dnPay m c := by
  dsimp only [sched]; rw [if_neg (dma_ne_bar _), if_neg (show (SemLoc.dma dnS : SemLoc sig) ≠ .dma upS from by decide), if_pos rfl]
theorem tb_payload_fwd (c : Dev nD) (r : ℕ) (d : Bool) : (sched (F := F) m).payload (fwdCell c) r d = botPts m c := by
  dsimp only [sched]
  rw [if_neg (dma_ne_bar _), if_neg (show (SemLoc.dma fwdS : SemLoc sig) ≠ .dma upS from by decide),
    if_neg (show (SemLoc.dma fwdS : SemLoc sig) ≠ .dma dnS from by decide), if_pos rfl]

theorem tb_expect_bar (c : Dev nD) : (sched (F := F) m).expect (barCell c) 0 = 2 := by
  unfold Schedule.expect; rw [tb_duties_bar]; simp only [Schedule.amountOf, tb_amount_bar]; rfl
theorem tb_expect_xfer (c : Dev nD) (q : DmaSem sig) (hx : IsXfer ((c : Thread nD τ), SemLoc.dma q)) :
    (sched (F := F) m).expect ((c : Thread nD τ), SemLoc.dma q) 0 = N := by
  unfold Schedule.expect; rw [tb_duties_xfer m c q hx]; simp only [Schedule.amountOf, Finset.sum_singleton, tb_amount_dma]

/-! ## The first device: no neighbour before it, device 1 after it -/

abbrev c0 : Dev nD := 0
abbrev c1 : Dev nD := rgt 0

theorem hl0 : ¬HasL c0 := by decide
theorem hr0 : HasR c0 := by decide
theorem hl1 : HasL c1 := by decide
theorem lft_c1 : lft c1 = c0 := by decide

theorem isXfer_fwd0 : IsXfer (fwdCell c0) := ⟨rfl, Or.inl ⟨rfl, hr0⟩⟩
theorem isXfer_dn0 : IsXfer (dnCell c0) := ⟨rfl, Or.inr (Or.inr (Or.inr ⟨rfl, hr0⟩))⟩
theorem isXfer_up1 : IsXfer (upCell c1) := ⟨rfl, Or.inr (Or.inr (Or.inl ⟨rfl, hl1⟩))⟩
theorem not_isXfer_up0 : ¬IsXfer (upCell c0) := by
  rintro ⟨-, (⟨h, -⟩ | ⟨h, -⟩ | ⟨-, h⟩ | ⟨h, -⟩)⟩
  · exact absurd h (by decide)
  · exact absurd h (by decide)
  · exact hl0 h
  · exact absurd h (by decide)
theorem not_isXfer_bwd0 : ¬IsXfer (bwdCell c0) := by
  rintro ⟨-, (⟨h, -⟩ | ⟨-, h⟩ | ⟨h, -⟩ | ⟨h, -⟩)⟩
  · exact absurd h (by decide)
  · exact hl0 h
  · exact absurd h (by decide)
  · exact absurd h (by decide)

theorem d_bar0 : (sched (F := F) m).duties (barCell c0) 0 = {false, true} := (tb_duties_bar m c0).trans (by decide)
theorem d_bar1 : (sched (F := F) m).duties (barCell c1) 0 = {false, true} := (tb_duties_bar m c1).trans (by decide)
theorem d_fwd0 : (sched (F := F) m).duties (fwdCell c0) 0 = {false} := tb_duties_xfer m c0 fwdS isXfer_fwd0
theorem d_dn0 : (sched (F := F) m).duties (dnCell c0) 0 = {false} := tb_duties_xfer m c0 dnS isXfer_dn0
theorem d_up1 : (sched (F := F) m).duties (upCell c1) 0 = {false} := tb_duties_xfer m c1 upS isXfer_up1
theorem x_bar0 : (sched (F := F) m).expect (barCell c0) 0 = 2 := tb_expect_bar m c0
theorem x_fwd0 : (sched (F := F) m).expect (fwdCell c0) 0 = N := tb_expect_xfer m c0 fwdS isXfer_fwd0
theorem x_dn0 : (sched (F := F) m).expect (dnCell c0) 0 = N := tb_expect_xfer m c0 dnS isXfer_dn0

theorem p_bar0_false : (sched (F := F) m).payload (barCell c0) 0 false = iprop(emp) := by
  rw [tb_payload_bar]; simp only [Bool.false_eq_true, ↓reduceIte]; unfold barPayL; rw [if_neg hl0]
theorem p_bar0_true : (sched (F := F) m).payload (barCell c0) 0 true
    = iprop((∃ f, ((upM : Memref sig .tc .vmem S1x256 .f32).view.loc (c1 : Thread nD τ) ↦[(upM : Memref sig .tc .vmem S1x256 .f32).view.set]{fullShare} f : sProp 𝕄)) ∗ reached ER (upCell c1) 0) := by
  rw [tb_payload_bar]; simp only [↓reduceIte]; unfold barPayR; rw [if_pos hr0]; rfl
theorem p_bar1_false : (sched (F := F) m).payload (barCell c1) 0 false
    = iprop((∃ f, ((dnM : Memref sig .tc .vmem S1x256 .f32).view.loc (c0 : Thread nD τ) ↦[(dnM : Memref sig .tc .vmem S1x256 .f32).view.set]{fullShare} f : sProp 𝕄)) ∗ reached ER (dnCell c0) 0) := by
  rw [tb_payload_bar]; simp only [Bool.false_eq_true, ↓reduceIte]; unfold barPayL; rw [if_pos hl1, lft_c1]; rfl
theorem p_fwd0 : (sched (F := F) m).payload (fwdCell c0) 0 false
    = ((xBot : Memref sig .tc .vmem S1x256 .f32).view.loc (c0 : Thread nD τ) ↦[(xBot : Memref sig .tc .vmem S1x256 .f32).view.set]{lent} xs m c0 : sProp 𝕄) := by
  rw [tb_payload_fwd]; rfl
theorem p_up1 : (sched (F := F) m).payload (upCell c1) 0 false
    = iprop(∃ f, ((upM : Memref sig .tc .vmem S1x256 .f32).view.loc (c1 : Thread nD τ) ↦[(upM : Memref sig .tc .vmem S1x256 .f32).view.set]{fullShare}
        (upM : Memref sig .tc .vmem S1x256 .f32).view.write (Elt F) f ((xBot : Memref sig .tc .vmem S1x256 .f32).view.read (Elt F) (xs m c0)) Finset.univ : sProp 𝕄)) := by
  rw [tb_payload_up]; unfold upPay upPts upVal; simp only [if_pos hl1, lft_c1]; rfl
theorem p_dn0 : (sched (F := F) m).payload (dnCell c0) 0 false
    = iprop(∃ f, ((dnM : Memref sig .tc .vmem S1x256 .f32).view.loc (c0 : Thread nD τ) ↦[(dnM : Memref sig .tc .vmem S1x256 .f32).view.set]{fullShare} dnVal m c0 f : sProp 𝕄)) := by
  rw [tb_payload_dn]; rfl

attribute [local sl_rounds] d_bar0 d_bar1 d_fwd0 d_dn0 d_up1 x_bar0 x_fwd0 x_dn0 tb_amount_bar tb_amount_dma p_bar0_false p_bar0_true p_bar1_false p_fwd0 p_up1 p_dn0

theorem O₀_c0 : O₀ c0 = (tallyAt (upCell c1) () N + tallyAt (barCell c1) () 1 + tallyAt (barCell c0) () 1 : CellTallies nD τ sig Unit) := by
  unfold O₀ O₁ owedXfer leftBar rightBar; simp only [if_neg hl0, if_pos hr0, zero_add]

theorem c5_c0 : k0_cond5 c0 = 1#1 := by decide +kernel
theorem dev3_c0 (h : k0_cond5 c0 = 1#1) : (⟨k0_dev3 c0, k0_dev3_lt c0 h⟩ : Dev nD) = c1 := dev3_eq c0 h
theorem dev2_c0 (h : k0_cond3 c0 = 1#1) : (⟨k0_dev2 c0, k0_dev2_lt c0 h⟩ : Dev nD) = c1 := dev2_eq c0 h
attribute [local sl_canon] dev3_c0 dev2_c0

omit [FloatOps F] in
theorem mayWait_bar0 : (levAts L lv : sProp 𝕄) ⊢ MayWait (c0 : Thread nD τ) (.reg barS) () (tallyAt (upCell c1) () N : CellTallies nD τ sig Unit) := by
  have h := mayWait_bar (F := F) c0
  unfold owedXfer at h; simp only [if_neg hl0, if_pos hr0, zero_add] at h; exact h

set_option maxHeartbeats 4000000 in
/-- The body on device 0, from what it starts with to what it leaves. -/
theorem body (K : Dev nD × Fin 5 → ℕ) (Kt : PUnit → sProp 𝕄) :
    iprop(bodyPre m ρ K c0 ∗ (bodyPost m ρ c0 -∗ Kt ⟨⟩)) ⊢ wp frame (wpE (defs₀ (F := F)) 𝒱₀ c0 none) Set.univ (theBody (F := F)) Kt := by
  -- the printed conditions on device 0: no neighbour before it, one after it
  have c1' : ¬ (k0_cond1 c0 = 1#1) := by decide +kernel
  have c3 : k0_cond3 c0 = 1#1 := by decide +kernel
  have c5 : k0_cond5 c0 = 1#1 := by decide +kernel
  have c6 : ¬ (k0_cond6 c0 = 1#1) := by decide +kernel
  -- the body as straight-line code: the device is read, every condition decided, the sequence flattened
  unfold theBody
  simp only [cc0_body_eq_skeleton]; unfold cc0_body_skel
  simp only [k0_part1_eq_skeleton]; unfold k0_part1_skel
  rw [head_dev, wp_deviceId]
  simp only [c1', c3, c5, c6, e3, e4, n1, n2, ↓reduceDIte]
  simp only [semSignalWord, semSignalHereWord, semWaitWord, Prog.lift, Prog.bind_op, Prog.bind_ret, Prog.pure_eq_ret]
  simp only [k0_part2_eq_skeleton]; unfold k0_part2_skel
  simp only [n3, n4, ↓reduceDIte]
  simp only [Prog.lift, Prog.bind_op, Prog.bind_ret, Prog.pure_eq_ret, wp_deviceId, dev2_eq c0 c3]
  -- what the device starts from, piece by piece
  unfold bodyPre ghost invs reach payToks creds
  simp only [if_neg hl0, if_pos hr0]
  iintro ⟨⟨⟨⟨⟨#HIbar, #HIfwd, #HIbwd, #HIup, #HIdn, -, #HIbarR, -, #HIupR⟩, ⟨HatB, HatF, HatW, HatU, HatD⟩, ⟨#HrB, #HrF, #HrW, #HrU, #HrD, -, #HrBR, -, #HrUR⟩, ⟨HtL, HtR, ⟨HtF, HtUR⟩, -⟩⟩, ⟨HcB, -, HcD⟩, #Hlev, ⟨%fu, Hup⟩, ⟨%fd, Hdn⟩⟩,
    Ho, ⟨%d0, %g0, %hg0, Hx⟩, ⟨%d1, %g1, %hg1, Hout⟩⟩, Hk⟩
  have hx : g0 = xs m c0 := by rw [hg0]; unfold Dat.before; rw [if_pos (fetch0_0' t₀)]; rfl
  subst hx
  unfold Dat.owesAt Pipeline.owesWithin
  icases Ho with ⟨%W, %hW, HO⟩
  rw [show (dats m ρ 0 c0).owed t₀.castSucc = O₀ c0 from rfl, O₀_c0]
  -- the block by halves: the kept half whole, the lent half cut into row 255, row 0 and the rest
  ihave Hs := (x_split m c0) $$ Hx
  icases Hs with ⟨Hkept, Hbot, Htop, Hrest⟩
  unfold xKept botPts upPts dnPts
  have hmw := mayWait_bar0 (F := F)
  have hO : ∀ g : Buf (Elt F) ((c0 : Thread nD τ).loc cc0_stg1_0),
      (((oM : Memref sig .tc .vmem S256x256 .f32).view.loc (c0 : Thread nD τ) ↦[(oM : Memref sig .tc .vmem S256x256 .f32).view.set]{fullShare} g : sProp 𝕄))
      = (((c0 : Thread nD τ).loc cc0_stg1_0) ↦{fullShare} g) := fun g => by
    simp only [Memref.view_whole, View.set_whole]
  ihave Hout := (Entails.of_eq (hO g1).symm) $$ Hout

  -- the two barrier units, the wait for the round, the transfer of row 255, the extrapolated upper halo row, the three
  -- stored pieces with the wait for the lower halo row between them, and the wait for the lent row's return
  sl_exec (disch := simp only [dev3_c0])
  -- the two cells whose one duty is consumed close after round 0; the two that never had a duty close at round 0
  imod (Rounds.cell_close ER (sched m) (Set.mem_univ (K (c0, 1))) (fun h => h) (R := 1) (fun r hr => tb_duties_later m (fwdCell c0) r hr)) $$ [HatF] with HzF
  · isplitr; · iexact HIfwd
    iexact HatF
  imod (Rounds.cell_close ER (sched m) (Set.mem_univ (K (c0, 4))) (fun h => h) (R := 1) (fun r hr => tb_duties_later m (dnCell c0) r hr)) $$ [HatD] with HzD
  · isplitr; · iexact HIdn
    iexact HatD
  imod (Rounds.cell_close ER (sched m) (Set.mem_univ (K (c0, 3))) (fun h => h) (R := 0) (fun r _ => tb_duties_none m c0 upS not_isXfer_up0 r)) $$ [HatU] with HzU
  · isplitr; · iexact HIup
    iexact HatU
  imod (Rounds.cell_close ER (sched m) (Set.mem_univ (K (c0, 2))) (fun h => h) (R := 0) (fun r _ => tb_duties_none m c0 bwdS not_isXfer_bwd0 r)) $$ [HatW] with HzW
  · isplitr; · iexact HIbwd
    iexact HatW
  rw [wp_ret]; imodintro
  -- the postcondition: both halo buffers, the four counters at zero, nothing owed, the block whole again, the result
  iapply Hk
  unfold bodyPost Φ₁ Dat.owesAt Pipeline.owesWithin upPts dnPts
  rw [show (dats m ρ 0 c0).owed t₀.succ = 0 from rfl]
  isplitl [Hup HatD_pay1 HzF HzW HzU HzD]
  · isplitl [Hup]; · iexists _; iexact Hup
    isplitl [HatD_pay1]; · iexists _; iexact HatD_pay1
    isplitl [HzF]; · iexact HzF
    isplitl [HzW]; · iexact HzW
    isplitl [HzU]; · iexact HzU
    iexact HzD
  isplitl [HO]
  · iexists (insert (SemLoc.dma fwdS, ()) (insert (SemLoc.dma dnS, ()) (insert (SemLoc.reg barS, ()) W)))
    isplitr; · ipureintro; exact fun _ _ => Or.inl trivial
    iexact HO
  isplitl [Hkept HatF_pay1 Htop Hrest]
  · iexists (xs m c0); isplitr; · (ipureintro; rfl)
    iapply (x_join m c0); unfold xKept botPts
    isplitl [Hkept]; · iexact Hkept
    isplitl [HatF_pay1]; · iexact HatF_pay1
    isplitl [Htop]; · iexact Htop
    iexact Hrest
  ihave Hout := (Entails.of_eq (hO _)) $$ Hout
  iexists _
  isplitr
  on_goal 2 => iexact Hout
  ipureintro
  -- the result buffer: the three pieces over the block and the two filled halo rows; the upper halo row read back after
  -- its store does not depend on what the buffer held before
  refine Eq.trans ?_ (outAt_eq m c0 fu HatD_pay1_v g1)
  have hxv : body.sl.x m = upLoad (upVal m c0 fu) := by
    rw [upVal_indep m c0 fu (View.junk (upM : Memref sig .tc .vmem S1x256 .f32).view)]
    unfold upLoad upVal; rw [if_neg hl0]; rfl
  rw [hxv]; rfl

end First

/-- The body lemma of a device with no neighbour before it: it is device 0. -/
theorem sound_body_first (c : Dev nD) (hl : ¬HasL c) : SoundBody m ρ c := by
  have hc : c = 0 := by revert hl; revert c; decide
  subst hc
  exact fun K Kt => First.body m ρ K Kt

/-- info: 'Cert.KernelIdeal.Halo.sound_body_first' depends on axioms: [propext, Classical.choice, Quot.sound] -/
#guard_msgs in #print axioms sound_body_first

end Cert.KernelIdeal.Halo

end
-- ==== Proof.KBodyMid.lean ====
/-
  The body of one device in the interior of the line: it has a neighbour before it and one after it.

  In program order the device pays one unit into the barrier cell of the neighbour before it, handing over its own
  upper halo buffer, and one into the barrier cell of the neighbour after it, handing over its own lower halo
  buffer.  It then waits for the two units of its own barrier cell; they bring the lower halo buffer of the
  neighbour before it and the upper halo buffer of the neighbour after it, so it may send into them.  It sends its
  last row forward and its first row backward; each transfer is lent half the share of its source row, while the
  other half of the whole block stays with the device, which goes on reading the block: rows 0 … 253, 1 … 254 and
  2 … 255 give the 254 inner rows of the result.  The wait on the upper-halo cell returns the upper halo buffer
  holding the last row of the neighbour before, from which row 0 of the result is made; the wait on the lower-halo
  cell likewise gives row 255.  The waits on the two send cells return the lent halves of rows 255 and 0, the
  block is whole again, the four transfer cells are closed, and the result buffer holds the three pieces written
  over whatever it held, which is the block's result whatever that was.
-/
import proofs.«900813_g7700000000000814_dist_halo_stencil_i_m256_n256_v7x_i16_f32_1_alg».proof.Proof.KLevels
import proofs.«900813_g7700000000000814_dist_halo_stencil_i_m256_n256_v7x_i16_f32_1_alg».proof.Proof.KIndep
import proofs.«900813_g7700000000000814_dist_halo_stencil_i_m256_n256_v7x_i16_f32_1_alg».proof.Proof.KShares

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace Mid

/-! ## The schedule's tables at the cells an interior device touches -/

theorem not_isBar_dma (x : Dev nD) (s : DmaSem sig) : ¬ IsBar (((x : Thread nD τ), SemLoc.dma s) : GSem nD τ sig) := fun h => by cases h.2

theorem duties_bar (x : Dev nD) : (sched m).duties (barCell x) 0 = Finset.univ := by
  unfold sched; dsimp only
  rw [if_pos ⟨rfl, rfl, rfl⟩]

theorem duties_fwd (x : Dev nD) (h : HasR x) : (sched m).duties (fwdCell x) 0 = {false} := by
  unfold sched; dsimp only
  rw [if_neg (fun h' => not_isBar_dma x _ h'.2), if_pos ⟨rfl, rfl, Or.inl ⟨rfl, h⟩⟩]
theorem duties_bwd (x : Dev nD) (h : HasL x) : (sched m).duties (bwdCell x) 0 = {false} := by
  unfold sched; dsimp only
  rw [if_neg (fun h' => not_isBar_dma x _ h'.2), if_pos ⟨rfl, rfl, Or.inr (Or.inl ⟨rfl, h⟩)⟩]
theorem duties_up (x : Dev nD) (h : HasL x) : (sched m).duties (upCell x) 0 = {false} := by
  unfold sched; dsimp only
  rw [if_neg (fun h' => not_isBar_dma x _ h'.2), if_pos ⟨rfl, rfl, Or.inr (Or.inr (Or.inl ⟨rfl, h⟩))⟩]
theorem duties_dn (x : Dev nD) (h : HasR x) : (sched m).duties (dnCell x) 0 = {false} := by
  unfold sched; dsimp only
  rw [if_neg (fun h' => not_isBar_dma x _ h'.2), if_pos ⟨rfl, rfl, Or.inr (Or.inr (Or.inr ⟨rfl, h⟩))⟩]

theorem duties_later (g : GSem nD τ sig) (r : ℕ) (h : 1 ≤ r) : (sched m).duties g r = ∅ := by
  unfold sched; dsimp only
  rw [if_neg (fun h' => by omega), if_neg (fun h' => by omega)]

theorem amount_bar (x : Dev nD) (r : ℕ) (d : Bool) : (sched m).amount (barCell x) r d = 1 := by
  unfold sched; dsimp only; rw [if_pos rfl]
theorem amount_dma (x : Dev nD) (s : DmaSem sig) (r : ℕ) (d : Bool) : (sched m).amount ((x : Thread nD τ), SemLoc.dma s) r d = N := by
  unfold sched; dsimp only; rw [if_neg (fun h => by cases h)]

theorem payload_bar (x : Dev nD) (r : ℕ) (d : Bool) : (sched m).payload (barCell x) r d = (if d then barPayR x else barPayL x) := by
  unfold sched; dsimp only; rw [if_pos rfl]
theorem payload_up (x : Dev nD) (r : ℕ) (d : Bool) : (sched m).payload (upCell x) r d = upPay m x := by
  unfold sched; dsimp only
  rw [if_neg (fun h => by cases h), if_pos rfl]
theorem payload_dn (x : Dev nD) (r : ℕ) (d : Bool) : (sched m).payload (dnCell x) r d = dnPay m x := by
  unfold sched; dsimp only
  rw [if_neg (fun h => by cases h), if_neg (by decide), if_pos rfl]
theorem payload_fwd (x : Dev nD) (r : ℕ) (d : Bool) : (sched m).payload (fwdCell x) r d = botPts m x := by
  unfold sched; dsimp only
  rw [if_neg (fun h => by cases h), if_neg (by decide), if_neg (by decide), if_pos rfl]
theorem payload_bwd (x : Dev nD) (r : ℕ) (d : Bool) : (sched m).payload (bwdCell x) r d = topPts m x := by
  unfold sched; dsimp only
  rw [if_neg (fun h => by cases h), if_neg (by decide), if_neg (by decide), if_neg (by decide), if_pos rfl]

theorem expect_bar (x : Dev nD) : (sched m).expect (barCell x) 0 = 2 := by
  unfold Schedule.expect Schedule.amountOf
  rw [duties_bar]
  simp only [amount_bar]
  decide
theorem expect_one (g : GSem nD τ sig) (hd : (sched m).duties g 0 = {false}) (ha : (sched m).amount g 0 false = N) : (sched m).expect g 0 = N := by
  unfold Schedule.expect Schedule.amountOf
  rw [hd, Finset.sum_singleton, ha]

/-! ## The payloads an interior device hands over and is handed, spelt out -/

theorem pay_barL_true (c : Dev nD) (hl : HasL c) : (sched m).payload (barCell (lft c)) 0 true
    = iprop((∃ f, (upM : Memref sig .tc .vmem S1x256 .f32).view.loc (c : Thread nD τ) ↦[(upM : Memref sig .tc .vmem S1x256 .f32).view.set]{fullShare} f) ∗ reached ER (upCell c) 0) := by
  rw [payload_bar, if_pos rfl]; unfold barPayR; rw [if_pos (hasR_lft c hl), rgt_lft c hl]; rfl
theorem pay_barR_false (c : Dev nD) (hr : HasR c) : (sched m).payload (barCell (rgt c)) 0 false
    = iprop((∃ f, (dnM : Memref sig .tc .vmem S1x256 .f32).view.loc (c : Thread nD τ) ↦[(dnM : Memref sig .tc .vmem S1x256 .f32).view.set]{fullShare} f) ∗ reached ER (dnCell c) 0) := by
  rw [payload_bar, if_neg Bool.false_ne_true]; unfold barPayL; rw [if_pos (hasL_rgt c hr), lft_rgt c hr]; rfl
theorem pay_bar_false (c : Dev nD) (hl : HasL c) : (sched m).payload (barCell c) 0 false
    = iprop((∃ f, (dnM : Memref sig .tc .vmem S1x256 .f32).view.loc (lft c : Thread nD τ) ↦[(dnM : Memref sig .tc .vmem S1x256 .f32).view.set]{fullShare} f) ∗ reached ER (dnCell (lft c)) 0) := by
  rw [payload_bar, if_neg Bool.false_ne_true]; unfold barPayL; rw [if_pos hl]; rfl
theorem pay_bar_true (c : Dev nD) (hr : HasR c) : (sched m).payload (barCell c) 0 true
    = iprop((∃ f, (upM : Memref sig .tc .vmem S1x256 .f32).view.loc (rgt c : Thread nD τ) ↦[(upM : Memref sig .tc .vmem S1x256 .f32).view.set]{fullShare} f) ∗ reached ER (upCell (rgt c)) 0) := by
  rw [payload_bar, if_pos rfl]; unfold barPayR; rw [if_pos hr]; rfl
theorem pay_fwd (c : Dev nD) : (sched m).payload (fwdCell c) 0 false
    = ((xBot : Memref sig .tc .vmem S1x256 .f32).view.loc (c : Thread nD τ) ↦[(xBot : Memref sig .tc .vmem S1x256 .f32).view.set]{lent} xs m c) := by
  rw [payload_fwd]; rfl
theorem pay_bwd (c : Dev nD) : (sched m).payload (bwdCell c) 0 false
    = ((xTop : Memref sig .tc .vmem S1x256 .f32).view.loc (c : Thread nD τ) ↦[(xTop : Memref sig .tc .vmem S1x256 .f32).view.set]{lent} xs m c) := by
  rw [payload_bwd]; rfl
theorem pay_upR (c : Dev nD) (hr : HasR c) : (sched m).payload (upCell (rgt c)) 0 false
    = iprop(∃ f, (upM : Memref sig .tc .vmem S1x256 .f32).view.loc (rgt c : Thread nD τ) ↦[(upM : Memref sig .tc .vmem S1x256 .f32).view.set]{fullShare}
        (upM : Memref sig .tc .vmem S1x256 .f32).view.write (Elt F) f ((xBot : Memref sig .tc .vmem S1x256 .f32).view.read (Elt F) (xs m c)) Finset.univ) := by
  rw [payload_up]; unfold upPay upPts upVal; simp only [if_pos (hasL_rgt c hr), lft_rgt c hr]; rfl
theorem pay_dnL (c : Dev nD) (hl : HasL c) : (sched m).payload (dnCell (lft c)) 0 false
    = iprop(∃ f, (dnM : Memref sig .tc .vmem S1x256 .f32).view.loc (lft c : Thread nD τ) ↦[(dnM : Memref sig .tc .vmem S1x256 .f32).view.set]{fullShare}
        (dnM : Memref sig .tc .vmem S1x256 .f32).view.write (Elt F) f ((xTop : Memref sig .tc .vmem S1x256 .f32).view.read (Elt F) (xs m c)) Finset.univ) := by
  rw [payload_dn]; unfold dnPay dnPts dnVal; simp only [if_pos (hasR_lft c hl), rgt_lft c hl]; rfl
theorem pay_up (c : Dev nD) : (sched m).payload (upCell c) 0 false
    = iprop(∃ f, (upM : Memref sig .tc .vmem S1x256 .f32).view.loc (c : Thread nD τ) ↦[(upM : Memref sig .tc .vmem S1x256 .f32).view.set]{fullShare} upVal m c f) := by
  rw [payload_up]; rfl
theorem pay_dn (c : Dev nD) : (sched m).payload (dnCell c) 0 false
    = iprop(∃ f, (dnM : Memref sig .tc .vmem S1x256 .f32).view.loc (c : Thread nD τ) ↦[(dnM : Memref sig .tc .vmem S1x256 .f32).view.set]{fullShare} dnVal m c f) := by
  rw [payload_dn]; rfl

theorem bar_rest (c : Dev nD) (hl : HasL c) (hr : HasR c) :
    bigSep (Finset.univ : Finset Bool) (fun d => (sched m).payload (barCell c) 0 d)
      = iprop(((∃ f, (dnM : Memref sig .tc .vmem S1x256 .f32).view.loc (lft c : Thread nD τ) ↦[(dnM : Memref sig .tc .vmem S1x256 .f32).view.set]{fullShare} f) ∗ reached ER (dnCell (lft c)) 0)
        ∗ ((∃ f, (upM : Memref sig .tc .vmem S1x256 .f32).view.loc (rgt c : Thread nD τ) ↦[(upM : Memref sig .tc .vmem S1x256 .f32).view.set]{fullShare} f) ∗ reached ER (upCell (rgt c)) 0)) := by
  rw [show (Finset.univ : Finset Bool) = insert false {true} from by decide, BI.bigSep_insert (by decide), BI.bigSep_singleton,
    pay_bar_false m c hl, pay_bar_true m c hr]
  rfl

theorem expect_up (c : Dev nD) (hl : HasL c) : (sched m).expect (upCell c) 0 = N := expect_one m _ (duties_up m c hl) (amount_dma m c _ 0 false)
theorem expect_dn (c : Dev nD) (hr : HasR c) : (sched m).expect (dnCell c) 0 = N := expect_one m _ (duties_dn m c hr) (amount_dma m c _ 0 false)
theorem expect_fwd (c : Dev nD) (hr : HasR c) : (sched m).expect (fwdCell c) 0 = N := expect_one m _ (duties_fwd m c hr) (amount_dma m c _ 0 false)
theorem expect_bwd (c : Dev nD) (hl : HasL c) : (sched m).expect (bwdCell c) 0 = N := expect_one m _ (duties_bwd m c hl) (amount_dma m c _ 0 false)

/-- The result buffer, whole, as held through its memref's view. -/
theorem out_pts (c : Dev nD) (g : Buf (Elt F) ((c : Thread nD τ).loc cc0_stg1_0)) :
    ((((c : Thread nD τ).loc cc0_stg1_0) ↦{fullShare} g : sProp 𝕄))
      = ((oM : Memref sig .tc .vmem S256x256 .f32).view.loc (c : Thread nD τ) ↦[(oM : Memref sig .tc .vmem S256x256 .f32).view.set]{fullShare} g) := by
  rw [show (oM : Memref sig .tc .vmem S256x256 .f32).view.set = Finset.univ from View.set_whole _]

/-! ## The two transfers, at a destination device given as a term of its own -/

theorem send_fwd (K : Dev nD × Fin 5 → ℕ) (c : Dev nD) (hr : HasR c) (d : Dev nD) (hd : d = rgt c)
    (fn : Buf (Elt F) ((upM : Memref sig .tc .vmem S1x256 .f32).view.loc (rgt c : Thread nD τ)))
    (O : CellTallies nD τ sig Unit) (W : Waits sig Unit) {α : Type} {Q : α → sProp 𝕄}
    {hsc : (upM : Memref sig .tc .vmem S1x256 .f32).view.ref.isScScratch = false}
    {hsrc : (xBot : Memref sig .tc .vmem S1x256 .f32).view.WordExact} {hdst : (upM : Memref sig .tc .vmem S1x256 .f32).view.WordExact}
    {hsem : DmaTarget.Typed .vmem (SemLoc.dma upS) (.remote (Dev.tc d) (upM : Memref sig .tc .vmem S1x256 .f32) (SemLoc.dma fwdS) hsc)}
    {k : PUnit → Prog (TpuEff nD τ sig (Elt F) Λ₀ .tc) α} :
    iprop(cellInv ER (sched m) (K (c, 1)) (fwdCell c) ∗ cellInv ER (sched m) (K (rgt c, 3)) (upCell (rgt c))
        ∗ ((xBot : Memref sig .tc .vmem S1x256 .f32).view.loc (c : Thread nD τ) ↦[(xBot : Memref sig .tc .vmem S1x256 .f32).view.set]{lent} xs m c)
        ∗ ((upM : Memref sig .tc .vmem S1x256 .f32).view.loc (rgt c : Thread nD τ) ↦[(upM : Memref sig .tc .vmem S1x256 .f32).view.set]{fullShare} fn)
        ∗ owes (c : Thread nD τ) (O + tallyAt (upCell (rgt c)) () N) W
        ∗ dutyTok ER (fwdCell c) 0 false ∗ reached ER (fwdCell c) 0
        ∗ dutyTok ER (upCell (rgt c)) 0 false ∗ reached ER (upCell (rgt c)) 0)
      ⊢ iprop(((cred (tallyAt (fwdCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xBot : Memref sig .tc .vmem S1x256 .f32) (.remote (Dev.tc d) (upM : Memref sig .tc .vmem S1x256 .f32) (SemLoc.dma fwdS) hsc) (SemLoc.dma upS) hsrc hdst hsem) k) Q) := by
  subst hd
  exact Rounds.wp_send_pointsTo 𝒱₀ ER (sched m) (c : Thread nD τ) none (c' := (rgt c : Thread nD τ))
    (src := (xBot : Memref sig .tc .vmem S1x256 .f32)) (dst := (upM : Memref sig .tc .vmem S1x256 .f32)) (q := lent) (fs := xs m c) (fd := fn)
    (r₁ := 0) (r₂ := 0) (d₁ := false) (d₂ := false) (κ₁ := K (c, 1)) (κ₂ := K (rgt c, 3))
    (by rw [duties_fwd m c hr]; exact Finset.mem_singleton_self _) (by rw [duties_up m (rgt c) (hasL_rgt c hr)]; exact Finset.mem_singleton_self _)
    () () N rfl (amount_dma m c _ 0 false) (amount_dma m (rgt c) _ 0 false) O rfl
    (Entails.of_eq (pay_fwd m c).symm)
    (by rw [pay_upR m c hr]; iintro H; iexists fn; iexact H)

theorem send_bwd (K : Dev nD × Fin 5 → ℕ) (c : Dev nD) (hl : HasL c) (d : Dev nD) (hd : d = lft c)
    (fn : Buf (Elt F) ((dnM : Memref sig .tc .vmem S1x256 .f32).view.loc (lft c : Thread nD τ)))
    (W : Waits sig Unit) {α : Type} {Q : α → sProp 𝕄}
    {hsc : (dnM : Memref sig .tc .vmem S1x256 .f32).view.ref.isScScratch = false}
    {hsrc : (xTop : Memref sig .tc .vmem S1x256 .f32).view.WordExact} {hdst : (dnM : Memref sig .tc .vmem S1x256 .f32).view.WordExact}
    {hsem : DmaTarget.Typed .vmem (SemLoc.dma dnS) (.remote (Dev.tc d) (dnM : Memref sig .tc .vmem S1x256 .f32) (SemLoc.dma bwdS) hsc)}
    {k : PUnit → Prog (TpuEff nD τ sig (Elt F) Λ₀ .tc) α} :
    iprop(cellInv ER (sched m) (K (c, 2)) (bwdCell c) ∗ cellInv ER (sched m) (K (lft c, 4)) (dnCell (lft c))
        ∗ ((xTop : Memref sig .tc .vmem S1x256 .f32).view.loc (c : Thread nD τ) ↦[(xTop : Memref sig .tc .vmem S1x256 .f32).view.set]{lent} xs m c)
        ∗ ((dnM : Memref sig .tc .vmem S1x256 .f32).view.loc (lft c : Thread nD τ) ↦[(dnM : Memref sig .tc .vmem S1x256 .f32).view.set]{fullShare} fn)
        ∗ owes (c : Thread nD τ) (tallyAt (dnCell (lft c)) () N) W
        ∗ dutyTok ER (bwdCell c) 0 false ∗ reached ER (bwdCell c) 0
        ∗ dutyTok ER (dnCell (lft c)) 0 false ∗ reached ER (dnCell (lft c)) 0)
      ⊢ iprop(((cred (tallyAt (bwdCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xTop : Memref sig .tc .vmem S1x256 .f32) (.remote (Dev.tc d) (dnM : Memref sig .tc .vmem S1x256 .f32) (SemLoc.dma bwdS) hsc) (SemLoc.dma dnS) hsrc hdst hsem) k) Q) := by
  subst hd
  exact Rounds.wp_send_pointsTo 𝒱₀ ER (sched m) (c : Thread nD τ) none (c' := (lft c : Thread nD τ))
    (src := (xTop : Memref sig .tc .vmem S1x256 .f32)) (dst := (dnM : Memref sig .tc .vmem S1x256 .f32)) (q := lent) (fs := xs m c) (fd := fn)
    (r₁ := 0) (r₂ := 0) (d₁ := false) (d₂ := false) (κ₁ := K (c, 2)) (κ₂ := K (lft c, 4))
    (by rw [duties_bwd m c hl]; exact Finset.mem_singleton_self _) (by rw [duties_dn m (lft c) (hasR_lft c hl)]; exact Finset.mem_singleton_self _)
    () () N rfl (amount_dma m c _ 0 false) (amount_dma m (lft c) _ 0 false) 0 (zero_add _).symm
    (Entails.of_eq (pay_bwd m c).symm)
    (by rw [pay_dnL m c hl]; iintro H; iexists fn; iexact H)
attribute [local sl_rounds] duties_bar duties_fwd duties_bwd duties_up duties_dn duties_later amount_bar amount_dma expect_bar
  pay_barL_true pay_barR_false pay_bar_false pay_bar_true pay_fwd pay_bwd pay_upR pay_dnL pay_up pay_dn rgt_lft lft_rgt
attribute [local sl_canon] dev1_eq dev2_eq dev3_eq dev4_eq
attribute [local sl_rounds] expect_up expect_dn expect_fwd expect_bwd

set_option maxRecDepth 65536 in
theorem body_mid (c : Dev nD) (hl : HasL c) (hr : HasR c) : SoundBody m ρ c := by
  intro K Kt
  unfold theBody
  simp only [cc0_body_eq_skeleton]; unfold cc0_body_skel
  simp only [k0_part1_eq_skeleton, k0_part2_eq_skeleton]; unfold k0_part1_skel k0_part2_skel
  simp only [semSignalWord, semSignalHereWord, semWaitWord, Prog.lift, Prog.bind_op, Prog.bind_ret, Prog.pure_eq_ret, wp_deviceId]
  have h1 : k0_cond1 c = 1#1 := (cond1_iff c).2 hl
  have h3 : k0_cond3 c = 1#1 := (cond3_iff c).2 hr
  have h5 : k0_cond5 c = 1#1 := (cond5_iff c).2 hr
  have h6 : k0_cond6 c = 1#1 := (cond6_iff c).2 hl
  have hnL : ¬ (Scalar.cmpi .ne (Scalar.extui (Scalar.xori (Scalar.cmpi .sgt (Scalar.remsi (Scalar.divsi (Dev.word c) 1#32) 16#32) 0#32) 1#1)) 0#32 = 1#1) := by
    show ¬ (Scalar.cmpi .ne (Scalar.extui (Scalar.xori (wL c) 1#1)) 0#32 = 1#1)
    rw [wL_eq, if_pos hl]; decide
  have hnR : ¬ (Scalar.cmpi .ne (Scalar.extui (Scalar.xori (Scalar.cmpi .slt (Scalar.remsi (Scalar.divsi (Dev.word c) 1#32) 16#32) 15#32) 1#1)) 0#32 = 1#1) := by
    show ¬ (Scalar.cmpi .ne (Scalar.extui (Scalar.xori (wR c) 1#1)) 0#32 = 1#1)
    rw [wR_eq, if_pos hr]; decide
  have hpL : Scalar.cmpi .ne (Scalar.extui (Scalar.cmpi .sgt (Scalar.remsi (Scalar.divsi (Dev.word c) 1#32) 16#32) 0#32)) 0#32 = 1#1 := by
    show Scalar.cmpi .ne (Scalar.extui (wL c)) 0#32 = 1#1
    rw [wL_eq, if_pos hl]; decide
  have hpR : Scalar.cmpi .ne (Scalar.extui (Scalar.cmpi .slt (Scalar.remsi (Scalar.divsi (Dev.word c) 1#32) 16#32) 15#32)) 0#32 = 1#1 := by
    show Scalar.cmpi .ne (Scalar.extui (wR c)) 0#32 = 1#1
    rw [wR_eq, if_pos hr]; decide
  simp only [h1, h3, h5, h6, hnL, hnR, hpL, hpR, ↓reduceDIte, Prog.bind_op, Prog.bind_ret]
  simp only [dev1_eq c h1, dev2_eq c h3, dev3_eq c h5, dev4_eq c h6]
  have hRl : HasR (lft c) := hasR_lft c hl
  have hLr : HasL (rgt c) := hasL_rgt c hr
  unfold bodyPre ghost invs reach payToks creds upPts dnPts
  simp only [if_pos hl, if_pos hr]
  iintro ⟨⟨⟨⟨⟨#HIbar, #HIfwd, #HIbwd, #HIup, #HIdn, #HIbarL, #HIbarR, #HIdnL, #HIupR⟩, ⟨HatB, HatF, HatW, HatU, HatD⟩,
      ⟨#HrB, #HrF, #HrW, #HrU, #HrD, #HrBL, #HrBR, #HrDL, #HrUR⟩, ⟨HtBL, HtBR, ⟨HtF, HtUR⟩, ⟨HtW, HtDL⟩⟩⟩, ⟨HcB, HcU, HcD⟩, #Hlev, ⟨%fu, Hup⟩, ⟨%fd, Hdn⟩⟩,
    Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold O₀ O₁ owedXfer leftBar rightBar
  simp only [if_pos hl, if_pos hr]
  have hsplit : ((((c : Thread nD τ).loc cc0_stg0_0) ↦{fullShare} xs m c : sProp 𝕄))
      ⊢ iprop(((xM : Memref sig .tc .vmem S256x256 .f32).view.loc (c : Thread nD τ) ↦[(xM : Memref sig .tc .vmem S256x256 .f32).view.set]{kept} xs m c)
        ∗ ((xBot : Memref sig .tc .vmem S1x256 .f32).view.loc (c : Thread nD τ) ↦[(xBot : Memref sig .tc .vmem S1x256 .f32).view.set]{lent} xs m c)
        ∗ ((xTop : Memref sig .tc .vmem S1x256 .f32).view.loc (c : Thread nD τ) ↦[(xTop : Memref sig .tc .vmem S1x256 .f32).view.set]{lent} xs m c)
        ∗ xRest m c) := x_split m c
  ihave Hx4 := hsplit $$ Hx
  icases Hx4 with ⟨HxK, HxB, HxT, HxR⟩
  have hmwb : (levAts L lv : sProp 𝕄) ⊢ MayWait (c : Thread nD τ) (.reg barS) () (tallyAt (dnCell (lft c)) () N + tallyAt (upCell (rgt c)) () N) := by
    have := mayWait_bar (F := F) c
    unfold owedXfer at this
    simpa only [if_pos hl, if_pos hr] using this
  -- the unit to the side before: c's own upper halo buffer goes to the device before it, with upCell c at round 0
  iapply (Rounds.wp_signal 𝒱₀ ER (sched m) (c : Thread nD τ) none (dst := (lft c : Thread nD τ)) (κ := K (lft c, 0))
      (d := true) (by rw [duties_bar]; exact Finset.mem_univ _) ((amount_bar m (lft c) 0 true).trans (by decide)) ()
      (tallyAt (dnCell (lft c)) () N + tallyAt (upCell (rgt c)) () N + tallyAt (barCell (rgt c)) () 1) rfl) $$ [HO HtBL Hup]
  · isplitr; · iexact HIbarL
    isplitl [HO]; · iexact HO
    isplitl [HtBL]; · iexact HtBL
    isplitl [Hup]
    · rw [pay_barL_true m c hl]
      isplitl [Hup]; · iexists fu; iexact Hup
      iexact HrU
    · iexact HrBL
  iintro HO
  -- the unit to the side after: c's own lower halo buffer goes to the device after it, with dnCell c at round 0
  iapply (Rounds.wp_signal 𝒱₀ ER (sched m) (c : Thread nD τ) none (dst := (rgt c : Thread nD τ)) (κ := K (rgt c, 0))
      (d := false) (by rw [duties_bar]; exact Finset.mem_univ _) ((amount_bar m (rgt c) 0 false).trans (by decide)) ()
      (tallyAt (dnCell (lft c)) () N + tallyAt (upCell (rgt c)) () N) rfl) $$ [HO HtBR Hdn]
  · isplitr; · iexact HIbarR
    isplitl [HO]; · iexact HO
    isplitl [HtBR]; · iexact HtBR
    isplitl [Hdn]
    · rw [pay_barR_false m c hr]
      isplitl [Hdn]; · iexists fd; iexact Hdn
      iexact HrD
    · iexact HrBR
  iintro HO
  -- the wait for the whole round of the barrier cell, owing the two halo credits
  set_option sl_exec.maxSteps 1 in sl_exec
  ihave Hp := (Entails.of_eq (bar_rest m c hl hr)) $$ HatB_pay1
  icases Hp with ⟨⟨⟨%fdL, HdnL⟩, #HrDL'⟩, ⟨⟨%fuR, HupR⟩, #HrUR'⟩⟩
  -- the forward transfer: row 255, at the lent share, into the upper halo buffer of the device after
  iapply (send_fwd m K c hr _ (dev3_eq c h5) fuR (tallyAt (dnCell (lft c)) () N) _) $$ [HxB HupR HO HtF HtUR]
  · isplitr; · iexact HIfwd
    isplitr; · iexact HIupR
    isplitl [HxB]; · iexact HxB
    isplitl [HupR]; · iexact HupR
    isplitl [HO]; · iexact HO
    isplitl [HtF]; · iexact HtF
    isplitr; · iexact HrF
    isplitl [HtUR]; · iexact HtUR
    iexact HrUR
  iintro ⟨HcF, HO⟩
  -- the backward transfer: row 0 into the lower halo buffer of the device before
  iapply (send_bwd m K c hl _ (dev4_eq c h6) fdL _) $$ [HxT HdnL HO HtW HtDL]
  · isplitr; · iexact HIbwd
    isplitr; · iexact HIdnL
    isplitl [HxT]; · iexact HxT
    isplitl [HdnL]; · iexact HdnL
    isplitl [HO]; · iexact HO
    isplitl [HtW]; · iexact HtW
    isplitr; · iexact HrW
    isplitl [HtDL]; · iexact HtDL
    iexact HrDL
  iintro ⟨HcW, HO⟩
  ihave Hout := (Entails.of_eq (out_pts c g1)) $$ Hout
  -- the loads, the three stores and the four waits on the device's own transfer cells
  sl_exec
  -- the four transfer cells close: the one duty of round 0 of each is consumed, and no later round has a duty
  imod (Rounds.cell_close ER (sched m) (Set.mem_univ (K (c, 1))) (fun h => h) (R := 1) (fun r h => duties_later m (fwdCell c) r h)) $$ [HatF] with HzF
  · isplitr; · iexact HIfwd
    iexact HatF
  imod (Rounds.cell_close ER (sched m) (Set.mem_univ (K (c, 2))) (fun h => h) (R := 1) (fun r h => duties_later m (bwdCell c) r h)) $$ [HatW] with HzW
  · isplitr; · iexact HIbwd
    iexact HatW
  imod (Rounds.cell_close ER (sched m) (Set.mem_univ (K (c, 3))) (fun h => h) (R := 1) (fun r h => duties_later m (upCell c) r h)) $$ [HatU] with HzU
  · isplitr; · iexact HIup
    iexact HatU
  imod (Rounds.cell_close ER (sched m) (Set.mem_univ (K (c, 4))) (fun h => h) (R := 1) (fun r h => duties_later m (dnCell c) r h)) $$ [HatD] with HzD
  · isplitr; · iexact HIdn
    iexact HatD
  rw [wp_ret]; imodintro
  iapply Hk
  unfold bodyPost Φ₁ Dat.owesAt Pipeline.owesWithin upPts dnPts
  rw [show (dats m ρ 0 c).owed t₀.succ = 0 from rfl, ← outAt_eq m c HatU_pay1_v HatD_pay1_v g1]
  isplitl [HatU_pay1 HatD_pay1 HzF HzW HzU HzD]
  · isplitl [HatU_pay1]; · iexists _; iexact HatU_pay1
    isplitl [HatD_pay1]; · iexists _; iexact HatD_pay1
    isplitl [HzF]; · iexact HzF
    isplitl [HzW]; · iexact HzW
    isplitl [HzU]; · iexact HzU
    iexact HzD
  isplitl [HO]
  · iexists _
    isplitr
    rotate_left
    · iexact HO
    · ipureintro; exact fun _ _ => Or.inl trivial
  isplitl [HxK HatF_pay1 HatW_pay1 HxR]
  · -- the block's two halves and the lent half's three row sets join again
    iexists _; isplitr; · (ipureintro; rfl)
    iapply (x_join m c)
    unfold xKept botPts topPts
    isplitl [HxK]; · iexact HxK
    isplitl [HatF_pay1]; · iexact HatF_pay1
    isplitl [HatW_pay1]; · iexact HatW_pay1
    iexact HxR
  iexists _; isplitr; · (ipureintro; rfl)
  ihave Hout := (Entails.of_eq (out_pts c _).symm) $$ Hout
  iexact Hout

end Mid

/-- One device's body, for a device with a neighbour on both sides. -/
theorem sound_body_mid (c : Dev nD) (hl : HasL c) (hr : HasR c) : SoundBody m ρ c := Mid.body_mid m ρ c hl hr

/-- info: 'Cert.KernelIdeal.Halo.sound_body_mid' depends on axioms: [propext, Classical.choice, Quot.sound] -/
#guard_msgs in #print axioms sound_body_mid

end Cert.KernelIdeal.Halo

end
-- ==== Proof.KBodyLast.lean ====
/-
  The body of the halo exchange on the last device of the line.

  The last device has a neighbour before it and none after it.  It pays the unit "from the side after" of the
  barrier cell of the device before it, handing over its own upper halo buffer, and the unit "from the side
  after" of its own barrier cell, handing over nothing.  After the barrier wait it holds the lower halo buffer
  of the device before it and sends its first row there.  Its own lower halo row it fills itself, by
  extrapolating its last two rows.  It then stores the 254 inner rows, waits for its upper halo row, stores
  row 0, stores row 255 from the extrapolated row, and waits until its first row has been read.  The two cells
  of the missing side never had a duty and are closed at round 0; the other two at round 1.
-/
import proofs.«900813_g7700000000000814_dist_halo_stencil_i_m256_n256_v7x_i16_f32_1_alg».proof.Proof.KLevels
import proofs.«900813_g7700000000000814_dist_halo_stencil_i_m256_n256_v7x_i16_f32_1_alg».proof.Proof.KShares
import proofs.«900813_g7700000000000814_dist_halo_stencil_i_m256_n256_v7x_i16_f32_1_alg».proof.Proof.KIndep

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace Last

/-! ## The schedule's tables at the cells the last device touches -/

section Tables

theorem duties_eq (g : GSem nD τ sig) (r : ℕ) : (sched m).duties g r
    = if r = 0 ∧ IsBar g then Finset.univ else if r = 0 ∧ IsXfer g then {false} else ∅ := rfl
theorem amount_eq (g : GSem nD τ sig) (r : ℕ) (d : Bool) : (sched m).amount g r d = if g.2 = .reg barS then 1 else N := rfl
theorem payload_eq (g : GSem nD τ sig) (r : ℕ) (d : Bool) : (sched m).payload g r d
    = if g.2 = .reg barS then (if d then barPayR g.1.1 else barPayL g.1.1)
      else if g.2 = .dma upS then upPay m g.1.1
      else if g.2 = .dma dnS then dnPay m g.1.1
      else if g.2 = .dma fwdS then botPts m g.1.1
      else if g.2 = .dma bwdS then topPts m g.1.1
      else iprop(emp) := rfl

theorem duties_bar (x : Dev nD) : (sched m).duties (barCell x) 0 = Finset.univ :=
  (duties_eq m _ _).trans (if_pos ⟨rfl, rfl, rfl⟩)

theorem amount_bar (x : Dev nD) (r : ℕ) (d : Bool) : (sched m).amount (barCell x) r d = 1 :=
  (amount_eq m _ _ _).trans (if_pos rfl)

theorem amount_dma (x : Dev nD) (q : DmaSem sig) (r : ℕ) (d : Bool) : (sched m).amount ((x : Thread nD τ), .dma q) r d = N :=
  (amount_eq m _ _ _).trans (if_neg (fun h => by cases h))

theorem expect_bar (x : Dev nD) : (sched m).expect (barCell x) 0 = 2 := by
  show ∑ d ∈ (sched m).duties (barCell x) 0, (sched m).amount (barCell x) 0 d = 2
  rw [duties_bar]; simp only [amount_bar]; rfl

theorem duties_xfer (g : GSem nD τ sig) (hg : IsXfer g) (hb : g.2 ≠ .reg barS) : (sched m).duties g 0 = {false} :=
  (duties_eq m _ _).trans ((if_neg (fun h => hb h.2.2)).trans (if_pos ⟨rfl, hg⟩))

theorem duties_later (g : GSem nD τ sig) (r : ℕ) (h : 1 ≤ r) : (sched m).duties g r = ∅ :=
  (duties_eq m _ _).trans ((if_neg (fun h' => by omega)).trans (if_neg (fun h' => by omega)))

theorem duties_none (g : GSem nD τ sig) (hb : ¬IsBar g) (hx : ¬IsXfer g) (r : ℕ) : (sched m).duties g r = ∅ :=
  (duties_eq m _ _).trans ((if_neg (fun h' => hb h'.2)).trans (if_neg (fun h' => hx h'.2)))

variable (c : Dev nD)

theorem duties_bwd (hl : HasL c) : (sched m).duties (bwdCell c) 0 = {false} :=
  duties_xfer m _ ⟨rfl, .inr (.inl ⟨rfl, hl⟩)⟩ (fun h => by cases h)
theorem duties_up (hl : HasL c) : (sched m).duties (upCell c) 0 = {false} :=
  duties_xfer m _ ⟨rfl, .inr (.inr (.inl ⟨rfl, hl⟩))⟩ (fun h => by cases h)
theorem duties_dnL (hl : HasL c) : (sched m).duties (dnCell (lft c)) 0 = {false} :=
  duties_xfer m _ ⟨rfl, .inr (.inr (.inr ⟨rfl, hasR_lft c hl⟩))⟩ (fun h => by cases h)

theorem expect_bwd (hl : HasL c) : (sched m).expect (bwdCell c) 0 = N := by
  show ∑ d ∈ (sched m).duties (bwdCell c) 0, (sched m).amount (bwdCell c) 0 d = N
  rw [duties_bwd m c hl, Finset.sum_singleton]; exact amount_dma m c _ 0 false
theorem expect_up (hl : HasL c) : (sched m).expect (upCell c) 0 = N := by
  show ∑ d ∈ (sched m).duties (upCell c) 0, (sched m).amount (upCell c) 0 d = N
  rw [duties_up m c hl, Finset.sum_singleton]; exact amount_dma m c _ 0 false

theorem dn_ne_up : (SemLoc.dma dnS : SemLoc sig) ≠ .dma upS := by decide
theorem bwd_ne_up : (SemLoc.dma bwdS : SemLoc sig) ≠ .dma upS := by decide
theorem bwd_ne_dn : (SemLoc.dma bwdS : SemLoc sig) ≠ .dma dnS := by decide
theorem bwd_ne_fwd : (SemLoc.dma bwdS : SemLoc sig) ≠ .dma fwdS := by decide

theorem fwd_ne_bwd : (SemLoc.dma fwdS : SemLoc sig) ≠ .dma bwdS := by decide
theorem fwd_ne_up : (SemLoc.dma fwdS : SemLoc sig) ≠ .dma upS := by decide
theorem fwd_ne_dn : (SemLoc.dma fwdS : SemLoc sig) ≠ .dma dnS := by decide
theorem dn_ne_fwd : (SemLoc.dma dnS : SemLoc sig) ≠ .dma fwdS := by decide
theorem dn_ne_bwd : (SemLoc.dma dnS : SemLoc sig) ≠ .dma bwdS := by decide

theorem payload_bar (x : Dev nD) (r : ℕ) (d : Bool) : (sched m).payload (barCell x) r d = if d then barPayR x else barPayL x :=
  (payload_eq m _ _ _).trans (if_pos rfl)
theorem payload_upPay (x : Dev nD) (r : ℕ) (d : Bool) : (sched m).payload (upCell x) r d = upPay m x :=
  (payload_eq m _ _ _).trans ((if_neg (fun h => by cases h)).trans (if_pos rfl))
theorem payload_dnPay (x : Dev nD) (r : ℕ) (d : Bool) : (sched m).payload (dnCell x) r d = dnPay m x :=
  (payload_eq m _ _ _).trans ((if_neg (fun h => by cases h)).trans ((if_neg dn_ne_up).trans (if_pos rfl)))
theorem payload_topPts (x : Dev nD) (r : ℕ) (d : Bool) : (sched m).payload (bwdCell x) r d = topPts m x :=
  (payload_eq m _ _ _).trans ((if_neg (fun h => by cases h)).trans ((if_neg bwd_ne_up).trans ((if_neg bwd_ne_dn).trans
    ((if_neg bwd_ne_fwd).trans (if_pos rfl)))))

/-- The unit the last device pays the device before it hands over the last device's own upper halo buffer. -/
theorem payload_barL_true (hl : HasL c) : (sched m).payload (barCell (lft c)) 0 true
    = iprop((∃ f, (upM : Memref sig .tc .vmem S1x256 .f32).view.loc (c : Thread nD τ) ↦[(upM : Memref sig .tc .vmem S1x256 .f32).view.set]{fullShare} f)
        ∗ reached ER (upCell c) 0) := by
  rw [payload_bar, if_pos rfl]; unfold barPayR; rw [if_pos (hasR_lft c hl), rgt_lft c hl]; rfl

theorem payload_bar_true (hr : ¬HasR c) : (sched m).payload (barCell c) 0 true = iprop(emp) := by
  rw [payload_bar, if_pos rfl]; unfold barPayR; rw [if_neg hr]

theorem payload_bar_false (hl : HasL c) : (sched m).payload (barCell c) 0 false
    = iprop((∃ f, (dnM : Memref sig .tc .vmem S1x256 .f32).view.loc (lft c : Thread nD τ) ↦[(dnM : Memref sig .tc .vmem S1x256 .f32).view.set]{fullShare} f)
        ∗ reached ER (dnCell (lft c)) 0) := by
  rw [payload_bar, if_neg Bool.false_ne_true]; unfold barPayL; rw [if_pos hl]; rfl

theorem payload_up : (sched m).payload (upCell c) 0 false
    = iprop(∃ f, (upM : Memref sig .tc .vmem S1x256 .f32).view.loc (c : Thread nD τ) ↦[(upM : Memref sig .tc .vmem S1x256 .f32).view.set]{fullShare} upVal m c f) :=
  payload_upPay m c 0 false

theorem payload_bwd : (sched m).payload (bwdCell c) 0 false
    = iprop((xTop : Memref sig .tc .vmem S1x256 .f32).view.loc (c : Thread nD τ) ↦[(xTop : Memref sig .tc .vmem S1x256 .f32).view.set]{lent} xs m c) :=
  payload_topPts m c 0 false

/-- What the last device's first row, landed in the lower halo buffer of the device before it, makes of that buffer. -/
theorem payload_dnL (hl : HasL c) : (sched m).payload (dnCell (lft c)) 0 false
    = iprop(∃ f, (dnM : Memref sig .tc .vmem S1x256 .f32).view.loc (lft c : Thread nD τ) ↦[(dnM : Memref sig .tc .vmem S1x256 .f32).view.set]{fullShare}
        (dnM : Memref sig .tc .vmem S1x256 .f32).view.write (Elt F) f ((xTop : Memref sig .tc .vmem S1x256 .f32).view.read (Elt F) (xs m c)) Finset.univ) := by
  rw [payload_dnPay]; unfold dnPay dnVal; simp only [if_pos (hasR_lft c hl)]; rw [rgt_lft c hl]; rfl

/-- What the barrier wait hands the last device: the lower halo buffer of the device before it. -/
theorem rest_bar (hl : HasL c) (hr : ¬HasR c) :
    (BI.bigSep (Finset.univ : Finset Bool) (fun d => (sched m).payload (barCell c) 0 d))
      = iprop(((∃ f, (dnM : Memref sig .tc .vmem S1x256 .f32).view.loc (lft c : Thread nD τ) ↦[(dnM : Memref sig .tc .vmem S1x256 .f32).view.set]{fullShare} f)
          ∗ reached ER (dnCell (lft c)) 0) ∗ emp) := by
  rw [show (Finset.univ : Finset Bool) = insert false {true} from by decide, BI.bigSep_insert (by decide), BI.bigSep_singleton,
    payload_bar_false m c hl, payload_bar_true m c hr]
  rfl

omit [FloatOps F] in
/-- The result buffer held whole is held through its whole view. -/
theorem out_pts (g : Buf (Elt F) ((c : Thread nD τ).loc cc0_stg1_0)) :
    ((((c : Thread nD τ).loc cc0_stg1_0) ↦{fullShare} g : sProp 𝕄))
      = ((oM : Memref sig .tc .vmem S256x256 .f32).view.loc (c : Thread nD τ) ↦[(oM : Memref sig .tc .vmem S256x256 .f32).view.set]{fullShare} g) := by
  rw [show (oM : Memref sig .tc .vmem S256x256 .f32).view.set = Finset.univ from View.set_whole _]

/-- With no device after it, a device's forward-send cell and lower-halo cell have no duty in any round. -/
theorem notXfer_fwd (hr : ¬HasR c) : ¬IsXfer (fwdCell c) := by
  rintro ⟨-, ⟨-, h⟩ | ⟨h, -⟩ | ⟨h, -⟩ | ⟨h, -⟩⟩
  · exact hr h
  · exact fwd_ne_bwd h
  · exact fwd_ne_up h
  · exact fwd_ne_dn h
theorem notXfer_dn (hr : ¬HasR c) : ¬IsXfer (dnCell c) := by
  rintro ⟨-, ⟨h, -⟩ | ⟨h, -⟩ | ⟨h, -⟩ | ⟨-, h⟩⟩
  · exact dn_ne_fwd h
  · exact dn_ne_bwd h
  · exact dn_ne_up h
  · exact hr h
theorem notBar_dma (x : Dev nD) (q : DmaSem sig) : ¬IsBar ((x : Thread nD τ), SemLoc.dma q) := fun h => by cases h.2

/-- What the last device owes when the kernel starts: its first row's landing, and the two barrier units. -/
theorem owed_eq (hl : HasL c) (hr : ¬HasR c) :
    O₀ c = tallyAt (dnCell (lft c)) () N + tallyAt (barCell c) () 1 + tallyAt (barCell (lft c)) () 1 := by
  unfold O₀ O₁ owedXfer leftBar rightBar; simp only [if_pos hl, if_neg hr, add_zero]

end Tables

attribute [local sl_rounds] duties_bar amount_bar amount_dma expect_bar duties_bwd duties_up duties_dnL expect_bwd expect_up
  payload_barL_true payload_bar_true payload_bar_false payload_up payload_bwd payload_dnL
attribute [local sl_canon] dev1_eq dev4_eq

/-- The body, stepped from what the last device holds when it starts. -/
theorem body (c : Dev nD) (hr : ¬HasR c) : SoundBody m ρ c := by
  have hl : HasL c := (hasL_or_hasR c).resolve_right hr
  intro K Kt
  have h1 : k0_cond1 c = 1#1 := (cond1_iff c).mpr hl
  have h3 : ¬k0_cond3 c = 1#1 := fun h => hr ((cond3_iff c).mp h)
  have h5 : ¬k0_cond5 c = 1#1 := fun h => hr ((cond5_iff c).mp h)
  have h6 : k0_cond6 c = 1#1 := (cond6_iff c).mpr hl
  have hwL : wL c = 1#1 := (wL_eq c).trans (if_pos hl)
  have hwR : wR c = 0#1 := (wR_eq c).trans (if_neg hr)
  unfold wL at hwL; unfold wR at hwR
  have hd1 : (⟨k0_dev1 c, k0_dev1_lt c h1⟩ : Dev nD) = lft c := dev1_eq c h1
  have hd4 : (⟨k0_dev4 c, k0_dev4_lt c h6⟩ : Dev nD) = lft c := dev4_eq c h6
  have hmw : (levAts L lv : sProp 𝕄) ⊢ MayWait (c : Thread nD τ) (.reg barS) () (tallyAt (dnCell (lft c)) () N) := by
    have h := mayWait_bar (F := F) c
    unfold owedXfer at h; simp only [if_pos hl, if_neg hr, add_zero] at h; exact h
  unfold theBody bodyPre ghost invs reach payToks creds
  simp only [if_pos hl, if_neg hr]
  iintro ⟨⟨⟨⟨⟨#HIbar, #HIfwd, #HIbwd, #HIup, #HIdn, #HIbarL, #HIbarR, #HIdnL, #HIupR⟩, ⟨HatB, HatF, HatW, HatU, HatD⟩,
      ⟨#HrB, #HrF, #HrW, #HrU, #HrD, #HrBL, #HrBR, #HrDL, #HrUR⟩, ⟨HtBL, HtBS, -, HtW, HtDL⟩⟩, ⟨HcB, HcU, -⟩, #Hlev, ⟨%fu, Hup⟩, ⟨%fd, Hdn⟩⟩,
    Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl, owed_eq c hl hr]
  ihave Hx := (x_split m c) $$ Hx
  icases Hx with ⟨Hxk, Hbot, Htop, Hrest⟩
  unfold xKept topPts upPts dnPts
  ihave Hout := (Entails.of_eq (out_pts c g1)) $$ Hout
  sl_unfold [cc0_body]
  sl_exec (disch := first | sl_exact h1 | sl_exact h3 | sl_exact h5 | sl_exact h6 | (sl_unfold_run_names; simp only [hwL, hwR]; decide +kernel) | sl_exact (dev4_eq c h6) | sl_exact (dev1_eq c h1))
  ihave Hp := (Entails.of_eq (rest_bar m c hl hr)) $$ HatB_pay1
  icases Hp with ⟨⟨⟨%fdl, HdnL⟩, #HrDL'⟩, -⟩
  sl_exec (disch := first | sl_exact h1 | sl_exact h3 | sl_exact h5 | sl_exact h6 | (sl_unfold_run_names; simp only [hwL, hwR]; decide +kernel) | sl_exact (dev4_eq c h6) | sl_exact (dev1_eq c h1))
  -- the two cells of the missing side never had a duty and close at round 0; the other two close after their one round
  imod (Rounds.cell_close ER (sched m) (Set.mem_univ (K (c, 1))) (fun h => h) (R := 0)
    (fun r _ => duties_none m (fwdCell c) (notBar_dma c fwdS) (notXfer_fwd c hr) r)) $$ [HatF] with HzF
  · isplitr; · iexact HIfwd
    iexact HatF
  imod (Rounds.cell_close ER (sched m) (Set.mem_univ (K (c, 4))) (fun h => h) (R := 0)
    (fun r _ => duties_none m (dnCell c) (notBar_dma c dnS) (notXfer_dn c hr) r)) $$ [HatD] with HzD
  · isplitr; · iexact HIdn
    iexact HatD
  imod (Rounds.cell_close ER (sched m) (Set.mem_univ (K (c, 2))) (fun h => h) (R := 1)
    (fun r hr' => duties_later m (bwdCell c) r hr')) $$ [HatW] with HzW
  · isplitr; · iexact HIbwd
    iexact HatW
  imod (Rounds.cell_close ER (sched m) (Set.mem_univ (K (c, 3))) (fun h => h) (R := 1)
    (fun r hr' => duties_later m (upCell c) r hr')) $$ [HatU] with HzU
  · isplitr; · iexact HIup
    iexact HatU
  rw [wp_ret]; imodintro
  -- the postcondition: both halo buffers, the four counters at zero, nothing owed, the block whole again, the result
  iapply Hk
  unfold bodyPost Φ₁ Dat.owesAt Pipeline.owesWithin upPts dnPts
  rw [show (dats m ρ 0 c).owed t₀.succ = 0 from rfl]
  isplitl [HatU_pay1 Hdn HzF HzW HzU HzD]
  · isplitl [HatU_pay1]; · iexists _; iexact HatU_pay1
    isplitl [Hdn]; · iexists _; iexact Hdn
    isplitl [HzF]; · iexact HzF
    isplitl [HzW]; · iexact HzW
    isplitl [HzU]; · iexact HzU
    iexact HzD
  isplitl [HO]
  · iexists _
    isplitr
    on_goal 2 => iexact HO
    ipureintro; exact fun _ _ => Or.inl trivial
  isplitl [Hxk Hbot HatW_pay1 Hrest]
  · iexists (xs m c); isplitr; · (ipureintro; rfl)
    iapply (x_join m c); unfold xKept topPts
    isplitl [Hxk]; · iexact Hxk
    isplitl [Hbot]; · iexact Hbot
    isplitl [HatW_pay1]; · iexact HatW_pay1
    iexact Hrest
  ihave Hout := (Entails.of_eq (out_pts c _).symm) $$ Hout
  iexists _
  isplitr
  on_goal 2 => iexact Hout
  ipureintro
  -- the result buffer: the three pieces over the block and the two filled halo rows; the lower halo row read back after
  -- its store does not depend on what the buffer held before
  refine Eq.trans ?_ (outAt_eq m c HatU_pay1_v fd g1)
  have hxv : body.sl.v68 m c = dnLoad (dnVal m c fd) := by
    rw [dnVal_indep m c fd (View.junk (dnM : Memref sig .tc .vmem S1x256 .f32).view)]
    unfold dnLoad dnVal; rw [if_neg hr]; rfl
  rw [hxv]; rfl

end Last

/-- The body lemma of a device with no neighbour after it: the last device of the line. -/
theorem sound_body_last (c : Dev nD) (hr : ¬HasR c) : SoundBody m ρ c := Last.body m ρ c hr

/-- info: 'Cert.KernelIdeal.Halo.sound_body_last' depends on axioms: [propext, Classical.choice, Quot.sound] -/
#guard_msgs in #print axioms sound_body_last

end Cert.KernelIdeal.Halo

end
-- ==== Proof.KGhost.lean ====
/-
  The exchange's ghost state when the kernel starts.

  The launch element is the rounds library's initial element over the eighty cells (five a device) and over
  ninety-six duty tokens, six for every device, listed BY PAYER: device c is dealt the token of the barrier unit
  it sends to the side before it (duty "from the side after" of the barrier cell of the device before it; at the
  start of the line the duty "from the side before" of its own barrier cell), likewise the unit to the side
  after it, the token of its forward send cell and of the upper-halo cell of the device after it, the token of its
  backward send cell and of the lower-halo cell of the device before it.  On a line the map from a cell's owner
  to a duty's payer is not a permutation of the devices, so the tokens are minted where they are spent and never
  travel.  Where a device has no neighbour the halo token in its list is one of a later round, which no duty
  answers to and which is thrown away.

  From that element every device gets the round state, the position and the reached-mark of its five cells and its
  six tokens; with the sixteen devices' semaphore counters at zero all eighty invariants are allocated under one
  update, their names and the reached-marks are recorded once (persistently), and every device takes from the
  record the invariants and marks of its own cells and of the neighbouring cells it pays into.
-/
import proofs.«900813_g7700000000000814_dist_halo_stencil_i_m256_n256_v7x_i16_f32_1_alg».proof.Proof.KLevels

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every payload can be kept in an invariant -/

instance launch_payload_storable (g : GSem nD τ sig) (r : ℕ) (d : Bool) :
    BI.Storable (upEmb : UEmb _ 𝕄) ((sched (F := F) m).payload g r d) := by
  show BI.Storable upEmb (if g.2 = .reg barS then (if d then barPayR g.1.1 else barPayL g.1.1)
    else if g.2 = .dma upS then upPay m g.1.1 else if g.2 = .dma dnS then dnPay m g.1.1
    else if g.2 = .dma fwdS then botPts m g.1.1 else if g.2 = .dma bwdS then topPts m g.1.1 else iprop(emp))
  unfold barPayL barPayR upPay dnPay
  (repeat' split) <;> infer_instance

/-! ## The cells and the tokens of the launch element -/

theorem ghost_kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The eighty cells: five a device. -/
def ghostCells : Finset (GSem nD τ sig) := Finset.univ.map ⟨kcell, ghost_kcell_injective⟩

/-- The six duties device c pays, each as (owner of the cell, which of its five cells), round, duty: the barrier unit
    to the side before it, the one to the side after it, its forward send and the upper halo of the device after it, its
    backward send and the lower halo of the device before it.  Where the neighbour is missing the barrier unit goes to
    the device's own cell, and the halo entry names round 1, where no cell has a duty. -/
def payCode (cj : Dev nD × Fin 6) : (Dev nD × Fin 5) × ℕ × Bool := match cj.2 with
  | 0 => if HasL cj.1 then ((lft cj.1, 0), 0, true) else ((cj.1, 0), 0, false)
  | 1 => if HasR cj.1 then ((rgt cj.1, 0), 0, false) else ((cj.1, 0), 0, true)
  | 2 => ((cj.1, 1), 0, false)
  | 3 => if HasR cj.1 then ((rgt cj.1, 3), 0, false) else ((cj.1, 3), 1, false)
  | 4 => ((cj.1, 2), 0, false)
  | 5 => if HasL cj.1 then ((lft cj.1, 4), 0, false) else ((cj.1, 4), 1, false)

/-- No duty is listed twice: a barrier cell's unit from the side before comes from the device before it or, at the start
    of the line, from the device itself, and these are different entries for different payers; likewise on the other side. -/
theorem payCode_injective : Function.Injective payCode := by
  intro ⟨c, j⟩ ⟨c', j'⟩
  revert c j c' j'
  decide +kernel

def payTok (cj : Dev nD × Fin 6) : GSem nD τ sig × ℕ × Bool := (kcell (payCode cj).1, (payCode cj).2)

theorem payTok_injective : Function.Injective payTok := fun a b h =>
  payCode_injective (Prod.ext (ghost_kcell_injective (congrArg (fun x : GSem nD τ sig × ℕ × Bool => x.1) h))
    (congrArg (fun x : GSem nD τ sig × ℕ × Bool => x.2) h))

/-- The ninety-six tokens: six a payer. -/
def ghostToks : Finset (GSem nD τ sig × ℕ × Bool) := Finset.univ.map ⟨payTok, payTok_injective⟩

def u₀ : UU :=
  (initOf (Pipeline.cells cfgs cellOf_inj) (Pipeline.launchToks cfgs cellOf_inj), initOf ghostCells ghostToks)

/-- One listed token. -/
def tk (cj : Dev nD × Fin 6) : sProp 𝕄 := dutyTok ER (payTok cj).1 (payTok cj).2.1 (payTok cj).2.2

/-- The six tokens dealt to payer c. -/
def dealt (c : Dev nD) : sProp 𝕄 := iprop(tk (c, 0) ∗ tk (c, 1) ∗ tk (c, 2) ∗ tk (c, 3) ∗ tk (c, 4) ∗ tk (c, 5))

/-- What the launch element deals device c: the round states of its five cells, their positions and reached-marks,
    and the tokens of the six duties it pays. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ dealt c)

omit [FloatOps F] in
private theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
private theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The exchange's half of the launch element, dealt device by device. -/
theorem fund_ghost : BI.own (ER (initOf ghostCells ghostToks)) ⊢ (|==> bigSep Finset.univ (G m) : sProp 𝕄) := by
  have hX (Φ : GSem nD τ sig → sProp 𝕄) : bigSep ghostCells Φ = bigSep Finset.univ fun c : Dev nD => bigSep Finset.univ fun k : Fin 5 => Φ (kcell (c, k)) := by
    unfold ghostCells; rw [bigSep_map, bigSep_univ_prod]; rfl
  have hT : bigSep ghostToks (fun x => (dutyTok ER x.1 x.2.1 x.2.2 : sProp 𝕄)) = bigSep Finset.univ fun c : Dev nD => dealt c := by
    unfold ghostToks; rw [bigSep_map, bigSep_univ_prod]
    exact bigSep_congr fun c _ => by unfold dealt; rw [bigSep_fin6]; rfl
  iintro HX
  imod (Rounds.fund ER (sched m) ghostCells ghostToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element yields the pipeline's own half and every device's share of the exchange's. -/
theorem hu0 : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ghost m) $$ HX with HG
  imodintro
  isplitl [HP] <;> iassumption

/-! ## The invariants allocated, and every device's share regrouped -/

omit [FloatOps F] in
/-- The four transfer semaphores are the kernel's own; -/
private theorem ownSems0_eq (c : Dev nD) : (Pipeline.ownSems0 (Ix := Unit) (Name := ℕ) (U := UU) (Lvl := ℕ) (Val := Elt F) (τ := τ) osem c : sProp 𝕄)
    = iprop(semVal (fwdCell c) 0 ∗ semVal (bwdCell c) 0 ∗ semVal (upCell c) 0 ∗ semVal (dnCell c) 0) := by
  rw [Pipeline.ownSems0_eq_of_list c osem [0, 1, 2, 3] (by decide) (by decide)]; rfl
omit [FloatOps F] in
/-- the barrier semaphore is the one semaphore outside the kernel's scope. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

/-- One device's five counters at zero and five round states become five invariants, each at some name. -/
private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ dealt c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The record every device reads from: all eighty invariants at their names, all eighty cells at round 0. -/
private def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

private instance records_persistent (K : Dev nD × Fin 5 → ℕ) : BI.Persistent (records m K) := by unfold records; infer_instance

private theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
private theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-! ### The six dealt tokens are the tokens the device pays with -/

omit [FloatOps F] in
private theorem tk_L (c : Dev nD) : (tk (c, 0) : sProp 𝕄) = if HasL c then dutyTok ER (barCell (lft c)) 0 true else dutyTok ER (barCell c) 0 false := by
  unfold tk payTok
  rw [show payCode (c, 0) = if HasL c then ((lft c, 0), 0, true) else ((c, 0), 0, false) from rfl]
  split <;> rfl
omit [FloatOps F] in
private theorem tk_R (c : Dev nD) : (tk (c, 1) : sProp 𝕄) = if HasR c then dutyTok ER (barCell (rgt c)) 0 false else dutyTok ER (barCell c) 0 true := by
  unfold tk payTok
  rw [show payCode (c, 1) = if HasR c then ((rgt c, 0), 0, false) else ((c, 0), 0, true) from rfl]
  split <;> rfl
omit [FloatOps F] in
private theorem tk_fwd (c : Dev nD) : (tk (c, 2) : sProp 𝕄) = dutyTok ER (fwdCell c) 0 false := rfl
omit [FloatOps F] in
private theorem tk_up (c : Dev nD) : (tk (c, 3) : sProp 𝕄) = if HasR c then dutyTok ER (upCell (rgt c)) 0 false else dutyTok ER (upCell c) 1 false := by
  unfold tk payTok
  rw [show payCode (c, 3) = if HasR c then ((rgt c, 3), 0, false) else ((c, 3), 1, false) from rfl]
  split <;> rfl
omit [FloatOps F] in
private theorem tk_bwd (c : Dev nD) : (tk (c, 4) : sProp 𝕄) = dutyTok ER (bwdCell c) 0 false := rfl
omit [FloatOps F] in
private theorem tk_dn (c : Dev nD) : (tk (c, 5) : sProp 𝕄) = if HasL c then dutyTok ER (dnCell (lft c)) 0 false else dutyTok ER (dnCell c) 1 false := by
  unfold tk payTok
  rw [show payCode (c, 5) = if HasL c then ((lft c, 4), 0, false) else ((c, 4), 1, false) from rfl]
  split <;> rfl

omit [FloatOps F] in
/-- A send token and the neighbour's halo token: kept where the neighbour exists, else dropped (the halo entry is then
    the unused one of round 1). -/
private theorem pair_R (c : Dev nD) :
    iprop(dutyTok ER (fwdCell c) 0 false ∗ (if HasR c then dutyTok ER (upCell (rgt c)) 0 false else dutyTok ER (upCell c) 1 false))
      ⊢ (if HasR c then iprop(dutyTok ER (fwdCell c) 0 false ∗ dutyTok ER (upCell (rgt c)) 0 false) else iprop(emp) : sProp 𝕄) := by
  by_cases hr : HasR c
  · rw [if_pos hr, if_pos hr]
  · rw [if_neg hr, if_neg hr]; iintro -; iempintro
omit [FloatOps F] in
private theorem pair_L (c : Dev nD) :
    iprop(dutyTok ER (bwdCell c) 0 false ∗ (if HasL c then dutyTok ER (dnCell (lft c)) 0 false else dutyTok ER (dnCell c) 1 false))
      ⊢ (if HasL c then iprop(dutyTok ER (bwdCell c) 0 false ∗ dutyTok ER (dnCell (lft c)) 0 false) else iprop(emp) : sProp 𝕄) := by
  by_cases hl : HasL c
  · rw [if_pos hl, if_pos hl]
  · rw [if_neg hl, if_neg hl]; iintro -; iempintro

omit [FloatOps F] in
private theorem dealt_pay (c : Dev nD) : (dealt c : sProp 𝕄) ⊢ payToks c := by
  unfold dealt payToks
  rw [tk_L, tk_R, tk_fwd, tk_up, tk_bwd, tk_dn]
  iintro ⟨H0, H1, H2, H3, H4, H5⟩
  isplitl [H0]; · iexact H0
  isplitl [H1]; · iexact H1
  isplitl [H2 H3]
  · iapply (pair_R (F := F) c); isplitl [H2] <;> iassumption
  · iapply (pair_L (F := F) c); isplitl [H4] <;> iassumption

/-- What stays with device c beside the record: its five positions and its six tokens. -/
private def linear (c : Dev nD) : sProp 𝕄 :=
  iprop((atPos ER (barCell c) 0 ∅ 0 ∗ atPos ER (fwdCell c) 0 ∅ 0 ∗ atPos ER (bwdCell c) 0 ∅ 0 ∗ atPos ER (upCell c) 0 ∅ 0 ∗ atPos ER (dnCell c) 0 ∅ 0) ∗ dealt c)

/-- A device's ghost state from the record and what stays with it.  The record holds every cell's invariant and mark,
    so the ones named through lft c and rgt c are there whether or not that neighbour exists. -/
private theorem ghost_intro (K : Dev nD × Fin 5 → ℕ) (c : Dev nD) : iprop(records m K ∗ linear c) ⊢ iprop(∃ K, ghost m K c) := by
  unfold records linear ghost invs reach
  iintro ⟨⟨#HI, #HR⟩, ⟨HaB, HaF, HaW, HaU, HaD⟩, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (lft c, 0)); iexact HI
    isplitr; · iapply (inv_at m K (rgt c, 0)); iexact HI
    isplitr; · iapply (inv_at m K (lft c, 4)); iexact HI
    iapply (inv_at m K (rgt c, 3)); iexact HI
  isplitl [HaB HaF HaW HaU HaD]
  · isplitl [HaB]; · iexact HaB
    isplitl [HaF]; · iexact HaF
    isplitl [HaW]; · iexact HaW
    isplitl [HaU]; · iexact HaU
    iexact HaD
  isplitr
  · isplitr; · iapply (reached_at (F := F) (c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (lft c, 0)); iexact HR
    isplitr; · iapply (reached_at (F := F) (rgt c, 0)); iexact HR
    isplitr; · iapply (reached_at (F := F) (lft c, 4)); iexact HR
    iapply (reached_at (F := F) (rgt c, 3)); iexact HR
  iapply (dealt_pay (F := F) c); iexact Htok

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ dealt c) : sProp 𝕄)
      ⊢ bigSep Finset.univ fun c => iprop(∃ K, ghost m K c) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) dealt).symm).trans
      (bigSep_mono fun c _ => show _ ⊢ linear c from Entails.of_eq (by unfold linear; rw [bigSep_fin5])))
    isplitl [Hat]; · iexact Hat
    iexact Htok

/-- The global step: every device's own and unscoped semaphore counters at zero, beside what the launch element dealt it,
    become every device's ghost state at some names. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

/-- info: 'Cert.KernelIdeal.Halo.hu0' depends on axioms: [propext, Classical.choice, Quot.sound] -/
#guard_msgs in #print axioms hu0

/-- info: 'Cert.KernelIdeal.Halo.glob' depends on axioms: [propext, Classical.choice, Quot.sound] -/
#guard_msgs in #print axioms glob

end Cert.KernelIdeal.Halo

end
-- ==== Proof.KLaunch.lean ====
/-
  The launch of the halo exchange on the line of sixteen devices, for any float instance.

  Given one device's body lemma at every position on the line and the exchange's ghost state dealt to every
  device, every fair execution of the sixteen kernels ends, and each device's arrays end at the contents the
  pipeline's bookkeeping names: the argument block unchanged, the result block as the body left it.

  What has to be supplied here is arithmetic over the line.  A barrier cell is owed two units in all: one by
  the device before it and one by the device after it, and where a side has no device the cell's own device
  owes that unit itself; so also the first and the last device's cells are owed exactly two.  An upper halo
  cell is owed one row's credit by the device before it and nothing when there is none; a lower halo cell
  likewise by the device after it.  These sums are what the launch hands each device to wait with.
-/
import proofs.«900813_g7700000000000814_dist_halo_stencil_i_m256_n256_v7x_i16_f32_1_alg».proof.Proof.KLevels

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem up_set : (upM : Memref sig .tc .vmem S1x256 .f32).view.set = Finset.univ := View.set_whole _
omit [FloatOps F] in
theorem dn_set : (dnM : Memref sig .tc .vmem S1x256 .f32).view.set = Finset.univ := View.set_whole _
omit [FloatOps F] in
/-- A halo buffer's points-to is the plain points-to of the whole scratch buffer. -/
theorem upPts_eq (c : Dev nD) (f : Buf (Elt F) ((c : Thread nD τ).loc cc0_scratch0)) :
    upPts c f = (((c : Thread nD τ).loc cc0_scratch0) ↦{fullShare} f : sProp 𝕄) := by unfold upPts; rw [up_set]
omit [FloatOps F] in
theorem dnPts_eq (c : Dev nD) (f : Buf (Elt F) ((c : Thread nD τ).loc cc0_scratch1)) :
    dnPts c f = (((c : Thread nD τ).loc cc0_scratch1) ↦{fullShare} f : sProp 𝕄) := by unfold dnPts; rw [dn_set]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- What the pipeline hands the body at its one point: the invariant before it, what the device owes, the two
    staging buffers. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- One device's body lemma, in the form the pipeline asks for it. -/
theorem body_obligation (hb : ∀ c, SoundBody m ρ c) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hup, Hdn⟩, Ho, Hx, Hout⟩
  iapply (hb c K fun _ => bodyPost m ρ c)
  unfold bodyPre
  isplitr []
  · isplitl [Hg Hcr Hlev Hup Hdn]
    · isplitl [Hg]; · iexact Hg
      isplitl [Hcr]; · iexact Hcr
      isplitl [Hlev]; · iexact Hlev
      isplitl [Hup]; · iexact Hup
      iexact Hdn
    isplitl [Ho]; · iexact Ho
    isplitl [Hx] <;> iassumption
  · iintro H; iexact H

/-! ## The launch credit -/

theorem dma_ne_reg (q : DmaSem sig) (s : Sem sig) : (SemLoc.dma q : SemLoc sig) ≠ .reg s := fun h => by cases h
theorem upS_ne_dnS : (SemLoc.dma upS : SemLoc sig) ≠ .dma dnS := by decide

/-- Two cells on one semaphore are the same cell exactly when they are on the same device. -/
theorem cell_eq_iff {a b : Dev nD} {s : SemLoc sig} :
    (((a : Thread nD τ), s) : GSem nD τ sig) = ((b : Thread nD τ), s) ↔ a = b :=
  ⟨fun h => congrArg (fun g : GSem nD τ sig => g.1.1) h, fun h => h ▸ rfl⟩

theorem cell_ne {a b : Dev nD} {s s' : SemLoc sig} (h : s ≠ s') :
    (((a : Thread nD τ), s) : GSem nD τ sig) ≠ ((b : Thread nD τ), s') := fun he => h (congrArg Prod.snd he)

/-- The device whose barrier cell takes device `d`'s unit "towards the side after it" / "before it". -/
def rb (d : Dev nD) : Dev nD := if HasR d then rgt d else d
def lb (d : Dev nD) : Dev nD := if HasL d then lft d else d

theorem rightBar_eq (d : Dev nD) : rightBar d = barCell (rb d) := by
  unfold rightBar rb
  by_cases h : HasR d
  · rw [if_pos h, if_pos h]
  · rw [if_neg h, if_neg h]
theorem leftBar_eq (d : Dev nD) : leftBar d = barCell (lb d) := by
  unfold leftBar lb
  by_cases h : HasL d
  · rw [if_pos h, if_pos h]
  · rw [if_neg h, if_neg h]

/-- A tally that is there only under a condition, read at a cell. -/
theorem ite_tally_apply (p : Prop) [Decidable p] (g g' : GSem nD τ sig) (n : ℕ) :
    (if p then tallyAt g () n else (0 : CellTallies nD τ sig Unit)) g' () = if p ∧ g' = g then n else 0 := by
  by_cases hp : p
  · rw [if_pos hp, tallyAt_apply]
    exact if_congr ⟨fun h => ⟨hp, h.1⟩, fun h => ⟨h.2, rfl⟩⟩ rfl rfl
  · rw [if_neg hp, if_neg (fun h : p ∧ g' = g => hp h.1), Pi.zero_apply, Finsupp.zero_apply]

/-- The transfer credits are owed to halo cells only. -/
theorem owedXfer_bar (d c : Dev nD) : owedXfer d (barCell c) () = 0 :=
  Nat.eq_zero_of_not_pos fun h => by
    obtain ⟨-, h2⟩ := owedXfer_pos h
    rcases h2 with h2 | h2
    · exact dma_ne_reg _ _ h2.symm
    · exact dma_ne_reg _ _ h2.symm

/-- What device `d` owes device `c`'s barrier cell: a unit if its side-after unit goes there, a unit if its
    side-before unit goes there. -/
theorem owed_bar (d c : Dev nD) : O₀ d (barCell c) () = (if rb d = c then 1 else 0) + (if lb d = c then 1 else 0) := by
  unfold O₀ O₁
  rw [Pi.add_apply, Finsupp.add_apply, Pi.add_apply, Finsupp.add_apply, owedXfer_bar, rightBar_eq, leftBar_eq,
    tallyAt_apply, tallyAt_apply, Nat.zero_add]
  congr 1
  · exact if_congr ⟨fun h => (cell_eq_iff.mp h.1).symm, fun h => ⟨cell_eq_iff.mpr h.symm, rfl⟩⟩ rfl rfl
  · exact if_congr ⟨fun h => (cell_eq_iff.mp h.1).symm, fun h => ⟨cell_eq_iff.mpr h.symm, rfl⟩⟩ rfl rfl

/-- Over the line every barrier cell is owed two units: the inner cells one from each neighbour, the first and the
    last cell one from their one neighbour and one from their own device. -/
theorem sum_bar (c : Dev nD) : (∑ d : Dev nD, ((if rb d = c then 1 else 0) + (if lb d = c then 1 else 0))) = 2 := by
  revert c; decide

/-- What device `d` owes device `c`'s upper halo cell: a row's credit if `c` is the device after `d`. -/
theorem owed_up (d c : Dev nD) : O₀ d (upCell c) () = if HasR d ∧ upCell c = upCell (rgt d) then N else 0 := by
  unfold O₀ O₁ owedXfer
  rw [Pi.add_apply, Finsupp.add_apply, Pi.add_apply, Finsupp.add_apply, Pi.add_apply, Finsupp.add_apply,
    ite_tally_apply, ite_tally_apply, rightBar_eq, leftBar_eq,
    tallyAt_ne_cell (cell_ne (dma_ne_reg _ _)), tallyAt_ne_cell (cell_ne (dma_ne_reg _ _)), Finsupp.zero_apply, Nat.add_zero, Nat.add_zero,
    if_neg (fun h : HasL d ∧ upCell c = dnCell (lft d) => cell_ne upS_ne_dnS h.2), Nat.zero_add]

/-- What device `d` owes device `c`'s lower halo cell: a row's credit if `c` is the device before `d`. -/
theorem owed_dn (d c : Dev nD) : O₀ d (dnCell c) () = if HasL d ∧ dnCell c = dnCell (lft d) then N else 0 := by
  unfold O₀ O₁ owedXfer
  rw [Pi.add_apply, Finsupp.add_apply, Pi.add_apply, Finsupp.add_apply, Pi.add_apply, Finsupp.add_apply,
    ite_tally_apply, ite_tally_apply, rightBar_eq, leftBar_eq,
    tallyAt_ne_cell (cell_ne (dma_ne_reg _ _)), tallyAt_ne_cell (cell_ne (dma_ne_reg _ _)), Finsupp.zero_apply, Nat.add_zero, Nat.add_zero,
    if_neg (fun h : HasR d ∧ dnCell c = upCell (rgt d) => cell_ne upS_ne_dnS.symm h.2), Nat.add_zero]

theorem up_iff (c d : Dev nD) (h : HasL c) : (HasR d ∧ upCell c = upCell (rgt d)) ↔ d = lft c :=
  ⟨fun ⟨hr, he⟩ => by rw [cell_eq_iff.mp he, lft_rgt d hr],
   fun hd => by subst hd; exact ⟨hasR_lft c h, by rw [rgt_lft c h]⟩⟩
theorem dn_iff (c d : Dev nD) (h : HasR c) : (HasL d ∧ dnCell c = dnCell (lft d)) ↔ d = rgt c :=
  ⟨fun ⟨hl, he⟩ => by rw [cell_eq_iff.mp he, rgt_lft d hl],
   fun hd => by subst hd; exact ⟨hasL_rgt c h, by rw [lft_rgt c h]⟩⟩

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, sum_bar]

omit [FloatOps F] in
theorem launch_up (c : Dev nD) (h : HasL c) :
    tallyOn (upCell c) (launchCredit (Pipeline.owing O₀) 0 (upCell c)) = (tallyAt (upCell c) () N : CellTallies nD τ sig Unit) := by
  unfold tallyAt; refine congrArg _ (Finsupp.ext fun u => ?_); cases u
  rw [Pipeline.launchCredit_owing, Finsupp.single_eq_same,
    Finset.sum_congr rfl fun d _ => (owed_up d c).trans (if_congr (up_iff c d h) rfl rfl),
    Finset.sum_ite_eq' Finset.univ (lft c) fun _ => N, if_pos (Finset.mem_univ _)]

omit [FloatOps F] in
theorem launch_dn (c : Dev nD) (h : HasR c) :
    tallyOn (dnCell c) (launchCredit (Pipeline.owing O₀) 0 (dnCell c)) = (tallyAt (dnCell c) () N : CellTallies nD τ sig Unit) := by
  unfold tallyAt; refine congrArg _ (Finsupp.ext fun u => ?_); cases u
  rw [Pipeline.launchCredit_owing, Finsupp.single_eq_same,
    Finset.sum_congr rfl fun d _ => (owed_dn d c).trans (if_congr (dn_iff c d h) rfl rfl),
    Finset.sum_ite_eq' Finset.univ (rgt c) fun _ => N, if_pos (Finset.mem_univ _)]

omit [FloatOps F] in
/-- The credit the launch deals device `c` covers its three waits on cells others pay. -/
theorem creds_of_launch (c : Dev nD) : (Pipeline.launchCred O₀ c : sProp 𝕄) ⊢ creds c := by
  unfold Pipeline.launchCred creds
  rw [bigSep_univ_at _ (SemLoc.reg barS), launch_bar,
    bigSep_erase (i := SemLoc.dma upS) (Finset.mem_erase.mpr ⟨dma_ne_reg _ _, Finset.mem_univ _⟩)]
  refine sep_mono_right ((sep_mono_left ?_).trans (sep_mono_right ?_))
  · by_cases h : HasL c
    · refine Entails.of_eq ?_
      rw [if_pos h, launch_up c h]
    · rw [if_neg h]; iintro -; iempintro
  · by_cases h : HasR c
    · rw [if_pos h, ← launch_dn c h]
      exact bigSep_elim (Finset.mem_erase.mpr ⟨upS_ne_dnS.symm, Finset.mem_erase.mpr ⟨dma_ne_reg _ _, Finset.mem_univ _⟩⟩)
    · rw [if_neg h]; iintro -; iempintro

/-! ## The launch theorem's side conditions -/

omit [FloatOps F] in
/-- The four transfer semaphores are the kernel's own. -/
theorem ownSems0_eq (c : Dev nD) : (Pipeline.ownSems0 (Ix := Unit) (Name := ℕ) (U := UU) (Lvl := ℕ) (Val := Elt F) (τ := τ) osem c : sProp 𝕄)
    = iprop(semVal (fwdCell c) 0 ∗ semVal (bwdCell c) 0 ∗ semVal (upCell c) 0 ∗ semVal (dnCell c) 0) := by
  rw [Pipeline.ownSems0_eq_of_list c osem [0, 1, 2, 3] (by decide) (by decide)]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hu⟩, ⟨%g, Hd⟩⟩
  isplitl [Hs]; · iexact Hs
  isplitl [Hu]
  · iexists f; rw [upPts_eq]; iexact Hu
  · iexists g; rw [dnPts_eq]; iexact Hd

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hu⟩, ⟨%g, Hd⟩, H1, H2, H3, H4⟩
  isplitr; · iempintro
  isplitl [H1 H2 H3 H4]
  · isplitl [H1]; · iexact H1
    isplitl [H2]; · iexact H2
    isplitl [H3]; · iexact H3
    iexact H4
  isplitl [Hu]
  · iexists f; rw [← upPts_eq]; iexact Hu
  · iexists g; rw [← dnPts_eq]; iexact Hd

/-- The pipeline's own waits, on its two staging cells, are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-! ## The run -/

/-- A device's arrays after the pipeline's one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every fair execution of the sixteen kernels (each shaking hands
    with its neighbours on the barrier semaphore, then sending its edge rows along the line) ends, and every final
    state has each device's two arrays at `finalA`. -/
theorem run_main (hb : ∀ c, SoundBody m ρ c) (G : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := fun c => iprop(∃ K, ghost m K c)) (u₀ := u₀)
    (hu₀ := hu₀)
    (hglob := hglob)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

/-- The result array after the run holds the block the body left in its staging buffer: the result window's one
    block is the whole array, and it is written back, unmasked, at the one point. -/
theorem finalA_out (c : Dev nD) : finalA m ρ c (1 : Fin 2) = outAt m c := by
  have h := (dats (F := F) m ρ 0 c).arrAt_succ (1 : Fin 2) t₀
  rw [show (cfg0.win (1 : Fin 2)).flush t₀ = true from flush0_1 t₀, if_pos rfl] at h
  exact h.trans (Memref.write_access_unit_zero_univ (Elt F) main_v1 (funext fun a => Nat.zero_mul _) _ _ _)

/-- info: 'Cert.KernelIdeal.Halo.run_main' depends on axioms: [propext, Classical.choice, Quot.sound] -/
#guard_msgs in #print axioms run_main

end Cert.KernelIdeal.Halo

end
-- ==== Proof.WDefs.lean ====
/-
  The kernel side's vocabulary, for any float instance.

  Sixteen devices stand in a line; device c holds rows 256c … 256c+255 of the array.  Device c has a
  neighbour before it when c > 0 and one after it when c < 15.  Each device sends its last row to the
  neighbour after it (which keeps it in its upper halo row) and its first row to the neighbour before it
  (which keeps it in its lower halo row); a device at an end of the line fills the halo row it is not sent
  by extrapolating its own two outermost rows.  The result block is then written in three pieces: rows
  1 … 254 from the block alone, row 0 with the upper halo row, row 255 with the lower halo row.
-/
import proofs.«900813_g7700000000000814_dist_halo_stencil_i_m256_n256_v7x_i16_f32_1_alg».proof.Proof.Gen.Kernel
import proofs.«900813_g7700000000000814_dist_halo_stencil_i_m256_n256_v7x_i16_f32_1_alg».proof.Proof.Gen.Kernel.Skeleton

noncomputable section

namespace Cert.Kernel.Halo

open Cert.Kernel Cert.Kernel.Gen
open Idealize.ShloMosaic Idealize.ShloMosaic.TcCoe
open Idealize.SL Idealize.SL.Sem

variable {F : FTy → Type} [FloatOps F]

/-! ## The line of devices -/

/-- Device `c` has a neighbour before it; after it. -/
abbrev HasL (c : Dev nD) : Prop := 0 < c.val
abbrev HasR (c : Dev nD) : Prop := c.val < 15

/-- The neighbour before `c` (for `c = 0`: `0` itself, never used) and the one after it (for `c = 15`: `15`). -/
def lft (c : Dev nD) : Dev nD := ⟨c.val - 1, Nat.lt_of_le_of_lt (Nat.sub_le _ _) c.isLt⟩
def rgt (c : Dev nD) : Dev nD := ⟨min (c.val + 1) 15, Nat.lt_of_le_of_lt (Nat.min_le_right _ _) (by decide)⟩

theorem rgt_lft (c : Dev nD) (h : HasL c) : rgt (lft c) = c := by revert c; decide
theorem lft_rgt (c : Dev nD) (h : HasR c) : lft (rgt c) = c := by revert c; decide
theorem hasR_lft (c : Dev nD) (h : HasL c) : HasR (lft c) := by revert c; decide
theorem hasL_rgt (c : Dev nD) (h : HasR c) : HasL (rgt c) := by revert c; decide
theorem lft_ne (c : Dev nD) (h : HasL c) : lft c ≠ c := by revert c; decide
theorem rgt_ne (c : Dev nD) (h : HasR c) : rgt c ≠ c := by revert c; decide
theorem lft_ne_rgt (c : Dev nD) (hl : HasL c) (hr : HasR c) : lft c ≠ rgt c := by revert c; decide
theorem hasL_or_hasR (c : Dev nD) : HasL c ∨ HasR c := by revert c; decide
theorem lft_val (c : Dev nD) : (lft c).val = c.val - 1 := rfl
theorem rgt_val (c : Dev nD) (h : HasR c) : (rgt c).val = c.val + 1 := by revert c; decide
theorem lft_inj (a b : Dev nD) (ha : HasL a) (hb : HasL b) (h : lft a = lft b) : a = b := by revert a b; decide
theorem rgt_inj (a b : Dev nD) (ha : HasR a) (hb : HasR b) (h : rgt a = rgt b) : a = b := by revert a b; decide

/-! ## The printed conditions and device chains on the line -/

theorem cond1_iff (c : Dev nD) : k0_cond1 c = 1#1 ↔ HasL c := by revert c; decide +kernel
theorem cond3_iff (c : Dev nD) : k0_cond3 c = 1#1 ↔ HasR c := by revert c; decide +kernel
theorem cond5_iff (c : Dev nD) : k0_cond5 c = 1#1 ↔ HasR c := by revert c; decide +kernel
theorem cond6_iff (c : Dev nD) : k0_cond6 c = 1#1 ↔ HasL c := by revert c; decide +kernel

/-- The two signals and the two transfers address the neighbours. -/
theorem dev1_eq (c : Dev nD) (h : k0_cond1 c = 1#1) : (⟨k0_dev1 c, k0_dev1_lt c h⟩ : Dev nD) = lft c := by revert c; decide +kernel
theorem dev2_eq (c : Dev nD) (h : k0_cond3 c = 1#1) : (⟨k0_dev2 c, k0_dev2_lt c h⟩ : Dev nD) = rgt c := by revert c; decide +kernel
theorem dev3_eq (c : Dev nD) (h : k0_cond5 c = 1#1) : (⟨k0_dev3 c, k0_dev3_lt c h⟩ : Dev nD) = rgt c := by revert c; decide +kernel
theorem dev4_eq (c : Dev nD) (h : k0_cond6 c = 1#1) : (⟨k0_dev4 c, k0_dev4_lt c h⟩ : Dev nD) = lft c := by revert c; decide +kernel

/-- The two one-bit words the body branches on: "a neighbour before me", "a neighbour after me". -/
def wL (c : Dev nD) : BitVec 1 := Scalar.cmpi .sgt (Scalar.remsi (Scalar.divsi (Dev.word c) 1#32) 16#32) 0#32
def wR (c : Dev nD) : BitVec 1 := Scalar.cmpi .slt (Scalar.remsi (Scalar.divsi (Dev.word c) 1#32) 16#32) 15#32
theorem wL_eq (c : Dev nD) : wL c = if HasL c then 1#1 else 0#1 := by revert c; decide +kernel
theorem wR_eq (c : Dev nD) : wR c = if HasR c then 1#1 else 0#1 := by revert c; decide +kernel

/-! ## Memrefs and rectangles -/

abbrev xM : Memref sig .tc .vmem S256x256 .f32 := Memref.whole cc0_stg0_0
abbrev oM : Memref sig .tc .vmem S256x256 .f32 := Memref.whole cc0_stg1_0
abbrev upM : Memref sig .tc .vmem S1x256 .f32 := Memref.whole cc0_scratch0
abbrev dnM : Memref sig .tc .vmem S1x256 .f32 := Memref.whole cc0_scratch1

/-- One row of the block, at rows 0, 1, 254, 255; 254 rows from row 0, 1, 2; the halo buffers' one row. -/
abbrev r0 : Rect S256x256 := Rect.unit (s := S256x256) ![0, 0] S1x256.size inb_S256x256_S1x256_0_0
abbrev r1 : Rect S256x256 := Rect.unit (s := S256x256) ![1, 0] S1x256.size inb_S256x256_S1x256_1_0
abbrev r254 : Rect S256x256 := Rect.unit (s := S256x256) ![254, 0] S1x256.size inb_S256x256_S1x256_254_0
abbrev r255 : Rect S256x256 := Rect.unit (s := S256x256) ![255, 0] S1x256.size inb_S256x256_S1x256_255_0
abbrev q0 : Rect S256x256 := Rect.unit (s := S256x256) ![0, 0] S254x256.size inb_S256x256_S254x256_0_0
abbrev q1 : Rect S256x256 := Rect.unit (s := S256x256) ![1, 0] S254x256.size inb_S256x256_S254x256_1_0
abbrev q2 : Rect S256x256 := Rect.unit (s := S256x256) ![2, 0] S254x256.size inb_S256x256_S254x256_2_0
abbrev h0 : Rect S1x256 := Rect.unit (s := S1x256) ![0, 0] S1x256.size inb_S1x256_S1x256_0_0

/-- The block's last and first row as memrefs: the sources of the two transfers. -/
abbrev xBot : Memref sig .tc .vmem S1x256 .f32 := (xM : Memref sig .tc .vmem S256x256 .f32).slice r255 (fun _ => rfl)
abbrev xTop : Memref sig .tc .vmem S1x256 .f32 := (xM : Memref sig .tc .vmem S256x256 .f32).slice r0 (fun _ => rfl)

/-! ## Contents -/

variable (m : (ℓ : Loc nD τ sig) → Buf (Elt F) ℓ)

/-- Device `c`'s block as the kernel finds it staged: its argument array. -/
def xs (c : Dev nD) : (cc0_stg0_0 : Ref sig .tc).ty.Contents (Elt F) :=
  (win0_0.blk (0 : Fin 1)).view.read (Elt F) (m ((c : Thread nD τ).loc main_arg0))

/-- Rows of a staged block, as a load reads them. -/
def row (r : Rect S256x256) (x : (cc0_stg0_0 : Ref sig .tc).ty.Contents (Elt F)) :=
  (xM : Memref sig .tc .vmem S256x256 .f32).view.readAt (Elt F) r.toLoadRect x

/-- What a transfer carries: the source row read through the source memref's view. -/
def botRow (c : Dev nD) := (xBot : Memref sig .tc .vmem S1x256 .f32).view.read (Elt F) (xs m c)
def topRow (c : Dev nD) := (xTop : Memref sig .tc .vmem S1x256 .f32).view.read (Elt F) (xs m c)

/-- The upper halo buffer of device `c` once filled: the last row of the device before it, as the transfer lands it
    over whatever the buffer held (every element is overwritten), or at the line's start the extrapolation the
    device stores itself. -/
def upVal (c : Dev nD) (f : Buf (Elt F) ((upM : Memref sig .tc .vmem S1x256 .f32).view.loc (c : Thread nD τ))) :
    Buf (Elt F) ((upM : Memref sig .tc .vmem S1x256 .f32).view.loc (c : Thread nD τ)) :=
  if HasL c then (upM : Memref sig .tc .vmem S1x256 .f32).view.write (Elt F) f (botRow m (lft c)) Finset.univ
  else ((upM : Memref sig .tc .vmem S1x256 .f32).access h0 : View sig .tc _ _ _).write (Elt F) f
    (k0_pay2 (row r0 (xs m c)) (row r1 (xs m c))) Finset.univ

/-- The lower halo buffer of device `c` once filled: the first row of the device after it, or at the line's end
    the extrapolation. -/
def dnVal (c : Dev nD) (f : Buf (Elt F) ((dnM : Memref sig .tc .vmem S1x256 .f32).view.loc (c : Thread nD τ))) :
    Buf (Elt F) ((dnM : Memref sig .tc .vmem S1x256 .f32).view.loc (c : Thread nD τ)) :=
  if HasR c then (dnM : Memref sig .tc .vmem S1x256 .f32).view.write (Elt F) f (topRow m (rgt c)) Finset.univ
  else ((dnM : Memref sig .tc .vmem S1x256 .f32).access h0 : View sig .tc _ _ _).write (Elt F) f
    (k0_pay3 (row r255 (xs m c)) (row r254 (xs m c))) Finset.univ

/-- A halo buffer's one row as a load reads it. -/
def upLoad (u : (cc0_scratch0 : Ref sig .tc).ty.Contents (Elt F)) := (upM : Memref sig .tc .vmem S1x256 .f32).view.readAt (Elt F) h0.toLoadRect u
def dnLoad (u : (cc0_scratch1 : Ref sig .tc).ty.Contents (Elt F)) := (dnM : Memref sig .tc .vmem S1x256 .f32).view.readAt (Elt F) h0.toLoadRect u

/-- The three pieces the body stores: the 254 inner rows; row 0; row 255. -/
def midPiece (x : (cc0_stg0_0 : Ref sig .tc).ty.Contents (Elt F)) : FVec F S254x256 .f32 :=
  k0_pay6 (k0_pay4 ((xM : Memref sig .tc .vmem S256x256 .f32).view.readAt (Elt F) q0.toLoadRect x)) k0_pay5
    ((xM : Memref sig .tc .vmem S256x256 .f32).view.readAt (Elt F) q1.toLoadRect x)
    ((xM : Memref sig .tc .vmem S256x256 .f32).view.readAt (Elt F) q2.toLoadRect x)
def topPiece (x : (cc0_stg0_0 : Ref sig .tc).ty.Contents (Elt F)) (u : (cc0_scratch0 : Ref sig .tc).ty.Contents (Elt F)) : FVec F S1x256 .f32 :=
  k0_pay7 (upLoad u) (row r0 x) (row r1 x)
def botPiece (x : (cc0_stg0_0 : Ref sig .tc).ty.Contents (Elt F)) (d : (cc0_scratch1 : Ref sig .tc).ty.Contents (Elt F)) : FVec F S1x256 .f32 :=
  k0_pay1 (k0_pay8 (row r254 x)) (Scalar.ofBits .f32 0x3E800000#32) (row r255 x) (dnLoad d)

/-- The result buffer after the three stores, over what it held before. -/
def out3 (x : (cc0_stg0_0 : Ref sig .tc).ty.Contents (Elt F)) (u : (cc0_scratch0 : Ref sig .tc).ty.Contents (Elt F))
    (d : (cc0_scratch1 : Ref sig .tc).ty.Contents (Elt F)) (o : (cc0_stg1_0 : Ref sig .tc).ty.Contents (Elt F)) :
    (cc0_stg1_0 : Ref sig .tc).ty.Contents (Elt F) :=
  ((oM : Memref sig .tc .vmem S256x256 .f32).access r255 : View sig .tc _ _ _).write (Elt F)
    (((oM : Memref sig .tc .vmem S256x256 .f32).access r0 : View sig .tc _ _ _).write (Elt F)
      (((oM : Memref sig .tc .vmem S256x256 .f32).access q1 : View sig .tc _ _ _).write (Elt F) o (midPiece x) Finset.univ)
      (topPiece x u) Finset.univ)
    (botPiece x d) Finset.univ

/-- The result block of device `c`: the three pieces over its staged block and its two filled halo rows.  (The
    pieces overwrite every row of the result, and a filled halo row overwrites every element of its buffer, so what
    the three buffers held before does not matter: the block and its first row stand in for those contents.) -/
def outAt (c : Dev nD) : (cc0_stg1_0 : Ref sig .tc).ty.Contents (Elt F) :=
  out3 (xs m c) (upVal m c (topRow m c)) (dnVal m c (topRow m c)) (xs m c)

end Cert.Kernel.Halo

end
-- ==== Proof.WProto.lean ====
/-
  The protocol of the halo exchange, for any float instance: which semaphore cells there are, who pays into
  each and what a payment hands the cell's owner, what each device owes when the kernel starts, in which
  order cells may be waited on, and what one device's body starts from and ends with.

  Every device owns five cells.  Its barrier cell is paid two units, one "from the side before it" and one
  "from the side after it": by the neighbour on that side where there is one, else by the device itself.  A
  neighbour's unit hands over that neighbour's halo buffer facing this device: that is what allows this
  device to send a row into it, and says the neighbour has entered the kernel.  The forward-send cell and the
  backward-send cell are paid when this device's own transfer has read its source row; what comes back is the
  share of the row that was lent.  The upper-halo cell is paid when the transfer from the device before has
  landed, and hands back the upper halo buffer holding that device's last row; the lower-halo cell likewise
  with the first row of the device after.  A device at an end of the line has no transfer on that side: those
  two cells have no duty at all.
-/
import proofs.«900813_g7700000000000814_dist_halo_stencil_i_m256_n256_v7x_i16_f32_1_alg».proof.Proof.WDefs
import proofs.«900813_g7700000000000814_dist_halo_stencil_i_m256_n256_v7x_i16_f32_1_alg».proof.Proof.Gen.Kernel.Launch
import proofs.«900813_g7700000000000814_dist_halo_stencil_i_m256_n256_v7x_i16_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

/-- The runtime's barrier semaphore; the forward (last row, to the device after) and backward (first row, to
    the device before) transfers' send semaphores; the upper and lower halo buffers' receive semaphores. -/
abbrev barS : Sem sig := (SemArray.scalar (sig.barrier 0 rfl) : Sems sig S_).sem
abbrev fwdS : DmaSem sig := ((cc0_scratch2.slice (Rect.unit (s := S2) ![0] S1.size inb_S2_S1_0)).squeeze S_ squeezes_S1_S_).sem
abbrev bwdS : DmaSem sig := ((cc0_scratch2.slice (Rect.unit (s := S2) ![1] S1.size inb_S2_S1_1)).squeeze S_ squeezes_S1_S_).sem
abbrev upS : DmaSem sig := ((cc0_scratch3.slice (Rect.unit (s := S2) ![0] S1.size inb_S2_S1_0)).squeeze S_ squeezes_S1_S_).sem
abbrev dnS : DmaSem sig := ((cc0_scratch3.slice (Rect.unit (s := S2) ![1] S1.size inb_S2_S1_1)).squeeze S_ squeezes_S1_S_).sem

theorem fwdS_eq : fwdS = (2 : DmaSem sig) := by decide
theorem bwdS_eq : bwdS = (3 : DmaSem sig) := by decide
theorem upS_eq : upS = (4 : DmaSem sig) := by decide
theorem dnS_eq : dnS = (5 : DmaSem sig) := by decide

abbrev barCell (c : Dev nD) : GSem nD τ sig := ((c : Thread nD τ), .reg barS)
abbrev fwdCell (c : Dev nD) : GSem nD τ sig := ((c : Thread nD τ), .dma fwdS)
abbrev bwdCell (c : Dev nD) : GSem nD τ sig := ((c : Thread nD τ), .dma bwdS)
abbrev upCell (c : Dev nD) : GSem nD τ sig := ((c : Thread nD τ), .dma upS)
abbrev dnCell (c : Dev nD) : GSem nD τ sig := ((c : Thread nD τ), .dma dnS)

/-- The kernel's own (scoped) semaphores, as the launch indexes them; all five of a device's cells. -/
abbrev osem : Fin 4 → SemLoc sig := fun | 0 => .dma fwdS | 1 => .dma bwdS | 2 => .dma upS | 3 => .dma dnS
abbrev csem : Fin 5 → SemLoc sig := fun | 0 => .reg barS | 1 => .dma fwdS | 2 => .dma bwdS | 3 => .dma upS | 4 => .dma dnS
abbrev kcell (ck : Dev nD × Fin 5) : GSem nD τ sig := ((ck.1 : Thread nD τ), csem ck.2)

/-- The credit of one row's transfer. -/
abbrev N : ℕ := (upM : Memref sig .tc .vmem S1x256 .f32).view.dmaCredit
theorem N_pos : 0 < N := View.dmaCredit_pos _ (by decide)

/-! ## Points-to facts -/

/-- Device `c`'s upper / lower halo buffer, whole, at contents `f`. -/
def upPts (c : Dev nD) (f : Buf (Elt F) ((upM : Memref sig .tc .vmem S1x256 .f32).view.loc (c : Thread nD τ))) : sProp 𝕄 :=
  (upM : Memref sig .tc .vmem S1x256 .f32).view.loc (c : Thread nD τ) ↦[(upM : Memref sig .tc .vmem S1x256 .f32).view.set]{fullShare} f
def dnPts (c : Dev nD) (f : Buf (Elt F) ((dnM : Memref sig .tc .vmem S1x256 .f32).view.loc (c : Thread nD τ))) : sProp 𝕄 :=
  (dnM : Memref sig .tc .vmem S1x256 .f32).view.loc (c : Thread nD τ) ↦[(dnM : Memref sig .tc .vmem S1x256 .f32).view.set]{fullShare} f

/-- The share of a source row a transfer is lent while the body goes on reading the block with the other half. -/
abbrev lent : PosShare TreeShare := fullShare.left
abbrev kept : PosShare TreeShare := fullShare.right

/-- The lent half of device `c`'s last / first row of its staged block. -/
def botPts (c : Dev nD) : sProp 𝕄 :=
  (xBot : Memref sig .tc .vmem S1x256 .f32).view.loc (c : Thread nD τ) ↦[(xBot : Memref sig .tc .vmem S1x256 .f32).view.set]{lent} xs m c
def topPts (c : Dev nD) : sProp 𝕄 :=
  (xTop : Memref sig .tc .vmem S1x256 .f32).view.loc (c : Thread nD τ) ↦[(xTop : Memref sig .tc .vmem S1x256 .f32).view.set]{lent} xs m c

omit [FloatOps F] in
instance upPts_storable (c : Dev nD) (f) : BI.Storable (upEmb : UEmb _ 𝕄) (upPts (F := F) c f) := by unfold upPts; infer_instance
omit [FloatOps F] in
instance dnPts_storable (c : Dev nD) (f) : BI.Storable (upEmb : UEmb _ 𝕄) (dnPts (F := F) c f) := by unfold dnPts; infer_instance
omit [FloatOps F] in
instance botPts_storable (c : Dev nD) : BI.Storable (upEmb : UEmb _ 𝕄) (botPts (F := F) m c) := by unfold botPts; infer_instance
omit [FloatOps F] in
instance topPts_storable (c : Dev nD) : BI.Storable (upEmb : UEmb _ 𝕄) (topPts (F := F) m c) := by unfold topPts; infer_instance

/-! ## The schedule -/

/-- What the unit from the side before `c` hands `c`: the lower halo buffer of the device before it, and that
    that device stands at round 0 of its lower-halo cell; from the side after: the upper halo buffer of the device
    after it and its upper-halo cell at round 0.  A unit a device at an end pays itself hands over nothing. -/
def barPayL (c : Dev nD) : sProp 𝕄 := if HasL c then iprop((∃ f, dnPts (lft c) f) ∗ reached ER (dnCell (lft c)) 0) else iprop(emp)
def barPayR (c : Dev nD) : sProp 𝕄 := if HasR c then iprop((∃ f, upPts (rgt c) f) ∗ reached ER (upCell (rgt c)) 0) else iprop(emp)
/-- A landing hands the halo buffer back, every element overwritten by the row sent. -/
def upPay (c : Dev nD) : sProp 𝕄 := iprop(∃ f, upPts c (upVal m c f))
def dnPay (c : Dev nD) : sProp 𝕄 := iprop(∃ f, dnPts c (dnVal m c f))

abbrev IsBar (g : GSem nD τ sig) : Prop := g.1.2 = .tc ∧ g.2 = .reg barS
/-- A transfer cell with a duty: a send cell on a device with a neighbour on that side, a receive cell on a device
    with a neighbour on the other. -/
abbrev IsXfer (g : GSem nD τ sig) : Prop :=
  g.1.2 = .tc ∧ ((g.2 = .dma fwdS ∧ HasR g.1.1) ∨ (g.2 = .dma bwdS ∧ HasL g.1.1) ∨ (g.2 = .dma upS ∧ HasL g.1.1) ∨ (g.2 = .dma dnS ∧ HasR g.1.1))

/-- One round, round 0: a barrier cell has the duties `false` (the unit from the side before) and `true` (from the
    side after) of one unit each; a transfer cell with a neighbour to serve it the one duty `false` of a row's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayR g.1.1 else barPayL g.1.1)
    else if g.2 = .dma upS then upPay m g.1.1
    else if g.2 = .dma dnS then dnPay m g.1.1
    else if g.2 = .dma fwdS then botPts m g.1.1
    else if g.2 = .dma bwdS then topPts m g.1.1
    else iprop(emp)
  amount_pos g _ _ _ := by
    by_cases h : g.2 = .reg barS
    · rw [if_pos h]; exact Nat.one_pos
    · rw [if_neg h]; exact N_pos

/-! ## What each device owes at launch; the levels -/

/-- The barrier cell device `c`'s first / second signal pays: the neighbour's on that side, else its own. -/
def leftBar (c : Dev nD) : GSem nD τ sig := if HasL c then barCell (lft c) else barCell c
def rightBar (c : Dev nD) : GSem nD τ sig := if HasR c then barCell (rgt c) else barCell c

/-- The receive credits device `c` owes: the lower-halo cell of the device before it (its backward transfer), the
    upper-halo cell of the device after it (its forward transfer, issued first). -/
def owedXfer (c : Dev nD) : CellTallies nD τ sig Unit :=
  (if HasL c then tallyAt (dnCell (lft c)) () N else 0) + (if HasR c then tallyAt (upCell (rgt c)) () N else 0)
def O₁ (c : Dev nD) : CellTallies nD τ sig Unit := owedXfer c + tallyAt (rightBar c) () 1
def O₀ (c : Dev nD) : CellTallies nD τ sig Unit := O₁ c + tallyAt (leftBar c) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma upS ∨ g.2 = .dma dnS then 2 else 0

/-! ## The pipeline's proof data -/

/-- The invariants device `c`'s body opens, under the names `K` the launch allocated them at: its own five, and where
    it has a neighbour that neighbour's barrier cell and the halo cell it sends into. -/
def invs (K : Dev nD × Fin 5 → ℕ) (c : Dev nD) : sProp 𝕄 :=
  iprop(cellInv ER (sched m) (K (c, 0)) (barCell c) ∗ cellInv ER (sched m) (K (c, 1)) (fwdCell c) ∗ cellInv ER (sched m) (K (c, 2)) (bwdCell c)
    ∗ cellInv ER (sched m) (K (c, 3)) (upCell c) ∗ cellInv ER (sched m) (K (c, 4)) (dnCell c)
    ∗ cellInv ER (sched m) (K (lft c, 0)) (barCell (lft c)) ∗ cellInv ER (sched m) (K (rgt c, 0)) (barCell (rgt c))
    ∗ cellInv ER (sched m) (K (lft c, 4)) (dnCell (lft c)) ∗ cellInv ER (sched m) (K (rgt c, 3)) (upCell (rgt c)))

instance invs_persistent (K : Dev nD × Fin 5 → ℕ) (c : Dev nD) : BI.Persistent (invs m K c) := by unfold invs; infer_instance

/-- The duty tokens device `c` pays with: the two barrier units, and per neighbour its own send duty and that
    neighbour's halo cell's duty. -/
def payToks (c : Dev nD) : sProp 𝕄 :=
  iprop((if HasL c then dutyTok ER (barCell (lft c)) 0 true else dutyTok ER (barCell c) 0 false)
    ∗ (if HasR c then dutyTok ER (barCell (rgt c)) 0 false else dutyTok ER (barCell c) 0 true)
    ∗ (if HasR c then iprop(dutyTok ER (fwdCell c) 0 false ∗ dutyTok ER (upCell (rgt c)) 0 false) else iprop(emp))
    ∗ (if HasL c then iprop(dutyTok ER (bwdCell c) 0 false ∗ dutyTok ER (dnCell (lft c)) 0 false) else iprop(emp)))

/-- That round 0 of every cell device `c` touches is reached (persistent). -/
def reach (c : Dev nD) : sProp 𝕄 :=
  iprop(reached ER (barCell c) 0 ∗ reached ER (fwdCell c) 0 ∗ reached ER (bwdCell c) 0 ∗ reached ER (upCell c) 0 ∗ reached ER (dnCell c) 0
    ∗ reached ER (barCell (lft c)) 0 ∗ reached ER (barCell (rgt c)) 0 ∗ reached ER (dnCell (lft c)) 0 ∗ reached ER (upCell (rgt c)) 0)

instance reach_persistent (c : Dev nD) : BI.Persistent (reach (F := F) c) := by unfold reach; infer_instance

/-- The exchange's ghost state device `c` starts from: the invariants; its positions at round 0 of its five cells;
    the reached-marks; the duty tokens it pays with. -/
def ghost (K : Dev nD × Fin 5 → ℕ) (c : Dev nD) : sProp 𝕄 :=
  iprop(invs m K c
    ∗ (atPos ER (barCell c) 0 ∅ 0 ∗ atPos ER (fwdCell c) 0 ∅ 0 ∗ atPos ER (bwdCell c) 0 ∅ 0 ∗ atPos ER (upCell c) 0 ∅ 0 ∗ atPos ER (dnCell c) 0 ∅ 0)
    ∗ reach c ∗ payToks c)

/-- The credit tokens of the cells device `c` waits on: its barrier's two units, and a row's credit on each halo cell
    a neighbour fills. -/
def creds (c : Dev nD) : sProp 𝕄 :=
  iprop(cred (tallyAt (barCell c) () 2) ∗ (if HasL c then cred (tallyAt (upCell c) () N) else iprop(emp))
    ∗ (if HasR c then cred (tallyAt (dnCell c) () N) else iprop(emp)))

/-- What device `c`'s body starts from, beside its buffers. -/
def start (c : Dev nD) : sProp 𝕄 := iprop((∃ K, ghost m K c) ∗ creds c ∗ levAts L lv)

def Φ₀ (c : Dev nD) : sProp 𝕄 := iprop(start m c ∗ (∃ f, upPts c f) ∗ (∃ f, dnPts c f))
/-- After the body: the two halo buffers back at some contents, the four own cells at zero, closed. -/
def Φ₁ (c : Dev nD) : sProp 𝕄 :=
  iprop((∃ f, upPts c f) ∗ (∃ f, dnPts c f) ∗ semVal (fwdCell c) 0 ∗ semVal (bwdCell c) 0 ∗ semVal (upCell c) 0 ∗ semVal (dnCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m K c ∗ creds c ∗ levAts L lv ∗ (∃ f, upPts c f) ∗ (∃ f, dnPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xs m c) ∗ stg c cc0_stg1_0 (outAt m c))

/-- The body on the buffers the pipeline calls it with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-- The statement of one device's body lemma (proved per position on the line in the modules that import this one). -/
def SoundBody (c : Dev nD) : Prop :=
  ∀ (K : Dev nD × Fin 5 → ℕ) (Kt : PUnit → sProp 𝕄),
    iprop(bodyPre m ρ K c ∗ (bodyPost m ρ c -∗ Kt ⟨⟩)) ⊢ wp frame (wpE (defs₀ (F := F)) 𝒱₀ c none) Set.univ (theBody (F := F)) Kt

end Cert.Kernel.Halo

end
-- ==== Proof.WLevels.lean ====
/-
  In which order cells may be waited on.  Staging and send cells stand at level 0, barrier cells at 1, halo
  (receive) cells at 2; a device waits on a cell only while everything it still owes stands strictly higher.
  At launch a device owes barrier units (level 1) and halo credits (level 2): it may wait on its staging
  cells (level 0).  At its barrier wait (level 1) it owes only halo credits (level 2).  At every later wait
  it owes nothing.
-/
import proofs.«900813_g7700000000000814_dist_halo_stencil_i_m256_n256_v7x_i16_f32_1_alg».proof.Proof.WProto

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_of_ne (g : GSem nD τ sig) (h : g.1.2 ≠ .tc) : L g = ∅ := if_neg h
theorem L_tc (c : Dev nD) (sm : SemLoc sig) : L ((c : Thread nD τ), sm) = {()} := if_pos rfl
theorem mem_L {g : GSem nD τ sig} (h : g.1.2 = .tc) (u : Unit) : u ∈ L g := by unfold L; rw [if_pos h]; exact Finset.mem_singleton_self _

/-- A single cell's tally is positive at that cell only. -/
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem zero_not_pos {g : GSem nD τ sig} {u : Unit} (h : 0 < (0 : CellTallies nD τ sig Unit) g u) : False := by
  rw [Pi.zero_apply, Finsupp.zero_apply] at h; exact Nat.lt_irrefl 0 h

/-- The transfer credits a device owes sit on TensorCores' halo cells. -/
theorem owedXfer_pos {c : Dev nD} {g : GSem nD τ sig} {u : Unit} (h : 0 < owedXfer c g u) :
    g.1.2 = .tc ∧ (g.2 = .dma upS ∨ g.2 = .dma dnS) := by
  unfold owedXfer at h
  rcases Pipeline.add_pos_cases h with h | h
  · by_cases hl : HasL c
    · rw [if_pos hl] at h; rw [tallyAt_pos h]; exact ⟨rfl, .inr rfl⟩
    · rw [if_neg hl] at h; exact (zero_not_pos h).elim
  · by_cases hr : HasR c
    · rw [if_pos hr] at h; rw [tallyAt_pos h]; exact ⟨rfl, .inl rfl⟩
    · rw [if_neg hr] at h; exact (zero_not_pos h).elim

/-- Everything a device owes at launch sits on TensorCores' barrier and halo cells. -/
theorem O₀_pos {c : Dev nD} {g : GSem nD τ sig} {u : Unit} (h : 0 < O₀ c g u) :
    g.1.2 = .tc ∧ (g.2 = .reg barS ∨ g.2 = .dma upS ∨ g.2 = .dma dnS) := by
  unfold O₀ O₁ at h
  rcases Pipeline.add_pos_cases h with h | h
  · rcases Pipeline.add_pos_cases h with h | h
    · obtain ⟨h1, h2⟩ := owedXfer_pos h; exact ⟨h1, .inr h2⟩
    · rw [tallyAt_pos h]; unfold rightBar; split <;> exact ⟨rfl, .inl rfl⟩
  · rw [tallyAt_pos h]; unfold leftBar; split <;> exact ⟨rfl, .inl rfl⟩

theorem lv_bar (g : GSem nD τ sig) (u : Unit) (h : g.2 = .reg barS) : lv g u = 1 := by unfold lv; rw [if_pos h]
theorem lv_halo (g : GSem nD τ sig) (u : Unit) (h : g.2 = .dma upS ∨ g.2 = .dma dnS) : lv g u = 2 := by
  unfold lv
  rw [if_neg (by rcases h with h | h <;> rw [h] <;> exact fun h' => by cases h'), if_pos h]
theorem lv_other (g : GSem nD τ sig) (u : Unit) (h1 : g.2 ≠ .reg barS) (h2 : g.2 ≠ .dma upS) (h3 : g.2 ≠ .dma dnS) : lv g u = 0 := by
  unfold lv; rw [if_neg h1, if_neg (by rintro (h | h); exact h2 h; exact h3 h)]

omit [FloatOps F] in
/-- A wait on a staging or a send cell (level 0), owing what is owed at launch or nothing. -/
theorem mayWait_low (c : Dev nD) (q : DmaSem sig) (hu : SemLoc.dma q ≠ .dma upS) (hd : SemLoc.dma q ≠ .dma dnS)
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨h1, h2⟩ := O₀_pos hg
    refine ⟨mem_L h1 i, ?_⟩
    rw [lv_other _ _ (fun h => by cases h) hu hd]
    rcases h2 with h | h | h
    · rw [lv_bar _ _ h]; decide
    · rw [lv_halo _ _ (.inl h)]; decide
    · rw [lv_halo _ _ (.inr h)]; decide
  · rw [MayWait_zero]; iintro -; iempintro

omit [FloatOps F] in
/-- At its barrier wait a device owes the transfer credits only: halo cells, above its barrier cell. -/
theorem mayWait_bar (c : Dev nD) :
    (levAts L lv : sProp 𝕄) ⊢ MayWait (c : Thread nD τ) (.reg barS) () (owedXfer c) := by
  refine Pipeline.mayWait_of_levAts (by rw [L_tc]; exact Finset.mem_singleton_self _) fun g i hg => ?_
  obtain ⟨h1, h2⟩ := owedXfer_pos hg
  refine ⟨mem_L h1 i, ?_⟩
  rw [lv_bar _ _ rfl, lv_halo _ _ h2]; decide

omit [FloatOps F] in
/-- Owing nothing, any cell may be waited on. -/
theorem mayWait_zero (c : Dev nD) (sm : SemLoc sig) : (levAts L lv : sProp 𝕄) ⊢ MayWait (c : Thread nD τ) sm () 0 := by
  rw [MayWait_zero]; iintro -; iempintro

end Cert.Kernel.Halo

end
-- ==== Proof.WIndep.lean ====
/-
  What the halo buffers and the result buffer hold does not depend on what they held before.

  A halo buffer has one row of 256 entries, and filling it writes all 256: the neighbour's row lands through the
  whole buffer, and the extrapolated row is stored through the rectangle that starts at (0, 0) and has the buffer's
  own sizes.  The result buffer has rows 0 … 255; the first store writes rows 1 … 254, the second row 0, the third
  row 255, so every entry lies under exactly one of the three rectangles and is overwritten by that store.  Hence
  the earlier contents never show, and an entry of the result is read off the one piece whose rectangle holds it:
  row 255 off the last piece, row 0 off the second, row r with 1 ≤ r ≤ 254 off row r − 1 of the first.
-/
import proofs.«900813_g7700000000000814_dist_halo_stencil_i_m256_n256_v7x_i16_f32_1_alg».proof.Proof.WDefs
import proofs.«900813_g7700000000000814_dist_halo_stencil_i_m256_n256_v7x_i16_f32_1_alg».proof.Proof.Spec
import Idealize.ShloMosaic.Lib.ValueIdx
import Idealize.ShloMosaic.Lib.Pipeline.Value
import Idealize.ShloMosaic.Lib.ValueLayout

noncomputable section

namespace Cert.Kernel.Halo

open Cert.Kernel Cert.Kernel.Gen
open Idealize.ShloMosaic Idealize.ShloMosaic.TcCoe Idealize.ShloMosaic.ValueIdx
open Idealize.SL Idealize.SL.Sem

variable {F : FTy → Type} [FloatOps F]

/-- The offsets (0, 0), as the constant-zero function. -/
theorem off00 : (![0, 0] : Fin 2 → Nat) = fun _ => 0 := funext fun a => by fin_cases a <;> rfl

/-! ## A store through a unit-stride rectangle of the result buffer, read at one entry -/

section Writes
variable {Val : EltTy → Type}

/-- An entry under the rectangle, at offset + y on each axis, takes the payload's entry y. -/
theorem write_unit_hit (off size : Fin 2 → Nat) (inb : ∀ a, off a + size a ≤ S256x256.size a)
    (f : (cc0_stg1_0 : Ref sig .tc).ty.Contents Val) (w : (Rect.unit (s := S256x256) off size inb).shape.Idx → Val .f32)
    (i : S256x256.Idx) (y : (Rect.unit (s := S256x256) off size inb).shape.Idx)
    (h : ∀ a, (i a : Nat) = off a + (y a : Nat)) :
    ((oM : Memref sig .tc .vmem S256x256 .f32).access (Rect.unit (s := S256x256) off size inb) : View sig .tc _ _ _).write Val f w Finset.univ i = w y := by
  have hi : i = ((oM : Memref sig .tc .vmem S256x256 .f32).access (Rect.unit (s := S256x256) off size inb) : View sig .tc _ _ _).emb y :=
    funext fun a => Fin.ext (by
      show (i a : Nat) = off a + 1 * (y a : Nat)
      rw [h a, Nat.one_mul])
  rw [hi, View.write_emb_of_mem _ _ (Finset.mem_univ y)]
  rfl

/-- An entry that on some axis lies before the rectangle's offset or at or after its end keeps the old contents. -/
theorem write_unit_miss (off size : Fin 2 → Nat) (inb : ∀ a, off a + size a ≤ S256x256.size a)
    (f : (cc0_stg1_0 : Ref sig .tc).ty.Contents Val) (w : (Rect.unit (s := S256x256) off size inb).shape.Idx → Val .f32)
    (M : Finset (Rect.unit (s := S256x256) off size inb).shape.Idx)
    (i : S256x256.Idx) (a : Fin 2) (h : (i a : Nat) < off a ∨ off a + size a ≤ (i a : Nat)) :
    ((oM : Memref sig .tc .vmem S256x256 .f32).access (Rect.unit (s := S256x256) off size inb) : View sig .tc _ _ _).write Val f w M i = f i := by
  refine View.write_of_not_mem _ _ _ (fun hm => ?_)
  have hs := View.setOn_subset_set _ M hm
  rw [View.set_slice_whole, Rect.mem_set_unit] at hs
  have := hs a
  omega

end Writes

/-! ## The result buffer after the three stores, row by row -/

section Rows
variable (x : (cc0_stg0_0 : Ref sig .tc).ty.Contents (Elt F)) (u : (cc0_scratch0 : Ref sig .tc).ty.Contents (Elt F))
  (d : (cc0_scratch1 : Ref sig .tc).ty.Contents (Elt F)) (o : (cc0_stg1_0 : Ref sig .tc).ty.Contents (Elt F))

/-- Row 255 is the last piece's one row: the third store writes it. -/
theorem out3_row255 (j : Fin 256) : out3 x u d o (ix2 (255 : Fin 256) j) = botPiece x d (ix2 (0 : Fin 1) j) := by
  unfold out3
  exact write_unit_hit ![255, 0] S1x256.size inb_S256x256_S1x256_255_0 _ _ (ix2 (255 : Fin 256) j) (ix2 (0 : Fin 1) j)
    (fun a => by match a with | ⟨0, _⟩ => rfl | ⟨1, _⟩ => exact (Nat.zero_add _).symm)

/-- Row 0 is the second piece's one row: the third store misses it (row 0 < 255), the second writes it. -/
theorem out3_row0 (j : Fin 256) : out3 x u d o (ix2 (0 : Fin 256) j) = topPiece x u (ix2 (0 : Fin 1) j) := by
  unfold out3
  rw [write_unit_miss ![255, 0] S1x256.size inb_S256x256_S1x256_255_0 _ _ _ (ix2 (0 : Fin 256) j) 0
    (.inl (by show (0 : Nat) < 255; omega))]
  exact write_unit_hit ![0, 0] S1x256.size inb_S256x256_S1x256_0_0 _ _ (ix2 (0 : Fin 256) j) (ix2 (0 : Fin 1) j)
    (fun a => by match a with | ⟨0, _⟩ => rfl | ⟨1, _⟩ => exact (Nat.zero_add _).symm)

/-- Row r with 1 ≤ r ≤ 254 is row r − 1 of the first piece: the third store (row 255) and the second (row 0) miss it. -/
theorem out3_rowMid (r : Fin 256) (j : Fin 256) (h1 : 1 ≤ r.val) (h2 : r.val ≤ 254) :
    out3 x u d o (ix2 r j) = midPiece x (ix2 (⟨r.val - 1, by omega⟩ : Fin 254) j) := by
  unfold out3
  rw [write_unit_miss ![255, 0] S1x256.size inb_S256x256_S1x256_255_0 _ _ _ (ix2 r j) 0
      (.inl (by show r.val < 255; omega)),
    write_unit_miss ![0, 0] S1x256.size inb_S256x256_S1x256_0_0 _ _ _ (ix2 r j) 0
      (.inr (by show 0 + 1 ≤ r.val; omega))]
  exact write_unit_hit ![1, 0] S254x256.size inb_S256x256_S254x256_1_0 _ _ (ix2 r j) (ix2 (⟨r.val - 1, by omega⟩ : Fin 254) j)
    (fun a => by
      match a with
      | ⟨0, _⟩ => show r.val = 1 + (r.val - 1); omega
      | ⟨1, _⟩ => exact (Nat.zero_add _).symm)

/-- Every row is 0, 255, or between: the three stores overwrite the whole buffer. -/
theorem out3_indep (o' : (cc0_stg1_0 : Ref sig .tc).ty.Contents (Elt F)) : out3 (F := F) x u d o = out3 x u d o' := by
  funext i
  obtain ⟨r, j, rfl⟩ : ∃ (r : Fin 256) (j : Fin 256), i = ix2 r j := ⟨i 0, i 1, eq_ix2 i⟩
  by_cases h0 : r.val = 0
  · obtain rfl : r = 0 := Fin.ext h0
    rw [out3_row0, out3_row0]
  · by_cases h255 : r.val = 255
    · obtain rfl : r = 255 := Fin.ext h255
      rw [out3_row255, out3_row255]
    · have hr := r.isLt
      rw [out3_rowMid x u d o r j (by omega) (by omega), out3_rowMid x u d o' r j (by omega) (by omega)]

end Rows

/-! ## The halo buffers and the result block -/

variable (m : (ℓ : Loc nD τ sig) → Buf (Elt F) ℓ)

/-- The upper halo row once filled: all 256 entries are written, whichever way it is filled. -/
theorem upVal_indep (c : Dev nD) (f f') : upVal m c f = upVal m c f' := by
  unfold upVal
  split
  · exact (View.write_whole_univ cc0_scratch0 f _).trans (View.write_whole_univ cc0_scratch0 f' _).symm
  · exact (Memref.write_access_unit_zero_univ (Elt F) cc0_scratch0 off00 inb_S1x256_S1x256_0_0 f _).trans
      (Memref.write_access_unit_zero_univ (Elt F) cc0_scratch0 off00 inb_S1x256_S1x256_0_0 f' _).symm

/-- The lower halo row once filled: the same. -/
theorem dnVal_indep (c : Dev nD) (f f') : dnVal m c f = dnVal m c f' := by
  unfold dnVal
  split
  · exact (View.write_whole_univ cc0_scratch1 f _).trans (View.write_whole_univ cc0_scratch1 f' _).symm
  · exact (Memref.write_access_unit_zero_univ (Elt F) cc0_scratch1 off00 inb_S1x256_S1x256_0_0 f _).trans
      (Memref.write_access_unit_zero_univ (Elt F) cc0_scratch1 off00 inb_S1x256_S1x256_0_0 f' _).symm

/-- The result block of device c from any earlier contents of the three buffers. -/
theorem outAt_eq (c : Dev nD) (f f' o) : out3 (xs m c) (upVal m c f) (dnVal m c f') o = outAt m c := by
  unfold outAt
  rw [upVal_indep m c f (topRow m c), dnVal_indep m c f' (topRow m c)]
  exact out3_indep _ _ _ _ _

/-- The staged block is the argument array: the window's one block is the whole array, read from offset (0, 0). -/
theorem xs_eq (c : Dev nD) : xs m c = m ((c : Thread nD τ).loc main_arg0) := by
  have hz' : (fun a => win0_0.index (0 : Fin 1) a * main_arg0.ty.shape.size a) = fun _ => 0 :=
    funext fun a => Nat.zero_mul _
  exact Memref.read_access_unit_zero (Elt F) main_arg0 hz' (fun a => by rw [congrFun hz' a]; simp) _

/-- info: 'Cert.Kernel.Halo.outAt_eq' depends on axioms: [propext, Classical.choice, Quot.sound] -/
#guard_msgs in #print axioms outAt_eq

/-- info: 'Cert.Kernel.Halo.xs_eq' depends on axioms: [propext, Classical.choice, Quot.sound] -/
#guard_msgs in #print axioms xs_eq

end Cert.Kernel.Halo

end
-- ==== Proof.WShares.lean ====
/-
  One device's staged block, split by share and by rows, and joined again.

  The block is a 256 × 256 buffer held at the full share.  The full share is the sum of its two halves.  The
  half that is kept stays on the whole buffer.  The half that is lent is cut along rows: row 255, row 0, and
  the 254 rows between them.  Rows 0 and 255 are distinct rows of the buffer, so the three pieces are pairwise
  disjoint and together make up every index; cutting and gluing are inverse to each other.
-/
import proofs.«900813_g7700000000000814_dist_halo_stencil_i_m256_n256_v7x_i16_f32_1_alg».proof.Proof.WProto
import Idealize.ShloMosaic.Rules.PointsTo

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kept half of the whole buffer. -/
def xKept (c : Dev nD) : sProp 𝕄 :=
  (xM : Memref sig .tc .vmem S256x256 .f32).view.loc (c : Thread nD τ) ↦[(xM : Memref sig .tc .vmem S256x256 .f32).view.set]{kept} xs m c

/-- The lent half of every row but rows 0 and 255. -/
def xRest (c : Dev nD) : sProp 𝕄 :=
  (xM : Memref sig .tc .vmem S256x256 .f32).view.loc (c : Thread nD τ)
    ↦[(Finset.univ \ (xBot : Memref sig .tc .vmem S1x256 .f32).view.set) \ (xTop : Memref sig .tc .vmem S1x256 .f32).view.set]{lent} xs m c

omit [FloatOps F] in
instance xKept_storable (c : Dev nD) : BI.Storable (upEmb : UEmb _ 𝕄) (xKept (F := F) m c) := by unfold xKept; infer_instance
omit [FloatOps F] in
instance xRest_storable (c : Dev nD) : BI.Storable (upEmb : UEmb _ 𝕄) (xRest (F := F) m c) := by unfold xRest; infer_instance

/-- Rows 0 and 255 of the buffer share no index: on the row axis the first ends before the second begins. -/
theorem top_disj_bot :
    Disjoint (xTop : Memref sig .tc .vmem S1x256 .f32).view.set (xBot : Memref sig .tc .vmem S1x256 .f32).view.set := by
  rw [show (xTop : Memref sig .tc .vmem S1x256 .f32).view.set = r0.set from View.set_slice_whole _ _,
    show (xBot : Memref sig .tc .vmem S1x256 .f32).view.set = r255.set from View.set_slice_whole _ _]
  exact Rect.unit_disjoint 0 (Or.inl (by decide))

/-- Hence row 0 lies in what is left of the buffer once row 255 is taken out. -/
theorem top_sub :
    (xTop : Memref sig .tc .vmem S1x256 .f32).view.set ⊆ Finset.univ \ (xBot : Memref sig .tc .vmem S1x256 .f32).view.set :=
  fun i hi => Finset.mem_sdiff.mpr ⟨Finset.mem_univ i, fun hb => Finset.disjoint_left.mp top_disj_bot hi hb⟩

/-- The whole buffer's view covers every index. -/
theorem xM_set : (xM : Memref sig .tc .vmem S256x256 .f32).view.set = Finset.univ := View.set_whole _

theorem x_split (c : Dev nD) :
    ((((c : Thread nD τ).loc cc0_stg0_0) ↦{fullShare} xs m c : sProp 𝕄)) ⊢ iprop(xKept m c ∗ botPts m c ∗ topPts m c ∗ xRest m c) := by
  unfold xKept botPts topPts xRest
  rw [xM_set]
  iintro H
  ihave H := (pointsTo_share (PosShare.mem_left_op_right fullShare)).1 $$ H
  icases H with ⟨Hl, Hr⟩
  isplitl [Hr]
  · iexact Hr
  ihave Hl := (pointsTo_split_subset (I := (xBot : Memref sig .tc .vmem S1x256 .f32).view.set) (Finset.subset_univ _)).1 $$ Hl
  icases Hl with ⟨Hb, Hl⟩
  isplitl [Hb]
  · iexact Hb
  ihave Hl := (pointsTo_split_subset top_sub).1 $$ Hl
  icases Hl with ⟨Ht, Hl⟩
  isplitl [Ht]
  · iexact Ht
  iexact Hl

theorem x_join (c : Dev nD) :
    iprop(xKept m c ∗ botPts m c ∗ topPts m c ∗ xRest m c) ⊢ ((((c : Thread nD τ).loc cc0_stg0_0) ↦{fullShare} xs m c : sProp 𝕄)) := by
  unfold xKept botPts topPts xRest
  rw [xM_set]
  iintro ⟨Hr, Hb, Ht, Hl⟩
  iapply (pointsTo_share (PosShare.mem_left_op_right fullShare)).2
  isplitr [Hr]
  · iapply (pointsTo_split_subset (I := (xBot : Memref sig .tc .vmem S1x256 .f32).view.set) (Finset.subset_univ _)).2
    isplitl [Hb]
    · iexact Hb
    iapply (pointsTo_split_subset top_sub).2
    isplitl [Ht]
    · iexact Ht
    iexact Hl
  · iexact Hr

/-- info: 'Cert.Kernel.Halo.x_split' depends on axioms: [propext, Classical.choice, Quot.sound] -/
#guard_msgs in #print axioms x_split

/-- info: 'Cert.Kernel.Halo.x_join' depends on axioms: [propext, Classical.choice, Quot.sound] -/
#guard_msgs in #print axioms x_join

end Cert.Kernel.Halo

end
-- ==== Proof.WBodyFirst.lean ====
/-
  The body of the first device of the line (device 0: no neighbour before it, device 1 after it), for any
  float instance.

  It pays the barrier unit "from the side before" into its own barrier cell, handing over nothing, and the
  unit "from the side after" into device 1's barrier cell, handing over its own lower halo buffer.  Its wait
  for both units of its barrier cell brings device 1's upper halo buffer, into which it then sends its last
  row, lending the transfer half a share of that row while it goes on reading the whole block with the other
  half.  Having nobody to receive an upper halo row from, it stores the extrapolation  2·(row 0) − (row 1)
  into its upper halo buffer itself.  Rows 1 … 254 of the result need the block alone; row 0 needs the upper
  halo row; row 255 needs the lower halo row, which the wait on the lower-halo cell brings, holding device
  1's first row.  The wait on the forward-send cell returns the lent half of the last row.  The forward-send
  and lower-halo cells have then consumed their one duty; the backward-send and upper-halo cells never had
  one on this device; all four close at zero.  The halves and rows of the block are joined again, and the
  result buffer holds the three stored pieces over the block and the two filled halo rows.
-/
import proofs.«900813_g7700000000000814_dist_halo_stencil_i_m256_n256_v7x_i16_f32_1_alg».proof.Proof.WLevels
import proofs.«900813_g7700000000000814_dist_halo_stencil_i_m256_n256_v7x_i16_f32_1_alg».proof.Proof.WIndep
import proofs.«900813_g7700000000000814_dist_halo_stencil_i_m256_n256_v7x_i16_f32_1_alg».proof.Proof.WShares
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace First

/-- The input window is fetched at the one grid point. -/
theorem fetch0_0' (t : Fin cfg0.N) : (cfg0.win (0 : Fin 2)).fetch t = true := by rw [fin_N t]; rfl

/-- The device read at the head of a sequence. -/
theorem head_dev {p : Proc τ} {α β : Type} (k1 : Dev nD → Prog (TpuEff nD τ sig (Elt F) Λ₀ p) α) (k2 : α → Prog (TpuEff nD τ sig (Elt F) Λ₀ p) β) :
    ((Prog.lift TpuEff.deviceId >>= k1) >>= k2) = Prog.op TpuEff.deviceId (fun d => k1 d >>= k2) := rfl

/-- On device 0 the word "a neighbour before me" is 0 and the word "a neighbour after me" is 1; the conditions the
    body branches on, as functions of those words. -/
theorem e3 : Scalar.cmpi .sgt (Scalar.remsi (Scalar.divsi (Dev.word (0 : Dev nD)) 1#32) 16#32) 0#32 = 0#1 := by decide +kernel
theorem e4 : Scalar.cmpi .slt (Scalar.remsi (Scalar.divsi (Dev.word (0 : Dev nD)) 1#32) 16#32) 15#32 = 1#1 := by decide +kernel
theorem n1 : Scalar.cmpi .ne (Scalar.extui (Scalar.xori 0#1 1#1)) 0#32 = 1#1 := by decide
theorem n2 : ¬ Scalar.cmpi .ne (Scalar.extui (Scalar.xori 1#1 1#1)) 0#32 = 1#1 := by decide
theorem n3 : ¬ Scalar.cmpi .ne (Scalar.extui 0#1) 0#32 = 1#1 := by decide
theorem n4 : Scalar.cmpi .ne (Scalar.extui 1#1) 0#32 = 1#1 := by decide

/-! ## The schedule's tables -/

theorem dma_ne_bar (q : DmaSem sig) : (SemLoc.dma q : SemLoc sig) ≠ .reg barS := fun h => by cases h
theorem not_isBar_dma (c : Dev nD) (q : DmaSem sig) : ¬IsBar ((c : Thread nD τ), SemLoc.dma q) := fun h => dma_ne_bar q h.2

theorem tb_duties_bar (c : Dev nD) : (sched (F := F) m).duties (barCell c) 0 = Finset.univ := by
  dsimp only [sched]; exact if_pos ⟨rfl, rfl, rfl⟩

theorem tb_duties_xfer (c : Dev nD) (q : DmaSem sig) (hx : IsXfer ((c : Thread nD τ), SemLoc.dma q)) :
    (sched (F := F) m).duties ((c : Thread nD τ), SemLoc.dma q) 0 = {false} := by
  show (if (0 = 0 ∧ IsBar ((c : Thread nD τ), SemLoc.dma q)) then (Finset.univ : Finset Bool) else if (0 = 0 ∧ IsXfer ((c : Thread nD τ), SemLoc.dma q)) then {false} else ∅) = _
  rw [if_neg (show ¬(0 = 0 ∧ IsBar ((c : Thread nD τ), SemLoc.dma q)) from fun h => not_isBar_dma c q h.2),
    if_pos (show 0 = 0 ∧ IsXfer ((c : Thread nD τ), SemLoc.dma q) from ⟨rfl, hx⟩)]

theorem tb_duties_later (g : GSem nD τ sig) (r : ℕ) (h : 1 ≤ r) : (sched (F := F) m).duties g r = ∅ := by
  show (if (r = 0 ∧ IsBar g) then (Finset.univ : Finset Bool) else if (r = 0 ∧ IsXfer g) then {false} else ∅) = _
  rw [if_neg (show ¬(r = 0 ∧ IsBar g) from fun h' => absurd h'.1 (by omega)), if_neg (show ¬(r = 0 ∧ IsXfer g) from fun h' => absurd h'.1 (by omega))]

theorem tb_duties_none (c : Dev nD) (q : DmaSem sig) (hx : ¬IsXfer ((c : Thread nD τ), SemLoc.dma q)) (r : ℕ) :
    (sched (F := F) m).duties ((c : Thread nD τ), SemLoc.dma q) r = ∅ := by
  show (if (r = 0 ∧ IsBar ((c : Thread nD τ), SemLoc.dma q)) then (Finset.univ : Finset Bool) else if (r = 0 ∧ IsXfer ((c : Thread nD τ), SemLoc.dma q)) then {false} else ∅) = _
  rw [if_neg (show ¬(r = 0 ∧ IsBar ((c : Thread nD τ), SemLoc.dma q)) from fun h => not_isBar_dma c q h.2),
    if_neg (show ¬(r = 0 ∧ IsXfer ((c : Thread nD τ), SemLoc.dma q)) from fun h => hx h.2)]

theorem tb_amount_bar (c : Dev nD) (r : ℕ) (d : Bool) : (sched (F := F) m).amount (barCell c) r d = 1 := by dsimp only [sched]; exact if_pos rfl
theorem tb_amount_dma (c : Dev nD) (q : DmaSem sig) (r : ℕ) (d : Bool) : (sched (F := F) m).amount ((c : Thread nD τ), SemLoc.dma q) r d = N := by
  dsimp only [sched]; exact if_neg (dma_ne_bar q)

theorem tb_payload_bar (c : Dev nD) (r : ℕ) (d : Bool) : (sched (F := F) m).payload (barCell c) r d = if d then barPayR c else barPayL c := by
  dsimp only [sched]; exact if_pos rfl
theorem tb_payload_up (c : Dev nD) (r : ℕ) (d : Bool) : (sched (F := F) m).payload (upCell c) r d = upPay m c := by
  dsimp only [sched]; rw [if_neg (dma_ne_bar _), if_pos rfl]
theorem tb_payload_dn (c : Dev nD) (r : ℕ) (d : Bool) : (sched (F := F) m).payload (dnCell c) r d = dnPay m c := by
  dsimp only [sched]; rw [if_neg (dma_ne_bar _), if_neg (show (SemLoc.dma dnS : SemLoc sig) ≠ .dma upS from by decide), if_pos rfl]
theorem tb_payload_fwd (c : Dev nD) (r : ℕ) (d : Bool) : (sched (F := F) m).payload (fwdCell c) r d = botPts m c := by
  dsimp only [sched]
  rw [if_neg (dma_ne_bar _), if_neg (show (SemLoc.dma fwdS : SemLoc sig) ≠ .dma upS from by decide),
    if_neg (show (SemLoc.dma fwdS : SemLoc sig) ≠ .dma dnS from by decide), if_pos rfl]

theorem tb_expect_bar (c : Dev nD) : (sched (F := F) m).expect (barCell c) 0 = 2 := by
  unfold Schedule.expect; rw [tb_duties_bar]; simp only [Schedule.amountOf, tb_amount_bar]; rfl
theorem tb_expect_xfer (c : Dev nD) (q : DmaSem sig) (hx : IsXfer ((c : Thread nD τ), SemLoc.dma q)) :
    (sched (F := F) m).expect ((c : Thread nD τ), SemLoc.dma q) 0 = N := by
  unfold Schedule.expect; rw [tb_duties_xfer m c q hx]; simp only [Schedule.amountOf, Finset.sum_singleton, tb_amount_dma]

/-! ## The first device: no neighbour before it, device 1 after it -/

abbrev c0 : Dev nD := 0
abbrev c1 : Dev nD := rgt 0

theorem hl0 : ¬HasL c0 := by decide
theorem hr0 : HasR c0 := by decide
theorem hl1 : HasL c1 := by decide
theorem lft_c1 : lft c1 = c0 := by decide

theorem isXfer_fwd0 : IsXfer (fwdCell c0) := ⟨rfl, Or.inl ⟨rfl, hr0⟩⟩
theorem isXfer_dn0 : IsXfer (dnCell c0) := ⟨rfl, Or.inr (Or.inr (Or.inr ⟨rfl, hr0⟩))⟩
theorem isXfer_up1 : IsXfer (upCell c1) := ⟨rfl, Or.inr (Or.inr (Or.inl ⟨rfl, hl1⟩))⟩
theorem not_isXfer_up0 : ¬IsXfer (upCell c0) := by
  rintro ⟨-, (⟨h, -⟩ | ⟨h, -⟩ | ⟨-, h⟩ | ⟨h, -⟩)⟩
  · exact absurd h (by decide)
  · exact absurd h (by decide)
  · exact hl0 h
  · exact absurd h (by decide)
theorem not_isXfer_bwd0 : ¬IsXfer (bwdCell c0) := by
  rintro ⟨-, (⟨h, -⟩ | ⟨-, h⟩ | ⟨h, -⟩ | ⟨h, -⟩)⟩
  · exact absurd h (by decide)
  · exact hl0 h
  · exact absurd h (by decide)
  · exact absurd h (by decide)

theorem d_bar0 : (sched (F := F) m).duties (barCell c0) 0 = {false, true} := (tb_duties_bar m c0).trans (by decide)
theorem d_bar1 : (sched (F := F) m).duties (barCell c1) 0 = {false, true} := (tb_duties_bar m c1).trans (by decide)
theorem d_fwd0 : (sched (F := F) m).duties (fwdCell c0) 0 = {false} := tb_duties_xfer m c0 fwdS isXfer_fwd0
theorem d_dn0 : (sched (F := F) m).duties (dnCell c0) 0 = {false} := tb_duties_xfer m c0 dnS isXfer_dn0
theorem d_up1 : (sched (F := F) m).duties (upCell c1) 0 = {false} := tb_duties_xfer m c1 upS isXfer_up1
theorem x_bar0 : (sched (F := F) m).expect (barCell c0) 0 = 2 := tb_expect_bar m c0
theorem x_fwd0 : (sched (F := F) m).expect (fwdCell c0) 0 = N := tb_expect_xfer m c0 fwdS isXfer_fwd0
theorem x_dn0 : (sched (F := F) m).expect (dnCell c0) 0 = N := tb_expect_xfer m c0 dnS isXfer_dn0

theorem p_bar0_false : (sched (F := F) m).payload (barCell c0) 0 false = iprop(emp) := by
  rw [tb_payload_bar]; simp only [Bool.false_eq_true, ↓reduceIte]; unfold barPayL; rw [if_neg hl0]
theorem p_bar0_true : (sched (F := F) m).payload (barCell c0) 0 true
    = iprop((∃ f, ((upM : Memref sig .tc .vmem S1x256 .f32).view.loc (c1 : Thread nD τ) ↦[(upM : Memref sig .tc .vmem S1x256 .f32).view.set]{fullShare} f : sProp 𝕄)) ∗ reached ER (upCell c1) 0) := by
  rw [tb_payload_bar]; simp only [↓reduceIte]; unfold barPayR; rw [if_pos hr0]; rfl
theorem p_bar1_false : (sched (F := F) m).payload (barCell c1) 0 false
    = iprop((∃ f, ((dnM : Memref sig .tc .vmem S1x256 .f32).view.loc (c0 : Thread nD τ) ↦[(dnM : Memref sig .tc .vmem S1x256 .f32).view.set]{fullShare} f : sProp 𝕄)) ∗ reached ER (dnCell c0) 0) := by
  rw [tb_payload_bar]; simp only [Bool.false_eq_true, ↓reduceIte]; unfold barPayL; rw [if_pos hl1, lft_c1]; rfl
theorem p_fwd0 : (sched (F := F) m).payload (fwdCell c0) 0 false
    = ((xBot : Memref sig .tc .vmem S1x256 .f32).view.loc (c0 : Thread nD τ) ↦[(xBot : Memref sig .tc .vmem S1x256 .f32).view.set]{lent} xs m c0 : sProp 𝕄) := by
  rw [tb_payload_fwd]; rfl
theorem p_up1 : (sched (F := F) m).payload (upCell c1) 0 false
    = iprop(∃ f, ((upM : Memref sig .tc .vmem S1x256 .f32).view.loc (c1 : Thread nD τ) ↦[(upM : Memref sig .tc .vmem S1x256 .f32).view.set]{fullShare}
        (upM : Memref sig .tc .vmem S1x256 .f32).view.write (Elt F) f ((xBot : Memref sig .tc .vmem S1x256 .f32).view.read (Elt F) (xs m c0)) Finset.univ : sProp 𝕄)) := by
  rw [tb_payload_up]; unfold upPay upPts upVal; simp only [if_pos hl1, lft_c1]; rfl
theorem p_dn0 : (sched (F := F) m).payload (dnCell c0) 0 false
    = iprop(∃ f, ((dnM : Memref sig .tc .vmem S1x256 .f32).view.loc (c0 : Thread nD τ) ↦[(dnM : Memref sig .tc .vmem S1x256 .f32).view.set]{fullShare} dnVal m c0 f : sProp 𝕄)) := by
  rw [tb_payload_dn]; rfl

attribute [local sl_rounds] d_bar0 d_bar1 d_fwd0 d_dn0 d_up1 x_bar0 x_fwd0 x_dn0 tb_amount_bar tb_amount_dma p_bar0_false p_bar0_true p_bar1_false p_fwd0 p_up1 p_dn0

theorem O₀_c0 : O₀ c0 = (tallyAt (upCell c1) () N + tallyAt (barCell c1) () 1 + tallyAt (barCell c0) () 1 : CellTallies nD τ sig Unit) := by
  unfold O₀ O₁ owedXfer leftBar rightBar; simp only [if_neg hl0, if_pos hr0, zero_add]

theorem c5_c0 : k0_cond5 c0 = 1#1 := by decide +kernel
theorem dev3_c0 (h : k0_cond5 c0 = 1#1) : (⟨k0_dev3 c0, k0_dev3_lt c0 h⟩ : Dev nD) = c1 := dev3_eq c0 h
theorem dev2_c0 (h : k0_cond3 c0 = 1#1) : (⟨k0_dev2 c0, k0_dev2_lt c0 h⟩ : Dev nD) = c1 := dev2_eq c0 h
attribute [local sl_canon] dev3_c0 dev2_c0

omit [FloatOps F] in
theorem mayWait_bar0 : (levAts L lv : sProp 𝕄) ⊢ MayWait (c0 : Thread nD τ) (.reg barS) () (tallyAt (upCell c1) () N : CellTallies nD τ sig Unit) := by
  have h := mayWait_bar (F := F) c0
  unfold owedXfer at h; simp only [if_neg hl0, if_pos hr0, zero_add] at h; exact h

set_option maxHeartbeats 4000000 in
/-- The body on device 0, from what it starts with to what it leaves. -/
theorem body (K : Dev nD × Fin 5 → ℕ) (Kt : PUnit → sProp 𝕄) :
    iprop(bodyPre m ρ K c0 ∗ (bodyPost m ρ c0 -∗ Kt ⟨⟩)) ⊢ wp frame (wpE (defs₀ (F := F)) 𝒱₀ c0 none) Set.univ (theBody (F := F)) Kt := by
  -- the printed conditions on device 0: no neighbour before it, one after it
  have c1' : ¬ (k0_cond1 c0 = 1#1) := by decide +kernel
  have c3 : k0_cond3 c0 = 1#1 := by decide +kernel
  have c5 : k0_cond5 c0 = 1#1 := by decide +kernel
  have c6 : ¬ (k0_cond6 c0 = 1#1) := by decide +kernel
  -- the body as straight-line code: the device is read, every condition decided, the sequence flattened
  unfold theBody
  simp only [cc0_body_eq_skeleton]; unfold cc0_body_skel
  simp only [k0_part1_eq_skeleton]; unfold k0_part1_skel
  rw [head_dev, wp_deviceId]
  simp only [c1', c3, c5, c6, e3, e4, n1, n2, ↓reduceDIte]
  simp only [semSignalWord, semSignalHereWord, semWaitWord, Prog.lift, Prog.bind_op, Prog.bind_ret, Prog.pure_eq_ret]
  simp only [k0_part2_eq_skeleton]; unfold k0_part2_skel
  simp only [n3, n4, ↓reduceDIte]
  simp only [Prog.lift, Prog.bind_op, Prog.bind_ret, Prog.pure_eq_ret, wp_deviceId, dev2_eq c0 c3]
  -- what the device starts from, piece by piece
  unfold bodyPre ghost invs reach payToks creds
  simp only [if_neg hl0, if_pos hr0]
  iintro ⟨⟨⟨⟨⟨#HIbar, #HIfwd, #HIbwd, #HIup, #HIdn, -, #HIbarR, -, #HIupR⟩, ⟨HatB, HatF, HatW, HatU, HatD⟩, ⟨#HrB, #HrF, #HrW, #HrU, #HrD, -, #HrBR, -, #HrUR⟩, ⟨HtL, HtR, ⟨HtF, HtUR⟩, -⟩⟩, ⟨HcB, -, HcD⟩, #Hlev, ⟨%fu, Hup⟩, ⟨%fd, Hdn⟩⟩,
    Ho, ⟨%d0, %g0, %hg0, Hx⟩, ⟨%d1, %g1, %hg1, Hout⟩⟩, Hk⟩
  have hx : g0 = xs m c0 := by rw [hg0]; unfold Dat.before; rw [if_pos (fetch0_0' t₀)]; rfl
  subst hx
  unfold Dat.owesAt Pipeline.owesWithin
  icases Ho with ⟨%W, %hW, HO⟩
  rw [show (dats m ρ 0 c0).owed t₀.castSucc = O₀ c0 from rfl, O₀_c0]
  -- the block by halves: the kept half whole, the lent half cut into row 255, row 0 and the rest
  ihave Hs := (x_split m c0) $$ Hx
  icases Hs with ⟨Hkept, Hbot, Htop, Hrest⟩
  unfold xKept botPts upPts dnPts
  have hmw := mayWait_bar0 (F := F)
  have hO : ∀ g : Buf (Elt F) ((c0 : Thread nD τ).loc cc0_stg1_0),
      (((oM : Memref sig .tc .vmem S256x256 .f32).view.loc (c0 : Thread nD τ) ↦[(oM : Memref sig .tc .vmem S256x256 .f32).view.set]{fullShare} g : sProp 𝕄))
      = (((c0 : Thread nD τ).loc cc0_stg1_0) ↦{fullShare} g) := fun g => by
    simp only [Memref.view_whole, View.set_whole]
  ihave Hout := (Entails.of_eq (hO g1).symm) $$ Hout

  -- the two barrier units, the wait for the round, the transfer of row 255, the extrapolated upper halo row, the three
  -- stored pieces with the wait for the lower halo row between them, and the wait for the lent row's return
  sl_exec (disch := simp only [dev3_c0])
  -- the two cells whose one duty is consumed close after round 0; the two that never had a duty close at round 0
  imod (Rounds.cell_close ER (sched m) (Set.mem_univ (K (c0, 1))) (fun h => h) (R := 1) (fun r hr => tb_duties_later m (fwdCell c0) r hr)) $$ [HatF] with HzF
  · isplitr; · iexact HIfwd
    iexact HatF
  imod (Rounds.cell_close ER (sched m) (Set.mem_univ (K (c0, 4))) (fun h => h) (R := 1) (fun r hr => tb_duties_later m (dnCell c0) r hr)) $$ [HatD] with HzD
  · isplitr; · iexact HIdn
    iexact HatD
  imod (Rounds.cell_close ER (sched m) (Set.mem_univ (K (c0, 3))) (fun h => h) (R := 0) (fun r _ => tb_duties_none m c0 upS not_isXfer_up0 r)) $$ [HatU] with HzU
  · isplitr; · iexact HIup
    iexact HatU
  imod (Rounds.cell_close ER (sched m) (Set.mem_univ (K (c0, 2))) (fun h => h) (R := 0) (fun r _ => tb_duties_none m c0 bwdS not_isXfer_bwd0 r)) $$ [HatW] with HzW
  · isplitr; · iexact HIbwd
    iexact HatW
  rw [wp_ret]; imodintro
  -- the postcondition: both halo buffers, the four counters at zero, nothing owed, the block whole again, the result
  iapply Hk
  unfold bodyPost Φ₁ Dat.owesAt Pipeline.owesWithin upPts dnPts
  rw [show (dats m ρ 0 c0).owed t₀.succ = 0 from rfl]
  isplitl [Hup HatD_pay1 HzF HzW HzU HzD]
  · isplitl [Hup]; · iexists _; iexact Hup
    isplitl [HatD_pay1]; · iexists _; iexact HatD_pay1
    isplitl [HzF]; · iexact HzF
    isplitl [HzW]; · iexact HzW
    isplitl [HzU]; · iexact HzU
    iexact HzD
  isplitl [HO]
  · iexists (insert (SemLoc.dma fwdS, ()) (insert (SemLoc.dma dnS, ()) (insert (SemLoc.reg barS, ()) W)))
    isplitr; · ipureintro; exact fun _ _ => Or.inl trivial
    iexact HO
  isplitl [Hkept HatF_pay1 Htop Hrest]
  · iexists (xs m c0); isplitr; · (ipureintro; rfl)
    iapply (x_join m c0); unfold xKept botPts
    isplitl [Hkept]; · iexact Hkept
    isplitl [HatF_pay1]; · iexact HatF_pay1
    isplitl [Htop]; · iexact Htop
    iexact Hrest
  ihave Hout := (Entails.of_eq (hO _)) $$ Hout
  iexists _
  isplitr
  on_goal 2 => iexact Hout
  ipureintro
  -- the result buffer: the three pieces over the block and the two filled halo rows; the upper halo row read back after
  -- its store does not depend on what the buffer held before
  refine Eq.trans ?_ (outAt_eq m c0 fu HatD_pay1_v g1)
  have hxv : body.sl.x m = upLoad (upVal m c0 fu) := by
    rw [upVal_indep m c0 fu (View.junk (upM : Memref sig .tc .vmem S1x256 .f32).view)]
    unfold upLoad upVal; rw [if_neg hl0]; rfl
  rw [hxv]; rfl

end First

/-- The body lemma of a device with no neighbour before it: it is device 0. -/
theorem sound_body_first (c : Dev nD) (hl : ¬HasL c) : SoundBody m ρ c := by
  have hc : c = 0 := by revert hl; revert c; decide
  subst hc
  exact fun K Kt => First.body m ρ K Kt

/-- info: 'Cert.Kernel.Halo.sound_body_first' depends on axioms: [propext, Classical.choice, Quot.sound] -/
#guard_msgs in #print axioms sound_body_first

end Cert.Kernel.Halo

end
-- ==== Proof.WBodyMid.lean ====
/-
  The body of one device in the interior of the line: it has a neighbour before it and one after it.

  In program order the device pays one unit into the barrier cell of the neighbour before it, handing over its own
  upper halo buffer, and one into the barrier cell of the neighbour after it, handing over its own lower halo
  buffer.  It then waits for the two units of its own barrier cell; they bring the lower halo buffer of the
  neighbour before it and the upper halo buffer of the neighbour after it, so it may send into them.  It sends its
  last row forward and its first row backward; each transfer is lent half the share of its source row, while the
  other half of the whole block stays with the device, which goes on reading the block: rows 0 … 253, 1 … 254 and
  2 … 255 give the 254 inner rows of the result.  The wait on the upper-halo cell returns the upper halo buffer
  holding the last row of the neighbour before, from which row 0 of the result is made; the wait on the lower-halo
  cell likewise gives row 255.  The waits on the two send cells return the lent halves of rows 255 and 0, the
  block is whole again, the four transfer cells are closed, and the result buffer holds the three pieces written
  over whatever it held, which is the block's result whatever that was.
-/
import proofs.«900813_g7700000000000814_dist_halo_stencil_i_m256_n256_v7x_i16_f32_1_alg».proof.Proof.WLevels
import proofs.«900813_g7700000000000814_dist_halo_stencil_i_m256_n256_v7x_i16_f32_1_alg».proof.Proof.WIndep
import proofs.«900813_g7700000000000814_dist_halo_stencil_i_m256_n256_v7x_i16_f32_1_alg».proof.Proof.WShares

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace Mid

/-! ## The schedule's tables at the cells an interior device touches -/

theorem not_isBar_dma (x : Dev nD) (s : DmaSem sig) : ¬ IsBar (((x : Thread nD τ), SemLoc.dma s) : GSem nD τ sig) := fun h => by cases h.2

theorem duties_bar (x : Dev nD) : (sched m).duties (barCell x) 0 = Finset.univ := by
  unfold sched; dsimp only
  rw [if_pos ⟨rfl, rfl, rfl⟩]

theorem duties_fwd (x : Dev nD) (h : HasR x) : (sched m).duties (fwdCell x) 0 = {false} := by
  unfold sched; dsimp only
  rw [if_neg (fun h' => not_isBar_dma x _ h'.2), if_pos ⟨rfl, rfl, Or.inl ⟨rfl, h⟩⟩]
theorem duties_bwd (x : Dev nD) (h : HasL x) : (sched m).duties (bwdCell x) 0 = {false} := by
  unfold sched; dsimp only
  rw [if_neg (fun h' => not_isBar_dma x _ h'.2), if_pos ⟨rfl, rfl, Or.inr (Or.inl ⟨rfl, h⟩)⟩]
theorem duties_up (x : Dev nD) (h : HasL x) : (sched m).duties (upCell x) 0 = {false} := by
  unfold sched; dsimp only
  rw [if_neg (fun h' => not_isBar_dma x _ h'.2), if_pos ⟨rfl, rfl, Or.inr (Or.inr (Or.inl ⟨rfl, h⟩))⟩]
theorem duties_dn (x : Dev nD) (h : HasR x) : (sched m).duties (dnCell x) 0 = {false} := by
  unfold sched; dsimp only
  rw [if_neg (fun h' => not_isBar_dma x _ h'.2), if_pos ⟨rfl, rfl, Or.inr (Or.inr (Or.inr ⟨rfl, h⟩))⟩]

theorem duties_later (g : GSem nD τ sig) (r : ℕ) (h : 1 ≤ r) : (sched m).duties g r = ∅ := by
  unfold sched; dsimp only
  rw [if_neg (fun h' => by omega), if_neg (fun h' => by omega)]

theorem amount_bar (x : Dev nD) (r : ℕ) (d : Bool) : (sched m).amount (barCell x) r d = 1 := by
  unfold sched; dsimp only; rw [if_pos rfl]
theorem amount_dma (x : Dev nD) (s : DmaSem sig) (r : ℕ) (d : Bool) : (sched m).amount ((x : Thread nD τ), SemLoc.dma s) r d = N := by
  unfold sched; dsimp only; rw [if_neg (fun h => by cases h)]

theorem payload_bar (x : Dev nD) (r : ℕ) (d : Bool) : (sched m).payload (barCell x) r d = (if d then barPayR x else barPayL x) := by
  unfold sched; dsimp only; rw [if_pos rfl]
theorem payload_up (x : Dev nD) (r : ℕ) (d : Bool) : (sched m).payload (upCell x) r d = upPay m x := by
  unfold sched; dsimp only
  rw [if_neg (fun h => by cases h), if_pos rfl]
theorem payload_dn (x : Dev nD) (r : ℕ) (d : Bool) : (sched m).payload (dnCell x) r d = dnPay m x := by
  unfold sched; dsimp only
  rw [if_neg (fun h => by cases h), if_neg (by decide), if_pos rfl]
theorem payload_fwd (x : Dev nD) (r : ℕ) (d : Bool) : (sched m).payload (fwdCell x) r d = botPts m x := by
  unfold sched; dsimp only
  rw [if_neg (fun h => by cases h), if_neg (by decide), if_neg (by decide), if_pos rfl]
theorem payload_bwd (x : Dev nD) (r : ℕ) (d : Bool) : (sched m).payload (bwdCell x) r d = topPts m x := by
  unfold sched; dsimp only
  rw [if_neg (fun h => by cases h), if_neg (by decide), if_neg (by decide), if_neg (by decide), if_pos rfl]

theorem expect_bar (x : Dev nD) : (sched m).expect (barCell x) 0 = 2 := by
  unfold Schedule.expect Schedule.amountOf
  rw [duties_bar]
  simp only [amount_bar]
  decide
theorem expect_one (g : GSem nD τ sig) (hd : (sched m).duties g 0 = {false}) (ha : (sched m).amount g 0 false = N) : (sched m).expect g 0 = N := by
  unfold Schedule.expect Schedule.amountOf
  rw [hd, Finset.sum_singleton, ha]

/-! ## The payloads an interior device hands over and is handed, spelt out -/

theorem pay_barL_true (c : Dev nD) (hl : HasL c) : (sched m).payload (barCell (lft c)) 0 true
    = iprop((∃ f, (upM : Memref sig .tc .vmem S1x256 .f32).view.loc (c : Thread nD τ) ↦[(upM : Memref sig .tc .vmem S1x256 .f32).view.set]{fullShare} f) ∗ reached ER (upCell c) 0) := by
  rw [payload_bar, if_pos rfl]; unfold barPayR; rw [if_pos (hasR_lft c hl), rgt_lft c hl]; rfl
theorem pay_barR_false (c : Dev nD) (hr : HasR c) : (sched m).payload (barCell (rgt c)) 0 false
    = iprop((∃ f, (dnM : Memref sig .tc .vmem S1x256 .f32).view.loc (c : Thread nD τ) ↦[(dnM : Memref sig .tc .vmem S1x256 .f32).view.set]{fullShare} f) ∗ reached ER (dnCell c) 0) := by
  rw [payload_bar, if_neg Bool.false_ne_true]; unfold barPayL; rw [if_pos (hasL_rgt c hr), lft_rgt c hr]; rfl
theorem pay_bar_false (c : Dev nD) (hl : HasL c) : (sched m).payload (barCell c) 0 false
    = iprop((∃ f, (dnM : Memref sig .tc .vmem S1x256 .f32).view.loc (lft c : Thread nD τ) ↦[(dnM : Memref sig .tc .vmem S1x256 .f32).view.set]{fullShare} f) ∗ reached ER (dnCell (lft c)) 0) := by
  rw [payload_bar, if_neg Bool.false_ne_true]; unfold barPayL; rw [if_pos hl]; rfl
theorem pay_bar_true (c : Dev nD) (hr : HasR c) : (sched m).payload (barCell c) 0 true
    = iprop((∃ f, (upM : Memref sig .tc .vmem S1x256 .f32).view.loc (rgt c : Thread nD τ) ↦[(upM : Memref sig .tc .vmem S1x256 .f32).view.set]{fullShare} f) ∗ reached ER (upCell (rgt c)) 0) := by
  rw [payload_bar, if_pos rfl]; unfold barPayR; rw [if_pos hr]; rfl
theorem pay_fwd (c : Dev nD) : (sched m).payload (fwdCell c) 0 false
    = ((xBot : Memref sig .tc .vmem S1x256 .f32).view.loc (c : Thread nD τ) ↦[(xBot : Memref sig .tc .vmem S1x256 .f32).view.set]{lent} xs m c) := by
  rw [payload_fwd]; rfl
theorem pay_bwd (c : Dev nD) : (sched m).payload (bwdCell c) 0 false
    = ((xTop : Memref sig .tc .vmem S1x256 .f32).view.loc (c : Thread nD τ) ↦[(xTop : Memref sig .tc .vmem S1x256 .f32).view.set]{lent} xs m c) := by
  rw [payload_bwd]; rfl
theorem pay_upR (c : Dev nD) (hr : HasR c) : (sched m).payload (upCell (rgt c)) 0 false
    = iprop(∃ f, (upM : Memref sig .tc .vmem S1x256 .f32).view.loc (rgt c : Thread nD τ) ↦[(upM : Memref sig .tc .vmem S1x256 .f32).view.set]{fullShare}
        (upM : Memref sig .tc .vmem S1x256 .f32).view.write (Elt F) f ((xBot : Memref sig .tc .vmem S1x256 .f32).view.read (Elt F) (xs m c)) Finset.univ) := by
  rw [payload_up]; unfold upPay upPts upVal; simp only [if_pos (hasL_rgt c hr), lft_rgt c hr]; rfl
theorem pay_dnL (c : Dev nD) (hl : HasL c) : (sched m).payload (dnCell (lft c)) 0 false
    = iprop(∃ f, (dnM : Memref sig .tc .vmem S1x256 .f32).view.loc (lft c : Thread nD τ) ↦[(dnM : Memref sig .tc .vmem S1x256 .f32).view.set]{fullShare}
        (dnM : Memref sig .tc .vmem S1x256 .f32).view.write (Elt F) f ((xTop : Memref sig .tc .vmem S1x256 .f32).view.read (Elt F) (xs m c)) Finset.univ) := by
  rw [payload_dn]; unfold dnPay dnPts dnVal; simp only [if_pos (hasR_lft c hl), rgt_lft c hl]; rfl
theorem pay_up (c : Dev nD) : (sched m).payload (upCell c) 0 false
    = iprop(∃ f, (upM : Memref sig .tc .vmem S1x256 .f32).view.loc (c : Thread nD τ) ↦[(upM : Memref sig .tc .vmem S1x256 .f32).view.set]{fullShare} upVal m c f) := by
  rw [payload_up]; rfl
theorem pay_dn (c : Dev nD) : (sched m).payload (dnCell c) 0 false
    = iprop(∃ f, (dnM : Memref sig .tc .vmem S1x256 .f32).view.loc (c : Thread nD τ) ↦[(dnM : Memref sig .tc .vmem S1x256 .f32).view.set]{fullShare} dnVal m c f) := by
  rw [payload_dn]; rfl

theorem bar_rest (c : Dev nD) (hl : HasL c) (hr : HasR c) :
    bigSep (Finset.univ : Finset Bool) (fun d => (sched m).payload (barCell c) 0 d)
      = iprop(((∃ f, (dnM : Memref sig .tc .vmem S1x256 .f32).view.loc (lft c : Thread nD τ) ↦[(dnM : Memref sig .tc .vmem S1x256 .f32).view.set]{fullShare} f) ∗ reached ER (dnCell (lft c)) 0)
        ∗ ((∃ f, (upM : Memref sig .tc .vmem S1x256 .f32).view.loc (rgt c : Thread nD τ) ↦[(upM : Memref sig .tc .vmem S1x256 .f32).view.set]{fullShare} f) ∗ reached ER (upCell (rgt c)) 0)) := by
  rw [show (Finset.univ : Finset Bool) = insert false {true} from by decide, BI.bigSep_insert (by decide), BI.bigSep_singleton,
    pay_bar_false m c hl, pay_bar_true m c hr]
  rfl

theorem expect_up (c : Dev nD) (hl : HasL c) : (sched m).expect (upCell c) 0 = N := expect_one m _ (duties_up m c hl) (amount_dma m c _ 0 false)
theorem expect_dn (c : Dev nD) (hr : HasR c) : (sched m).expect (dnCell c) 0 = N := expect_one m _ (duties_dn m c hr) (amount_dma m c _ 0 false)
theorem expect_fwd (c : Dev nD) (hr : HasR c) : (sched m).expect (fwdCell c) 0 = N := expect_one m _ (duties_fwd m c hr) (amount_dma m c _ 0 false)
theorem expect_bwd (c : Dev nD) (hl : HasL c) : (sched m).expect (bwdCell c) 0 = N := expect_one m _ (duties_bwd m c hl) (amount_dma m c _ 0 false)

/-- The result buffer, whole, as held through its memref's view. -/
theorem out_pts (c : Dev nD) (g : Buf (Elt F) ((c : Thread nD τ).loc cc0_stg1_0)) :
    ((((c : Thread nD τ).loc cc0_stg1_0) ↦{fullShare} g : sProp 𝕄))
      = ((oM : Memref sig .tc .vmem S256x256 .f32).view.loc (c : Thread nD τ) ↦[(oM : Memref sig .tc .vmem S256x256 .f32).view.set]{fullShare} g) := by
  rw [show (oM : Memref sig .tc .vmem S256x256 .f32).view.set = Finset.univ from View.set_whole _]

/-! ## The two transfers, at a destination device given as a term of its own -/

theorem send_fwd (K : Dev nD × Fin 5 → ℕ) (c : Dev nD) (hr : HasR c) (d : Dev nD) (hd : d = rgt c)
    (fn : Buf (Elt F) ((upM : Memref sig .tc .vmem S1x256 .f32).view.loc (rgt c : Thread nD τ)))
    (O : CellTallies nD τ sig Unit) (W : Waits sig Unit) {α : Type} {Q : α → sProp 𝕄}
    {hsc : (upM : Memref sig .tc .vmem S1x256 .f32).view.ref.isScScratch = false}
    {hsrc : (xBot : Memref sig .tc .vmem S1x256 .f32).view.WordExact} {hdst : (upM : Memref sig .tc .vmem S1x256 .f32).view.WordExact}
    {hsem : DmaTarget.Typed .vmem (SemLoc.dma upS) (.remote (Dev.tc d) (upM : Memref sig .tc .vmem S1x256 .f32) (SemLoc.dma fwdS) hsc)}
    {k : PUnit → Prog (TpuEff nD τ sig (Elt F) Λ₀ .tc) α} :
    iprop(cellInv ER (sched m) (K (c, 1)) (fwdCell c) ∗ cellInv ER (sched m) (K (rgt c, 3)) (upCell (rgt c))
        ∗ ((xBot : Memref sig .tc .vmem S1x256 .f32).view.loc (c : Thread nD τ) ↦[(xBot : Memref sig .tc .vmem S1x256 .f32).view.set]{lent} xs m c)
        ∗ ((upM : Memref sig .tc .vmem S1x256 .f32).view.loc (rgt c : Thread nD τ) ↦[(upM : Memref sig .tc .vmem S1x256 .f32).view.set]{fullShare} fn)
        ∗ owes (c : Thread nD τ) (O + tallyAt (upCell (rgt c)) () N) W
        ∗ dutyTok ER (fwdCell c) 0 false ∗ reached ER (fwdCell c) 0
        ∗ dutyTok ER (upCell (rgt c)) 0 false ∗ reached ER (upCell (rgt c)) 0)
      ⊢ iprop(((cred (tallyAt (fwdCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xBot : Memref sig .tc .vmem S1x256 .f32) (.remote (Dev.tc d) (upM : Memref sig .tc .vmem S1x256 .f32) (SemLoc.dma fwdS) hsc) (SemLoc.dma upS) hsrc hdst hsem) k) Q) := by
  subst hd
  exact Rounds.wp_send_pointsTo 𝒱₀ ER (sched m) (c : Thread nD τ) none (c' := (rgt c : Thread nD τ))
    (src := (xBot : Memref sig .tc .vmem S1x256 .f32)) (dst := (upM : Memref sig .tc .vmem S1x256 .f32)) (q := lent) (fs := xs m c) (fd := fn)
    (r₁ := 0) (r₂ := 0) (d₁ := false) (d₂ := false) (κ₁ := K (c, 1)) (κ₂ := K (rgt c, 3))
    (by rw [duties_fwd m c hr]; exact Finset.mem_singleton_self _) (by rw [duties_up m (rgt c) (hasL_rgt c hr)]; exact Finset.mem_singleton_self _)
    () () N rfl (amount_dma m c _ 0 false) (amount_dma m (rgt c) _ 0 false) O rfl
    (Entails.of_eq (pay_fwd m c).symm)
    (by rw [pay_upR m c hr]; iintro H; iexists fn; iexact H)

theorem send_bwd (K : Dev nD × Fin 5 → ℕ) (c : Dev nD) (hl : HasL c) (d : Dev nD) (hd : d = lft c)
    (fn : Buf (Elt F) ((dnM : Memref sig .tc .vmem S1x256 .f32).view.loc (lft c : Thread nD τ)))
    (W : Waits sig Unit) {α : Type} {Q : α → sProp 𝕄}
    {hsc : (dnM : Memref sig .tc .vmem S1x256 .f32).view.ref.isScScratch = false}
    {hsrc : (xTop : Memref sig .tc .vmem S1x256 .f32).view.WordExact} {hdst : (dnM : Memref sig .tc .vmem S1x256 .f32).view.WordExact}
    {hsem : DmaTarget.Typed .vmem (SemLoc.dma dnS) (.remote (Dev.tc d) (dnM : Memref sig .tc .vmem S1x256 .f32) (SemLoc.dma bwdS) hsc)}
    {k : PUnit → Prog (TpuEff nD τ sig (Elt F) Λ₀ .tc) α} :
    iprop(cellInv ER (sched m) (K (c, 2)) (bwdCell c) ∗ cellInv ER (sched m) (K (lft c, 4)) (dnCell (lft c))
        ∗ ((xTop : Memref sig .tc .vmem S1x256 .f32).view.loc (c : Thread nD τ) ↦[(xTop : Memref sig .tc .vmem S1x256 .f32).view.set]{lent} xs m c)
        ∗ ((dnM : Memref sig .tc .vmem S1x256 .f32).view.loc (lft c : Thread nD τ) ↦[(dnM : Memref sig .tc .vmem S1x256 .f32).view.set]{fullShare} fn)
        ∗ owes (c : Thread nD τ) (tallyAt (dnCell (lft c)) () N) W
        ∗ dutyTok ER (bwdCell c) 0 false ∗ reached ER (bwdCell c) 0
        ∗ dutyTok ER (dnCell (lft c)) 0 false ∗ reached ER (dnCell (lft c)) 0)
      ⊢ iprop(((cred (tallyAt (bwdCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xTop : Memref sig .tc .vmem S1x256 .f32) (.remote (Dev.tc d) (dnM : Memref sig .tc .vmem S1x256 .f32) (SemLoc.dma bwdS) hsc) (SemLoc.dma dnS) hsrc hdst hsem) k) Q) := by
  subst hd
  exact Rounds.wp_send_pointsTo 𝒱₀ ER (sched m) (c : Thread nD τ) none (c' := (lft c : Thread nD τ))
    (src := (xTop : Memref sig .tc .vmem S1x256 .f32)) (dst := (dnM : Memref sig .tc .vmem S1x256 .f32)) (q := lent) (fs := xs m c) (fd := fn)
    (r₁ := 0) (r₂ := 0) (d₁ := false) (d₂ := false) (κ₁ := K (c, 2)) (κ₂ := K (lft c, 4))
    (by rw [duties_bwd m c hl]; exact Finset.mem_singleton_self _) (by rw [duties_dn m (lft c) (hasR_lft c hl)]; exact Finset.mem_singleton_self _)
    () () N rfl (amount_dma m c _ 0 false) (amount_dma m (lft c) _ 0 false) 0 (zero_add _).symm
    (Entails.of_eq (pay_bwd m c).symm)
    (by rw [pay_dnL m c hl]; iintro H; iexists fn; iexact H)
attribute [local sl_rounds] duties_bar duties_fwd duties_bwd duties_up duties_dn duties_later amount_bar amount_dma expect_bar
  pay_barL_true pay_barR_false pay_bar_false pay_bar_true pay_fwd pay_bwd pay_upR pay_dnL pay_up pay_dn rgt_lft lft_rgt
attribute [local sl_canon] dev1_eq dev2_eq dev3_eq dev4_eq
attribute [local sl_rounds] expect_up expect_dn expect_fwd expect_bwd

set_option maxRecDepth 65536 in
theorem body_mid (c : Dev nD) (hl : HasL c) (hr : HasR c) : SoundBody m ρ c := by
  intro K Kt
  unfold theBody
  simp only [cc0_body_eq_skeleton]; unfold cc0_body_skel
  simp only [k0_part1_eq_skeleton, k0_part2_eq_skeleton]; unfold k0_part1_skel k0_part2_skel
  simp only [semSignalWord, semSignalHereWord, semWaitWord, Prog.lift, Prog.bind_op, Prog.bind_ret, Prog.pure_eq_ret, wp_deviceId]
  have h1 : k0_cond1 c = 1#1 := (cond1_iff c).2 hl
  have h3 : k0_cond3 c = 1#1 := (cond3_iff c).2 hr
  have h5 : k0_cond5 c = 1#1 := (cond5_iff c).2 hr
  have h6 : k0_cond6 c = 1#1 := (cond6_iff c).2 hl
  have hnL : ¬ (Scalar.cmpi .ne (Scalar.extui (Scalar.xori (Scalar.cmpi .sgt (Scalar.remsi (Scalar.divsi (Dev.word c) 1#32) 16#32) 0#32) 1#1)) 0#32 = 1#1) := by
    show ¬ (Scalar.cmpi .ne (Scalar.extui (Scalar.xori (wL c) 1#1)) 0#32 = 1#1)
    rw [wL_eq, if_pos hl]; decide
  have hnR : ¬ (Scalar.cmpi .ne (Scalar.extui (Scalar.xori (Scalar.cmpi .slt (Scalar.remsi (Scalar.divsi (Dev.word c) 1#32) 16#32) 15#32) 1#1)) 0#32 = 1#1) := by
    show ¬ (Scalar.cmpi .ne (Scalar.extui (Scalar.xori (wR c) 1#1)) 0#32 = 1#1)
    rw [wR_eq, if_pos hr]; decide
  have hpL : Scalar.cmpi .ne (Scalar.extui (Scalar.cmpi .sgt (Scalar.remsi (Scalar.divsi (Dev.word c) 1#32) 16#32) 0#32)) 0#32 = 1#1 := by
    show Scalar.cmpi .ne (Scalar.extui (wL c)) 0#32 = 1#1
    rw [wL_eq, if_pos hl]; decide
  have hpR : Scalar.cmpi .ne (Scalar.extui (Scalar.cmpi .slt (Scalar.remsi (Scalar.divsi (Dev.word c) 1#32) 16#32) 15#32)) 0#32 = 1#1 := by
    show Scalar.cmpi .ne (Scalar.extui (wR c)) 0#32 = 1#1
    rw [wR_eq, if_pos hr]; decide
  simp only [h1, h3, h5, h6, hnL, hnR, hpL, hpR, ↓reduceDIte, Prog.bind_op, Prog.bind_ret]
  simp only [dev1_eq c h1, dev2_eq c h3, dev3_eq c h5, dev4_eq c h6]
  have hRl : HasR (lft c) := hasR_lft c hl
  have hLr : HasL (rgt c) := hasL_rgt c hr
  unfold bodyPre ghost invs reach payToks creds upPts dnPts
  simp only [if_pos hl, if_pos hr]
  iintro ⟨⟨⟨⟨⟨#HIbar, #HIfwd, #HIbwd, #HIup, #HIdn, #HIbarL, #HIbarR, #HIdnL, #HIupR⟩, ⟨HatB, HatF, HatW, HatU, HatD⟩,
      ⟨#HrB, #HrF, #HrW, #HrU, #HrD, #HrBL, #HrBR, #HrDL, #HrUR⟩, ⟨HtBL, HtBR, ⟨HtF, HtUR⟩, ⟨HtW, HtDL⟩⟩⟩, ⟨HcB, HcU, HcD⟩, #Hlev, ⟨%fu, Hup⟩, ⟨%fd, Hdn⟩⟩,
    Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  unfold O₀ O₁ owedXfer leftBar rightBar
  simp only [if_pos hl, if_pos hr]
  have hsplit : ((((c : Thread nD τ).loc cc0_stg0_0) ↦{fullShare} xs m c : sProp 𝕄))
      ⊢ iprop(((xM : Memref sig .tc .vmem S256x256 .f32).view.loc (c : Thread nD τ) ↦[(xM : Memref sig .tc .vmem S256x256 .f32).view.set]{kept} xs m c)
        ∗ ((xBot : Memref sig .tc .vmem S1x256 .f32).view.loc (c : Thread nD τ) ↦[(xBot : Memref sig .tc .vmem S1x256 .f32).view.set]{lent} xs m c)
        ∗ ((xTop : Memref sig .tc .vmem S1x256 .f32).view.loc (c : Thread nD τ) ↦[(xTop : Memref sig .tc .vmem S1x256 .f32).view.set]{lent} xs m c)
        ∗ xRest m c) := x_split m c
  ihave Hx4 := hsplit $$ Hx
  icases Hx4 with ⟨HxK, HxB, HxT, HxR⟩
  have hmwb : (levAts L lv : sProp 𝕄) ⊢ MayWait (c : Thread nD τ) (.reg barS) () (tallyAt (dnCell (lft c)) () N + tallyAt (upCell (rgt c)) () N) := by
    have := mayWait_bar (F := F) c
    unfold owedXfer at this
    simpa only [if_pos hl, if_pos hr] using this
  -- the unit to the side before: c's own upper halo buffer goes to the device before it, with upCell c at round 0
  iapply (Rounds.wp_signal 𝒱₀ ER (sched m) (c : Thread nD τ) none (dst := (lft c : Thread nD τ)) (κ := K (lft c, 0))
      (d := true) (by rw [duties_bar]; exact Finset.mem_univ _) ((amount_bar m (lft c) 0 true).trans (by decide)) ()
      (tallyAt (dnCell (lft c)) () N + tallyAt (upCell (rgt c)) () N + tallyAt (barCell (rgt c)) () 1) rfl) $$ [HO HtBL Hup]
  · isplitr; · iexact HIbarL
    isplitl [HO]; · iexact HO
    isplitl [HtBL]; · iexact HtBL
    isplitl [Hup]
    · rw [pay_barL_true m c hl]
      isplitl [Hup]; · iexists fu; iexact Hup
      iexact HrU
    · iexact HrBL
  iintro HO
  -- the unit to the side after: c's own lower halo buffer goes to the device after it, with dnCell c at round 0
  iapply (Rounds.wp_signal 𝒱₀ ER (sched m) (c : Thread nD τ) none (dst := (rgt c : Thread nD τ)) (κ := K (rgt c, 0))
      (d := false) (by rw [duties_bar]; exact Finset.mem_univ _) ((amount_bar m (rgt c) 0 false).trans (by decide)) ()
      (tallyAt (dnCell (lft c)) () N + tallyAt (upCell (rgt c)) () N) rfl) $$ [HO HtBR Hdn]
  · isplitr; · iexact HIbarR
    isplitl [HO]; · iexact HO
    isplitl [HtBR]; · iexact HtBR
    isplitl [Hdn]
    · rw [pay_barR_false m c hr]
      isplitl [Hdn]; · iexists fd; iexact Hdn
      iexact HrD
    · iexact HrBR
  iintro HO
  -- the wait for the whole round of the barrier cell, owing the two halo credits
  set_option sl_exec.maxSteps 1 in sl_exec
  ihave Hp := (Entails.of_eq (bar_rest m c hl hr)) $$ HatB_pay1
  icases Hp with ⟨⟨⟨%fdL, HdnL⟩, #HrDL'⟩, ⟨⟨%fuR, HupR⟩, #HrUR'⟩⟩
  -- the forward transfer: row 255, at the lent share, into the upper halo buffer of the device after
  iapply (send_fwd m K c hr _ (dev3_eq c h5) fuR (tallyAt (dnCell (lft c)) () N) _) $$ [HxB HupR HO HtF HtUR]
  · isplitr; · iexact HIfwd
    isplitr; · iexact HIupR
    isplitl [HxB]; · iexact HxB
    isplitl [HupR]; · iexact HupR
    isplitl [HO]; · iexact HO
    isplitl [HtF]; · iexact HtF
    isplitr; · iexact HrF
    isplitl [HtUR]; · iexact HtUR
    iexact HrUR
  iintro ⟨HcF, HO⟩
  -- the backward transfer: row 0 into the lower halo buffer of the device before
  iapply (send_bwd m K c hl _ (dev4_eq c h6) fdL _) $$ [HxT HdnL HO HtW HtDL]
  · isplitr; · iexact HIbwd
    isplitr; · iexact HIdnL
    isplitl [HxT]; · iexact HxT
    isplitl [HdnL]; · iexact HdnL
    isplitl [HO]; · iexact HO
    isplitl [HtW]; · iexact HtW
    isplitr; · iexact HrW
    isplitl [HtDL]; · iexact HtDL
    iexact HrDL
  iintro ⟨HcW, HO⟩
  ihave Hout := (Entails.of_eq (out_pts c g1)) $$ Hout
  -- the loads, the three stores and the four waits on the device's own transfer cells
  sl_exec
  -- the four transfer cells close: the one duty of round 0 of each is consumed, and no later round has a duty
  imod (Rounds.cell_close ER (sched m) (Set.mem_univ (K (c, 1))) (fun h => h) (R := 1) (fun r h => duties_later m (fwdCell c) r h)) $$ [HatF] with HzF
  · isplitr; · iexact HIfwd
    iexact HatF
  imod (Rounds.cell_close ER (sched m) (Set.mem_univ (K (c, 2))) (fun h => h) (R := 1) (fun r h => duties_later m (bwdCell c) r h)) $$ [HatW] with HzW
  · isplitr; · iexact HIbwd
    iexact HatW
  imod (Rounds.cell_close ER (sched m) (Set.mem_univ (K (c, 3))) (fun h => h) (R := 1) (fun r h => duties_later m (upCell c) r h)) $$ [HatU] with HzU
  · isplitr; · iexact HIup
    iexact HatU
  imod (Rounds.cell_close ER (sched m) (Set.mem_univ (K (c, 4))) (fun h => h) (R := 1) (fun r h => duties_later m (dnCell c) r h)) $$ [HatD] with HzD
  · isplitr; · iexact HIdn
    iexact HatD
  rw [wp_ret]; imodintro
  iapply Hk
  unfold bodyPost Φ₁ Dat.owesAt Pipeline.owesWithin upPts dnPts
  rw [show (dats m ρ 0 c).owed t₀.succ = 0 from rfl, ← outAt_eq m c HatU_pay1_v HatD_pay1_v g1]
  isplitl [HatU_pay1 HatD_pay1 HzF HzW HzU HzD]
  · isplitl [HatU_pay1]; · iexists _; iexact HatU_pay1
    isplitl [HatD_pay1]; · iexists _; iexact HatD_pay1
    isplitl [HzF]; · iexact HzF
    isplitl [HzW]; · iexact HzW
    isplitl [HzU]; · iexact HzU
    iexact HzD
  isplitl [HO]
  · iexists _
    isplitr
    rotate_left
    · iexact HO
    · ipureintro; exact fun _ _ => Or.inl trivial
  isplitl [HxK HatF_pay1 HatW_pay1 HxR]
  · -- the block's two halves and the lent half's three row sets join again
    iexists _; isplitr; · (ipureintro; rfl)
    iapply (x_join m c)
    unfold xKept botPts topPts
    isplitl [HxK]; · iexact HxK
    isplitl [HatF_pay1]; · iexact HatF_pay1
    isplitl [HatW_pay1]; · iexact HatW_pay1
    iexact HxR
  iexists _; isplitr; · (ipureintro; rfl)
  ihave Hout := (Entails.of_eq (out_pts c _).symm) $$ Hout
  iexact Hout

end Mid

/-- One device's body, for a device with a neighbour on both sides. -/
theorem sound_body_mid (c : Dev nD) (hl : HasL c) (hr : HasR c) : SoundBody m ρ c := Mid.body_mid m ρ c hl hr

/-- info: 'Cert.Kernel.Halo.sound_body_mid' depends on axioms: [propext, Classical.choice, Quot.sound] -/
#guard_msgs in #print axioms sound_body_mid

end Cert.Kernel.Halo

end
-- ==== Proof.WBodyLast.lean ====
/-
  The body of the halo exchange on the last device of the line.

  The last device has a neighbour before it and none after it.  It pays the unit "from the side after" of the
  barrier cell of the device before it, handing over its own upper halo buffer, and the unit "from the side
  after" of its own barrier cell, handing over nothing.  After the barrier wait it holds the lower halo buffer
  of the device before it and sends its first row there.  Its own lower halo row it fills itself, by
  extrapolating its last two rows.  It then stores the 254 inner rows, waits for its upper halo row, stores
  row 0, stores row 255 from the extrapolated row, and waits until its first row has been read.  The two cells
  of the missing side never had a duty and are closed at round 0; the other two at round 1.
-/
import proofs.«900813_g7700000000000814_dist_halo_stencil_i_m256_n256_v7x_i16_f32_1_alg».proof.Proof.WLevels
import proofs.«900813_g7700000000000814_dist_halo_stencil_i_m256_n256_v7x_i16_f32_1_alg».proof.Proof.WShares
import proofs.«900813_g7700000000000814_dist_halo_stencil_i_m256_n256_v7x_i16_f32_1_alg».proof.Proof.WIndep

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

namespace Last

/-! ## The schedule's tables at the cells the last device touches -/

section Tables

theorem duties_eq (g : GSem nD τ sig) (r : ℕ) : (sched m).duties g r
    = if r = 0 ∧ IsBar g then Finset.univ else if r = 0 ∧ IsXfer g then {false} else ∅ := rfl
theorem amount_eq (g : GSem nD τ sig) (r : ℕ) (d : Bool) : (sched m).amount g r d = if g.2 = .reg barS then 1 else N := rfl
theorem payload_eq (g : GSem nD τ sig) (r : ℕ) (d : Bool) : (sched m).payload g r d
    = if g.2 = .reg barS then (if d then barPayR g.1.1 else barPayL g.1.1)
      else if g.2 = .dma upS then upPay m g.1.1
      else if g.2 = .dma dnS then dnPay m g.1.1
      else if g.2 = .dma fwdS then botPts m g.1.1
      else if g.2 = .dma bwdS then topPts m g.1.1
      else iprop(emp) := rfl

theorem duties_bar (x : Dev nD) : (sched m).duties (barCell x) 0 = Finset.univ :=
  (duties_eq m _ _).trans (if_pos ⟨rfl, rfl, rfl⟩)

theorem amount_bar (x : Dev nD) (r : ℕ) (d : Bool) : (sched m).amount (barCell x) r d = 1 :=
  (amount_eq m _ _ _).trans (if_pos rfl)

theorem amount_dma (x : Dev nD) (q : DmaSem sig) (r : ℕ) (d : Bool) : (sched m).amount ((x : Thread nD τ), .dma q) r d = N :=
  (amount_eq m _ _ _).trans (if_neg (fun h => by cases h))

theorem expect_bar (x : Dev nD) : (sched m).expect (barCell x) 0 = 2 := by
  show ∑ d ∈ (sched m).duties (barCell x) 0, (sched m).amount (barCell x) 0 d = 2
  rw [duties_bar]; simp only [amount_bar]; rfl

theorem duties_xfer (g : GSem nD τ sig) (hg : IsXfer g) (hb : g.2 ≠ .reg barS) : (sched m).duties g 0 = {false} :=
  (duties_eq m _ _).trans ((if_neg (fun h => hb h.2.2)).trans (if_pos ⟨rfl, hg⟩))

theorem duties_later (g : GSem nD τ sig) (r : ℕ) (h : 1 ≤ r) : (sched m).duties g r = ∅ :=
  (duties_eq m _ _).trans ((if_neg (fun h' => by omega)).trans (if_neg (fun h' => by omega)))

theorem duties_none (g : GSem nD τ sig) (hb : ¬IsBar g) (hx : ¬IsXfer g) (r : ℕ) : (sched m).duties g r = ∅ :=
  (duties_eq m _ _).trans ((if_neg (fun h' => hb h'.2)).trans (if_neg (fun h' => hx h'.2)))

variable (c : Dev nD)

theorem duties_bwd (hl : HasL c) : (sched m).duties (bwdCell c) 0 = {false} :=
  duties_xfer m _ ⟨rfl, .inr (.inl ⟨rfl, hl⟩)⟩ (fun h => by cases h)
theorem duties_up (hl : HasL c) : (sched m).duties (upCell c) 0 = {false} :=
  duties_xfer m _ ⟨rfl, .inr (.inr (.inl ⟨rfl, hl⟩))⟩ (fun h => by cases h)
theorem duties_dnL (hl : HasL c) : (sched m).duties (dnCell (lft c)) 0 = {false} :=
  duties_xfer m _ ⟨rfl, .inr (.inr (.inr ⟨rfl, hasR_lft c hl⟩))⟩ (fun h => by cases h)

theorem expect_bwd (hl : HasL c) : (sched m).expect (bwdCell c) 0 = N := by
  show ∑ d ∈ (sched m).duties (bwdCell c) 0, (sched m).amount (bwdCell c) 0 d = N
  rw [duties_bwd m c hl, Finset.sum_singleton]; exact amount_dma m c _ 0 false
theorem expect_up (hl : HasL c) : (sched m).expect (upCell c) 0 = N := by
  show ∑ d ∈ (sched m).duties (upCell c) 0, (sched m).amount (upCell c) 0 d = N
  rw [duties_up m c hl, Finset.sum_singleton]; exact amount_dma m c _ 0 false

theorem dn_ne_up : (SemLoc.dma dnS : SemLoc sig) ≠ .dma upS := by decide
theorem bwd_ne_up : (SemLoc.dma bwdS : SemLoc sig) ≠ .dma upS := by decide
theorem bwd_ne_dn : (SemLoc.dma bwdS : SemLoc sig) ≠ .dma dnS := by decide
theorem bwd_ne_fwd : (SemLoc.dma bwdS : SemLoc sig) ≠ .dma fwdS := by decide

theorem fwd_ne_bwd : (SemLoc.dma fwdS : SemLoc sig) ≠ .dma bwdS := by decide
theorem fwd_ne_up : (SemLoc.dma fwdS : SemLoc sig) ≠ .dma upS := by decide
theorem fwd_ne_dn : (SemLoc.dma fwdS : SemLoc sig) ≠ .dma dnS := by decide
theorem dn_ne_fwd : (SemLoc.dma dnS : SemLoc sig) ≠ .dma fwdS := by decide
theorem dn_ne_bwd : (SemLoc.dma dnS : SemLoc sig) ≠ .dma bwdS := by decide

theorem payload_bar (x : Dev nD) (r : ℕ) (d : Bool) : (sched m).payload (barCell x) r d = if d then barPayR x else barPayL x :=
  (payload_eq m _ _ _).trans (if_pos rfl)
theorem payload_upPay (x : Dev nD) (r : ℕ) (d : Bool) : (sched m).payload (upCell x) r d = upPay m x :=
  (payload_eq m _ _ _).trans ((if_neg (fun h => by cases h)).trans (if_pos rfl))
theorem payload_dnPay (x : Dev nD) (r : ℕ) (d : Bool) : (sched m).payload (dnCell x) r d = dnPay m x :=
  (payload_eq m _ _ _).trans ((if_neg (fun h => by cases h)).trans ((if_neg dn_ne_up).trans (if_pos rfl)))
theorem payload_topPts (x : Dev nD) (r : ℕ) (d : Bool) : (sched m).payload (bwdCell x) r d = topPts m x :=
  (payload_eq m _ _ _).trans ((if_neg (fun h => by cases h)).trans ((if_neg bwd_ne_up).trans ((if_neg bwd_ne_dn).trans
    ((if_neg bwd_ne_fwd).trans (if_pos rfl)))))

/-- The unit the last device pays the device before it hands over the last device's own upper halo buffer. -/
theorem payload_barL_true (hl : HasL c) : (sched m).payload (barCell (lft c)) 0 true
    = iprop((∃ f, (upM : Memref sig .tc .vmem S1x256 .f32).view.loc (c : Thread nD τ) ↦[(upM : Memref sig .tc .vmem S1x256 .f32).view.set]{fullShare} f)
        ∗ reached ER (upCell c) 0) := by
  rw [payload_bar, if_pos rfl]; unfold barPayR; rw [if_pos (hasR_lft c hl), rgt_lft c hl]; rfl

theorem payload_bar_true (hr : ¬HasR c) : (sched m).payload (barCell c) 0 true = iprop(emp) := by
  rw [payload_bar, if_pos rfl]; unfold barPayR; rw [if_neg hr]

theorem payload_bar_false (hl : HasL c) : (sched m).payload (barCell c) 0 false
    = iprop((∃ f, (dnM : Memref sig .tc .vmem S1x256 .f32).view.loc (lft c : Thread nD τ) ↦[(dnM : Memref sig .tc .vmem S1x256 .f32).view.set]{fullShare} f)
        ∗ reached ER (dnCell (lft c)) 0) := by
  rw [payload_bar, if_neg Bool.false_ne_true]; unfold barPayL; rw [if_pos hl]; rfl

theorem payload_up : (sched m).payload (upCell c) 0 false
    = iprop(∃ f, (upM : Memref sig .tc .vmem S1x256 .f32).view.loc (c : Thread nD τ) ↦[(upM : Memref sig .tc .vmem S1x256 .f32).view.set]{fullShare} upVal m c f) :=
  payload_upPay m c 0 false

theorem payload_bwd : (sched m).payload (bwdCell c) 0 false
    = iprop((xTop : Memref sig .tc .vmem S1x256 .f32).view.loc (c : Thread nD τ) ↦[(xTop : Memref sig .tc .vmem S1x256 .f32).view.set]{lent} xs m c) :=
  payload_topPts m c 0 false

/-- What the last device's first row, landed in the lower halo buffer of the device before it, makes of that buffer. -/
theorem payload_dnL (hl : HasL c) : (sched m).payload (dnCell (lft c)) 0 false
    = iprop(∃ f, (dnM : Memref sig .tc .vmem S1x256 .f32).view.loc (lft c : Thread nD τ) ↦[(dnM : Memref sig .tc .vmem S1x256 .f32).view.set]{fullShare}
        (dnM : Memref sig .tc .vmem S1x256 .f32).view.write (Elt F) f ((xTop : Memref sig .tc .vmem S1x256 .f32).view.read (Elt F) (xs m c)) Finset.univ) := by
  rw [payload_dnPay]; unfold dnPay dnVal; simp only [if_pos (hasR_lft c hl)]; rw [rgt_lft c hl]; rfl

/-- What the barrier wait hands the last device: the lower halo buffer of the device before it. -/
theorem rest_bar (hl : HasL c) (hr : ¬HasR c) :
    (BI.bigSep (Finset.univ : Finset Bool) (fun d => (sched m).payload (barCell c) 0 d))
      = iprop(((∃ f, (dnM : Memref sig .tc .vmem S1x256 .f32).view.loc (lft c : Thread nD τ) ↦[(dnM : Memref sig .tc .vmem S1x256 .f32).view.set]{fullShare} f)
          ∗ reached ER (dnCell (lft c)) 0) ∗ emp) := by
  rw [show (Finset.univ : Finset Bool) = insert false {true} from by decide, BI.bigSep_insert (by decide), BI.bigSep_singleton,
    payload_bar_false m c hl, payload_bar_true m c hr]
  rfl

omit [FloatOps F] in
/-- The result buffer held whole is held through its whole view. -/
theorem out_pts (g : Buf (Elt F) ((c : Thread nD τ).loc cc0_stg1_0)) :
    ((((c : Thread nD τ).loc cc0_stg1_0) ↦{fullShare} g : sProp 𝕄))
      = ((oM : Memref sig .tc .vmem S256x256 .f32).view.loc (c : Thread nD τ) ↦[(oM : Memref sig .tc .vmem S256x256 .f32).view.set]{fullShare} g) := by
  rw [show (oM : Memref sig .tc .vmem S256x256 .f32).view.set = Finset.univ from View.set_whole _]

/-- With no device after it, a device's forward-send cell and lower-halo cell have no duty in any round. -/
theorem notXfer_fwd (hr : ¬HasR c) : ¬IsXfer (fwdCell c) := by
  rintro ⟨-, ⟨-, h⟩ | ⟨h, -⟩ | ⟨h, -⟩ | ⟨h, -⟩⟩
  · exact hr h
  · exact fwd_ne_bwd h
  · exact fwd_ne_up h
  · exact fwd_ne_dn h
theorem notXfer_dn (hr : ¬HasR c) : ¬IsXfer (dnCell c) := by
  rintro ⟨-, ⟨h, -⟩ | ⟨h, -⟩ | ⟨h, -⟩ | ⟨-, h⟩⟩
  · exact dn_ne_fwd h
  · exact dn_ne_bwd h
  · exact dn_ne_up h
  · exact hr h
theorem notBar_dma (x : Dev nD) (q : DmaSem sig) : ¬IsBar ((x : Thread nD τ), SemLoc.dma q) := fun h => by cases h.2

/-- What the last device owes when the kernel starts: its first row's landing, and the two barrier units. -/
theorem owed_eq (hl : HasL c) (hr : ¬HasR c) :
    O₀ c = tallyAt (dnCell (lft c)) () N + tallyAt (barCell c) () 1 + tallyAt (barCell (lft c)) () 1 := by
  unfold O₀ O₁ owedXfer leftBar rightBar; simp only [if_pos hl, if_neg hr, add_zero]

end Tables

attribute [local sl_rounds] duties_bar amount_bar amount_dma expect_bar duties_bwd duties_up duties_dnL expect_bwd expect_up
  payload_barL_true payload_bar_true payload_bar_false payload_up payload_bwd payload_dnL
attribute [local sl_canon] dev1_eq dev4_eq

/-- The body, stepped from what the last device holds when it starts. -/
theorem body (c : Dev nD) (hr : ¬HasR c) : SoundBody m ρ c := by
  have hl : HasL c := (hasL_or_hasR c).resolve_right hr
  intro K Kt
  have h1 : k0_cond1 c = 1#1 := (cond1_iff c).mpr hl
  have h3 : ¬k0_cond3 c = 1#1 := fun h => hr ((cond3_iff c).mp h)
  have h5 : ¬k0_cond5 c = 1#1 := fun h => hr ((cond5_iff c).mp h)
  have h6 : k0_cond6 c = 1#1 := (cond6_iff c).mpr hl
  have hwL : wL c = 1#1 := (wL_eq c).trans (if_pos hl)
  have hwR : wR c = 0#1 := (wR_eq c).trans (if_neg hr)
  unfold wL at hwL; unfold wR at hwR
  have hd1 : (⟨k0_dev1 c, k0_dev1_lt c h1⟩ : Dev nD) = lft c := dev1_eq c h1
  have hd4 : (⟨k0_dev4 c, k0_dev4_lt c h6⟩ : Dev nD) = lft c := dev4_eq c h6
  have hmw : (levAts L lv : sProp 𝕄) ⊢ MayWait (c : Thread nD τ) (.reg barS) () (tallyAt (dnCell (lft c)) () N) := by
    have h := mayWait_bar (F := F) c
    unfold owedXfer at h; simp only [if_pos hl, if_neg hr, add_zero] at h; exact h
  unfold theBody bodyPre ghost invs reach payToks creds
  simp only [if_pos hl, if_neg hr]
  iintro ⟨⟨⟨⟨⟨#HIbar, #HIfwd, #HIbwd, #HIup, #HIdn, #HIbarL, #HIbarR, #HIdnL, #HIupR⟩, ⟨HatB, HatF, HatW, HatU, HatD⟩,
      ⟨#HrB, #HrF, #HrW, #HrU, #HrD, #HrBL, #HrBR, #HrDL, #HrUR⟩, ⟨HtBL, HtBS, -, HtW, HtDL⟩⟩, ⟨HcB, HcU, -⟩, #Hlev, ⟨%fu, Hup⟩, ⟨%fd, Hdn⟩⟩,
    Ho, ⟨%d0, %g0, %hg0, Hx⟩, ⟨%d1, %g1, %hg1, Hout⟩⟩, Hk⟩
  have hx : g0 = xs m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl, owed_eq c hl hr]
  ihave Hx := (x_split m c) $$ Hx
  icases Hx with ⟨Hxk, Hbot, Htop, Hrest⟩
  unfold xKept topPts upPts dnPts
  ihave Hout := (Entails.of_eq (out_pts c g1)) $$ Hout
  sl_unfold [cc0_body]
  sl_exec (disch := first | sl_exact h1 | sl_exact h3 | sl_exact h5 | sl_exact h6 | (sl_unfold_run_names; simp only [hwL, hwR]; decide +kernel) | sl_exact (dev4_eq c h6) | sl_exact (dev1_eq c h1))
  ihave Hp := (Entails.of_eq (rest_bar m c hl hr)) $$ HatB_pay1
  icases Hp with ⟨⟨⟨%fdl, HdnL⟩, #HrDL'⟩, -⟩
  sl_exec (disch := first | sl_exact h1 | sl_exact h3 | sl_exact h5 | sl_exact h6 | (sl_unfold_run_names; simp only [hwL, hwR]; decide +kernel) | sl_exact (dev4_eq c h6) | sl_exact (dev1_eq c h1))
  -- the two cells of the missing side never had a duty and close at round 0; the other two close after their one round
  imod (Rounds.cell_close ER (sched m) (Set.mem_univ (K (c, 1))) (fun h => h) (R := 0)
    (fun r _ => duties_none m (fwdCell c) (notBar_dma c fwdS) (notXfer_fwd c hr) r)) $$ [HatF] with HzF
  · isplitr; · iexact HIfwd
    iexact HatF
  imod (Rounds.cell_close ER (sched m) (Set.mem_univ (K (c, 4))) (fun h => h) (R := 0)
    (fun r _ => duties_none m (dnCell c) (notBar_dma c dnS) (notXfer_dn c hr) r)) $$ [HatD] with HzD
  · isplitr; · iexact HIdn
    iexact HatD
  imod (Rounds.cell_close ER (sched m) (Set.mem_univ (K (c, 2))) (fun h => h) (R := 1)
    (fun r hr' => duties_later m (bwdCell c) r hr')) $$ [HatW] with HzW
  · isplitr; · iexact HIbwd
    iexact HatW
  imod (Rounds.cell_close ER (sched m) (Set.mem_univ (K (c, 3))) (fun h => h) (R := 1)
    (fun r hr' => duties_later m (upCell c) r hr')) $$ [HatU] with HzU
  · isplitr; · iexact HIup
    iexact HatU
  rw [wp_ret]; imodintro
  -- the postcondition: both halo buffers, the four counters at zero, nothing owed, the block whole again, the result
  iapply Hk
  unfold bodyPost Φ₁ Dat.owesAt Pipeline.owesWithin upPts dnPts
  rw [show (dats m ρ 0 c).owed t₀.succ = 0 from rfl]
  isplitl [HatU_pay1 Hdn HzF HzW HzU HzD]
  · isplitl [HatU_pay1]; · iexists _; iexact HatU_pay1
    isplitl [Hdn]; · iexists _; iexact Hdn
    isplitl [HzF]; · iexact HzF
    isplitl [HzW]; · iexact HzW
    isplitl [HzU]; · iexact HzU
    iexact HzD
  isplitl [HO]
  · iexists _
    isplitr
    on_goal 2 => iexact HO
    ipureintro; exact fun _ _ => Or.inl trivial
  isplitl [Hxk Hbot HatW_pay1 Hrest]
  · iexists (xs m c); isplitr; · (ipureintro; rfl)
    iapply (x_join m c); unfold xKept topPts
    isplitl [Hxk]; · iexact Hxk
    isplitl [Hbot]; · iexact Hbot
    isplitl [HatW_pay1]; · iexact HatW_pay1
    iexact Hrest
  ihave Hout := (Entails.of_eq (out_pts c _).symm) $$ Hout
  iexists _
  isplitr
  on_goal 2 => iexact Hout
  ipureintro
  -- the result buffer: the three pieces over the block and the two filled halo rows; the lower halo row read back after
  -- its store does not depend on what the buffer held before
  refine Eq.trans ?_ (outAt_eq m c HatU_pay1_v fd g1)
  have hxv : body.sl.v68 m c = dnLoad (dnVal m c fd) := by
    rw [dnVal_indep m c fd (View.junk (dnM : Memref sig .tc .vmem S1x256 .f32).view)]
    unfold dnLoad dnVal; rw [if_neg hr]; rfl
  rw [hxv]; rfl

end Last

/-- The body lemma of a device with no neighbour after it: the last device of the line. -/
theorem sound_body_last (c : Dev nD) (hr : ¬HasR c) : SoundBody m ρ c := Last.body m ρ c hr

/-- info: 'Cert.Kernel.Halo.sound_body_last' depends on axioms: [propext, Classical.choice, Quot.sound] -/
#guard_msgs in #print axioms sound_body_last

end Cert.Kernel.Halo

end
-- ==== Proof.WGhost.lean ====
/-
  The exchange's ghost state when the kernel starts.

  The launch element is the rounds library's initial element over the eighty cells (five a device) and over
  ninety-six duty tokens, six for every device, listed BY PAYER: device c is dealt the token of the barrier unit
  it sends to the side before it (duty "from the side after" of the barrier cell of the device before it; at the
  start of the line the duty "from the side before" of its own barrier cell), likewise the unit to the side
  after it, the token of its forward send cell and of the upper-halo cell of the device after it, the token of its
  backward send cell and of the lower-halo cell of the device before it.  On a line the map from a cell's owner
  to a duty's payer is not a permutation of the devices, so the tokens are minted where they are spent and never
  travel.  Where a device has no neighbour the halo token in its list is one of a later round, which no duty
  answers to and which is thrown away.

  From that element every device gets the round state, the position and the reached-mark of its five cells and its
  six tokens; with the sixteen devices' semaphore counters at zero all eighty invariants are allocated under one
  update, their names and the reached-marks are recorded once (persistently), and every device takes from the
  record the invariants and marks of its own cells and of the neighbouring cells it pays into.
-/
import proofs.«900813_g7700000000000814_dist_halo_stencil_i_m256_n256_v7x_i16_f32_1_alg».proof.Proof.WLevels

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every payload can be kept in an invariant -/

instance launch_payload_storable (g : GSem nD τ sig) (r : ℕ) (d : Bool) :
    BI.Storable (upEmb : UEmb _ 𝕄) ((sched (F := F) m).payload g r d) := by
  show BI.Storable upEmb (if g.2 = .reg barS then (if d then barPayR g.1.1 else barPayL g.1.1)
    else if g.2 = .dma upS then upPay m g.1.1 else if g.2 = .dma dnS then dnPay m g.1.1
    else if g.2 = .dma fwdS then botPts m g.1.1 else if g.2 = .dma bwdS then topPts m g.1.1 else iprop(emp))
  unfold barPayL barPayR upPay dnPay
  (repeat' split) <;> infer_instance

/-! ## The cells and the tokens of the launch element -/

theorem ghost_kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The eighty cells: five a device. -/
def ghostCells : Finset (GSem nD τ sig) := Finset.univ.map ⟨kcell, ghost_kcell_injective⟩

/-- The six duties device c pays, each as (owner of the cell, which of its five cells), round, duty: the barrier unit
    to the side before it, the one to the side after it, its forward send and the upper halo of the device after it, its
    backward send and the lower halo of the device before it.  Where the neighbour is missing the barrier unit goes to
    the device's own cell, and the halo entry names round 1, where no cell has a duty. -/
def payCode (cj : Dev nD × Fin 6) : (Dev nD × Fin 5) × ℕ × Bool := match cj.2 with
  | 0 => if HasL cj.1 then ((lft cj.1, 0), 0, true) else ((cj.1, 0), 0, false)
  | 1 => if HasR cj.1 then ((rgt cj.1, 0), 0, false) else ((cj.1, 0), 0, true)
  | 2 => ((cj.1, 1), 0, false)
  | 3 => if HasR cj.1 then ((rgt cj.1, 3), 0, false) else ((cj.1, 3), 1, false)
  | 4 => ((cj.1, 2), 0, false)
  | 5 => if HasL cj.1 then ((lft cj.1, 4), 0, false) else ((cj.1, 4), 1, false)

/-- No duty is listed twice: a barrier cell's unit from the side before comes from the device before it or, at the start
    of the line, from the device itself, and these are different entries for different payers; likewise on the other side. -/
theorem payCode_injective : Function.Injective payCode := by
  intro ⟨c, j⟩ ⟨c', j'⟩
  revert c j c' j'
  decide +kernel

def payTok (cj : Dev nD × Fin 6) : GSem nD τ sig × ℕ × Bool := (kcell (payCode cj).1, (payCode cj).2)

theorem payTok_injective : Function.Injective payTok := fun a b h =>
  payCode_injective (Prod.ext (ghost_kcell_injective (congrArg (fun x : GSem nD τ sig × ℕ × Bool => x.1) h))
    (congrArg (fun x : GSem nD τ sig × ℕ × Bool => x.2) h))

/-- The ninety-six tokens: six a payer. -/
def ghostToks : Finset (GSem nD τ sig × ℕ × Bool) := Finset.univ.map ⟨payTok, payTok_injective⟩

def u₀ : UU :=
  (initOf (Pipeline.cells cfgs cellOf_inj) (Pipeline.launchToks cfgs cellOf_inj), initOf ghostCells ghostToks)

/-- One listed token. -/
def tk (cj : Dev nD × Fin 6) : sProp 𝕄 := dutyTok ER (payTok cj).1 (payTok cj).2.1 (payTok cj).2.2

/-- The six tokens dealt to payer c. -/
def dealt (c : Dev nD) : sProp 𝕄 := iprop(tk (c, 0) ∗ tk (c, 1) ∗ tk (c, 2) ∗ tk (c, 3) ∗ tk (c, 4) ∗ tk (c, 5))

/-- What the launch element deals device c: the round states of its five cells, their positions and reached-marks,
    and the tokens of the six duties it pays. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ dealt c)

omit [FloatOps F] in
private theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
private theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The exchange's half of the launch element, dealt device by device. -/
theorem fund_ghost : BI.own (ER (initOf ghostCells ghostToks)) ⊢ (|==> bigSep Finset.univ (G m) : sProp 𝕄) := by
  have hX (Φ : GSem nD τ sig → sProp 𝕄) : bigSep ghostCells Φ = bigSep Finset.univ fun c : Dev nD => bigSep Finset.univ fun k : Fin 5 => Φ (kcell (c, k)) := by
    unfold ghostCells; rw [bigSep_map, bigSep_univ_prod]; rfl
  have hT : bigSep ghostToks (fun x => (dutyTok ER x.1 x.2.1 x.2.2 : sProp 𝕄)) = bigSep Finset.univ fun c : Dev nD => dealt c := by
    unfold ghostToks; rw [bigSep_map, bigSep_univ_prod]
    exact bigSep_congr fun c _ => by unfold dealt; rw [bigSep_fin6]; rfl
  iintro HX
  imod (Rounds.fund ER (sched m) ghostCells ghostToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element yields the pipeline's own half and every device's share of the exchange's. -/
theorem hu0 : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ghost m) $$ HX with HG
  imodintro
  isplitl [HP] <;> iassumption

/-! ## The invariants allocated, and every device's share regrouped -/

omit [FloatOps F] in
/-- The four transfer semaphores are the kernel's own; -/
private theorem ownSems0_eq (c : Dev nD) : (Pipeline.ownSems0 (Ix := Unit) (Name := ℕ) (U := UU) (Lvl := ℕ) (Val := Elt F) (τ := τ) osem c : sProp 𝕄)
    = iprop(semVal (fwdCell c) 0 ∗ semVal (bwdCell c) 0 ∗ semVal (upCell c) 0 ∗ semVal (dnCell c) 0) := by
  rw [Pipeline.ownSems0_eq_of_list c osem [0, 1, 2, 3] (by decide) (by decide)]; rfl
omit [FloatOps F] in
/-- the barrier semaphore is the one semaphore outside the kernel's scope. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

/-- One device's five counters at zero and five round states become five invariants, each at some name. -/
private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ dealt c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The record every device reads from: all eighty invariants at their names, all eighty cells at round 0. -/
private def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

private instance records_persistent (K : Dev nD × Fin 5 → ℕ) : BI.Persistent (records m K) := by unfold records; infer_instance

private theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
omit [FloatOps F] in
private theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-! ### The six dealt tokens are the tokens the device pays with -/

omit [FloatOps F] in
private theorem tk_L (c : Dev nD) : (tk (c, 0) : sProp 𝕄) = if HasL c then dutyTok ER (barCell (lft c)) 0 true else dutyTok ER (barCell c) 0 false := by
  unfold tk payTok
  rw [show payCode (c, 0) = if HasL c then ((lft c, 0), 0, true) else ((c, 0), 0, false) from rfl]
  split <;> rfl
omit [FloatOps F] in
private theorem tk_R (c : Dev nD) : (tk (c, 1) : sProp 𝕄) = if HasR c then dutyTok ER (barCell (rgt c)) 0 false else dutyTok ER (barCell c) 0 true := by
  unfold tk payTok
  rw [show payCode (c, 1) = if HasR c then ((rgt c, 0), 0, false) else ((c, 0), 0, true) from rfl]
  split <;> rfl
omit [FloatOps F] in
private theorem tk_fwd (c : Dev nD) : (tk (c, 2) : sProp 𝕄) = dutyTok ER (fwdCell c) 0 false := rfl
omit [FloatOps F] in
private theorem tk_up (c : Dev nD) : (tk (c, 3) : sProp 𝕄) = if HasR c then dutyTok ER (upCell (rgt c)) 0 false else dutyTok ER (upCell c) 1 false := by
  unfold tk payTok
  rw [show payCode (c, 3) = if HasR c then ((rgt c, 3), 0, false) else ((c, 3), 1, false) from rfl]
  split <;> rfl
omit [FloatOps F] in
private theorem tk_bwd (c : Dev nD) : (tk (c, 4) : sProp 𝕄) = dutyTok ER (bwdCell c) 0 false := rfl
omit [FloatOps F] in
private theorem tk_dn (c : Dev nD) : (tk (c, 5) : sProp 𝕄) = if HasL c then dutyTok ER (dnCell (lft c)) 0 false else dutyTok ER (dnCell c) 1 false := by
  unfold tk payTok
  rw [show payCode (c, 5) = if HasL c then ((lft c, 4), 0, false) else ((c, 4), 1, false) from rfl]
  split <;> rfl

omit [FloatOps F] in
/-- A send token and the neighbour's halo token: kept where the neighbour exists, else dropped (the halo entry is then
    the unused one of round 1). -/
private theorem pair_R (c : Dev nD) :
    iprop(dutyTok ER (fwdCell c) 0 false ∗ (if HasR c then dutyTok ER (upCell (rgt c)) 0 false else dutyTok ER (upCell c) 1 false))
      ⊢ (if HasR c then iprop(dutyTok ER (fwdCell c) 0 false ∗ dutyTok ER (upCell (rgt c)) 0 false) else iprop(emp) : sProp 𝕄) := by
  by_cases hr : HasR c
  · rw [if_pos hr, if_pos hr]
  · rw [if_neg hr, if_neg hr]; iintro -; iempintro
omit [FloatOps F] in
private theorem pair_L (c : Dev nD) :
    iprop(dutyTok ER (bwdCell c) 0 false ∗ (if HasL c then dutyTok ER (dnCell (lft c)) 0 false else dutyTok ER (dnCell c) 1 false))
      ⊢ (if HasL c then iprop(dutyTok ER (bwdCell c) 0 false ∗ dutyTok ER (dnCell (lft c)) 0 false) else iprop(emp) : sProp 𝕄) := by
  by_cases hl : HasL c
  · rw [if_pos hl, if_pos hl]
  · rw [if_neg hl, if_neg hl]; iintro -; iempintro

omit [FloatOps F] in
private theorem dealt_pay (c : Dev nD) : (dealt c : sProp 𝕄) ⊢ payToks c := by
  unfold dealt payToks
  rw [tk_L, tk_R, tk_fwd, tk_up, tk_bwd, tk_dn]
  iintro ⟨H0, H1, H2, H3, H4, H5⟩
  isplitl [H0]; · iexact H0
  isplitl [H1]; · iexact H1
  isplitl [H2 H3]
  · iapply (pair_R (F := F) c); isplitl [H2] <;> iassumption
  · iapply (pair_L (F := F) c); isplitl [H4] <;> iassumption

/-- What stays with device c beside the record: its five positions and its six tokens. -/
private def linear (c : Dev nD) : sProp 𝕄 :=
  iprop((atPos ER (barCell c) 0 ∅ 0 ∗ atPos ER (fwdCell c) 0 ∅ 0 ∗ atPos ER (bwdCell c) 0 ∅ 0 ∗ atPos ER (upCell c) 0 ∅ 0 ∗ atPos ER (dnCell c) 0 ∅ 0) ∗ dealt c)

/-- A device's ghost state from the record and what stays with it.  The record holds every cell's invariant and mark,
    so the ones named through lft c and rgt c are there whether or not that neighbour exists. -/
private theorem ghost_intro (K : Dev nD × Fin 5 → ℕ) (c : Dev nD) : iprop(records m K ∗ linear c) ⊢ iprop(∃ K, ghost m K c) := by
  unfold records linear ghost invs reach
  iintro ⟨⟨#HI, #HR⟩, ⟨HaB, HaF, HaW, HaU, HaD⟩, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (lft c, 0)); iexact HI
    isplitr; · iapply (inv_at m K (rgt c, 0)); iexact HI
    isplitr; · iapply (inv_at m K (lft c, 4)); iexact HI
    iapply (inv_at m K (rgt c, 3)); iexact HI
  isplitl [HaB HaF HaW HaU HaD]
  · isplitl [HaB]; · iexact HaB
    isplitl [HaF]; · iexact HaF
    isplitl [HaW]; · iexact HaW
    isplitl [HaU]; · iexact HaU
    iexact HaD
  isplitr
  · isplitr; · iapply (reached_at (F := F) (c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (lft c, 0)); iexact HR
    isplitr; · iapply (reached_at (F := F) (rgt c, 0)); iexact HR
    isplitr; · iapply (reached_at (F := F) (lft c, 4)); iexact HR
    iapply (reached_at (F := F) (rgt c, 3)); iexact HR
  iapply (dealt_pay (F := F) c); iexact Htok

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ dealt c) : sProp 𝕄)
      ⊢ bigSep Finset.univ fun c => iprop(∃ K, ghost m K c) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) dealt).symm).trans
      (bigSep_mono fun c _ => show _ ⊢ linear c from Entails.of_eq (by unfold linear; rw [bigSep_fin5])))
    isplitl [Hat]; · iexact Hat
    iexact Htok

/-- The global step: every device's own and unscoped semaphore counters at zero, beside what the launch element dealt it,
    become every device's ghost state at some names. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

/-- info: 'Cert.Kernel.Halo.hu0' depends on axioms: [propext, Classical.choice, Quot.sound] -/
#guard_msgs in #print axioms hu0

/-- info: 'Cert.Kernel.Halo.glob' depends on axioms: [propext, Classical.choice, Quot.sound] -/
#guard_msgs in #print axioms glob

end Cert.Kernel.Halo

end
-- ==== Proof.WLaunch.lean ====
/-
  The launch of the halo exchange on the line of sixteen devices, for any float instance.

  Given one device's body lemma at every position on the line and the exchange's ghost state dealt to every
  device, every fair execution of the sixteen kernels ends, and each device's arrays end at the contents the
  pipeline's bookkeeping names: the argument block unchanged, the result block as the body left it.

  What has to be supplied here is arithmetic over the line.  A barrier cell is owed two units in all: one by
  the device before it and one by the device after it, and where a side has no device the cell's own device
  owes that unit itself; so also the first and the last device's cells are owed exactly two.  An upper halo
  cell is owed one row's credit by the device before it and nothing when there is none; a lower halo cell
  likewise by the device after it.  These sums are what the launch hands each device to wait with.
-/
import proofs.«900813_g7700000000000814_dist_halo_stencil_i_m256_n256_v7x_i16_f32_1_alg».proof.Proof.WLevels

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem up_set : (upM : Memref sig .tc .vmem S1x256 .f32).view.set = Finset.univ := View.set_whole _
omit [FloatOps F] in
theorem dn_set : (dnM : Memref sig .tc .vmem S1x256 .f32).view.set = Finset.univ := View.set_whole _
omit [FloatOps F] in
/-- A halo buffer's points-to is the plain points-to of the whole scratch buffer. -/
theorem upPts_eq (c : Dev nD) (f : Buf (Elt F) ((c : Thread nD τ).loc cc0_scratch0)) :
    upPts c f = (((c : Thread nD τ).loc cc0_scratch0) ↦{fullShare} f : sProp 𝕄) := by unfold upPts; rw [up_set]
omit [FloatOps F] in
theorem dnPts_eq (c : Dev nD) (f : Buf (Elt F) ((c : Thread nD τ).loc cc0_scratch1)) :
    dnPts c f = (((c : Thread nD τ).loc cc0_scratch1) ↦{fullShare} f : sProp 𝕄) := by unfold dnPts; rw [dn_set]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- What the pipeline hands the body at its one point: the invariant before it, what the device owes, the two
    staging buffers. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- One device's body lemma, in the form the pipeline asks for it. -/
theorem body_obligation (hb : ∀ c, SoundBody m ρ c) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hcr, Hlev⟩, Hup, Hdn⟩, Ho, Hx, Hout⟩
  iapply (hb c K fun _ => bodyPost m ρ c)
  unfold bodyPre
  isplitr []
  · isplitl [Hg Hcr Hlev Hup Hdn]
    · isplitl [Hg]; · iexact Hg
      isplitl [Hcr]; · iexact Hcr
      isplitl [Hlev]; · iexact Hlev
      isplitl [Hup]; · iexact Hup
      iexact Hdn
    isplitl [Ho]; · iexact Ho
    isplitl [Hx] <;> iassumption
  · iintro H; iexact H

/-! ## The launch credit -/

theorem dma_ne_reg (q : DmaSem sig) (s : Sem sig) : (SemLoc.dma q : SemLoc sig) ≠ .reg s := fun h => by cases h
theorem upS_ne_dnS : (SemLoc.dma upS : SemLoc sig) ≠ .dma dnS := by decide

/-- Two cells on one semaphore are the same cell exactly when they are on the same device. -/
theorem cell_eq_iff {a b : Dev nD} {s : SemLoc sig} :
    (((a : Thread nD τ), s) : GSem nD τ sig) = ((b : Thread nD τ), s) ↔ a = b :=
  ⟨fun h => congrArg (fun g : GSem nD τ sig => g.1.1) h, fun h => h ▸ rfl⟩

theorem cell_ne {a b : Dev nD} {s s' : SemLoc sig} (h : s ≠ s') :
    (((a : Thread nD τ), s) : GSem nD τ sig) ≠ ((b : Thread nD τ), s') := fun he => h (congrArg Prod.snd he)

/-- The device whose barrier cell takes device `d`'s unit "towards the side after it" / "before it". -/
def rb (d : Dev nD) : Dev nD := if HasR d then rgt d else d
def lb (d : Dev nD) : Dev nD := if HasL d then lft d else d

theorem rightBar_eq (d : Dev nD) : rightBar d = barCell (rb d) := by
  unfold rightBar rb
  by_cases h : HasR d
  · rw [if_pos h, if_pos h]
  · rw [if_neg h, if_neg h]
theorem leftBar_eq (d : Dev nD) : leftBar d = barCell (lb d) := by
  unfold leftBar lb
  by_cases h : HasL d
  · rw [if_pos h, if_pos h]
  · rw [if_neg h, if_neg h]

/-- A tally that is there only under a condition, read at a cell. -/
theorem ite_tally_apply (p : Prop) [Decidable p] (g g' : GSem nD τ sig) (n : ℕ) :
    (if p then tallyAt g () n else (0 : CellTallies nD τ sig Unit)) g' () = if p ∧ g' = g then n else 0 := by
  by_cases hp : p
  · rw [if_pos hp, tallyAt_apply]
    exact if_congr ⟨fun h => ⟨hp, h.1⟩, fun h => ⟨h.2, rfl⟩⟩ rfl rfl
  · rw [if_neg hp, if_neg (fun h : p ∧ g' = g => hp h.1), Pi.zero_apply, Finsupp.zero_apply]

/-- The transfer credits are owed to halo cells only. -/
theorem owedXfer_bar (d c : Dev nD) : owedXfer d (barCell c) () = 0 :=
  Nat.eq_zero_of_not_pos fun h => by
    obtain ⟨-, h2⟩ := owedXfer_pos h
    rcases h2 with h2 | h2
    · exact dma_ne_reg _ _ h2.symm
    · exact dma_ne_reg _ _ h2.symm

/-- What device `d` owes device `c`'s barrier cell: a unit if its side-after unit goes there, a unit if its
    side-before unit goes there. -/
theorem owed_bar (d c : Dev nD) : O₀ d (barCell c) () = (if rb d = c then 1 else 0) + (if lb d = c then 1 else 0) := by
  unfold O₀ O₁
  rw [Pi.add_apply, Finsupp.add_apply, Pi.add_apply, Finsupp.add_apply, owedXfer_bar, rightBar_eq, leftBar_eq,
    tallyAt_apply, tallyAt_apply, Nat.zero_add]
  congr 1
  · exact if_congr ⟨fun h => (cell_eq_iff.mp h.1).symm, fun h => ⟨cell_eq_iff.mpr h.symm, rfl⟩⟩ rfl rfl
  · exact if_congr ⟨fun h => (cell_eq_iff.mp h.1).symm, fun h => ⟨cell_eq_iff.mpr h.symm, rfl⟩⟩ rfl rfl

/-- Over the line every barrier cell is owed two units: the inner cells one from each neighbour, the first and the
    last cell one from their one neighbour and one from their own device. -/
theorem sum_bar (c : Dev nD) : (∑ d : Dev nD, ((if rb d = c then 1 else 0) + (if lb d = c then 1 else 0))) = 2 := by
  revert c; decide

/-- What device `d` owes device `c`'s upper halo cell: a row's credit if `c` is the device after `d`. -/
theorem owed_up (d c : Dev nD) : O₀ d (upCell c) () = if HasR d ∧ upCell c = upCell (rgt d) then N else 0 := by
  unfold O₀ O₁ owedXfer
  rw [Pi.add_apply, Finsupp.add_apply, Pi.add_apply, Finsupp.add_apply, Pi.add_apply, Finsupp.add_apply,
    ite_tally_apply, ite_tally_apply, rightBar_eq, leftBar_eq,
    tallyAt_ne_cell (cell_ne (dma_ne_reg _ _)), tallyAt_ne_cell (cell_ne (dma_ne_reg _ _)), Finsupp.zero_apply, Nat.add_zero, Nat.add_zero,
    if_neg (fun h : HasL d ∧ upCell c = dnCell (lft d) => cell_ne upS_ne_dnS h.2), Nat.zero_add]

/-- What device `d` owes device `c`'s lower halo cell: a row's credit if `c` is the device before `d`. -/
theorem owed_dn (d c : Dev nD) : O₀ d (dnCell c) () = if HasL d ∧ dnCell c = dnCell (lft d) then N else 0 := by
  unfold O₀ O₁ owedXfer
  rw [Pi.add_apply, Finsupp.add_apply, Pi.add_apply, Finsupp.add_apply, Pi.add_apply, Finsupp.add_apply,
    ite_tally_apply, ite_tally_apply, rightBar_eq, leftBar_eq,
    tallyAt_ne_cell (cell_ne (dma_ne_reg _ _)), tallyAt_ne_cell (cell_ne (dma_ne_reg _ _)), Finsupp.zero_apply, Nat.add_zero, Nat.add_zero,
    if_neg (fun h : HasR d ∧ dnCell c = upCell (rgt d) => cell_ne upS_ne_dnS.symm h.2), Nat.add_zero]

theorem up_iff (c d : Dev nD) (h : HasL c) : (HasR d ∧ upCell c = upCell (rgt d)) ↔ d = lft c :=
  ⟨fun ⟨hr, he⟩ => by rw [cell_eq_iff.mp he, lft_rgt d hr],
   fun hd => by subst hd; exact ⟨hasR_lft c h, by rw [rgt_lft c h]⟩⟩
theorem dn_iff (c d : Dev nD) (h : HasR c) : (HasL d ∧ dnCell c = dnCell (lft d)) ↔ d = rgt c :=
  ⟨fun ⟨hl, he⟩ => by rw [cell_eq_iff.mp he, rgt_lft d hl],
   fun hd => by subst hd; exact ⟨hasL_rgt c h, by rw [lft_rgt c h]⟩⟩

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, sum_bar]

omit [FloatOps F] in
theorem launch_up (c : Dev nD) (h : HasL c) :
    tallyOn (upCell c) (launchCredit (Pipeline.owing O₀) 0 (upCell c)) = (tallyAt (upCell c) () N : CellTallies nD τ sig Unit) := by
  unfold tallyAt; refine congrArg _ (Finsupp.ext fun u => ?_); cases u
  rw [Pipeline.launchCredit_owing, Finsupp.single_eq_same,
    Finset.sum_congr rfl fun d _ => (owed_up d c).trans (if_congr (up_iff c d h) rfl rfl),
    Finset.sum_ite_eq' Finset.univ (lft c) fun _ => N, if_pos (Finset.mem_univ _)]

omit [FloatOps F] in
theorem launch_dn (c : Dev nD) (h : HasR c) :
    tallyOn (dnCell c) (launchCredit (Pipeline.owing O₀) 0 (dnCell c)) = (tallyAt (dnCell c) () N : CellTallies nD τ sig Unit) := by
  unfold tallyAt; refine congrArg _ (Finsupp.ext fun u => ?_); cases u
  rw [Pipeline.launchCredit_owing, Finsupp.single_eq_same,
    Finset.sum_congr rfl fun d _ => (owed_dn d c).trans (if_congr (dn_iff c d h) rfl rfl),
    Finset.sum_ite_eq' Finset.univ (rgt c) fun _ => N, if_pos (Finset.mem_univ _)]

omit [FloatOps F] in
/-- The credit the launch deals device `c` covers its three waits on cells others pay. -/
theorem creds_of_launch (c : Dev nD) : (Pipeline.launchCred O₀ c : sProp 𝕄) ⊢ creds c := by
  unfold Pipeline.launchCred creds
  rw [bigSep_univ_at _ (SemLoc.reg barS), launch_bar,
    bigSep_erase (i := SemLoc.dma upS) (Finset.mem_erase.mpr ⟨dma_ne_reg _ _, Finset.mem_univ _⟩)]
  refine sep_mono_right ((sep_mono_left ?_).trans (sep_mono_right ?_))
  · by_cases h : HasL c
    · refine Entails.of_eq ?_
      rw [if_pos h, launch_up c h]
    · rw [if_neg h]; iintro -; iempintro
  · by_cases h : HasR c
    · rw [if_pos h, ← launch_dn c h]
      exact bigSep_elim (Finset.mem_erase.mpr ⟨upS_ne_dnS.symm, Finset.mem_erase.mpr ⟨dma_ne_reg _ _, Finset.mem_univ _⟩⟩)
    · rw [if_neg h]; iintro -; iempintro

/-! ## The launch theorem's side conditions -/

omit [FloatOps F] in
/-- The four transfer semaphores are the kernel's own. -/
theorem ownSems0_eq (c : Dev nD) : (Pipeline.ownSems0 (Ix := Unit) (Name := ℕ) (U := UU) (Lvl := ℕ) (Val := Elt F) (τ := τ) osem c : sProp 𝕄)
    = iprop(semVal (fwdCell c) 0 ∗ semVal (bwdCell c) 0 ∗ semVal (upCell c) 0 ∗ semVal (dnCell c) 0) := by
  rw [Pipeline.ownSems0_eq_of_list c osem [0, 1, 2, 3] (by decide) (by decide)]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hu⟩, ⟨%g, Hd⟩⟩
  isplitl [Hs]; · iexact Hs
  isplitl [Hu]
  · iexists f; rw [upPts_eq]; iexact Hu
  · iexists g; rw [dnPts_eq]; iexact Hd

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hu⟩, ⟨%g, Hd⟩, H1, H2, H3, H4⟩
  isplitr; · iempintro
  isplitl [H1 H2 H3 H4]
  · isplitl [H1]; · iexact H1
    isplitl [H2]; · iexact H2
    isplitl [H3]; · iexact H3
    iexact H4
  isplitl [Hu]
  · iexists f; rw [← upPts_eq]; iexact Hu
  · iexists g; rw [← dnPts_eq]; iexact Hd

/-- The pipeline's own waits, on its two staging cells, are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-! ## The run -/

/-- A device's arrays after the pipeline's one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every fair execution of the sixteen kernels (each shaking hands
    with its neighbours on the barrier semaphore, then sending its edge rows along the line) ends, and every final
    state has each device's two arrays at `finalA`. -/
theorem run_main (hb : ∀ c, SoundBody m ρ c) (G : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c)) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := fun c => iprop(∃ K, ghost m K c)) (u₀ := u₀)
    (hu₀ := hu₀)
    (hglob := hglob)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

/-- The result array after the run holds the block the body left in its staging buffer: the result window's one
    block is the whole array, and it is written back, unmasked, at the one point. -/
theorem finalA_out (c : Dev nD) : finalA m ρ c (1 : Fin 2) = outAt m c := by
  have h := (dats (F := F) m ρ 0 c).arrAt_succ (1 : Fin 2) t₀
  rw [show (cfg0.win (1 : Fin 2)).flush t₀ = true from flush0_1 t₀, if_pos rfl] at h
  exact h.trans (Memref.write_access_unit_zero_univ (Elt F) main_v1 (funext fun a => Nat.zero_mul _) _ _ _)

/-- info: 'Cert.Kernel.Halo.run_main' depends on axioms: [propext, Classical.choice, Quot.sound] -/
#guard_msgs in #print axioms run_main

end Cert.Kernel.Halo

end
-- ==== Proof.RefRun.lean ====
/-
  The reference program run: its twenty-eight host operations, what its result buffer holds at the end, and
  that its argument is left as it was.

  The first operation allocates a buffer and writes nothing into it, so that buffer then holds contents nobody
  chooses.  The other twenty-seven operations each determine their result from their operands; their composition,
  as a function of the argument array `X` and of whatever the allocated buffer holds, `J`, is `refVal X J`.
-/
import proofs.«900813_g7700000000000814_dist_halo_stencil_i_m256_n256_v7x_i16_f32_1_alg».proof.ReferenceIdeal
import proofs.«900813_g7700000000000814_dist_halo_stencil_i_m256_n256_v7x_i16_f32_1_alg».proof.Proof.Gen.ReferenceIdeal
import proofs.«900813_g7700000000000814_dist_halo_stencil_i_m256_n256_v7x_i16_f32_1_alg».proof.Proof.Spec
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations after the allocation, in order: twenty-seven. -/
abbrev ops : List (HloOp τ sig (Elt F)) :=
  [ unary main_arg0 main_v1 ((extractStridedSlice S1x256 ![0, 0] · slices_S4096x256_S1x256_0_0) : (⟨S4096x256, .f32⟩ : BufTy).Contents (Elt F) → (⟨S1x256, .f32⟩ : BufTy).Contents (Elt F)),
    reshape main_v1 main_v2 rfl shapeCasts_S1x256_S256,
    nullary main_c (constantI S_ 32 0#32),
    unary main_c main_v3 (broadcastInDim S1 ![] bcast_S_S1 : (⟨S_, .i32⟩ : BufTy).Contents (Elt F) → (⟨S1, .i32⟩ : BufTy).Contents (Elt F)),
    ternary main_v0 main_v3 main_v2 main_v4 ((fun x i u => Host.scatter scatter_S4096x256_S1_S256_0_0_0_0 (fun _ b => b) x i u) : (⟨S4096x256, .f32⟩ : BufTy).Contents (Elt F) → (⟨S1, .i32⟩ : BufTy).Contents (Elt F) → (⟨S256, .f32⟩ : BufTy).Contents (Elt F) → (⟨S4096x256, .f32⟩ : BufTy).Contents (Elt F)),
    unary main_arg0 main_v5 ((extractStridedSlice S1x256 ![4095, 0] · slices_S4096x256_S1x256_4095_0) : (⟨S4096x256, .f32⟩ : BufTy).Contents (Elt F) → (⟨S1x256, .f32⟩ : BufTy).Contents (Elt F)),
    reshape main_v5 main_v6 rfl shapeCasts_S1x256_S256,
    nullary main_c_0 (constantI S_ 32 4095#32),
    unary main_c_0 main_v7 (broadcastInDim S1 ![] bcast_S_S1 : (⟨S_, .i32⟩ : BufTy).Contents (Elt F) → (⟨S1, .i32⟩ : BufTy).Contents (Elt F)),
    ternary main_v4 main_v7 main_v6 main_v8 ((fun x i u => Host.scatter scatter_S4096x256_S1_S256_0_0_0_0 (fun _ b => b) x i u) : (⟨S4096x256, .f32⟩ : BufTy).Contents (Elt F) → (⟨S1, .i32⟩ : BufTy).Contents (Elt F) → (⟨S256, .f32⟩ : BufTy).Contents (Elt F) → (⟨S4096x256, .f32⟩ : BufTy).Contents (Elt F)),
    unary main_arg0 main_v9 ((extractStridedSlice S4094x256 ![0, 0] · slices_S4096x256_S4094x256_0_0) : (⟨S4096x256, .f32⟩ : BufTy).Contents (Elt F) → (⟨S4094x256, .f32⟩ : BufTy).Contents (Elt F)),
    nullary main_cst (constant S_ .f32 0x3E800000#32),
    unary main_cst main_v10 (broadcastInDim S4094x256 ![] bcast_S_S4094x256 : (⟨S_, .f32⟩ : BufTy).Contents (Elt F) → (⟨S4094x256, .f32⟩ : BufTy).Contents (Elt F)),
    binary main_v10 main_v9 main_v11 (mulf : (⟨S4094x256, .f32⟩ : BufTy).Contents (Elt F) → (⟨S4094x256, .f32⟩ : BufTy).Contents (Elt F) → (⟨S4094x256, .f32⟩ : BufTy).Contents (Elt F)),
    unary main_arg0 main_v12 ((extractStridedSlice S4094x256 ![1, 0] · slices_S4096x256_S4094x256_1_0) : (⟨S4096x256, .f32⟩ : BufTy).Contents (Elt F) → (⟨S4094x256, .f32⟩ : BufTy).Contents (Elt F)),
    nullary main_cst_1 (constant S_ .f32 0x3F000000#32),
    unary main_cst_1 main_v13 (broadcastInDim S4094x256 ![] bcast_S_S4094x256 : (⟨S_, .f32⟩ : BufTy).Contents (Elt F) → (⟨S4094x256, .f32⟩ : BufTy).Contents (Elt F)),
    binary main_v13 main_v12 main_v14 (mulf : (⟨S4094x256, .f32⟩ : BufTy).Contents (Elt F) → (⟨S4094x256, .f32⟩ : BufTy).Contents (Elt F) → (⟨S4094x256, .f32⟩ : BufTy).Contents (Elt F)),
    binary main_v11 main_v14 main_v15 (addf : (⟨S4094x256, .f32⟩ : BufTy).Contents (Elt F) → (⟨S4094x256, .f32⟩ : BufTy).Contents (Elt F) → (⟨S4094x256, .f32⟩ : BufTy).Contents (Elt F)),
    unary main_arg0 main_v16 ((extractStridedSlice S4094x256 ![2, 0] · slices_S4096x256_S4094x256_2_0) : (⟨S4096x256, .f32⟩ : BufTy).Contents (Elt F) → (⟨S4094x256, .f32⟩ : BufTy).Contents (Elt F)),
    nullary main_cst_2 (constant S_ .f32 0x3E800000#32),
    unary main_cst_2 main_v17 (broadcastInDim S4094x256 ![] bcast_S_S4094x256 : (⟨S_, .f32⟩ : BufTy).Contents (Elt F) → (⟨S4094x256, .f32⟩ : BufTy).Contents (Elt F)),
    binary main_v17 main_v16 main_v18 (mulf : (⟨S4094x256, .f32⟩ : BufTy).Contents (Elt F) → (⟨S4094x256, .f32⟩ : BufTy).Contents (Elt F) → (⟨S4094x256, .f32⟩ : BufTy).Contents (Elt F)),
    binary main_v15 main_v18 main_v19 (addf : (⟨S4094x256, .f32⟩ : BufTy).Contents (Elt F) → (⟨S4094x256, .f32⟩ : BufTy).Contents (Elt F) → (⟨S4094x256, .f32⟩ : BufTy).Contents (Elt F)),
    nullary main_c_3 (constantI S_ 32 1#32),
    unary main_c_3 main_v20 (broadcastInDim S1 ![] bcast_S_S1 : (⟨S_, .i32⟩ : BufTy).Contents (Elt F) → (⟨S1, .i32⟩ : BufTy).Contents (Elt F)),
    ternary main_v8 main_v20 main_v19 main_v21 ((fun x i u => Host.scatter scatter_S4096x256_S1_S4094x256_01_n_0_0 (fun _ b => b) x i u) : (⟨S4096x256, .f32⟩ : BufTy).Contents (Elt F) → (⟨S1, .i32⟩ : BufTy).Contents (Elt F) → (⟨S4094x256, .f32⟩ : BufTy).Contents (Elt F) → (⟨S4096x256, .f32⟩ : BufTy).Contents (Elt F)) ]

/-- The program is the allocation, then those operations in order, then the return. -/
theorem main_eq (c : Dev nD) :
    main (F := F) c = ((hlo rfl (allocateBuffer main_v0) fun _ => .ret (⟨⟩ : PUnit)) >>= fun _ => seq (ops (F := F))) := rfl

/-! ## The composed term -/

/-- One row of the array as a vector of 256 entries: the one-row block starting at `off`, read row-major. -/
def rowVec (off : Fin S4096x256.rank → Nat) (h : S4096x256.Slices off S1x256)
    (X : (⟨S4096x256, .f32⟩ : BufTy).Contents (Elt F)) : (⟨S256, .f32⟩ : BufTy).Contents (Elt F) :=
  fun i => shapeCast S256 (extractStridedSlice S1x256 off X h) shapeCasts_S1x256_S256 i

/-- The one-entry index list holding the row number `n`. -/
def rowIdx (n : BitVec 32) : (⟨S1, .i32⟩ : BufTy).Contents (Elt F) :=
  broadcastInDim S1 ![] bcast_S_S1 (constantI S_ 32 n)

/-- The 4094 rows starting at `off`, each entry multiplied by the weight whose f32 word is `w`. -/
def weighted (w : BitVec 32) (off : Fin S4096x256.rank → Nat) (h : S4096x256.Slices off S4094x256)
    (X : (⟨S4096x256, .f32⟩ : BufTy).Contents (Elt F)) : (⟨S4094x256, .f32⟩ : BufTy).Contents (Elt F) :=
  mulf (broadcastInDim S4094x256 ![] bcast_S_S4094x256 (constant S_ .f32 w)) (extractStridedSlice S4094x256 off X h)

/-- The 4094 inner rows' new values: a quarter of the rows from 0, half of the rows from 1, a quarter of the rows from 2. -/
def inner (X : (⟨S4096x256, .f32⟩ : BufTy).Contents (Elt F)) : (⟨S4094x256, .f32⟩ : BufTy).Contents (Elt F) :=
  addf (addf (weighted 0x3E800000#32 ![0, 0] slices_S4096x256_S4094x256_0_0 X)
             (weighted 0x3F000000#32 ![1, 0] slices_S4096x256_S4094x256_1_0 X))
       (weighted 0x3E800000#32 ![2, 0] slices_S4096x256_S4094x256_2_0 X)

/-- The operations' composed term over any float values: into `J`, row 0 of `X` written at row 0, row 4095 at
    row 4095, then the 4094 inner rows' new values written from row 1 on. -/
def refValG (X J : (⟨S4096x256, .f32⟩ : BufTy).Contents (Elt F)) : (⟨S4096x256, .f32⟩ : BufTy).Contents (Elt F) :=
  Host.scatter scatter_S4096x256_S1_S4094x256_01_n_0_0 (fun _ b => b)
    (Host.scatter scatter_S4096x256_S1_S256_0_0_0_0 (fun _ b => b)
      (Host.scatter scatter_S4096x256_S1_S256_0_0_0_0 (fun _ b => b) J (rowIdx (F := F) 0#32)
        (rowVec ![0, 0] slices_S4096x256_S1x256_0_0 X))
      (rowIdx (F := F) 4095#32) (rowVec ![4095, 0] slices_S4096x256_S1x256_4095_0 X))
    (rowIdx (F := F) 1#32) (inner X)

/-- The result buffer after the twenty-seven operations, from any contents. -/
theorem after_v21 (V : Valuation τ sig (Elt F)) :
    after ops V (Proc.devRef .tc main_v21) = refValG (V (Proc.devRef .tc main_arg0)) (V (Proc.devRef .tc main_v0)) := by
  after_results
  rfl

/-- The argument buffer after the twenty-seven operations: none writes it. -/
theorem after_arg0 (V : Valuation τ sig (Elt F)) :
    after ops V (Proc.devRef .tc main_arg0) = V (Proc.devRef .tc main_arg0) := by
  after_results

/-! ## The run

A thread that holds all its buffers whole runs the allocation, after which the allocated buffer holds some `J`
nobody chose, and then the straight line of the other operations. -/

/-- The buffers' contents once the allocated buffer holds `J`, everything else as it was. -/
def withJ (V : Valuation τ sig (Elt F)) (J : (⟨S4096x256, .f32⟩ : BufTy).Contents (Elt F)) : Valuation τ sig (Elt F) :=
  Function.update V (Proc.devRef .tc main_v0) J

theorem withJ_v0 (V : Valuation τ sig (Elt F)) (J : (⟨S4096x256, .f32⟩ : BufTy).Contents (Elt F)) :
    withJ V J (Proc.devRef .tc main_v0) = J := Function.update_self ..

theorem withJ_ne (V : Valuation τ sig (Elt F)) (J : (⟨S4096x256, .f32⟩ : BufTy).Contents (Elt F)) {b : DevRef τ sig}
    (h : b ≠ Proc.devRef .tc main_v0) : withJ V J b = V b := Function.update_of_ne h ..

theorem scopedRefs_eq : (Finset.univ.filter fun b : Ref sig .tc => b.isScoped) = ∅ := by decide
theorem scopedSems_eq : (Finset.univ.filter fun sm : SemLoc sig => sm.isScoped .tc) = ∅ := by decide

theorem ops_sub : ∀ op ∈ (ops : List (HloOp τ sig (Elt F))), op.bufs ⊆ tcRefs τ sig :=
  List.forall_iff_forall_mem.1
    ⟨unary_bufs_sub .., reshape_bufs_sub .., nullary_bufs_sub .., unary_bufs_sub .., ternary_bufs_sub ..,
     unary_bufs_sub .., reshape_bufs_sub .., nullary_bufs_sub .., unary_bufs_sub .., ternary_bufs_sub ..,
     unary_bufs_sub .., nullary_bufs_sub .., unary_bufs_sub .., binary_bufs_sub ..,
     unary_bufs_sub .., nullary_bufs_sub .., unary_bufs_sub .., binary_bufs_sub .., binary_bufs_sub ..,
     unary_bufs_sub .., nullary_bufs_sub .., unary_bufs_sub .., binary_bufs_sub .., binary_bufs_sub ..,
     nullary_bufs_sub .., unary_bufs_sub .., ternary_bufs_sub ..⟩

/-- Each of the twenty-seven operations determines its result. -/
theorem ops_fresh : ∀ op ∈ (ops : List (HloOp τ sig (Elt F))), op.fresh = ∅ := by
  intro _ h; (repeat (cases h with | head => rfl | tail _ h => ?_)); exact nomatch h

section Run

open Idealize.SL Idealize.SL.RA Idealize.SL.BI
open scoped Idealize.SL.BI
open Idealize.SL.BI.BIBase Idealize.SL.BI.Laws Idealize.SL.ProofMode

local notation "𝕄" => MT nD τ sig Unit (Elt F) ℕ (Option PUnit) Unit

/-- All the buffers held at `withJ V J`: the allocated buffer at `J`, the others at `V`. -/
theorem held_withJ (c : Thread nD τ) (V : Valuation τ sig (Elt F)) (J : (⟨S4096x256, .f32⟩ : BufTy).Contents (Elt F)) :
    (held c (tcRefs τ sig) (withJ V J) : sProp 𝕄)
      = iprop(((c.1, Proc.devRef .tc main_v0) ↦{fullShare} J) ∗ held c (tcRefs τ sig \ {Proc.devRef .tc main_v0}) V) := by
  have h1 : (held c {Proc.devRef .tc main_v0} (withJ V J) : sProp 𝕄) = ((c.1, Proc.devRef .tc main_v0) ↦{fullShare} J) := by
    unfold held; rw [bigSep_singleton, withJ_v0]
  have h2 : (held c (tcRefs τ sig \ {Proc.devRef .tc main_v0}) (withJ V J) : sProp 𝕄)
      = held c (tcRefs τ sig \ {Proc.devRef .tc main_v0}) V :=
    held_congr c fun b hb => withJ_ne V J (Finset.notMem_singleton.mp (Finset.mem_sdiff.mp hb).2)
  rw [held_sub_split c (Finset.singleton_subset_iff.mpr (devRef_mem_tcRefs main_v0)) (withJ V J), h1, h2]

/-- What a device's thread ends holding: all its buffers, at the operations' results from the launch contents with
    the allocated buffer at some `J`. -/
def ΦC (m : (ℓ : Loc nD τ sig) → Buf (Elt F) ℓ) (d : Dev nD) : sProp 𝕄 :=
  iprop(∃ J : (⟨S4096x256, .f32⟩ : BufTy).Contents (Elt F),
    held (d.tc : Thread nD τ) (tcRefs τ sig) (after ops (withJ (launchContents m d) J)))

/-- Nothing is scoped, so the idle operation slot is the whole boundary. -/
theorem boundary_intro (d : Dev nD) : (opIdle (d.tc : Thread nD τ) : sProp 𝕄) ⊢ boundary (d.tc : Thread nD τ) :=
  boundary_of_opIdle (d.tc : Thread nD τ) (by rw [scopedRefs_tc, scopedRefs_eq, Finset.map_empty])
    (by rw [show (d.tc : Thread nD τ) = (d, .tc) from rfl, scopedCells_tc, scopedSems_eq, Finset.map_empty])

/-- The launch's buffers of a device, regrouped. -/
theorem launch_held (m : (ℓ : Loc nD τ sig) → Buf (Elt F) ℓ) (ρ : Dev nD → PrngReg) (d : Dev nD) :
    (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
  unfold held tcRefs; rw [bigSep_map]; rfl

set_option backward.isDefEq.respectTransparency.types false in
/-- The thread's run from what the launch deals it. -/
theorem step (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.none (d.tc : Thread nD τ) none) Set.univ (main (F := F) d)
          (fun _ => post (liftTc (ΦC m) BI.emp) (d.tc : Thread nD τ) : PUnit → sProp 𝕄) := by
  have h1 : (held (d.tc : Thread nD τ) {Proc.devRef .tc main_v0} (launchContents m d) : sProp 𝕄)
      = (((d.tc : Thread nD τ).1, Proc.devRef .tc main_v0) ↦{fullShare} launchContents m d (Proc.devRef .tc main_v0)) := by
    unfold held; rw [bigSep_singleton]
  rw [launch_held, main_eq, wp_bind,
    held_sub_split (d.tc : Thread nD τ) (Finset.singleton_subset_iff.mpr (devRef_mem_tcRefs main_v0)) (launchContents m d), h1]
  iintro ⟨⟨Hy, Hrest⟩, HO, -, Hidle⟩
  ihave Hb := (boundary_intro (F := F) d) $$ Hidle
  iapply (wp_allocateBuffer Variants.none (d.tc : Thread nD τ) none Set.univ main_v0 ⟨by decide, rfl⟩ (hp := rfl)) $$ [Hb Hy]
  · isplitl [Hb]; · iexact Hb
    iexact Hy
  iintro %r ⟨Hb, Hy⟩
  rw [wp_ret]; imodintro
  ihave Hh := (Entails.of_eq (held_withJ (d.tc : Thread nD τ) (launchContents m d)
      (r ⟨Proc.devRef .tc main_v0, Finset.mem_singleton_self _⟩)).symm) $$ [Hy Hrest]
  · isplitl [Hy]; · iexact Hy
    iexact Hrest
  rw [show seq (Λ := _) (nD := nD) (ops (F := F)) = (seq ops >>= fun u => Pure.pure u) from (bind_pure _).symm]
  iapply (wp_seq Variants.none none Set.univ d (tcRefs τ sig) (fun u => Pure.pure u) ops ops_sub ops_fresh
    (withJ (launchContents m d) (r ⟨Proc.devRef .tc main_v0, Finset.mem_singleton_self _⟩))) $$ [Hb Hh]
  · isplitl [Hb]; · iexact Hb
    iexact Hh
  iintro ⟨-, Hheld⟩
  rw [wp_pure]; imodintro
  unfold post ΦC; simp only [liftTc_tc]
  isplitl [Hheld]
  · iexists _; iexact Hheld
  iexists ∅; iexact HO

/-- That post against the physical state: every buffer's contents. -/
theorem post_any (m : (ℓ : Loc nD τ sig) → Buf (Elt F) ℓ) (d : Dev nD) (s' : Phys nD τ sig (Elt F)) :
    iprop(ΦC m d ∗ SI s')
      ⊢ (⌜∃ J : (⟨S4096x256, .f32⟩ : BufTy).Contents (Elt F), ∀ b : Ref sig .tc,
            s'.mem.mem ((d.tc : Thread nD τ).loc b) = after ops (withJ (launchContents m d) J) (Proc.devRef .tc b)⌝ : sProp 𝕄) := by
  unfold ΦC held
  iintro ⟨⟨%J, H⟩, HSI⟩
  ihave %h := (SI_pointsTo_bufs_agree (qs := fun _ => fullShare) (tcRefs τ sig)) $$ [HSI H]
  · isplitl [HSI]; · iexact HSI
    iexact H
  ipureintro
  exact ⟨J, fun b => h _ (devRef_mem_tcRefs b)⟩

/-- From any memory with zero counters, every weakly fair execution terminates, and on each device there is a `J`
    (what the allocated buffer held after the allocation) such that every buffer ends at the twenty-seven
    operations' results from the launch contents with the allocated buffer at `J`. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ d : Dev nD, ∃ J : (⟨S4096x256, .f32⟩ : BufTy).Contents (Elt F), ∀ b : Ref sig .tc,
        r.2.mem ((d.tc : Thread nD τ).loc b) = after ops (withJ (launchContents m d) J) (Proc.devRef .tc b) :=
  adequate_tpu defs _ _ _ (reflect_intro_silent_tc (Ix := Unit) (Name := ℕ) (U := Option PUnit) (Lvl := Unit)
    Variants.none none (ΦC m)
    (fun d mem => ∃ J : (⟨S4096x256, .f32⟩ : BufTy).Contents (Elt F), ∀ b : Ref sig .tc,
        mem.mem ((d.tc : Thread nD τ).loc b) = after ops (withJ (launchContents m d) J) (Proc.devRef .tc b))
    (step m ρ) (post_any m) (fun _ h d => h d))

end Run

/-! ## At the ideal instance -/

/-- The operations' composed term at the ideal instance: `X` the argument array, `J` what the allocated buffer
    holds after the allocation. -/
def refVal (X J : (⟨S4096x256, .f32⟩ : BufTy).Contents (Elt Ideal)) : (⟨S4096x256, .f32⟩ : BufTy).Contents (Elt Ideal) :=
  refValG (F := Ideal) X J

/-- From any memory with zero counters every weakly fair execution of the program terminates; the result buffer ends
    at `refVal` of the argument array and of SOME `J` (the allocation determines no contents), and the argument
    array ends as it was. -/
theorem run_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∃ J : (⟨S4096x256, .f32⟩ : BufTy).Contents (Elt Ideal),
        r.2.mem (((0 : Dev Cert.ReferenceIdeal.nD).tc : Thread Cert.ReferenceIdeal.nD Cert.ReferenceIdeal.τ).loc Cert.ReferenceIdeal.main_v21)
          = refVal (m (((0 : Dev Cert.ReferenceIdeal.nD).tc : Thread Cert.ReferenceIdeal.nD Cert.ReferenceIdeal.τ).loc Cert.ReferenceIdeal.main_arg0)) J)
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)) :=
  (θ_run defs _ _).mono (fun _ h => by
      obtain ⟨J, hJ⟩ := h 0
      refine ⟨⟨J, ?_⟩, ?_⟩
      · refine (hJ main_v21).trans ((after_v21 _).trans ?_)
        rw [withJ_v0, withJ_ne _ _ (devRef_ne_of_ne (by decide))]
        rfl
      · refine (hJ main_arg0).trans ((after_arg0 _).trans ?_)
        rw [withJ_ne _ _ (devRef_ne_of_ne (by decide))])
    (run_after m ρ)

/-- info: 'Cert.ReferenceIdeal.RefValue.run_any' depends on axioms: [propext, Classical.choice, Quot.sound] -/
#guard_msgs in #print axioms run_any

end Cert.ReferenceIdeal.RefValue

end
-- ==== Proof.RefRead.lean ====
/-
  The reference program's result read at an index.

  A scatter whose combiner keeps the update is a left fold of "write this entry there" steps.  Where exactly one update
  entry lands on a position, the fold leaves that entry there; where none lands, it leaves what the operand held.  The
  program's three scatters each write whole rows at a row number that is a literal, so every position of the result is
  decided by its row: rows 1 … 4094 come from the last scatter (update row one less), rows 0 and 4095 from the two
  one-row scatters before it.  Nothing of the allocated buffer's contents survives.
-/
import proofs.«900813_g7700000000000814_dist_halo_stencil_i_m256_n256_v7x_i16_f32_1_alg».proof.Proof.RefRun
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## A fold of replacing steps -/

section Fold

variable {ι I α : Type}

/-- A left fold of steps each of which either writes `v n` at the one position `g n` names or changes nothing:
    at a position that exactly one step of the list names, the fold leaves that step's value. -/
theorem foldl_hit (g : ι → Option I) (v : ι → α) (step : (I → α) → ι → I → α)
    (hhit : ∀ r n i, g n = some i → step r n i = v n) (hmiss : ∀ r n i, g n ≠ some i → step r n i = r i)
    (i : I) (n₀ : ι) (h₀ : g n₀ = some i) (huniq : ∀ n, g n = some i → n = n₀) (x : I → α) :
    ∀ l : List ι, n₀ ∈ l → l.foldl step x i = v n₀ := by
  intro l
  induction l using List.reverseRecOn with
  | nil => intro h; exact absurd h List.not_mem_nil
  | append_singleton l n ih =>
    intro hmem
    rw [List.foldl_append, List.foldl_cons, List.foldl_nil]
    by_cases hn : g n = some i
    · rw [hhit _ _ _ hn, huniq n hn]
    · rw [hmiss _ _ _ hn]
      refine ih ?_
      rcases List.mem_append.mp hmem with h | h
      · exact h
      · rw [List.mem_singleton] at h
        exact absurd (h ▸ h₀) hn

/-- At a position no step names, the fold leaves what it started from. -/
theorem foldl_miss (g : ι → Option I) (step : (I → α) → ι → I → α)
    (hmiss : ∀ r n i, g n ≠ some i → step r n i = r i) (i : I) (hno : ∀ n, g n ≠ some i) :
    ∀ (l : List ι) (x : I → α), l.foldl step x i = x i := by
  intro l
  induction l with
  | nil => intro x; rfl
  | cons n l ih => intro x; rw [List.foldl_cons, ih, hmiss _ _ _ (hno n)]

end Fold

/-! ## A scatter that keeps the update -/

section Scatter

variable {α : Type} {s si u : Shape} {w : Nat}

/-- The scatter's step at update entry `n`, read at a position: the update entry where it lands, the old value elsewhere. -/
theorem scatter_step_hit (d : ScatterDims s si u) (idx : IVec si w) (upd : u.Idx → α) (r : s.Idx → α) (n : Fin u.numel) (i : s.Idx)
    (h : d.resultIdx? (u.rowMajor.symm n) idx = some i) :
    (match d.resultIdx? (u.rowMajor.symm n) idx with
      | some i₁ => fun i' => if i' = i₁ then (fun (_ b : α) => b) (r i₁) (upd (u.rowMajor.symm n)) else r i'
      | none => r) i = upd (u.rowMajor.symm n) := by
  rw [h]; exact if_pos rfl

theorem scatter_step_miss (d : ScatterDims s si u) (idx : IVec si w) (upd : u.Idx → α) (r : s.Idx → α) (n : Fin u.numel) (i : s.Idx)
    (h : d.resultIdx? (u.rowMajor.symm n) idx ≠ some i) :
    (match d.resultIdx? (u.rowMajor.symm n) idx with
      | some i₁ => fun i' => if i' = i₁ then (fun (_ b : α) => b) (r i₁) (upd (u.rowMajor.symm n)) else r i'
      | none => r) i = r i := by
  cases hc : d.resultIdx? (u.rowMajor.symm n) idx with
  | none => rfl
  | some i₁ => exact if_neg fun e => h (by rw [hc, e])

/-- Where exactly one update entry lands on position `i`, the scatter leaves that entry there. -/
theorem scatter_keep_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  refine (foldl_hit (fun n : Fin u.numel => d.resultIdx? (u.rowMajor.symm n) idx) (fun n => upd (u.rowMajor.symm n)) _
    (fun r n i h => scatter_step_hit d idx upd r n i h) (fun r n i h => scatter_step_miss d idx upd r n i h)
    i (u.rowMajor j₀) (by rw [Equiv.symm_apply_apply]; exact h₀)
    (fun n hn => by rw [← huniq _ hn, Equiv.apply_symm_apply]) x _ (List.mem_finRange _)).trans ?_
  rw [Equiv.symm_apply_apply]

/-- Where no update entry lands on position `i`, the scatter leaves the operand's value there. -/
theorem scatter_keep_miss (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  exact foldl_miss (fun n : Fin u.numel => d.resultIdx? (u.rowMajor.symm n) idx) _
    (fun r n i h => scatter_step_miss d idx upd r n i h) i (fun n => hno _) _ x

end Scatter

/-! ## Where the program's scatters land -/

section Lands

variable {s si u : Shape} {w : Nat}

/-- An update entry lands at position `i` when on every axis its start plus its window coordinate is `i`'s. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, by exact_mod_cast (i a).isLt⟩)]
  refine congrArg some (funext fun a => Fin.ext ?_)
  show (d.start j idx a + (d.window j a : Int)).toNat = (i a).val
  rw [h a, Int.toNat_natCast]

end Lands

/-- A statement about every index of a rectangle, from its instances at the pairs of coordinates. -/
theorem forall_idx2 {n0 n1 : Nat} {P : (⟨2, ![n0, n1]⟩ : Shape).Idx → Prop} (h : ∀ a b, P (ix2 a b)) : ∀ j, P j :=
  fun j => eq_ix2 j ▸ h (j 0) (j 1)

/-- A statement about every index of a vector, from its instances at the coordinates. -/
theorem forall_idx1 {n : Nat} {P : (⟨1, ![n]⟩ : Shape).Idx → Prop} (h : ∀ a, P (ix1 a)) : ∀ j, P j :=
  fun j => eq_ix1 j ▸ h (j 0)

/-- The one-row scatter whose index list reads the row number `k`: update entry `c` lands at `(k, c)`. -/
theorem rowScatter_lands (idx : IVec S1 32) (k : Fin 4096) (hidx : ∀ q, (idx q).toInt = (k.val : Int)) (c : Fin 256) :
    scatter_S4096x256_S1_S256_0_0_0_0.resultIdx? (ix1 c) idx = some (ix2 k c) := by
  refine resultIdx?_eq_some _ _ _ _ (Fin.forall_fin_two.mpr ⟨?_, ?_⟩)
  · have hs : scatter_S4096x256_S1_S256_0_0_0_0.start (ix1 c) idx 0 = (k.val : Int) := by
      unfold ScatterDims.start; rw [dif_pos (by decide)]; exact hidx _
    have hw : scatter_S4096x256_S1_S256_0_0_0_0.window (ix1 c : S256.Idx) 0 = 0 := by
      unfold ScatterDims.window; rw [dif_neg (by decide)]
    rw [hs, hw]; simp
  · have hs : scatter_S4096x256_S1_S256_0_0_0_0.start (ix1 c) idx 1 = 0 := by
      unfold ScatterDims.start; rw [dif_neg (by decide)]
    have hw : scatter_S4096x256_S1_S256_0_0_0_0.window (ix1 c : S256.Idx) 1 = c.val := by
      unfold ScatterDims.window; rw [dif_pos (by decide)]; rfl
    rw [hs, hw]; simp

/-- The scatter of 4094 rows whose index list reads the row number 1: update entry `(r, c)` lands at `(r + 1, c)`. -/
theorem rowsScatter_lands (idx : IVec S1 32) (hidx : ∀ q, (idx q).toInt = 1) (r : Fin 4094) (c : Fin 256) :
    scatter_S4096x256_S1_S4094x256_01_n_0_0.resultIdx? (ix2 r c) idx = some (ix2 ⟨r.val + 1, by omega⟩ c) := by
  refine resultIdx?_eq_some _ _ _ _ (Fin.forall_fin_two.mpr ⟨?_, ?_⟩)
  · have hs : scatter_S4096x256_S1_S4094x256_01_n_0_0.start (ix2 r c) idx 0 = 1 := by
      unfold ScatterDims.start; rw [dif_pos (by decide)]; exact hidx _
    have hw : scatter_S4096x256_S1_S4094x256_01_n_0_0.window (ix2 r c : S4094x256.Idx) 0 = r.val := by
      unfold ScatterDims.window; rw [dif_pos (by decide)]; rfl
    rw [hs, hw]; show (1 : Int) + (r.val : Int) = ((r.val + 1 : Nat) : Int); push_cast; ring
  · have hs : scatter_S4096x256_S1_S4094x256_01_n_0_0.start (ix2 r c) idx 1 = 0 := by
      unfold ScatterDims.start; rw [dif_neg (by decide)]
    have hw : scatter_S4096x256_S1_S4094x256_01_n_0_0.window (ix2 r c : S4094x256.Idx) 1 = c.val := by
      unfold ScatterDims.window; rw [dif_pos (by decide)]; rfl
    rw [hs, hw]; simp

/-! ## The program's scatters read at an index -/

section Reads

variable {α : Type}

/-- The one-row scatter at row `k`, on row `k`: the update. -/
theorem rowScatter_hit (x : S4096x256.Idx → α) (idx : IVec S1 32) (upd : S256.Idx → α) (k : Fin 4096)
    (hidx : ∀ q, (idx q).toInt = (k.val : Int)) (c : Fin 256) :
    Host.scatter scatter_S4096x256_S1_S256_0_0_0_0 (fun _ b => b) x idx upd (ix2 k c) = upd (ix1 c) :=
  scatter_keep_hit _ x idx upd _ (ix1 c) (rowScatter_lands idx k hidx c)
    (forall_idx1 fun c' h => by
      rw [rowScatter_lands idx k hidx c'] at h
      have := congrFun (Option.some.inj h) 1
      exact congrArg ix1 this)

/-- The one-row scatter at row `k`, on any other row: the operand. -/
theorem rowScatter_miss (x : S4096x256.Idx → α) (idx : IVec S1 32) (upd : S256.Idx → α) (k : Fin 4096)
    (hidx : ∀ q, (idx q).toInt = (k.val : Int)) (i : Fin 4096) (hik : i ≠ k) (c : Fin 256) :
    Host.scatter scatter_S4096x256_S1_S256_0_0_0_0 (fun _ b => b) x idx upd (ix2 i c) = x (ix2 i c) :=
  scatter_keep_miss _ x idx upd _
    (forall_idx1 fun c' h => by
      rw [rowScatter_lands idx k hidx c'] at h
      exact hik (congrFun (Option.some.inj h) 0).symm)

/-- The 4094-row scatter from row 1, on a row `1 ≤ i ≤ 4094`: the update's row `i - 1`. -/
theorem rowsScatter_hit (x : S4096x256.Idx → α) (idx : IVec S1 32) (upd : S4094x256.Idx → α)
    (hidx : ∀ q, (idx q).toInt = 1) (i : Fin 4096) (h1 : 1 ≤ i.val) (h2 : i.val ≤ 4094) (c : Fin 256) :
    Host.scatter scatter_S4096x256_S1_S4094x256_01_n_0_0 (fun _ b => b) x idx upd (ix2 i c)
      = upd (ix2 ⟨i.val - 1, by omega⟩ c) := by
  have hl := rowsScatter_lands idx hidx ⟨i.val - 1, by omega⟩ c
  have hi : (⟨(⟨i.val - 1, by omega⟩ : Fin 4094).val + 1, by omega⟩ : Fin 4096) = i := Fin.ext (by show i.val - 1 + 1 = i.val; omega)
  rw [hi] at hl
  refine scatter_keep_hit _ x idx upd _ _ hl (forall_idx2 fun r c' h => ?_)
  rw [rowsScatter_lands idx hidx r c'] at h
  have e0 := congrArg Fin.val (congrFun (Option.some.inj h) 0)
  have e1 := congrFun (Option.some.inj h) 1
  have hr : r = ⟨i.val - 1, by omega⟩ := Fin.ext (by show r.val = i.val - 1; have : r.val + 1 = i.val := e0; omega)
  rw [hr]; exact congrArg (ix2 _) e1

/-- The 4094-row scatter from row 1, on row 0 or row 4095: the operand. -/
theorem rowsScatter_miss (x : S4096x256.Idx → α) (idx : IVec S1 32) (upd : S4094x256.Idx → α)
    (hidx : ∀ q, (idx q).toInt = 1) (i : Fin 4096) (hi : i.val = 0 ∨ i.val = 4095) (c : Fin 256) :
    Host.scatter scatter_S4096x256_S1_S4094x256_01_n_0_0 (fun _ b => b) x idx upd (ix2 i c) = x (ix2 i c) :=
  scatter_keep_miss _ x idx upd _
    (forall_idx2 fun r c' h => by
      rw [rowsScatter_lands idx hidx r c'] at h
      have e0 : r.val + 1 = i.val := congrArg Fin.val (congrFun (Option.some.inj h) 0)
      have := r.isLt
      omega)

end Reads

/-! ## The pieces of the composed term, read at an index -/

/-- An index list reads its row number at every entry. -/
theorem rowIdx_apply (n : BitVec 32) (q : S1.Idx) : rowIdx (F := Ideal) n q = n := by
  unfold rowIdx; rw [broadcastInDim_scalar_apply]; rfl

/-- Row `o` of the array as a vector reads, at `c`, the array at `(o, c)`. -/
theorem rowVec_apply (o : Nat) (h : S4096x256.Slices ![o, 0] S1x256) (X : (⟨S4096x256, .f32⟩ : BufTy).Contents (Elt Ideal))
    (k : Fin 4096) (hk : k.val = o) (c : Fin 256) :
    rowVec (F := Ideal) ![o, 0] h X (ix1 c) = X (ix2 k c) := by
  unfold rowVec
  rw [shapeCast_1a_a_apply, slice2_axis0_apply o X h (0 : Fin 1) c k (by rw [hk]; rfl)]

/-- The weighted block from row `o` reads, at `(r, c)`, the weight times the array at `(o + r, c)`. -/
theorem weighted_apply (w : BitVec 32) (o : Nat) (h : S4096x256.Slices ![o, 0] S4094x256)
    (X : (⟨S4096x256, .f32⟩ : BufTy).Contents (Elt Ideal)) (r : Fin 4094) (c : Fin 256) (k : Fin 4096) (hk : k.val = o + r.val) :
    weighted (F := Ideal) w ![o, 0] h X (ix2 r c) = Ideal.ofBits .f32 w * X (ix2 k c) := by
  unfold weighted
  rw [mulf_apply, broadcastInDim_scalar_apply, constant_apply, slice2_axis0_apply o X h r c k hk]

/-- An inner row's new value: the weighted mean of the rows `r`, `r + 1`, `r + 2` of the array. -/
theorem inner_apply (X : (⟨S4096x256, .f32⟩ : BufTy).Contents (Elt Ideal)) (r : Fin 4094) (c : Fin 256)
    (k0 k1 k2 : Fin 4096) (h0 : k0.val = r.val) (h1 : k1.val = r.val + 1) (h2 : k2.val = r.val + 2) :
    inner (F := Ideal) X (ix2 r c) = Cert.Stencil.w3 (X (ix2 k0 c)) (X (ix2 k1 c)) (X (ix2 k2 c)) := by
  unfold inner Cert.Stencil.w3 Cert.Stencil.q25 Cert.Stencil.q50
  rw [addf_apply, addf_apply,
    weighted_apply _ 0 _ X r c k0 (by rw [h0, Nat.zero_add]),
    weighted_apply _ 1 _ X r c k1 (by rw [h1, Nat.add_comm]),
    weighted_apply _ 2 _ X r c k2 (by rw [h2, Nat.add_comm])]

/-! ## The result, row by row -/

/-- The program's result at `(i, j)`: rows 0 and 4095 of the argument kept, every other row the weighted mean of the
    argument's rows above, at and below it.  What the allocated buffer held does not appear. -/
theorem refVal_apply (X J : (⟨S4096x256, .f32⟩ : BufTy).Contents (Elt Ideal)) (i : Fin 4096) (j : Fin 256) :
    refVal X J (ValueIdx.ix2 i j) = Cert.Stencil.sten (fun a b => X (ValueIdx.ix2 a b)) i j := by
  have hone : ∀ q, (rowIdx (F := Ideal) 1#32 q).toInt = 1 := fun q => by rw [rowIdx_apply]; decide
  unfold refVal refValG Cert.Stencil.sten
  by_cases h0 : i.val = 0
  · obtain rfl : i = ⟨0, by decide⟩ := Fin.ext h0
    rw [dif_pos rfl, rowsScatter_miss _ _ _ hone _ (Or.inl rfl),
      rowScatter_miss _ _ _ ⟨4095, by decide⟩ (fun q => by rw [rowIdx_apply]; decide) _ (by decide),
      rowScatter_hit _ _ _ ⟨0, by decide⟩ (fun q => by rw [rowIdx_apply]; decide),
      rowVec_apply 0 _ X ⟨0, by decide⟩ rfl]
  · rw [dif_neg h0]
    by_cases h1 : i.val = 4095
    · obtain rfl : i = ⟨4095, by decide⟩ := Fin.ext h1
      rw [dif_pos rfl, rowsScatter_miss _ _ _ hone _ (Or.inr rfl),
        rowScatter_hit _ _ _ ⟨4095, by decide⟩ (fun q => by rw [rowIdx_apply]; decide),
        rowVec_apply 4095 _ X ⟨4095, by decide⟩ rfl]
    · rw [dif_neg h1, rowsScatter_hit _ _ _ hone i (by omega) (by omega)]
      exact inner_apply X _ j _ i _ (by show i.val - 1 = i.val - 1; rfl) (by show i.val = i.val - 1 + 1; omega)
        (by show i.val + 1 = i.val - 1 + 2; omega)

/-- The result does not depend on what the allocated buffer held. -/
theorem refVal_indep (X J J' : (⟨S4096x256, .f32⟩ : BufTy).Contents (Elt Ideal)) : refVal X J = refVal X J' :=
  funext (forall_idx2 fun i j => by rw [refVal_apply, refVal_apply])

/-- From any memory with zero counters every weakly fair execution of the program terminates, with the result buffer at
    `refVal` of the argument array (and of the allocated buffer's launch contents, which do not matter) and the argument
    array as it was. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v21)
          = refVal (m (((0 : Dev Cert.ReferenceIdeal.nD).tc : Thread Cert.ReferenceIdeal.nD Cert.ReferenceIdeal.τ).loc Cert.ReferenceIdeal.main_arg0))
              (m (((0 : Dev Cert.ReferenceIdeal.nD).tc : Thread Cert.ReferenceIdeal.nD Cert.ReferenceIdeal.τ).loc Cert.ReferenceIdeal.main_v0))
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)) :=
  (θ_run defs _ _).mono (fun _ h => by
      obtain ⟨⟨J, hJ⟩, ha⟩ := h
      exact ⟨hJ.trans (refVal_indep _ _ _), ha⟩)
    (run_any m ρ)

/-- info: 'Cert.ReferenceIdeal.RefValue.refVal_apply' depends on axioms: [propext, Classical.choice, Quot.sound] -/
#guard_msgs in #print axioms refVal_apply
/-- info: 'Cert.ReferenceIdeal.RefValue.run' depends on axioms: [propext, Classical.choice, Quot.sound] -/
#guard_msgs in #print axioms run

end Cert.ReferenceIdeal.RefValue

end
-- ==== Proof.SpecLaws.lean ====
/-
  The laws of the three-point stencil that the block decomposition rests on.

  The three literal words denote the reals 1/4, 1/2 and 2.  For real a, b the extrapolated halo row
  2·a − b makes the weighted mean at an edge row collapse:  ¼(2a − b) + ½a + ¼b = a  (and its mirror image).
  Hence, for an array of finite entries, smoothing block c of 256 rows with the row above it and the row
  below it (extrapolated at the two ends of the array) gives rows 256·c … 256·c + 255 of the smoothed array.
-/
import proofs.«900813_g7700000000000814_dist_halo_stencil_i_m256_n256_v7x_i16_f32_1_alg».proof.Proof.Spec
import Mathlib.Data.EReal.Operations
import Mathlib.Tactic.Ring
import Mathlib.Tactic.NormNum

namespace Cert.Stencil

open Idealize.ShloMosaic

/-- The word 0x3E800000 is 1/4. -/
theorem q25_eq : q25 = ((1/4 : ℝ) : EReal) := by
  simp [q25, Ideal.ofBits, Ideal.ieee, -EReal.coe_mul]; norm_num

/-- The word 0x3F000000 is 1/2. -/
theorem q50_eq : q50 = ((1/2 : ℝ) : EReal) := by
  simp [q50, Ideal.ofBits, Ideal.ieee, -EReal.coe_mul]; norm_num

/-- The word 0x40000000 is 2. -/
theorem two_eq : two = ((2 : ℝ) : EReal) := by
  simp [two, Ideal.ofBits, Ideal.ieee, -EReal.coe_mul]; norm_num

/-- At the top edge: ¼(2a − b) + ½a + ¼b = a. -/
theorem edge_law (a b : ℝ) : w3 (extrap (a : EReal) (b : EReal)) (a : EReal) (b : EReal) = (a : EReal) := by
  rw [w3, extrap, q25_eq, q50_eq, two_eq]
  rw [← EReal.coe_mul, ← EReal.coe_sub, ← EReal.coe_mul, ← EReal.coe_mul, ← EReal.coe_mul, ← EReal.coe_add, ← EReal.coe_add]
  congr 1; ring

/-- At the bottom edge: ¼b + ½a + ¼(2a − b) = a. -/
theorem edge_law' (a b : ℝ) : w3 (b : EReal) (a : EReal) (extrap (a : EReal) (b : EReal)) = (a : EReal) := by
  rw [w3, extrap, q25_eq, q50_eq, two_eq]
  simp only [← EReal.coe_mul, ← EReal.coe_sub, ← EReal.coe_add]
  congr 1; ring

/-- A block smoothed with its two halo rows is the block's rows of the smoothed array, when every entry is finite. -/
theorem dev_eq_sten (X : Fin 4096 → Fin 256 → EReal) (hfin : ∀ i j, ∃ x : ℝ, X i j = (x : EReal))
    (c : Fin 16) (r : Fin 256) (j : Fin 256) :
    dev (blk X c) (upOf X c) (dnOf X c) r j = sten X ⟨256 * c.val + r.val, by omega⟩ j := by
  -- entries of X at equal row numbers agree
  have hX : ∀ (m n : Nat) (hm : m < 4096) (hn : n < 4096), m = n → X ⟨m, hm⟩ j = X ⟨n, hn⟩ j := by
    intro m n hm hn h; subst h; rfl
  have hw : ∀ {a b c a' b' c' : EReal}, a = a' → b = b' → c = c' → w3 a b c = w3 a' b' c' := by
    intro a b c a' b' c' h1 h2 h3; rw [h1, h2, h3]
  have hc := c.isLt
  have hr := r.isLt
  unfold dev sten
  by_cases hr0 : r.val = 0
  · rw [dif_pos hr0]
    by_cases hc0 : c.val = 0
    · -- the array's first row: the extrapolated halo row gives the row back
      rw [dif_pos (show (⟨256 * c.val + r.val, by omega⟩ : Fin 4096).val = 0 by simp only []; omega)]
      unfold upOf
      rw [dif_neg (by omega)]
      obtain ⟨a, ha⟩ := hfin ⟨256 * c.val + 0, by omega⟩ j
      obtain ⟨b, hb⟩ := hfin ⟨256 * c.val + 1, by omega⟩ j
      simp only [blk]
      rw [ha, hb, edge_law, ← ha]
      exact hX _ _ _ _ (by omega)
    · -- the first row of a later block: the row above is the last row of the block before
      rw [dif_neg (show ¬ (⟨256 * c.val + r.val, by omega⟩ : Fin 4096).val = 0 by simp only []; omega),
        dif_neg (show ¬ (⟨256 * c.val + r.val, by omega⟩ : Fin 4096).val = 4095 by simp only []; omega)]
      unfold upOf
      rw [dif_pos (by omega)]
      simp only [blk]
      exact hw (hX _ _ _ _ (by omega)) (hX _ _ _ _ (by omega)) (hX _ _ _ _ (by omega))
  · rw [dif_neg hr0]
    by_cases hr1 : r.val = 255
    · rw [dif_pos hr1]
      by_cases hc1 : c.val = 15
      · -- the array's last row
        rw [dif_neg (show ¬ (⟨256 * c.val + r.val, by omega⟩ : Fin 4096).val = 0 by simp only []; omega),
          dif_pos (show (⟨256 * c.val + r.val, by omega⟩ : Fin 4096).val = 4095 by simp only []; omega)]
        unfold dnOf
        rw [dif_neg (by omega)]
        obtain ⟨a, ha⟩ := hfin ⟨256 * c.val + 255, by omega⟩ j
        obtain ⟨b, hb⟩ := hfin ⟨256 * c.val + 254, by omega⟩ j
        simp only [blk]
        rw [ha, hb, edge_law', ← ha]
        exact hX _ _ _ _ (by omega)
      · -- the last row of an earlier block: the row below is the first row of the block after
        rw [dif_neg (show ¬ (⟨256 * c.val + r.val, by omega⟩ : Fin 4096).val = 0 by simp only []; omega),
          dif_neg (show ¬ (⟨256 * c.val + r.val, by omega⟩ : Fin 4096).val = 4095 by simp only []; omega)]
        unfold dnOf
        rw [dif_pos (by omega)]
        simp only [blk]
        exact hw (hX _ _ _ _ (by omega)) (hX _ _ _ _ (by omega)) (hX _ _ _ _ (by omega))
    · -- a row inside a block
      rw [dif_neg hr1,
        dif_neg (show ¬ (⟨256 * c.val + r.val, by omega⟩ : Fin 4096).val = 0 by simp only []; omega),
        dif_neg (show ¬ (⟨256 * c.val + r.val, by omega⟩ : Fin 4096).val = 4095 by simp only []; omega)]
      simp only [blk]
      exact hw (hX _ _ _ _ (by omega)) (hX _ _ _ _ (by omega)) (hX _ _ _ _ (by omega))

end Cert.Stencil

/-- info: 'Cert.Stencil.edge_law' depends on axioms: [propext, Classical.choice, Quot.sound] -/
#guard_msgs in #print axioms Cert.Stencil.edge_law

/-- info: 'Cert.Stencil.edge_law'' depends on axioms: [propext, Classical.choice, Quot.sound] -/
#guard_msgs in #print axioms Cert.Stencil.edge_law'

/-- info: 'Cert.Stencil.dev_eq_sten' depends on axioms: [propext, Classical.choice, Quot.sound] -/
#guard_msgs in #print axioms Cert.Stencil.dev_eq_sten
-- ==== Proof.Finite.lean ====
/-
  What the precondition says of one 256 × 256 block, at the extended reals.

  The precondition compares |x| = max x (−x) with the word of +∞ at every entry and takes the conjunction
  over all entries.  If the conjunction is 1, every entry satisfies max x (−x) < ⊤, hence is neither ⊤ nor ⊥:
  it is a real number.
-/
import proofs.«900813_g7700000000000814_dist_halo_stencil_i_m256_n256_v7x_i16_f32_1_alg».proof.Pre_finite_inputs_Kernel
import proofs.«900813_g7700000000000814_dist_halo_stencil_i_m256_n256_v7x_i16_f32_1_alg».proof.Proof.Gen.Pre_finite_inputs_Kernel
import Idealize.ShloMosaic.Lib.ReduceAll
import Idealize.ShloMosaic.Lib.ValueIdx
import Idealize.ShloMosaic.PureOps.Ideal

namespace Cert.Stencil.Finite

open Idealize.ShloMosaic Cert.Pre_finite_inputs_Kernel

/-- The shape of rank 0 has exactly one index. -/
instance : Subsingleton S_.Idx := ⟨fun a b => funext fun d => d.elim0⟩

/-- A block on which the precondition holds has only real entries. -/
theorem finite_of_pre (x : FVec Ideal S256x256 .f32) (h : fn (F := Ideal) x = fun _ => 1#1) :
    ∀ i, ∃ r : ℝ, x i = (r : EReal) := by
  intro i
  have h0 := congrFun h ValueIdx.ix0
  dsimp only [fn] at h0
  -- a conjunction over all entries that is 1 is 1 at the entry i
  have hi := Host.reduce_andi_all _ _ _ _ _ h0 i
  -- that entry, at the extended reals: |x i| = max (x i) (-(x i)) compared with the word of +∞
  have h1 : Ideal.cmp .olt (max (x i) (-(x i))) (Ideal.ofBits .f32 0x7F800000#32) = 1#1 := hi
  have h2 : Ideal.ofBits .f32 0x7F800000#32 = (⊤ : EReal) := by simp [Ideal.ofBits, Ideal.ieee]
  rw [h2] at h1
  have h3 : max (x i) (-(x i)) < (⊤ : EReal) := by
    by_contra hn
    simp [Ideal.cmp, hn] at h1
  obtain ⟨ha, hb⟩ := max_lt_iff.1 h3
  have hne_top : x i ≠ (⊤ : EReal) := ne_of_lt ha
  have hne_bot : x i ≠ (⊥ : EReal) := by
    intro hbot
    rw [hbot] at hb
    simp at hb
  exact ⟨(x i).toReal, (EReal.coe_toReal hne_top hne_bot).symm⟩

/-- The same, with the block given as the contents of a 256 × 256 buffer of f32 elements. -/
theorem finite_of_pre_buf (x : (⟨S256x256, .f32⟩ : BufTy).Contents (Elt Ideal))
    (h : fn (F := Ideal) x = fun _ => 1#1) : ∀ i, ∃ r : ℝ, x i = (r : EReal) :=
  finite_of_pre x h

/-- The same, entry by entry over the two coordinates. -/
theorem finite_of_pre_ix2 (x : FVec Ideal S256x256 .f32) (h : fn (F := Ideal) x = fun _ => 1#1)
    (a b : Fin 256) : ∃ r : ℝ, x (ValueIdx.ix2 a b) = (r : EReal) :=
  finite_of_pre x h (ValueIdx.ix2 a b)

end Cert.Stencil.Finite

/-- info: 'Cert.Stencil.Finite.finite_of_pre' depends on axioms: [propext, Classical.choice, Quot.sound] -/
#guard_msgs in #print axioms Cert.Stencil.Finite.finite_of_pre
-- ==== Proof.Blocks.lean ====
/-
  One device's block of a whole array, read at an index.

  A 4096 × 256 array is cut along its rows into 16 blocks of 256 rows; block c holds rows
  256·c … 256·c + 255.  So the entry at (r, j) of block c is the entry at (256·c + r, j) of the whole
  array, and a 256 × 256 array that agrees with the whole array in this way at every (r, j) is block c.
-/
import Idealize.ShloMosaic.Lib.Layout
import Idealize.ShloMosaic.Lib.ValueIdx

namespace Cert.Stencil

open Idealize.ShloMosaic

/-- Row r of block c is a row of the whole array: 256·c + r ≤ 256·15 + 255 < 4096. -/
theorem row_lt (c : Dev 16) (r : Fin 256) : 256 * c.val + r.val < 4096 := by omega

/-- Where the index (r, j) of block c lands in the whole array: at row 256·c + r, in the same column.
    The row coordinate is c · 256 + r by the definition of the cut; the column is untouched. -/
theorem block_idx (c : Dev 16) (r : Fin 256) (j : Fin 256)
    (h : Layout.Tiles ⟨2, ![256, 256]⟩ ⟨2, ![4096, 256]⟩ 0 16) :
    h.idx c (ValueIdx.ix2 r j) = ValueIdx.ix2 ⟨256 * c.val + r.val, by omega⟩ j := by
  funext d
  match d with
  | ⟨0, _⟩ =>
    apply Fin.ext
    show c.val * 256 + r.val = 256 * c.val + r.val
    omega
  | ⟨1, _⟩ => rfl

/-- Block c of the whole array W at (r, j) is W at (256·c + r, j). -/
theorem block_apply {α : Type} (W : (⟨2, ![4096, 256]⟩ : Shape).Idx → α) (c : Dev 16) (r : Fin 256) (j : Fin 256) :
    (Layout.block ⟨2, ![256, 256]⟩ ⟨2, ![4096, 256]⟩ 0 16 c W) (ValueIdx.ix2 r j)
      = W (ValueIdx.ix2 ⟨256 * c.val + r.val, by omega⟩ j) := by
  rw [Layout.block_apply, block_idx]

/-- A 256 × 256 array that reads, at every (r, j), as W at (256·c + r, j) is block c of W:
    two arrays that agree at every index are equal, and every index is some (r, j). -/
theorem block_ext {α : Type} (W : (⟨2, ![4096, 256]⟩ : Shape).Idx → α) (c : Dev 16)
    (B : (⟨2, ![256, 256]⟩ : Shape).Idx → α)
    (h : ∀ (r : Fin 256) (j : Fin 256), B (ValueIdx.ix2 r j) = W (ValueIdx.ix2 ⟨256 * c.val + r.val, by omega⟩ j)) :
    B = Layout.block ⟨2, ![256, 256]⟩ ⟨2, ![4096, 256]⟩ 0 16 c W := by
  funext i
  obtain ⟨r, j, rfl⟩ : ∃ (r : Fin 256) (j : Fin 256), i = ValueIdx.ix2 r j := ⟨i 0, i 1, ValueIdx.eq_ix2 i⟩
  exact (h r j).trans (block_apply W c r j).symm

end Cert.Stencil

/-- info: 'Cert.Stencil.block_apply' depends on axioms: [propext, Quot.sound] -/
#guard_msgs in #print axioms Cert.Stencil.block_apply
/-- info: 'Cert.Stencil.block_ext' depends on axioms: [propext, Quot.sound] -/
#guard_msgs in #print axioms Cert.Stencil.block_ext
-- ==== Proof.BridgeCore.lean ====
/-
  From the blocks back to the whole array.

  The kernel's sixteen argument buffers are the sixteen blocks of one whole array W.  Every entry of every
  block is finite, so every entry of W is.  Device c's staged block is block c of W; the row it is sent from
  the device before it is the last row of block c − 1, from the device after it the first row of block c + 1.
  So the expression a device evaluates is the block rule of the specification at W, which on finite entries
  is the whole-array rule at rows 256c … 256c + 255.
-/
import proofs.«900813_g7700000000000814_dist_halo_stencil_i_m256_n256_v7x_i16_f32_1_alg».proof.Defs
import proofs.«900813_g7700000000000814_dist_halo_stencil_i_m256_n256_v7x_i16_f32_1_alg».proof.Proof.SpecLaws
import proofs.«900813_g7700000000000814_dist_halo_stencil_i_m256_n256_v7x_i16_f32_1_alg».proof.Proof.Finite
import proofs.«900813_g7700000000000814_dist_halo_stencil_i_m256_n256_v7x_i16_f32_1_alg».proof.Proof.Blocks
import proofs.«900813_g7700000000000814_dist_halo_stencil_i_m256_n256_v7x_i16_f32_1_alg».proof.Proof.KDefs

noncomputable section

namespace Cert.Bridge

open Idealize.ShloMosaic Idealize.ShloMosaic.TcCoe Idealize.SL.Sem
open Cert.Stencil Cert.KernelIdeal Cert.KernelIdeal.Halo

/-- The whole array by row and column. -/
abbrev Wf (W : (⟨2, ![4096, 256]⟩ : Shape).Idx → EReal) : Fin 4096 → Fin 256 → EReal := fun a b => W (ValueIdx.ix2 a b)

variable (m : (ℓ : Loc nD τ sig) → Buf (Elt Ideal) ℓ) (W : (⟨2, ![4096, 256]⟩ : Shape).Idx → EReal)

/-- The kernel's argument buffers are the blocks of `W`; each block's entries are finite. -/
abbrev IsBlocks : Prop := ∀ c : Dev nD, m ((c.tc : Thread nD τ).loc main_arg0) = Layout.block ⟨2, ![256, 256]⟩ ⟨2, ![4096, 256]⟩ 0 16 c W
abbrev BlocksFinite : Prop := ∀ c : Dev nD, Cert.Pre_finite_inputs_Kernel.fn (F := Ideal) (m ((c.tc : Thread nD τ).loc main_arg0)) = fun _ => 1#1

/-- Row i of the whole array lies in block i / 256, at row i % 256 there. -/
theorem W_finite (hblk : IsBlocks m W) (hpre : BlocksFinite m) : ∀ i j, ∃ x : ℝ, Wf W i j = (x : EReal) := by
  intro i j
  have hi := i.isLt
  let c : Dev nD := ⟨i.val / 256, by show i.val / 256 < 16; omega⟩
  let r : Fin 256 := ⟨i.val % 256, Nat.mod_lt _ (by decide)⟩
  obtain ⟨x, hx⟩ := Cert.Stencil.Finite.finite_of_pre_ix2 (m ((c.tc : Thread nD τ).loc main_arg0)) (hpre c) r j
  refine ⟨x, ?_⟩
  rw [hblk c, Cert.Stencil.block_apply] at hx
  have hrow : (⟨256 * c.val + r.val, Cert.Stencil.row_lt c r⟩ : Fin 4096) = i := Fin.ext (by show 256 * (i.val / 256) + i.val % 256 = i.val; omega)
  rw [← hrow]; exact hx

/-- Device `c`'s staged block is block `c` of the whole array. -/
theorem xs_blk (hxs : ∀ c : Dev nD, xs m c = m ((c.tc : Thread nD τ).loc main_arg0)) (hblk : IsBlocks m W)
    (c : Dev nD) (a b : Fin 256) : xs m c (ValueIdx.ix2 a b) = blk (Wf W) c a b := by
  rw [hxs c, hblk c, Cert.Stencil.block_apply]; rfl

/-- The row above block `c` as the devices exchange it, and the row below. -/
theorem up_eq (hxs : ∀ c : Dev nD, xs m c = m ((c.tc : Thread nD τ).loc main_arg0)) (hblk : IsBlocks m W) (c : Dev nD) (b : Fin 256) :
    (if HasL c then xs m (lft c) (ValueIdx.ix2 (255 : Fin 256) b)
      else Cert.Stencil.extrap (xs m c (ValueIdx.ix2 (0 : Fin 256) b)) (xs m c (ValueIdx.ix2 (1 : Fin 256) b))) = upOf (Wf W) c b := by
  unfold upOf
  by_cases h : HasL c
  · rw [if_pos h, dif_pos h, xs_blk m W hxs hblk]; rfl
  · rw [if_neg h, dif_neg h, xs_blk m W hxs hblk, xs_blk m W hxs hblk]; rfl

theorem dn_eq (hxs : ∀ c : Dev nD, xs m c = m ((c.tc : Thread nD τ).loc main_arg0)) (hblk : IsBlocks m W) (c : Dev nD) (b : Fin 256) :
    (if HasR c then xs m (rgt c) (ValueIdx.ix2 (0 : Fin 256) b)
      else Cert.Stencil.extrap (xs m c (ValueIdx.ix2 (255 : Fin 256) b)) (xs m c (ValueIdx.ix2 (254 : Fin 256) b))) = dnOf (Wf W) c b := by
  unfold dnOf
  by_cases h : HasR c
  · rw [if_pos h, dif_pos h, xs_blk m W hxs hblk]
    have : rgt c = ⟨c.val + 1, by have := h; show c.val + 1 < 16; omega⟩ := Fin.ext (rgt_val c h)
    rw [this]; rfl
  · rw [if_neg h, dif_neg h, xs_blk m W hxs hblk, xs_blk m W hxs hblk]; rfl

/-- What device `c` evaluates at row `r`, column `j` of its block is the whole-array rule at row 256c + r. -/
theorem dev_is_sten (hxs : ∀ c : Dev nD, xs m c = m ((c.tc : Thread nD τ).loc main_arg0)) (hblk : IsBlocks m W) (hpre : BlocksFinite m)
    (c : Dev nD) (r j : Fin 256) :
    Cert.Stencil.dev (fun a b => xs m c (ValueIdx.ix2 a b))
      (fun b => if HasL c then xs m (lft c) (ValueIdx.ix2 (255 : Fin 256) b)
        else Cert.Stencil.extrap (xs m c (ValueIdx.ix2 (0 : Fin 256) b)) (xs m c (ValueIdx.ix2 (1 : Fin 256) b)))
      (fun b => if HasR c then xs m (rgt c) (ValueIdx.ix2 (0 : Fin 256) b)
        else Cert.Stencil.extrap (xs m c (ValueIdx.ix2 (255 : Fin 256) b)) (xs m c (ValueIdx.ix2 (254 : Fin 256) b))) r j
      = sten (Wf W) ⟨256 * c.val + r.val, Cert.Stencil.row_lt c r⟩ j := by
  have h1 : (fun a b => xs m c (ValueIdx.ix2 a b)) = blk (Wf W) c := funext fun a => funext fun b => xs_blk m W hxs hblk c a b
  have h2 := funext fun b => up_eq m W hxs hblk c b
  have h3 := funext fun b => dn_eq m W hxs hblk c b
  rw [h1, h2, h3]
  exact Cert.Stencil.dev_eq_sten (Wf W) (W_finite m W hblk hpre) c r j

end Cert.Bridge

end
-- ==== Proof.KValue.lean ====
/-
  The result buffer and the halo rows, entry by entry, over the extended reals.

  Over the extended reals the body's arithmetic is +, − and ·, and its three constants are the words of ¼, ½ and 2.
  A halo row once filled holds, at column j, the neighbour's edge row at column j, or at an end of the line the
  extrapolation 2·a − b of the device's own edge row a and the row b next to it.  The result block holds at row r,
  column j the weighted mean ¼·above + ½·itself + ¼·below, where "above" of row 0 is the upper halo row and "below"
  of row 255 the lower one: row 0 comes from the second store, row 255 from the third, and row r with 1 ≤ r ≤ 254
  from row r − 1 of the first store, whose three loads start at rows 0, 1 and 2.
-/
import proofs.«900813_g7700000000000814_dist_halo_stencil_i_m256_n256_v7x_i16_f32_1_alg».proof.Proof.KIndep

noncomputable section

namespace Cert.KernelIdeal.Halo

open Cert.KernelIdeal Cert.KernelIdeal.Gen
open Idealize.ShloMosaic Idealize.ShloMosaic.TcCoe Idealize.ShloMosaic.ValueIdx
open Idealize.SL Idealize.SL.Sem

/-! ## Loads of the staged block, at an entry -/

section Loads
variable {F : FTy → Type} [FloatOps F]

/-- A load through a unit-stride rectangle of the staged block reads, at entry y, the block at offset + y. -/
theorem readAt_unit_apply (off size : Fin 2 → Nat) (inb : ∀ a, off a + size a ≤ S256x256.size a)
    (x : (cc0_stg0_0 : Ref sig .tc).ty.Contents (Elt F))
    (i : S256x256.Idx) (y : (Rect.unit (s := S256x256) off size inb).shape.Idx)
    (h : ∀ a, (i a : Nat) = off a + (y a : Nat)) :
    (xM : Memref sig .tc .vmem S256x256 .f32).view.readAt (Elt F) (Rect.unit (s := S256x256) off size inb).toLoadRect x y = x i := by
  show x _ = x i
  congr 1
  funext a
  refine Fin.ext ?_
  show off a + 1 * (y a : Nat) = (i a : Nat)
  rw [h a, Nat.one_mul]

variable (x : (cc0_stg0_0 : Ref sig .tc).ty.Contents (Elt F))

/-- The one-row loads at rows 0, 1, 254, 255 read those rows. -/
theorem row0_apply (j : Fin 256) : row r0 x (ix2 (0 : Fin 1) j) = x (ix2 (0 : Fin 256) j) :=
  readAt_unit_apply ![0, 0] S1x256.size inb_S256x256_S1x256_0_0 x (ix2 (0 : Fin 256) j) (ix2 (0 : Fin 1) j)
    (fun a => by match a with | ⟨0, _⟩ => rfl | ⟨1, _⟩ => exact (Nat.zero_add _).symm)
theorem row1_apply (j : Fin 256) : row r1 x (ix2 (0 : Fin 1) j) = x (ix2 (1 : Fin 256) j) :=
  readAt_unit_apply ![1, 0] S1x256.size inb_S256x256_S1x256_1_0 x (ix2 (1 : Fin 256) j) (ix2 (0 : Fin 1) j)
    (fun a => by match a with | ⟨0, _⟩ => rfl | ⟨1, _⟩ => exact (Nat.zero_add _).symm)
theorem row254_apply (j : Fin 256) : row r254 x (ix2 (0 : Fin 1) j) = x (ix2 (254 : Fin 256) j) :=
  readAt_unit_apply ![254, 0] S1x256.size inb_S256x256_S1x256_254_0 x (ix2 (254 : Fin 256) j) (ix2 (0 : Fin 1) j)
    (fun a => by match a with | ⟨0, _⟩ => rfl | ⟨1, _⟩ => exact (Nat.zero_add _).symm)
theorem row255_apply (j : Fin 256) : row r255 x (ix2 (0 : Fin 1) j) = x (ix2 (255 : Fin 256) j) :=
  readAt_unit_apply ![255, 0] S1x256.size inb_S256x256_S1x256_255_0 x (ix2 (255 : Fin 256) j) (ix2 (0 : Fin 1) j)
    (fun a => by match a with | ⟨0, _⟩ => rfl | ⟨1, _⟩ => exact (Nat.zero_add _).symm)

/-- A load of a halo buffer's one row reads the buffer. -/
theorem upLoad_eq (u : (cc0_scratch0 : Ref sig .tc).ty.Contents (Elt F)) : upLoad u = u :=
  Memref.readAt_unit_zero (Elt F) cc0_scratch0 off00 inb_S1x256_S1x256_0_0 u
theorem dnLoad_eq (d : (cc0_scratch1 : Ref sig .tc).ty.Contents (Elt F)) : dnLoad d = d :=
  Memref.readAt_unit_zero (Elt F) cc0_scratch1 off00 inb_S1x256_S1x256_0_0 d

end Loads

/-! ## The payloads at an entry: products, sums and a difference of extended reals -/

section Payloads

/-- The extrapolated row: 2·a − b, entry by entry. -/
theorem pay2_apply (a b : Vec Ideal S1x256 .f32) (i : S1x256.Idx) :
    k0_pay2 (F := Ideal) a b i = Cert.Stencil.extrap (a i) (b i) := by
  unfold k0_pay2 Cert.Stencil.extrap Cert.Stencil.two
  simp only [shapeCast_self]
  rfl

theorem pay3_apply (a b : Vec Ideal S1x256 .f32) (i : S1x256.Idx) :
    k0_pay3 (F := Ideal) a b i = Cert.Stencil.extrap (a i) (b i) := by
  unfold k0_pay3 Cert.Stencil.extrap Cert.Stencil.two
  simp only [shapeCast_self]
  rfl

/-- Row 0 of the result: ¼·up + ½·a + ¼·b. -/
theorem pay7_apply (up a b : Vec Ideal S1x256 .f32) (i : S1x256.Idx) :
    k0_pay7 (F := Ideal) up a b i = Cert.Stencil.w3 (up i) (a i) (b i) := by
  unfold k0_pay7 Cert.Stencil.w3 Cert.Stencil.q25 Cert.Stencil.q50
  simp only [shapeCast_self]
  rfl

/-- Row 255 of the result: ¼·a + ½·b + ¼·dn, the first factor the body's own constant ¼. -/
theorem pay1_apply (a b dn : Vec Ideal S1x256 .f32) (i : S1x256.Idx) :
    k0_pay1 (F := Ideal) (k0_pay8 a) (Scalar.ofBits .f32 0x3E800000#32) b dn i = Cert.Stencil.w3 (a i) (b i) (dn i) := by
  unfold k0_pay1 k0_pay8 Cert.Stencil.w3 Cert.Stencil.q25 Cert.Stencil.q50
  simp only [shapeCast_self]
  rfl

/-- Rows 1 … 254 of the result: ¼·a + ½·b + ¼·c of the three shifted loads. -/
theorem pay6_apply (a b c : Vec Ideal S254x256 .f32) (i : S254x256.Idx) :
    k0_pay6 (F := Ideal) (k0_pay4 a) (k0_pay5 (F := Ideal)) b c i = Cert.Stencil.w3 (a i) (b i) (c i) := by
  unfold k0_pay6 k0_pay4 k0_pay5 Cert.Stencil.w3 Cert.Stencil.q25 Cert.Stencil.q50
  simp only [shapeCast_self]
  rfl

end Payloads

/-! ## The three pieces at an entry -/

section Pieces
variable (x : (cc0_stg0_0 : Ref sig .tc).ty.Contents (Elt Ideal)) (u : (cc0_scratch0 : Ref sig .tc).ty.Contents (Elt Ideal))
  (d : (cc0_scratch1 : Ref sig .tc).ty.Contents (Elt Ideal)) (o : (cc0_stg1_0 : Ref sig .tc).ty.Contents (Elt Ideal))

theorem topPiece_apply (j : Fin 256) : topPiece (F := Ideal) x u (ix2 (0 : Fin 1) j)
    = Cert.Stencil.w3 (u (ix2 (0 : Fin 1) j)) (x (ix2 (0 : Fin 256) j)) (x (ix2 (1 : Fin 256) j)) := by
  unfold topPiece
  refine (pay7_apply _ _ _ _).trans ?_
  rw [upLoad_eq, row0_apply, row1_apply]

theorem botPiece_apply (j : Fin 256) : botPiece (F := Ideal) x d (ix2 (0 : Fin 1) j)
    = Cert.Stencil.w3 (x (ix2 (254 : Fin 256) j)) (x (ix2 (255 : Fin 256) j)) (d (ix2 (0 : Fin 1) j)) := by
  unfold botPiece
  refine (pay1_apply _ _ _ _).trans ?_
  rw [dnLoad_eq, row254_apply, row255_apply]

/-- Row r' of the first piece is the weighted mean of rows r', r' + 1, r' + 2 of the block. -/
theorem midPiece_apply (r' : Fin 254) (j : Fin 256) (a b c : Fin 256)
    (ha : a.val = r'.val) (hb : b.val = r'.val + 1) (hc : c.val = r'.val + 2) :
    midPiece (F := Ideal) x (ix2 r' j) = Cert.Stencil.w3 (x (ix2 a j)) (x (ix2 b j)) (x (ix2 c j)) := by
  unfold midPiece
  refine (pay6_apply _ _ _ _).trans ?_
  rw [readAt_unit_apply ![0, 0] S254x256.size inb_S256x256_S254x256_0_0 x (ix2 a j) (ix2 r' j)
      (fun k => by match k with | ⟨0, _⟩ => (show a.val = 0 + r'.val; omega) | ⟨1, _⟩ => exact (Nat.zero_add _).symm),
    readAt_unit_apply ![1, 0] S254x256.size inb_S256x256_S254x256_1_0 x (ix2 b j) (ix2 r' j)
      (fun k => by match k with | ⟨0, _⟩ => (show b.val = 1 + r'.val; omega) | ⟨1, _⟩ => exact (Nat.zero_add _).symm),
    readAt_unit_apply ![2, 0] S254x256.size inb_S256x256_S254x256_2_0 x (ix2 c j) (ix2 r' j)
      (fun k => by match k with | ⟨0, _⟩ => (show c.val = 2 + r'.val; omega) | ⟨1, _⟩ => exact (Nat.zero_add _).symm)]

/-! ## The result buffer at an entry -/

/-- The result buffer after the three stores is the block smoothed with its two halo rows. -/
theorem out3_apply (r j : Fin 256) : out3 (F := Ideal) x u d o (ix2 r j)
    = Cert.Stencil.dev (fun a b => x (ix2 a b)) (fun b => u (ix2 (0 : Fin 1) b)) (fun b => d (ix2 (0 : Fin 1) b)) r j := by
  unfold Cert.Stencil.dev
  by_cases h0 : r.val = 0
  · rw [dif_pos h0]
    obtain rfl : r = 0 := Fin.ext h0
    exact (out3_row0 x u d o j).trans (topPiece_apply x u j)
  · rw [dif_neg h0]
    by_cases h255 : r.val = 255
    · rw [dif_pos h255]
      obtain rfl : r = 255 := Fin.ext h255
      exact (out3_row255 x u d o j).trans (botPiece_apply x d j)
    · rw [dif_neg h255]
      have hr := r.isLt
      refine (out3_rowMid x u d o r j (by omega) (by omega)).trans ?_
      exact midPiece_apply x _ j _ _ _ rfl (by show r.val = r.val - 1 + 1; omega) (by show r.val + 1 = r.val - 1 + 2; omega)

end Pieces

/-! ## The halo rows and the result block of a device -/

variable (m : (ℓ : Loc nD τ sig) → Buf (Elt Ideal) ℓ)

/-- The upper halo row: the last row of the device before, or the extrapolation of rows 0 and 1. -/
theorem upVal_apply (c : Dev nD) (f) (j : Fin 256) : upVal (F := Ideal) m c f (ix2 (0 : Fin 1) j)
    = if HasL c then xs m (lft c) (ix2 (255 : Fin 256) j)
      else Cert.Stencil.extrap (xs m c (ix2 (0 : Fin 256) j)) (xs m c (ix2 (1 : Fin 256) j)) := by
  by_cases hL : HasL c
  · have e : upVal m c f = botRow m (lft c) := by
      unfold upVal; rw [if_pos hL]; exact View.write_whole_univ cc0_scratch0 f _
    rw [if_pos hL]
    refine (congrFun e _).trans ?_
    exact row255_apply (xs m (lft c)) j
  · have e : upVal m c f = k0_pay2 (row r0 (xs m c)) (row r1 (xs m c)) := by
      unfold upVal; rw [if_neg hL]
      exact Memref.write_access_unit_zero_univ (Elt Ideal) cc0_scratch0 off00 inb_S1x256_S1x256_0_0 f _
    rw [if_neg hL]
    refine (congrFun e _).trans ((pay2_apply _ _ _).trans ?_)
    rw [row0_apply, row1_apply]

/-- The lower halo row: the first row of the device after, or the extrapolation of rows 255 and 254. -/
theorem dnVal_apply (c : Dev nD) (f) (j : Fin 256) : dnVal (F := Ideal) m c f (ix2 (0 : Fin 1) j)
    = if HasR c then xs m (rgt c) (ix2 (0 : Fin 256) j)
      else Cert.Stencil.extrap (xs m c (ix2 (255 : Fin 256) j)) (xs m c (ix2 (254 : Fin 256) j)) := by
  by_cases hR : HasR c
  · have e : dnVal m c f = topRow m (rgt c) := by
      unfold dnVal; rw [if_pos hR]; exact View.write_whole_univ cc0_scratch1 f _
    rw [if_pos hR]
    refine (congrFun e _).trans ?_
    exact row0_apply (xs m (rgt c)) j
  · have e : dnVal m c f = k0_pay3 (row r255 (xs m c)) (row r254 (xs m c)) := by
      unfold dnVal; rw [if_neg hR]
      exact Memref.write_access_unit_zero_univ (Elt Ideal) cc0_scratch1 off00 inb_S1x256_S1x256_0_0 f _
    rw [if_neg hR]
    refine (congrFun e _).trans ((pay3_apply _ _ _).trans ?_)
    rw [row255_apply, row254_apply]

/-- The result block of device c: its block smoothed with the two halo rows it was sent or extrapolated. -/
theorem outAt_apply (c : Dev nD) (r j : Fin 256) : outAt (F := Ideal) m c (ix2 r j)
    = Cert.Stencil.dev (fun a b => xs m c (ix2 a b))
        (fun b => if HasL c then xs m (lft c) (ix2 (255 : Fin 256) b)
          else Cert.Stencil.extrap (xs m c (ix2 (0 : Fin 256) b)) (xs m c (ix2 (1 : Fin 256) b)))
        (fun b => if HasR c then xs m (rgt c) (ix2 (0 : Fin 256) b)
          else Cert.Stencil.extrap (xs m c (ix2 (255 : Fin 256) b)) (xs m c (ix2 (254 : Fin 256) b))) r j := by
  have hu : (fun b : Fin 256 => upVal m c (topRow m c) (ix2 (0 : Fin 1) b))
      = fun b => if HasL c then xs m (lft c) (ix2 (255 : Fin 256) b)
          else Cert.Stencil.extrap (xs m c (ix2 (0 : Fin 256) b)) (xs m c (ix2 (1 : Fin 256) b)) :=
    funext fun b => upVal_apply m c _ b
  have hd : (fun b : Fin 256 => dnVal m c (topRow m c) (ix2 (0 : Fin 1) b))
      = fun b => if HasR c then xs m (rgt c) (ix2 (0 : Fin 256) b)
          else Cert.Stencil.extrap (xs m c (ix2 (255 : Fin 256) b)) (xs m c (ix2 (254 : Fin 256) b)) :=
    funext fun b => dnVal_apply m c _ b
  unfold outAt
  rw [out3_apply, hu, hd]

/-- info: 'Cert.KernelIdeal.Halo.outAt_apply' depends on axioms: [propext, Classical.choice, Quot.sound] -/
#guard_msgs in #print axioms outAt_apply

end Cert.KernelIdeal.Halo

end
-- ==== Proof.Bridge.lean ====
/-
  The kernel's result on device c is block c of the reference's result.

  Index by index: the kernel's result block at (r, j) is the block rule of the specification over the device's
  block and the two rows it exchanged; the reference's result at row 256c + r is the whole-array rule; and on
  an array whose entries are all finite the two agree.
-/
import proofs.«900813_g7700000000000814_dist_halo_stencil_i_m256_n256_v7x_i16_f32_1_alg».proof.Proof.BridgeCore
import proofs.«900813_g7700000000000814_dist_halo_stencil_i_m256_n256_v7x_i16_f32_1_alg».proof.Proof.KIndep
import proofs.«900813_g7700000000000814_dist_halo_stencil_i_m256_n256_v7x_i16_f32_1_alg».proof.Proof.KValue
import proofs.«900813_g7700000000000814_dist_halo_stencil_i_m256_n256_v7x_i16_f32_1_alg».proof.Proof.RefRead

noncomputable section

namespace Cert.Bridge

open Idealize.ShloMosaic Idealize.ShloMosaic.TcCoe Idealize.SL.Sem
open Cert.Stencil Cert.KernelIdeal Cert.KernelIdeal.Halo

variable (m : (ℓ : Loc nD τ sig) → Buf (Elt Ideal) ℓ) (W : (⟨2, ![4096, 256]⟩ : Shape).Idx → EReal)

/-- Device `c`'s result block is block `c` of the reference's result on the whole array (whatever the reference's
    freshly allocated buffer `J` held). -/
theorem out_is_block (hblk : IsBlocks m W) (hpre : BlocksFinite m) (J : (⟨2, ![4096, 256]⟩ : Shape).Idx → EReal) (c : Dev nD) :
    outAt (F := Ideal) m c = Layout.block ⟨2, ![256, 256]⟩ ⟨2, ![4096, 256]⟩ 0 16 c (Cert.ReferenceIdeal.RefValue.refVal W J) := by
  apply Cert.Stencil.block_ext
  intro r j
  rw [outAt_apply, Cert.ReferenceIdeal.RefValue.refVal_apply]
  exact dev_is_sten m W (fun c => xs_eq m c) hblk hpre c r j

end Cert.Bridge

end
-- ==== Proof.lean ====
/-
  A three-point smoothing of a 4096 × 256 array along its first axis, computed on a line of sixteen devices
  that exchange their edge rows, against the same smoothing computed on one device over the whole array.

  The three frames: each program runs to its end from any memory, faults nowhere and leaves its argument as it
  found it.  For the two kernel programs that is the launch of sixteen bodies whose barrier units and row
  transfers are accounted for cell by cell; for the reference it is its run, operation by operation.  The ideal
  pass rewrote nothing, so there is nothing to preserve.  The values: device c ends with block c of the
  reference's result, because on finite entries the rule a device evaluates over its block and the two rows
  it received (or, at an end of the line, extrapolated) is the whole-array rule on its rows.
-/
import proofs.«900813_g7700000000000814_dist_halo_stencil_i_m256_n256_v7x_i16_f32_1_alg».proof.Defs
import proofs.«900813_g7700000000000814_dist_halo_stencil_i_m256_n256_v7x_i16_f32_1_alg».proof.Proof.Gen.Kernel
import proofs.«900813_g7700000000000814_dist_halo_stencil_i_m256_n256_v7x_i16_f32_1_alg».proof.Proof.Gen.Kernel.Skeleton
import proofs.«900813_g7700000000000814_dist_halo_stencil_i_m256_n256_v7x_i16_f32_1_alg».proof.Proof.Gen.Kernel.Launch
import proofs.«900813_g7700000000000814_dist_halo_stencil_i_m256_n256_v7x_i16_f32_1_alg».proof.Proof.Gen.Kernel.Points
import proofs.«900813_g7700000000000814_dist_halo_stencil_i_m256_n256_v7x_i16_f32_1_alg».proof.Proof.Gen.Kernel.Frame
import proofs.«900813_g7700000000000814_dist_halo_stencil_i_m256_n256_v7x_i16_f32_1_alg».proof.Proof.Gen.KernelIdeal
import proofs.«900813_g7700000000000814_dist_halo_stencil_i_m256_n256_v7x_i16_f32_1_alg».proof.Proof.Gen.KernelIdeal.Skeleton
import proofs.«900813_g7700000000000814_dist_halo_stencil_i_m256_n256_v7x_i16_f32_1_alg».proof.Proof.Gen.KernelIdeal.Launch
import proofs.«900813_g7700000000000814_dist_halo_stencil_i_m256_n256_v7x_i16_f32_1_alg».proof.Proof.Gen.KernelIdeal.Points
import proofs.«900813_g7700000000000814_dist_halo_stencil_i_m256_n256_v7x_i16_f32_1_alg».proof.Proof.Gen.KernelIdeal.Frame
import proofs.«900813_g7700000000000814_dist_halo_stencil_i_m256_n256_v7x_i16_f32_1_alg».proof.Proof.Gen.ReferenceIdeal
import proofs.«900813_g7700000000000814_dist_halo_stencil_i_m256_n256_v7x_i16_f32_1_alg».proof.Proof.Gen.Pre_finite_inputs_Kernel
import proofs.«900813_g7700000000000814_dist_halo_stencil_i_m256_n256_v7x_i16_f32_1_alg».proof.Proof.Gen.Pre_finite_inputs_ReferenceIdeal
import proofs.«900813_g7700000000000814_dist_halo_stencil_i_m256_n256_v7x_i16_f32_1_alg».proof.Proof.KBodyFirst
import proofs.«900813_g7700000000000814_dist_halo_stencil_i_m256_n256_v7x_i16_f32_1_alg».proof.Proof.KBodyMid
import proofs.«900813_g7700000000000814_dist_halo_stencil_i_m256_n256_v7x_i16_f32_1_alg».proof.Proof.KBodyLast
import proofs.«900813_g7700000000000814_dist_halo_stencil_i_m256_n256_v7x_i16_f32_1_alg».proof.Proof.KGhost
import proofs.«900813_g7700000000000814_dist_halo_stencil_i_m256_n256_v7x_i16_f32_1_alg».proof.Proof.KLaunch
import proofs.«900813_g7700000000000814_dist_halo_stencil_i_m256_n256_v7x_i16_f32_1_alg».proof.Proof.WBodyFirst
import proofs.«900813_g7700000000000814_dist_halo_stencil_i_m256_n256_v7x_i16_f32_1_alg».proof.Proof.WBodyMid
import proofs.«900813_g7700000000000814_dist_halo_stencil_i_m256_n256_v7x_i16_f32_1_alg».proof.Proof.WBodyLast
import proofs.«900813_g7700000000000814_dist_halo_stencil_i_m256_n256_v7x_i16_f32_1_alg».proof.Proof.WGhost
import proofs.«900813_g7700000000000814_dist_halo_stencil_i_m256_n256_v7x_i16_f32_1_alg».proof.Proof.WLaunch
import proofs.«900813_g7700000000000814_dist_halo_stencil_i_m256_n256_v7x_i16_f32_1_alg».proof.Proof.RefRun
import proofs.«900813_g7700000000000814_dist_halo_stencil_i_m256_n256_v7x_i16_f32_1_alg».proof.Proof.RefRead
import proofs.«900813_g7700000000000814_dist_halo_stencil_i_m256_n256_v7x_i16_f32_1_alg».proof.Proof.Bridge
import Idealize.ShloMosaic.Adequacy
import Idealize.ShloMosaic.Init

noncomputable section

namespace Cert.Proof

open Idealize.ShloMosaic Idealize.ShloMosaic.TcCoe Idealize.SL.Sem

/-! ## The two kernel programs run -/

section Ideal
open Cert.KernelIdeal Cert.KernelIdeal.Gen Cert.KernelIdeal.Halo
variable {F : FTy → Type} [FloatOps F]

/-- Every device's body, whatever its place on the line. -/
theorem sound_ideal (m : (ℓ : Loc nD τ sig) → Buf (Elt F) ℓ) (ρ : Dev nD → PrngReg) (c : Dev nD) : SoundBody m ρ c := by
  by_cases hl : HasL c
  · by_cases hr : HasR c
    · exact sound_body_mid m ρ c hl hr
    · exact sound_body_last m ρ c hr
  · exact sound_body_first m ρ c hl

theorem run_ideal (m : (ℓ : Loc nD τ sig) → Buf (Elt F) ℓ) (ρ : Dev nD → PrngReg) :
    θ_run defs (onTc (τ := τ) (main (F := F))) ⟨m, fun _ => 0, ρ⟩ (QC m ρ) :=
  run_main m ρ (sound_ideal m ρ) (G m) u₀ (hu0 m) (glob m)
end Ideal

section Bits
open Cert.Kernel Cert.Kernel.Gen Cert.Kernel.Halo
variable {F : FTy → Type} [FloatOps F]

theorem sound_bits (m : (ℓ : Loc nD τ sig) → Buf (Elt F) ℓ) (ρ : Dev nD → PrngReg) (c : Dev nD) : SoundBody m ρ c := by
  by_cases hl : HasL c
  · by_cases hr : HasR c
    · exact sound_body_mid m ρ c hl hr
    · exact sound_body_last m ρ c hr
  · exact sound_body_first m ρ c hl

theorem run_bits (m : (ℓ : Loc nD τ sig) → Buf (Elt F) ℓ) (ρ : Dev nD → PrngReg) :
    θ_run defs (onTc (τ := τ) (main (F := F))) ⟨m, fun _ => 0, ρ⟩ (QC m ρ) :=
  run_main m ρ (sound_bits m ρ) (G m) u₀ (hu0 m) (glob m)
end Bits

/-! ## The claims -/

theorem frame_p : Cert.frame_Kernel := fun m ρ _ =>
  (θ_run Cert.Kernel.defs _ _).mono (fun r h c => (h c 0).trans (Cert.Kernel.Halo.finalA_in m ρ c)) (run_bits (F := Bits) m ρ)

theorem frame_pi : Cert.frame_KernelIdeal := fun m ρ _ =>
  (θ_run Cert.KernelIdeal.defs _ _).mono (fun r h c => (h c 0).trans (Cert.KernelIdeal.Halo.finalA_in m ρ c)) (run_ideal (F := Ideal) m ρ)

theorem frame_ri : Cert.frame_ReferenceIdeal := fun m ρ _ =>
  (θ_run Cert.ReferenceIdeal.defs _ _).mono (fun r h c => by
    have hc : c = 0 := Fin.ext (Nat.lt_one_iff.mp c.isLt)
    subst hc; exact h.2) (Cert.ReferenceIdeal.RefValue.run_any m ρ)

theorem preserves : Cert.preserves_Kernel_KernelIdeal := trivial

/-- Both programs run from memories in which each device's argument is its block of the reference's; the
    reference's result is its composed term of the whole array, and each device's result its block of that. -/
theorem algebraic : Cert.algebraic_KernelIdeal_ReferenceIdeal := by
  intro m ρ m' ρ' hpre hagree
  refine ⟨Cert.ReferenceIdeal.RefValue.refVal
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_v0)), ?_, ?_⟩
  · refine (θ_run Cert.KernelIdeal.defs _ _).mono (fun r h c => ⟨?_, ?_⟩) (run_ideal (F := Ideal) m ρ)
    · exact ((h c 1).trans (Cert.KernelIdeal.Halo.finalA_out m ρ c)).trans (Cert.Bridge.out_is_block m _ hagree hpre _ c)
    · exact (h c 0).trans (Cert.KernelIdeal.Halo.finalA_in m ρ c)
  · exact Cert.ReferenceIdeal.RefValue.run m' ρ'

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

end Cert.Proof

end
